-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : IVec S64 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S64 32 := broadcastInDim S64 ![] bcast_S_S64 main_c_0
  let main_v5 : IVec S64 1 := cmpi .sge main_arg1 main_v4
  let main_c_1 : IVec S_ 1 := constantI S_ 1 1#1
  let main_v6 : IVec S_ 1 := (fun x v => Host.reduce IntOp.andi x v reducesTo_S64_S_d0 h_S_) main_v5 main_c_1
  let main_v7 : IVec S_ 1 := andi main_v3 main_v6
  let main_c_2 : IVec S_ 32 := constantI S_ 32 4096#32
  let main_v8 : IVec S64 32 := broadcastInDim S64 ![] bcast_S_S64 main_c_2
  let main_v9 : IVec S64 1 := cmpi .slt main_arg1 main_v8
  let main_c_3 : IVec S_ 1 := constantI S_ 1 1#1
  let main_v10 : IVec S_ 1 := (fun x v => Host.reduce IntOp.andi x v reducesTo_S64_S_d0 h_S_) main_v9 main_c_3
  let main_v11 : IVec S_ 1 := andi main_v7 main_v10
  main_v11
-- ==== Kernel.lean ====
abbrev S16384x4096 : Shape := ⟨2, ![16384, 4096]⟩
abbrev S64 : Shape := ⟨1, ![64]⟩
abbrev S2x4096 : Shape := ⟨2, ![2, 4096]⟩
abbrev S_ : Shape := ⟨0, ![]⟩
abbrev S16 : Shape := ⟨1, ![16]⟩

abbrev nBuf : Table → Nat
  | .hbm => 3
  | .local .scVector .vmem => 9
  | _ => 0

abbrev bufTy : (tb : Table) → Fin (nBuf tb) → BufTy
  | .hbm, ⟨0, _⟩ => ⟨S16384x4096, .f32⟩
  | .hbm, ⟨1, _⟩ => ⟨S64, .i32⟩
  | .hbm, ⟨2, _⟩ => ⟨S16384x4096, .f32⟩
  | .local .scVector .vmem, ⟨0, _⟩ => ⟨S64, .i32⟩
  | .local .scVector .vmem, ⟨1, _⟩ => ⟨S2x4096, .f32⟩
  | .local .scVector .vmem, ⟨2, _⟩ => ⟨S2x4096, .f32⟩
  | .local .scVector .vmem, ⟨3, _⟩ => ⟨S2x4096, .f32⟩
  | .local .scVector .vmem, ⟨4, _⟩ => ⟨S2x4096, .f32⟩
  | .local .scVector .vmem, ⟨5, _⟩ => ⟨S2x4096, .f32⟩
  | .local .scVector .vmem, ⟨6, _⟩ => ⟨S2x4096, .f32⟩
  | .local .scVector .vmem, ⟨7, _⟩ => ⟨S2x4096, .f32⟩
  | .local .scVector .vmem, ⟨8, _⟩ => ⟨S2x4096, .f32⟩
  | _, _ => ⟨S16384x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  let c0_i32_0 : BitVec 32 := 0#32
  ![v4.toNat, 0]

def k0_chk1 (v28 : IVec S16 32) (v29 : IVec S16 32) : Prop :=
  (∀ a x, ((![v28, v29] : Fin 2 → IVec S16 32) a x).toNat < S2x4096.size a)
instance k0_chk1.dec : ∀ (v28 : IVec S16 32) (v29 : IVec S16 32), Decidable (k0_chk1 v28 v29) := fun v28 v29 => decidable_of_iff' _ (Iff.of_eq (k0_chk1.eq_1 v28 v29))
theorem k0_idx1_inb : ∀ (v28 : IVec S16 32) (v29 : IVec S16 32) (k0_hw1 : k0_chk1 v28 v29), ∀ a x, ((![v28, v29] : Fin 2 → IVec S16 32) a x).toNat < S2x4096.size a := fun v28 v29 k0_hw1 => k0_hw1

def k0_chk2 (v28 : IVec S16 32) (v30 : IVec S16 32) : Prop :=
  (∀ a x, ((![v28, v30] : Fin 2 → IVec S16 32) a x).toNat < S2x4096.size a)
instance k0_chk2.dec : ∀ (v28 : IVec S16 32) (v30 : IVec S16 32), Decidable (k0_chk2 v28 v30) := fun v28 v30 => decidable_of_iff' _ (Iff.of_eq (k0_chk2.eq_1 v28 v30))
theorem k0_idx2_inb : ∀ (v28 : IVec S16 32) (v30 : IVec S16 32) (k0_hw2 : k0_chk2 v28 v30), ∀ a x, ((![v28, v30] : Fin 2 → IVec S16 32) a x).toNat < S2x4096.size a := fun v28 v30 k0_hw2 => k0_hw2

def k0_chk3 (v28 : IVec S16 32) (v31 : IVec S16 32) : Prop :=
  (∀ a x, ((![v28, v31] : Fin 2 → IVec S16 32) a x).toNat < S2x4096.size a)
instance k0_chk3.dec : ∀ (v28 : IVec S16 32) (v31 : IVec S16 32), Decidable (k0_chk3 v28 v31) := fun v28 v31 => decidable_of_iff' _ (Iff.of_eq (k0_chk3.eq_1 v28 v31))
theorem k0_idx3_inb : ∀ (v28 : IVec S16 32) (v31 : IVec S16 32) (k0_hw3 : k0_chk3 v28 v31), ∀ a x, ((![v28, v31] : Fin 2 → IVec S16 32) a x).toNat < S2x4096.size a := fun v28 v31 k0_hw3 => k0_hw3

def k0_chk4 (v28 : IVec S16 32) (v32 : IVec S16 32) : Prop :=
  (∀ a x, ((![v28, v32] : Fin 2 → IVec S16 32) a x).toNat < S2x4096.size a)
instance k0_chk4.dec : ∀ (v28 : IVec S16 32) (v32 : IVec S16 32), Decidable (k0_chk4 v28 v32) := fun v28 v32 => decidable_of_iff' _ (Iff.of_eq (k0_chk4.eq_1 v28 v32))
theorem k0_idx4_inb : ∀ (v28 : IVec S16 32) (v32 : IVec S16 32) (k0_hw4 : k0_chk4 v28 v32), ∀ a x, ((![v28, v32] : Fin 2 → IVec S16 32) a x).toNat < S2x4096.size a := fun v28 v32 k0_hw4 => k0_hw4

def k0_chk5 (v33 : IVec S16 32) (v34 : IVec S16 32) : Prop :=
  (∀ a x, ((![v33, v34] : Fin 2 → IVec S16 32) a x).toNat < S2x4096.size a)
instance k0_chk5.dec : ∀ (v33 : IVec S16 32) (v34 : IVec S16 32), Decidable (k0_chk5 v33 v34) := fun v33 v34 => decidable_of_iff' _ (Iff.of_eq (k0_chk5.eq_1 v33 v34))
theorem k0_idx5_inb : ∀ (v33 : IVec S16 32) (v34 : IVec S16 32) (k0_hw5 : k0_chk5 v33 v34), ∀ a x, ((![v33, v34] : Fin 2 → IVec S16 32) a x).toNat < S2x4096.size a := fun v33 v34 k0_hw5 => k0_hw5

def k0_chk6 (v33 : IVec S16 32) (v35 : IVec S16 32) : Prop :=
  (∀ a x, ((![v33, v35] : Fin 2 → IVec S16 32) a x).toNat < S2x4096.size a)
instance k0_chk6.dec : ∀ (v33 : IVec S16 32) (v35 : IVec S16 32), Decidable (k0_chk6 v33 v35) := fun v33 v35 => decidable_of_iff' _ (Iff.of_eq (k0_chk6.eq_1 v33 v35))
theorem k0_idx6_inb : ∀ (v33 : IVec S16 32) (v35 : IVec S16 32) (k0_hw6 : k0_chk6 v33 v35), ∀ a x, ((![v33, v35] : Fin 2 → IVec S16 32) a x).toNat < S2x4096.size a := fun v33 v35 k0_hw6 => k0_hw6

def k0_chk7 (v33 : IVec S16 32) (v36 : IVec S16 32) : Prop :=
  (∀ a x, ((![v33, v36] : Fin 2 → IVec S16 32) a x).toNat < S2x4096.size a)
instance k0_chk7.dec : ∀ (v33 : IVec S16 32) (v36 : IVec S16 32), Decidable (k0_chk7 v33 v36) := fun v33 v36 => decidable_of_iff' _ (Iff.of_eq (k0_chk7.eq_1 v33 v36))
theorem k0_idx7_inb : ∀ (v33 : IVec S16 32) (v36 : IVec S16 32) (k0_hw7 : k0_chk7 v33 v36), ∀ a x, ((![v33, v36] : Fin 2 → IVec S16 32) a x).toNat < S2x4096.size a := fun v33 v36 k0_hw7 => k0_hw7

def k0_chk8 (v33 : IVec S16 32) (v37 : IVec S16 32) : Prop :=
  (∀ a x, ((![v33, v37] : Fin 2 → IVec S16 32) a x).toNat < S2x4096.size a)
instance k0_chk8.dec : ∀ (v33 : IVec S16 32) (v37 : IVec S16 32), Decidable (k0_chk8 v33 v37) := fun v33 v37 => decidable_of_iff' _ (Iff.of_eq (k0_chk8.eq_1 v33 v37))
theorem k0_idx8_inb : ∀ (v33 : IVec S16 32) (v37 : IVec S16 32) (k0_hw8 : k0_chk8 v33 v37), ∀ a x, ((![v33, v37] : Fin 2 → IVec S16 32) a x).toNat < S2x4096.size a := fun v33 v37 k0_hw8 => k0_hw8
def k0_off2 (i : grid0.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v38 : BitVec 32 := Scalar.addi v2 c0_i32_23
  let c0_i32_24 : BitVec 32 := 0#32
  ![v38.toNat, 0]
def k0_off2_at (r : Fin 3) : BitVec 32 :=
  if r.val < 1 then
    0#32
  else
    if r.val < 2 then
      14#32
    else
      2#32

def k0_chk9 (v47 : IVec S16 32) (v48 : IVec S16 32) : Prop :=
  (∀ a x, ((![v47, v48] : Fin 2 → IVec S16 32) a x).toNat < S2x4096.size a)
instance k0_chk9.dec : ∀ (v47 : IVec S16 32) (v48 : IVec S16 32), Decidable (k0_chk9 v47 v48) := fun v47 v48 => decidable_of_iff' _ (Iff.of_eq (k0_chk9.eq_1 v47 v48))
theorem k0_idx9_inb : ∀ (v47 : IVec S16 32) (v48 : IVec S16 32) (k0_hw9 : k0_chk9 v47 v48), ∀ a x, ((![v47, v48] : Fin 2 → IVec S16 32) a x).toNat < S2x4096.size a := fun v47 v48 k0_hw9 => k0_hw9

def k0_chk10 (v47 : IVec S16 32) (v49 : IVec S16 32) : Prop :=
  (∀ a x, ((![v47, v49] : Fin 2 → IVec S16 32) a x).toNat < S2x4096.size a)
instance k0_chk10.dec : ∀ (v47 : IVec S16 32) (v49 : IVec S16 32), Decidable (k0_chk10 v47 v49) := fun v47 v49 => decidable_of_iff' _ (Iff.of_eq (k0_chk10.eq_1 v47 v49))
theorem k0_idx10_inb : ∀ (v47 : IVec S16 32) (v49 : IVec S16 32) (k0_hw10 : k0_chk10 v47 v49), ∀ a x, ((![v47, v49] : Fin 2 → IVec S16 32) a x).toNat < S2x4096.size a := fun v47 v49 k0_hw10 => k0_hw10

def k0_chk11 (v47 : IVec S16 32) (v50 : IVec S16 32) : Prop :=
  (∀ a x, ((![v47, v50] : Fin 2 → IVec S16 32) a x).toNat < S2x4096.size a)
instance k0_chk11.dec : ∀ (v47 : IVec S16 32) (v50 : IVec S16 32), Decidable (k0_chk11 v47 v50) := fun v47 v50 => decidable_of_iff' _ (Iff.of_eq (k0_chk11.eq_1 v47 v50))
theorem k0_idx11_inb : ∀ (v47 : IVec S16 32) (v50 : IVec S16 32) (k0_hw11 : k0_chk11 v47 v50), ∀ a x, ((![v47, v50] : Fin 2 → IVec S16 32) a x).toNat < S2x4096.size a := fun v47 v50 k0_hw11 => k0_hw11

def k0_chk12 (v47 : IVec S16 32) (v51 : IVec S16 32) : Prop :=
  (∀ a x, ((![v47, v51] : Fin 2 → IVec S16 32) a x).toNat < S2x4096.size a)
instance k0_chk12.dec : ∀ (v47 : IVec S16 32) (v51 : IVec S16 32), Decidable (k0_chk12 v47 v51) := fun v47 v51 => decidable_of_iff' _ (Iff.of_eq (k0_chk12.eq_1 v47 v51))
theorem k0_idx12_inb : ∀ (v47 : IVec S16 32) (v51 : IVec S16 32) (k0_hw12 : k0_chk12 v47 v51), ∀ a x, ((![v47, v51] : Fin 2 → IVec S16 32) a x).toNat < S2x4096.size a := fun v47 v51 k0_hw12 => k0_hw12

def k0_chk13 (v52 : IVec S16 32) (v53 : IVec S16 32) : Prop :=
  (∀ a x, ((![v52, v53] : Fin 2 → IVec S16 32) a x).toNat < S2x4096.size a)
instance k0_chk13.dec : ∀ (v52 : IVec S16 32) (v53 : IVec S16 32), Decidable (k0_chk13 v52 v53) := fun v52 v53 => decidable_of_iff' _ (Iff.of_eq (k0_chk13.eq_1 v52 v53))
theorem k0_idx13_inb : ∀ (v52 : IVec S16 32) (v53 : IVec S16 32) (k0_hw13 : k0_chk13 v52 v53), ∀ a x, ((![v52, v53] : Fin 2 → IVec S16 32) a x).toNat < S2x4096.size a := fun v52 v53 k0_hw13 => k0_hw13

def k0_chk14 (v52 : IVec S16 32) (v54 : IVec S16 32) : Prop :=
  (∀ a x, ((![v52, v54] : Fin 2 → IVec S16 32) a x).toNat < S2x4096.size a)
instance k0_chk14.dec : ∀ (v52 : IVec S16 32) (v54 : IVec S16 32), Decidable (k0_chk14 v52 v54) := fun v52 v54 => decidable_of_iff' _ (Iff.of_eq (k0_chk14.eq_1 v52 v54))
theorem k0_idx14_inb : ∀ (v52 : IVec S16 32) (v54 : IVec S16 32) (k0_hw14 : k0_chk14 v52 v54), ∀ a x, ((![v52, v54] : Fin 2 → IVec S16 32) a x).toNat < S2x4096.size a := fun v52 v54 k0_hw14 => k0_hw14

def k0_chk15 (v52 : IVec S16 32) (v55 : IVec S16 32) : Prop :=
  (∀ a x, ((![v52, v55] : Fin 2 → IVec S16 32) a x).toNat < S2x4096.size a)
instance k0_chk15.dec : ∀ (v52 : IVec S16 32) (v55 : IVec S16 32), Decidable (k0_chk15 v52 v55) := fun v52 v55 => decidable_of_iff' _ (Iff.of_eq (k0_chk15.eq_1 v52 v55))
theorem k0_idx15_inb : ∀ (v52 : IVec S16 32) (v55 : IVec S16 32) (k0_hw15 : k0_chk15 v52 v55), ∀ a x, ((![v52, v55] : Fin 2 → IVec S16 32) a x).toNat < S2x4096.size a := fun v52 v55 k0_hw15 => k0_hw15

def k0_chk16 (v52 : IVec S16 32) (v56 : IVec S16 32) : Prop :=
  (∀ a x, ((![v52, v56] : Fin 2 → IVec S16 32) a x).toNat < S2x4096.size a)
instance k0_chk16.dec : ∀ (v52 : IVec S16 32) (v56 : IVec S16 32), Decidable (k0_chk16 v52 v56) := fun v52 v56 => decidable_of_iff' _ (Iff.of_eq (k0_chk16.eq_1 v52 v56))
theorem k0_idx16_inb : ∀ (v52 : IVec S16 32) (v56 : IVec S16 32) (k0_hw16 : k0_chk16 v52 v56), ∀ a x, ((![v52, v56] : Fin 2 → IVec S16 32) a x).toNat < S2x4096.size a := fun v52 v56 k0_hw16 => k0_hw16
def k0_off3 (i : grid0.Coords) (c2_i32_41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v57 : BitVec 32 := Scalar.addi v2 c2_i32_41
  let c0_i32_42 : BitVec 32 := 0#32
  ![v57.toNat, 0]
def k0_off3_at (r : Fin 4) : BitVec 32 :=
  if r.val < 2 then
    if r.val < 1 then
      2#32
    else
      0#32
  else
    if r.val < 3 then
      16#32
    else
      4#32

def k0_chk17 (v69 : IVec S16 32) (v70 : IVec S16 32) : Prop :=
  (∀ a x, ((![v69, v70] : Fin 2 → IVec S16 32) a x).toNat < S2x4096.size a)
instance k0_chk17.dec : ∀ (v69 : IVec S16 32) (v70 : IVec S16 32), Decidable (k0_chk17 v69 v70) := fun v69 v70 => decidable_of_iff' _ (Iff.of_eq (k0_chk17.eq_1 v69 v70))
theorem k0_idx17_inb : ∀ (v69 : IVec S16 32) (v70 : IVec S16 32) (k0_hw17 : k0_chk17 v69 v70), ∀ a x, ((![v69, v70] : Fin 2 → IVec S16 32) a x).toNat < S2x4096.size a := fun v69 v70 k0_hw17 => k0_hw17

def k0_chk18 (v69 : IVec S16 32) (v71 : IVec S16 32) : Prop :=
  (∀ a x, ((![v69, v71] : Fin 2 → IVec S16 32) a x).toNat < S2x4096.size a)
instance k0_chk18.dec : ∀ (v69 : IVec S16 32) (v71 : IVec S16 32), Decidable (k0_chk18 v69 v71) := fun v69 v71 => decidable_of_iff' _ (Iff.of_eq (k0_chk18.eq_1 v69 v71))
theorem k0_idx18_inb : ∀ (v69 : IVec S16 32) (v71 : IVec S16 32) (k0_hw18 : k0_chk18 v69 v71), ∀ a x, ((![v69, v71] : Fin 2 → IVec S16 32) a x).toNat < S2x4096.size a := fun v69 v71 k0_hw18 => k0_hw18

def k0_chk19 (v69 : IVec S16 32) (v72 : IVec S16 32) : Prop :=
  (∀ a x, ((![v69, v72] : Fin 2 → IVec S16 32) a x).toNat < S2x4096.size a)
instance k0_chk19.dec : ∀ (v69 : IVec S16 32) (v72 : IVec S16 32), Decidable (k0_chk19 v69 v72) := fun v69 v72 => decidable_of_iff' _ (Iff.of_eq (k0_chk19.eq_1 v69 v72))
theorem k0_idx19_inb : ∀ (v69 : IVec S16 32) (v72 : IVec S16 32) (k0_hw19 : k0_chk19 v69 v72), ∀ a x, ((![v69, v72] : Fin 2 → IVec S16 32) a x).toNat < S2x4096.size a := fun v69 v72 k0_hw19 => k0_hw19

def k0_chk20 (v69 : IVec S16 32) (v73 : IVec S16 32) : Prop :=
  (∀ a x, ((![v69, v73] : Fin 2 → IVec S16 32) a x).toNat < S2x4096.size a)
instance k0_chk20.dec : ∀ (v69 : IVec S16 32) (v73 : IVec S16 32), Decidable (k0_chk20 v69 v73) := fun v69 v73 => decidable_of_iff' _ (Iff.of_eq (k0_chk20.eq_1 v69 v73))
theorem k0_idx20_inb : ∀ (v69 : IVec S16 32) (v73 : IVec S16 32) (k0_hw20 : k0_chk20 v69 v73), ∀ a x, ((![v69, v73] : Fin 2 → IVec S16 32) a x).toNat < S2x4096.size a := fun v69 v73 k0_hw20 => k0_hw20

def k0_chk21 (v74 : IVec S16 32) (v75 : IVec S16 32) : Prop :=
  (∀ a x, ((![v74, v75] : Fin 2 → IVec S16 32) a x).toNat < S2x4096.size a)
instance k0_chk21.dec : ∀ (v74 : IVec S16 32) (v75 : IVec S16 32), Decidable (k0_chk21 v74 v75) := fun v74 v75 => decidable_of_iff' _ (Iff.of_eq (k0_chk21.eq_1 v74 v75))
theorem k0_idx21_inb : ∀ (v74 : IVec S16 32) (v75 : IVec S16 32) (k0_hw21 : k0_chk21 v74 v75), ∀ a x, ((![v74, v75] : Fin 2 → IVec S16 32) a x).toNat < S2x4096.size a := fun v74 v75 k0_hw21 => k0_hw21

def k0_chk22 (v74 : IVec S16 32) (v76 : IVec S16 32) : Prop :=
  (∀ a x, ((![v74, v76] : Fin 2 → IVec S16 32) a x).toNat < S2x4096.size a)
instance k0_chk22.dec : ∀ (v74 : IVec S16 32) (v76 : IVec S16 32), Decidable (k0_chk22 v74 v76) := fun v74 v76 => decidable_of_iff' _ (Iff.of_eq (k0_chk22.eq_1 v74 v76))
theorem k0_idx22_inb : ∀ (v74 : IVec S16 32) (v76 : IVec S16 32) (k0_hw22 : k0_chk22 v74 v76), ∀ a x, ((![v74, v76] : Fin 2 → IVec S16 32) a x).toNat < S2x4096.size a := fun v74 v76 k0_hw22 => k0_hw22

def k0_chk23 (v74 : IVec S16 32) (v77 : IVec S16 32) : Prop :=
  (∀ a x, ((![v74, v77] : Fin 2 → IVec S16 32) a x).toNat < S2x4096.size a)
instance k0_chk23.dec : ∀ (v74 : IVec S16 32) (v77 : IVec S16 32), Decidable (k0_chk23 v74 v77) := fun v74 v77 => decidable_of_iff' _ (Iff.of_eq (k0_chk23.eq_1 v74 v77))
theorem k0_idx23_inb : ∀ (v74 : IVec S16 32) (v77 : IVec S16 32) (k0_hw23 : k0_chk23 v74 v77), ∀ a x, ((![v74, v77] : Fin 2 → IVec S16 32) a x).toNat < S2x4096.size a := fun v74 v77 k0_hw23 => k0_hw23

def k0_chk24 (v74 : IVec S16 32) (v78 : IVec S16 32) : Prop :=
  (∀ a x, ((![v74, v78] : Fin 2 → IVec S16 32) a x).toNat < S2x4096.size a)
instance k0_chk24.dec : ∀ (v74 : IVec S16 32) (v78 : IVec S16 32), Decidable (k0_chk24 v74 v78) := fun v74 v78 => decidable_of_iff' _ (Iff.of_eq (k0_chk24.eq_1 v74 v78))
theorem k0_idx24_inb : ∀ (v74 : IVec S16 32) (v78 : IVec S16 32) (k0_hw24 : k0_chk24 v74 v78), ∀ a x, ((![v74, v78] : Fin 2 → IVec S16 32) a x).toNat < S2x4096.size a := fun v74 v78 k0_hw24 => k0_hw24
def k0_off4 (i : grid0.Coords) (c4_i32_62 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v79 : BitVec 32 := Scalar.addi v2 c4_i32_62
  let c0_i32_63 : BitVec 32 := 0#32
  ![v79.toNat, 0]
def k0_off4_at (r : Fin 4) : BitVec 32 :=
  if r.val < 2 then
    if r.val < 1 then
      4#32
    else
      2#32
  else
    if r.val < 3 then
      18#32
    else
      6#32

def k0_chk25 (v91 : IVec S16 32) (v92 : IVec S16 32) : Prop :=
  (∀ a x, ((![v91, v92] : Fin 2 → IVec S16 32) a x).toNat < S2x4096.size a)
instance k0_chk25.dec : ∀ (v91 : IVec S16 32) (v92 : IVec S16 32), Decidable (k0_chk25 v91 v92) := fun v91 v92 => decidable_of_iff' _ (Iff.of_eq (k0_chk25.eq_1 v91 v92))
theorem k0_idx25_inb : ∀ (v91 : IVec S16 32) (v92 : IVec S16 32) (k0_hw25 : k0_chk25 v91 v92), ∀ a x, ((![v91, v92] : Fin 2 → IVec S16 32) a x).toNat < S2x4096.size a := fun v91 v92 k0_hw25 => k0_hw25

def k0_chk26 (v91 : IVec S16 32) (v93 : IVec S16 32) : Prop :=
  (∀ a x, ((![v91, v93] : Fin 2 → IVec S16 32) a x).toNat < S2x4096.size a)
instance k0_chk26.dec : ∀ (v91 : IVec S16 32) (v93 : IVec S16 32), Decidable (k0_chk26 v91 v93) := fun v91 v93 => decidable_of_iff' _ (Iff.of_eq (k0_chk26.eq_1 v91 v93))
theorem k0_idx26_inb : ∀ (v91 : IVec S16 32) (v93 : IVec S16 32) (k0_hw26 : k0_chk26 v91 v93), ∀ a x, ((![v91, v93] : Fin 2 → IVec S16 32) a x).toNat < S2x4096.size a := fun v91 v93 k0_hw26 => k0_hw26

def k0_chk27 (v91 : IVec S16 32) (v94 : IVec S16 32) : Prop :=
  (∀ a x, ((![v91, v94] : Fin 2 → IVec S16 32) a x).toNat < S2x4096.size a)
instance k0_chk27.dec : ∀ (v91 : IVec S16 32) (v94 : IVec S16 32), Decidable (k0_chk27 v91 v94) := fun v91 v94 => decidable_of_iff' _ (Iff.of_eq (k0_chk27.eq_1 v91 v94))
theorem k0_idx27_inb : ∀ (v91 : IVec S16 32) (v94 : IVec S16 32) (k0_hw27 : k0_chk27 v91 v94), ∀ a x, ((![v91, v94] : Fin 2 → IVec S16 32) a x).toNat < S2x4096.size a := fun v91 v94 k0_hw27 => k0_hw27

def k0_chk28 (v91 : IVec S16 32) (v95 : IVec S16 32) : Prop :=
  (∀ a x, ((![v91, v95] : Fin 2 → IVec S16 32) a x).toNat < S2x4096.size a)
instance k0_chk28.dec : ∀ (v91 : IVec S16 32) (v95 : IVec S16 32), Decidable (k0_chk28 v91 v95) := fun v91 v95 => decidable_of_iff' _ (Iff.of_eq (k0_chk28.eq_1 v91 v95))
theorem k0_idx28_inb : ∀ (v91 : IVec S16 32) (v95 : IVec S16 32) (k0_hw28 : k0_chk28 v91 v95), ∀ a x, ((![v91, v95] : Fin 2 → IVec S16 32) a x).toNat < S2x4096.size a := fun v91 v95 k0_hw28 => k0_hw28

def k0_chk29 (v96 : IVec S16 32) (v97 : IVec S16 32) : Prop :=
  (∀ a x, ((![v96, v97] : Fin 2 → IVec S16 32) a x).toNat < S2x4096.size a)
instance k0_chk29.dec : ∀ (v96 : IVec S16 32) (v97 : IVec S16 32), Decidable (k0_chk29 v96 v97) := fun v96 v97 => decidable_of_iff' _ (Iff.of_eq (k0_chk29.eq_1 v96 v97))
theorem k0_idx29_inb : ∀ (v96 : IVec S16 32) (v97 : IVec S16 32) (k0_hw29 : k0_chk29 v96 v97), ∀ a x, ((![v96, v97] : Fin 2 → IVec S16 32) a x).toNat < S2x4096.size a := fun v96 v97 k0_hw29 => k0_hw29

def k0_chk30 (v96 : IVec S16 32) (v98 : IVec S16 32) : Prop :=
  (∀ a x, ((![v96, v98] : Fin 2 → IVec S16 32) a x).toNat < S2x4096.size a)
instance k0_chk30.dec : ∀ (v96 : IVec S16 32) (v98 : IVec S16 32), Decidable (k0_chk30 v96 v98) := fun v96 v98 => decidable_of_iff' _ (Iff.of_eq (k0_chk30.eq_1 v96 v98))
theorem k0_idx30_inb : ∀ (v96 : IVec S16 32) (v98 : IVec S16 32) (k0_hw30 : k0_chk30 v96 v98), ∀ a x, ((![v96, v98] : Fin 2 → IVec S16 32) a x).toNat < S2x4096.size a := fun v96 v98 k0_hw30 => k0_hw30

def k0_chk31 (v96 : IVec S16 32) (v99 : IVec S16 32) : Prop :=
  (∀ a x, ((![v96, v99] : Fin 2 → IVec S16 32) a x).toNat < S2x4096.size a)
instance k0_chk31.dec : ∀ (v96 : IVec S16 32) (v99 : IVec S16 32), Decidable (k0_chk31 v96 v99) := fun v96 v99 => decidable_of_iff' _ (Iff.of_eq (k0_chk31.eq_1 v96 v99))
theorem k0_idx31_inb : ∀ (v96 : IVec S16 32) (v99 : IVec S16 32) (k0_hw31 : k0_chk31 v96 v99), ∀ a x, ((![v96, v99] : Fin 2 → IVec S16 32) a x).toNat < S2x4096.size a := fun v96 v99 k0_hw31 => k0_hw31

def k0_chk32 (v96 : IVec S16 32) (v100 : IVec S16 32) : Prop :=
  (∀ a x, ((![v96, v100] : Fin 2 → IVec S16 32) a x).toNat < S2x4096.size a)
instance k0_chk32.dec : ∀ (v96 : IVec S16 32) (v100 : IVec S16 32), Decidable (k0_chk32 v96 v100) := fun v96 v100 => decidable_of_iff' _ (Iff.of_eq (k0_chk32.eq_1 v96 v100))
theorem k0_idx32_inb : ∀ (v96 : IVec S16 32) (v100 : IVec S16 32) (k0_hw32 : k0_chk32 v96 v100), ∀ a x, ((![v96, v100] : Fin 2 → IVec S16 32) a x).toNat < S2x4096.size a := fun v96 v100 k0_hw32 => k0_hw32
def k0_off5 (i : grid0.Coords) (c6_i32_83 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v101 : BitVec 32 := Scalar.addi v2 c6_i32_83
  let c0_i32_84 : BitVec 32 := 0#32
  ![v101.toNat, 0]
def k0_off5_at (r : Fin 4) : BitVec 32 :=
  if r.val < 2 then
    if r.val < 1 then
      6#32
    else
      4#32
  else
    if r.val < 3 then
      20#32
    else
      8#32

def k0_chk33 (v113 : IVec S16 32) (v114 : IVec S16 32) : Prop :=
  (∀ a x, ((![v113, v114] : Fin 2 → IVec S16 32) a x).toNat < S2x4096.size a)
instance k0_chk33.dec : ∀ (v113 : IVec S16 32) (v114 : IVec S16 32), Decidable (k0_chk33 v113 v114) := fun v113 v114 => decidable_of_iff' _ (Iff.of_eq (k0_chk33.eq_1 v113 v114))
theorem k0_idx33_inb : ∀ (v113 : IVec S16 32) (v114 : IVec S16 32) (k0_hw33 : k0_chk33 v113 v114), ∀ a x, ((![v113, v114] : Fin 2 → IVec S16 32) a x).toNat < S2x4096.size a := fun v113 v114 k0_hw33 => k0_hw33

def k0_chk34 (v113 : IVec S16 32) (v115 : IVec S16 32) : Prop :=
  (∀ a x, ((![v113, v115] : Fin 2 → IVec S16 32) a x).toNat < S2x4096.size a)
instance k0_chk34.dec : ∀ (v113 : IVec S16 32) (v115 : IVec S16 32), Decidable (k0_chk34 v113 v115) := fun v113 v115 => decidable_of_iff' _ (Iff.of_eq (k0_chk34.eq_1 v113 v115))
theorem k0_idx34_inb : ∀ (v113 : IVec S16 32) (v115 : IVec S16 32) (k0_hw34 : k0_chk34 v113 v115), ∀ a x, ((![v113, v115] : Fin 2 → IVec S16 32) a x).toNat < S2x4096.size a := fun v113 v115 k0_hw34 => k0_hw34

def k0_chk35 (v113 : IVec S16 32) (v116 : IVec S16 32) : Prop :=
  (∀ a x, ((![v113, v116] : Fin 2 → IVec S16 32) a x).toNat < S2x4096.size a)
instance k0_chk35.dec : ∀ (v113 : IVec S16 32) (v116 : IVec S16 32), Decidable (k0_chk35 v113 v116) := fun v113 v116 => decidable_of_iff' _ (Iff.of_eq (k0_chk35.eq_1 v113 v116))
theorem k0_idx35_inb : ∀ (v113 : IVec S16 32) (v116 : IVec S16 32) (k0_hw35 : k0_chk35 v113 v116), ∀ a x, ((![v113, v116] : Fin 2 → IVec S16 32) a x).toNat < S2x4096.size a := fun v113 v116 k0_hw35 => k0_hw35

def k0_chk36 (v113 : IVec S16 32) (v117 : IVec S16 32) : Prop :=
  (∀ a x, ((![v113, v117] : Fin 2 → IVec S16 32) a x).toNat < S2x4096.size a)
instance k0_chk36.dec : ∀ (v113 : IVec S16 32) (v117 : IVec S16 32), Decidable (k0_chk36 v113 v117) := fun v113 v117 => decidable_of_iff' _ (Iff.of_eq (k0_chk36.eq_1 v113 v117))
theorem k0_idx36_inb : ∀ (v113 : IVec S16 32) (v117 : IVec S16 32) (k0_hw36 : k0_chk36 v113 v117), ∀ a x, ((![v113, v117] : Fin 2 → IVec S16 32) a x).toNat < S2x4096.size a := fun v113 v117 k0_hw36 => k0_hw36

def k0_chk37 (v118 : IVec S16 32) (v119 : IVec S16 32) : Prop :=
  (∀ a x, ((![v118, v119] : Fin 2 → IVec S16 32) a x).toNat < S2x4096.size a)
instance k0_chk37.dec : ∀ (v118 : IVec S16 32) (v119 : IVec S16 32), Decidable (k0_chk37 v118 v119) := fun v118 v119 => decidable_of_iff' _ (Iff.of_eq (k0_chk37.eq_1 v118 v119))
theorem k0_idx37_inb : ∀ (v118 : IVec S16 32) (v119 : IVec S16 32) (k0_hw37 : k0_chk37 v118 v119), ∀ a x, ((![v118, v119] : Fin 2 → IVec S16 32) a x).toNat < S2x4096.size a := fun v118 v119 k0_hw37 => k0_hw37

def k0_chk38 (v118 : IVec S16 32) (v120 : IVec S16 32) : Prop :=
  (∀ a x, ((![v118, v120] : Fin 2 → IVec S16 32) a x).toNat < S2x4096.size a)
instance k0_chk38.dec : ∀ (v118 : IVec S16 32) (v120 : IVec S16 32), Decidable (k0_chk38 v118 v120) := fun v118 v120 => decidable_of_iff' _ (Iff.of_eq (k0_chk38.eq_1 v118 v120))
theorem k0_idx38_inb : ∀ (v118 : IVec S16 32) (v120 : IVec S16 32) (k0_hw38 : k0_chk38 v118 v120), ∀ a x, ((![v118, v120] : Fin 2 → IVec S16 32) a x).toNat < S2x4096.size a := fun v118 v120 k0_hw38 => k0_hw38

def k0_chk39 (v118 : IVec S16 32) (v121 : IVec S16 32) : Prop :=
  (∀ a x, ((![v118, v121] : Fin 2 → IVec S16 32) a x).toNat < S2x4096.size a)
instance k0_chk39.dec : ∀ (v118 : IVec S16 32) (v121 : IVec S16 32), Decidable (k0_chk39 v118 v121) := fun v118 v121 => decidable_of_iff' _ (Iff.of_eq (k0_chk39.eq_1 v118 v121))
theorem k0_idx39_inb : ∀ (v118 : IVec S16 32) (v121 : IVec S16 32) (k0_hw39 : k0_chk39 v118 v121), ∀ a x, ((![v118, v121] : Fin 2 → IVec S16 32) a x).toNat < S2x4096.size a := fun v118 v121 k0_hw39 => k0_hw39

def k0_chk40 (v118 : IVec S16 32) (v122 : IVec S16 32) : Prop :=
  (∀ a x, ((![v118, v122] : Fin 2 → IVec S16 32) a x).toNat < S2x4096.size a)
instance k0_chk40.dec : ∀ (v118 : IVec S16 32) (v122 : IVec S16 32), Decidable (k0_chk40 v118 v122) := fun v118 v122 => decidable_of_iff' _ (Iff.of_eq (k0_chk40.eq_1 v118 v122))
theorem k0_idx40_inb : ∀ (v118 : IVec S16 32) (v122 : IVec S16 32) (k0_hw40 : k0_chk40 v118 v122), ∀ a x, ((![v118, v122] : Fin 2 → IVec S16 32) a x).toNat < S2x4096.size a := fun v118 v122 k0_hw40 => k0_hw40
def k0_off6 (i : grid0.Coords) (c8_i32_104 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v123 : BitVec 32 := Scalar.addi v2 c8_i32_104
  let c0_i32_105 : BitVec 32 := 0#32
  ![v123.toNat, 0]
def k0_off6_at (r : Fin 4) : BitVec 32 :=
  if r.val < 2 then
    if r.val < 1 then
      8#32
    else
      6#32
  else
    if r.val < 3 then
      22#32
    else
      10#32

def k0_chk41 (v135 : IVec S16 32) (v136 : IVec S16 32) : Prop :=
  (∀ a x, ((![v135, v136] : Fin 2 → IVec S16 32) a x).toNat < S2x4096.size a)
instance k0_chk41.dec : ∀ (v135 : IVec S16 32) (v136 : IVec S16 32), Decidable (k0_chk41 v135 v136) := fun v135 v136 => decidable_of_iff' _ (Iff.of_eq (k0_chk41.eq_1 v135 v136))
theorem k0_idx41_inb : ∀ (v135 : IVec S16 32) (v136 : IVec S16 32) (k0_hw41 : k0_chk41 v135 v136), ∀ a x, ((![v135, v136] : Fin 2 → IVec S16 32) a x).toNat < S2x4096.size a := fun v135 v136 k0_hw41 => k0_hw41

def k0_chk42 (v135 : IVec S16 32) (v137 : IVec S16 32) : Prop :=
  (∀ a x, ((![v135, v137] : Fin 2 → IVec S16 32) a x).toNat < S2x4096.size a)
instance k0_chk42.dec : ∀ (v135 : IVec S16 32) (v137 : IVec S16 32), Decidable (k0_chk42 v135 v137) := fun v135 v137 => decidable_of_iff' _ (Iff.of_eq (k0_chk42.eq_1 v135 v137))
theorem k0_idx42_inb : ∀ (v135 : IVec S16 32) (v137 : IVec S16 32) (k0_hw42 : k0_chk42 v135 v137), ∀ a x, ((![v135, v137] : Fin 2 → IVec S16 32) a x).toNat < S2x4096.size a := fun v135 v137 k0_hw42 => k0_hw42

def k0_chk43 (v135 : IVec S16 32) (v138 : IVec S16 32) : Prop :=
  (∀ a x, ((![v135, v138] : Fin 2 → IVec S16 32) a x).toNat < S2x4096.size a)
instance k0_chk43.dec : ∀ (v135 : IVec S16 32) (v138 : IVec S16 32), Decidable (k0_chk43 v135 v138) := fun v135 v138 => decidable_of_iff' _ (Iff.of_eq (k0_chk43.eq_1 v135 v138))
theorem k0_idx43_inb : ∀ (v135 : IVec S16 32) (v138 : IVec S16 32) (k0_hw43 : k0_chk43 v135 v138), ∀ a x, ((![v135, v138] : Fin 2 → IVec S16 32) a x).toNat < S2x4096.size a := fun v135 v138 k0_hw43 => k0_hw43

def k0_chk44 (v135 : IVec S16 32) (v139 : IVec S16 32) : Prop :=
  (∀ a x, ((![v135, v139] : Fin 2 → IVec S16 32) a x).toNat < S2x4096.size a)
instance k0_chk44.dec : ∀ (v135 : IVec S16 32) (v139 : IVec S16 32), Decidable (k0_chk44 v135 v139) := fun v135 v139 => decidable_of_iff' _ (Iff.of_eq (k0_chk44.eq_1 v135 v139))
theorem k0_idx44_inb : ∀ (v135 : IVec S16 32) (v139 : IVec S16 32) (k0_hw44 : k0_chk44 v135 v139), ∀ a x, ((![v135, v139] : Fin 2 → IVec S16 32) a x).toNat < S2x4096.size a := fun v135 v139 k0_hw44 => k0_hw44

def k0_chk45 (v140 : IVec S16 32) (v141 : IVec S16 32) : Prop :=
  (∀ a x, ((![v140, v141] : Fin 2 → IVec S16 32) a x).toNat < S2x4096.size a)
instance k0_chk45.dec : ∀ (v140 : IVec S16 32) (v141 : IVec S16 32), Decidable (k0_chk45 v140 v141) := fun v140 v141 => decidable_of_iff' _ (Iff.of_eq (k0_chk45.eq_1 v140 v141))
theorem k0_idx45_inb : ∀ (v140 : IVec S16 32) (v141 : IVec S16 32) (k0_hw45 : k0_chk45 v140 v141), ∀ a x, ((![v140, v141] : Fin 2 → IVec S16 32) a x).toNat < S2x4096.size a := fun v140 v141 k0_hw45 => k0_hw45

def k0_chk46 (v140 : IVec S16 32) (v142 : IVec S16 32) : Prop :=
  (∀ a x, ((![v140, v142] : Fin 2 → IVec S16 32) a x).toNat < S2x4096.size a)
instance k0_chk46.dec : ∀ (v140 : IVec S16 32) (v142 : IVec S16 32), Decidable (k0_chk46 v140 v142) := fun v140 v142 => decidable_of_iff' _ (Iff.of_eq (k0_chk46.eq_1 v140 v142))
theorem k0_idx46_inb : ∀ (v140 : IVec S16 32) (v142 : IVec S16 32) (k0_hw46 : k0_chk46 v140 v142), ∀ a x, ((![v140, v142] : Fin 2 → IVec S16 32) a x).toNat < S2x4096.size a := fun v140 v142 k0_hw46 => k0_hw46

def k0_chk47 (v140 : IVec S16 32) (v143 : IVec S16 32) : Prop :=
  (∀ a x, ((![v140, v143] : Fin 2 → IVec S16 32) a x).toNat < S2x4096.size a)
instance k0_chk47.dec : ∀ (v140 : IVec S16 32) (v143 : IVec S16 32), Decidable (k0_chk47 v140 v143) := fun v140 v143 => decidable_of_iff' _ (Iff.of_eq (k0_chk47.eq_1 v140 v143))
theorem k0_idx47_inb : ∀ (v140 : IVec S16 32) (v143 : IVec S16 32) (k0_hw47 : k0_chk47 v140 v143), ∀ a x, ((![v140, v143] : Fin 2 → IVec S16 32) a x).toNat < S2x4096.size a := fun v140 v143 k0_hw47 => k0_hw47

def k0_chk48 (v140 : IVec S16 32) (v144 : IVec S16 32) : Prop :=
  (∀ a x, ((![v140, v144] : Fin 2 → IVec S16 32) a x).toNat < S2x4096.size a)
instance k0_chk48.dec : ∀ (v140 : IVec S16 32) (v144 : IVec S16 32), Decidable (k0_chk48 v140 v144) := fun v140 v144 => decidable_of_iff' _ (Iff.of_eq (k0_chk48.eq_1 v140 v144))
theorem k0_idx48_inb : ∀ (v140 : IVec S16 32) (v144 : IVec S16 32) (k0_hw48 : k0_chk48 v140 v144), ∀ a x, ((![v140, v144] : Fin 2 → IVec S16 32) a x).toNat < S2x4096.size a := fun v140 v144 k0_hw48 => k0_hw48
def k0_off7 (i : grid0.Coords) (c10_i32_125 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v145 : BitVec 32 := Scalar.addi v2 c10_i32_125
  let c0_i32_126 : BitVec 32 := 0#32
  ![v145.toNat, 0]
def k0_off7_at (r : Fin 4) : BitVec 32 :=
  if r.val < 2 then
    if r.val < 1 then
      10#32
    else
      8#32
  else
    if r.val < 3 then
      24#32
    else
      12#32

def k0_chk49 (v157 : IVec S16 32) (v158 : IVec S16 32) : Prop :=
  (∀ a x, ((![v157, v158] : Fin 2 → IVec S16 32) a x).toNat < S2x4096.size a)
instance k0_chk49.dec : ∀ (v157 : IVec S16 32) (v158 : IVec S16 32), Decidable (k0_chk49 v157 v158) := fun v157 v158 => decidable_of_iff' _ (Iff.of_eq (k0_chk49.eq_1 v157 v158))
theorem k0_idx49_inb : ∀ (v157 : IVec S16 32) (v158 : IVec S16 32) (k0_hw49 : k0_chk49 v157 v158), ∀ a x, ((![v157, v158] : Fin 2 → IVec S16 32) a x).toNat < S2x4096.size a := fun v157 v158 k0_hw49 => k0_hw49

def k0_chk50 (v157 : IVec S16 32) (v159 : IVec S16 32) : Prop :=
  (∀ a x, ((![v157, v159] : Fin 2 → IVec S16 32) a x).toNat < S2x4096.size a)
instance k0_chk50.dec : ∀ (v157 : IVec S16 32) (v159 : IVec S16 32), Decidable (k0_chk50 v157 v159) := fun v157 v159 => decidable_of_iff' _ (Iff.of_eq (k0_chk50.eq_1 v157 v159))
theorem k0_idx50_inb : ∀ (v157 : IVec S16 32) (v159 : IVec S16 32) (k0_hw50 : k0_chk50 v157 v159), ∀ a x, ((![v157, v159] : Fin 2 → IVec S16 32) a x).toNat < S2x4096.size a := fun v157 v159 k0_hw50 => k0_hw50

def k0_chk51 (v157 : IVec S16 32) (v160 : IVec S16 32) : Prop :=
  (∀ a x, ((![v157, v160] : Fin 2 → IVec S16 32) a x).toNat < S2x4096.size a)
instance k0_chk51.dec : ∀ (v157 : IVec S16 32) (v160 : IVec S16 32), Decidable (k0_chk51 v157 v160) := fun v157 v160 => decidable_of_iff' _ (Iff.of_eq (k0_chk51.eq_1 v157 v160))
theorem k0_idx51_inb : ∀ (v157 : IVec S16 32) (v160 : IVec S16 32) (k0_hw51 : k0_chk51 v157 v160), ∀ a x, ((![v157, v160] : Fin 2 → IVec S16 32) a x).toNat < S2x4096.size a := fun v157 v160 k0_hw51 => k0_hw51

def k0_chk52 (v157 : IVec S16 32) (v161 : IVec S16 32) : Prop :=
  (∀ a x, ((![v157, v161] : Fin 2 → IVec S16 32) a x).toNat < S2x4096.size a)
instance k0_chk52.dec : ∀ (v157 : IVec S16 32) (v161 : IVec S16 32), Decidable (k0_chk52 v157 v161) := fun v157 v161 => decidable_of_iff' _ (Iff.of_eq (k0_chk52.eq_1 v157 v161))
theorem k0_idx52_inb : ∀ (v157 : IVec S16 32) (v161 : IVec S16 32) (k0_hw52 : k0_chk52 v157 v161), ∀ a x, ((![v157, v161] : Fin 2 → IVec S16 32) a x).toNat < S2x4096.size a := fun v157 v161 k0_hw52 => k0_hw52

def k0_chk53 (v162 : IVec S16 32) (v163 : IVec S16 32) : Prop :=
  (∀ a x, ((![v162, v163] : Fin 2 → IVec S16 32) a x).toNat < S2x4096.size a)
instance k0_chk53.dec : ∀ (v162 : IVec S16 32) (v163 : IVec S16 32), Decidable (k0_chk53 v162 v163) := fun v162 v163 => decidable_of_iff' _ (Iff.of_eq (k0_chk53.eq_1 v162 v163))
theorem k0_idx53_inb : ∀ (v162 : IVec S16 32) (v163 : IVec S16 32) (k0_hw53 : k0_chk53 v162 v163), ∀ a x, ((![v162, v163] : Fin 2 → IVec S16 32) a x).toNat < S2x4096.size a := fun v162 v163 k0_hw53 => k0_hw53

def k0_chk54 (v162 : IVec S16 32) (v164 : IVec S16 32) : Prop :=
  (∀ a x, ((![v162, v164] : Fin 2 → IVec S16 32) a x).toNat < S2x4096.size a)
instance k0_chk54.dec : ∀ (v162 : IVec S16 32) (v164 : IVec S16 32), Decidable (k0_chk54 v162 v164) := fun v162 v164 => decidable_of_iff' _ (Iff.of_eq (k0_chk54.eq_1 v162 v164))
theorem k0_idx54_inb : ∀ (v162 : IVec S16 32) (v164 : IVec S16 32) (k0_hw54 : k0_chk54 v162 v164), ∀ a x, ((![v162, v164] : Fin 2 → IVec S16 32) a x).toNat < S2x4096.size a := fun v162 v164 k0_hw54 => k0_hw54

def k0_chk55 (v162 : IVec S16 32) (v165 : IVec S16 32) : Prop :=
  (∀ a x, ((![v162, v165] : Fin 2 → IVec S16 32) a x).toNat < S2x4096.size a)
instance k0_chk55.dec : ∀ (v162 : IVec S16 32) (v165 : IVec S16 32), Decidable (k0_chk55 v162 v165) := fun v162 v165 => decidable_of_iff' _ (Iff.of_eq (k0_chk55.eq_1 v162 v165))
theorem k0_idx55_inb : ∀ (v162 : IVec S16 32) (v165 : IVec S16 32) (k0_hw55 : k0_chk55 v162 v165), ∀ a x, ((![v162, v165] : Fin 2 → IVec S16 32) a x).toNat < S2x4096.size a := fun v162 v165 k0_hw55 => k0_hw55

def k0_chk56 (v162 : IVec S16 32) (v166 : IVec S16 32) : Prop :=
  (∀ a x, ((![v162, v166] : Fin 2 → IVec S16 32) a x).toNat < S2x4096.size a)
instance k0_chk56.dec : ∀ (v162 : IVec S16 32) (v166 : IVec S16 32), Decidable (k0_chk56 v162 v166) := fun v162 v166 => decidable_of_iff' _ (Iff.of_eq (k0_chk56.eq_1 v162 v166))
theorem k0_idx56_inb : ∀ (v162 : IVec S16 32) (v166 : IVec S16 32) (k0_hw56 : k0_chk56 v162 v166), ∀ a x, ((![v162, v166] : Fin 2 → IVec S16 32) a x).toNat < S2x4096.size a := fun v162 v166 k0_hw56 => k0_hw56
def k0_off8 (i : grid0.Coords) (c12_i32_146 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v167 : BitVec 32 := Scalar.addi v2 c12_i32_146
  let c0_i32_147 : BitVec 32 := 0#32
  ![v167.toNat, 0]
def k0_off8_at (r : Fin 4) : BitVec 32 :=
  if r.val < 2 then
    if r.val < 1 then
      12#32
    else
      10#32
  else
    if r.val < 3 then
      26#32
    else
      14#32

def k0_chk57 (v179 : IVec S16 32) (v180 : IVec S16 32) : Prop :=
  (∀ a x, ((![v179, v180] : Fin 2 → IVec S16 32) a x).toNat < S2x4096.size a)
instance k0_chk57.dec : ∀ (v179 : IVec S16 32) (v180 : IVec S16 32), Decidable (k0_chk57 v179 v180) := fun v179 v180 => decidable_of_iff' _ (Iff.of_eq (k0_chk57.eq_1 v179 v180))
theorem k0_idx57_inb : ∀ (v179 : IVec S16 32) (v180 : IVec S16 32) (k0_hw57 : k0_chk57 v179 v180), ∀ a x, ((![v179, v180] : Fin 2 → IVec S16 32) a x).toNat < S2x4096.size a := fun v179 v180 k0_hw57 => k0_hw57

def k0_chk58 (v179 : IVec S16 32) (v181 : IVec S16 32) : Prop :=
  (∀ a x, ((![v179, v181] : Fin 2 → IVec S16 32) a x).toNat < S2x4096.size a)
instance k0_chk58.dec : ∀ (v179 : IVec S16 32) (v181 : IVec S16 32), Decidable (k0_chk58 v179 v181) := fun v179 v181 => decidable_of_iff' _ (Iff.of_eq (k0_chk58.eq_1 v179 v181))
theorem k0_idx58_inb : ∀ (v179 : IVec S16 32) (v181 : IVec S16 32) (k0_hw58 : k0_chk58 v179 v181), ∀ a x, ((![v179, v181] : Fin 2 → IVec S16 32) a x).toNat < S2x4096.size a := fun v179 v181 k0_hw58 => k0_hw58

def k0_chk59 (v179 : IVec S16 32) (v182 : IVec S16 32) : Prop :=
  (∀ a x, ((![v179, v182] : Fin 2 → IVec S16 32) a x).toNat < S2x4096.size a)
instance k0_chk59.dec : ∀ (v179 : IVec S16 32) (v182 : IVec S16 32), Decidable (k0_chk59 v179 v182) := fun v179 v182 => decidable_of_iff' _ (Iff.of_eq (k0_chk59.eq_1 v179 v182))
theorem k0_idx59_inb : ∀ (v179 : IVec S16 32) (v182 : IVec S16 32) (k0_hw59 : k0_chk59 v179 v182), ∀ a x, ((![v179, v182] : Fin 2 → IVec S16 32) a x).toNat < S2x4096.size a := fun v179 v182 k0_hw59 => k0_hw59

def k0_chk60 (v179 : IVec S16 32) (v183 : IVec S16 32) : Prop :=
  (∀ a x, ((![v179, v183] : Fin 2 → IVec S16 32) a x).toNat < S2x4096.size a)
instance k0_chk60.dec : ∀ (v179 : IVec S16 32) (v183 : IVec S16 32), Decidable (k0_chk60 v179 v183) := fun v179 v183 => decidable_of_iff' _ (Iff.of_eq (k0_chk60.eq_1 v179 v183))
theorem k0_idx60_inb : ∀ (v179 : IVec S16 32) (v183 : IVec S16 32) (k0_hw60 : k0_chk60 v179 v183), ∀ a x, ((![v179, v183] : Fin 2 → IVec S16 32) a x).toNat < S2x4096.size a := fun v179 v183 k0_hw60 => k0_hw60

def k0_chk61 (v184 : IVec S16 32) (v185 : IVec S16 32) : Prop :=
  (∀ a x, ((![v184, v185] : Fin 2 → IVec S16 32) a x).toNat < S2x4096.size a)
instance k0_chk61.dec : ∀ (v184 : IVec S16 32) (v185 : IVec S16 32), Decidable (k0_chk61 v184 v185) := fun v184 v185 => decidable_of_iff' _ (Iff.of_eq (k0_chk61.eq_1 v184 v185))
theorem k0_idx61_inb : ∀ (v184 : IVec S16 32) (v185 : IVec S16 32) (k0_hw61 : k0_chk61 v184 v185), ∀ a x, ((![v184, v185] : Fin 2 → IVec S16 32) a x).toNat < S2x4096.size a := fun v184 v185 k0_hw61 => k0_hw61

def k0_chk62 (v184 : IVec S16 32) (v186 : IVec S16 32) : Prop :=
  (∀ a x, ((![v184, v186] : Fin 2 → IVec S16 32) a x).toNat < S2x4096.size a)
instance k0_chk62.dec : ∀ (v184 : IVec S16 32) (v186 : IVec S16 32), Decidable (k0_chk62 v184 v186) := fun v184 v186 => decidable_of_iff' _ (Iff.of_eq (k0_chk62.eq_1 v184 v186))
theorem k0_idx62_inb : ∀ (v184 : IVec S16 32) (v186 : IVec S16 32) (k0_hw62 : k0_chk62 v184 v186), ∀ a x, ((![v184, v186] : Fin 2 → IVec S16 32) a x).toNat < S2x4096.size a := fun v184 v186 k0_hw62 => k0_hw62

def k0_chk63 (v184 : IVec S16 32) (v187 : IVec S16 32) : Prop :=
  (∀ a x, ((![v184, v187] : Fin 2 → IVec S16 32) a x).toNat < S2x4096.size a)
instance k0_chk63.dec : ∀ (v184 : IVec S16 32) (v187 : IVec S16 32), Decidable (k0_chk63 v184 v187) := fun v184 v187 => decidable_of_iff' _ (Iff.of_eq (k0_chk63.eq_1 v184 v187))
theorem k0_idx63_inb : ∀ (v184 : IVec S16 32) (v187 : IVec S16 32) (k0_hw63 : k0_chk63 v184 v187), ∀ a x, ((![v184, v187] : Fin 2 → IVec S16 32) a x).toNat < S2x4096.size a := fun v184 v187 k0_hw63 => k0_hw63

def k0_chk64 (v184 : IVec S16 32) (v188 : IVec S16 32) : Prop :=
  (∀ a x, ((![v184, v188] : Fin 2 → IVec S16 32) a x).toNat < S2x4096.size a)
instance k0_chk64.dec : ∀ (v184 : IVec S16 32) (v188 : IVec S16 32), Decidable (k0_chk64 v184 v188) := fun v184 v188 => decidable_of_iff' _ (Iff.of_eq (k0_chk64.eq_1 v184 v188))
theorem k0_idx64_inb : ∀ (v184 : IVec S16 32) (v188 : IVec S16 32) (k0_hw64 : k0_chk64 v184 v188), ∀ a x, ((![v184, v188] : Fin 2 → IVec S16 32) a x).toNat < S2x4096.size a := fun v184 v188 k0_hw64 => k0_hw64
def k0_off9 (i : grid0.Coords) (c14_i32_167 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v189 : BitVec 32 := Scalar.addi v2 c14_i32_167
  let c0_i32_168 : BitVec 32 := 0#32
  ![v189.toNat, 0]
def k0_off9_at (r : Fin 4) : BitVec 32 :=
  if r.val < 2 then
    if r.val < 1 then
      14#32
    else
      12#32
  else
    if r.val < 3 then
      28#32
    else
      496#32
@[reducible] def k0_t1_loop : Scf.Loop 32 :=
  let c1_i32_176 : BitVec 32 := 1#32
  let c30_i32 : BitVec 32 := 30#32
  let v198 : BitVec 32 := Scalar.addi c1_i32_176 c30_i32
  let c1_i32_177 : BitVec 32 := 1#32
  ⟨c1_i32_176, v198, c1_i32_177⟩
def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_328 : BitVec 32 := 8#32
  let v357 : BitVec 32 := Scalar.muli arg30 c8_i32_328
  let c0_i32_329 : BitVec 32 := 0#32
  let v358 : BitVec 32 := Scalar.addi v357 c0_i32_329
  let c2_i32_330 : BitVec 32 := 2#32
  let v359 : BitVec 32 := Scalar.muli v358 c2_i32_330
  let v360 : BitVec 32 := Scalar.addi v2 v359
  let c0_i32_331 : BitVec 32 := 0#32
  ![v360.toNat, 0]

def k0_chk65 (v363 : IVec S16 32) (v364 : IVec S16 32) : Prop :=
  (∀ a x, ((![v363, v364] : Fin 2 → IVec S16 32) a x).toNat < S2x4096.size a)
instance k0_chk65.dec : ∀ (v363 : IVec S16 32) (v364 : IVec S16 32), Decidable (k0_chk65 v363 v364) := fun v363 v364 => decidable_of_iff' _ (Iff.of_eq (k0_chk65.eq_1 v363 v364))
theorem k0_idx65_inb : ∀ (v363 : IVec S16 32) (v364 : IVec S16 32) (k0_hw65 : k0_chk65 v363 v364), ∀ a x, ((![v363, v364] : Fin 2 → IVec S16 32) a x).toNat < S2x4096.size a := fun v363 v364 k0_hw65 => k0_hw65

def k0_chk66 (v363 : IVec S16 32) (v365 : IVec S16 32) : Prop :=
  (∀ a x, ((![v363, v365] : Fin 2 → IVec S16 32) a x).toNat < S2x4096.size a)
instance k0_chk66.dec : ∀ (v363 : IVec S16 32) (v365 : IVec S16 32), Decidable (k0_chk66 v363 v365) := fun v363 v365 => decidable_of_iff' _ (Iff.of_eq (k0_chk66.eq_1 v363 v365))
theorem k0_idx66_inb : ∀ (v363 : IVec S16 32) (v365 : IVec S16 32) (k0_hw66 : k0_chk66 v363 v365), ∀ a x, ((![v363, v365] : Fin 2 → IVec S16 32) a x).toNat < S2x4096.size a := fun v363 v365 k0_hw66 => k0_hw66

def k0_chk67 (v363 : IVec S16 32) (v366 : IVec S16 32) : Prop :=
  (∀ a x, ((![v363, v366] : Fin 2 → IVec S16 32) a x).toNat < S2x4096.size a)
instance k0_chk67.dec : ∀ (v363 : IVec S16 32) (v366 : IVec S16 32), Decidable (k0_chk67 v363 v366) := fun v363 v366 => decidable_of_iff' _ (Iff.of_eq (k0_chk67.eq_1 v363 v366))
theorem k0_idx67_inb : ∀ (v363 : IVec S16 32) (v366 : IVec S16 32) (k0_hw67 : k0_chk67 v363 v366), ∀ a x, ((![v363, v366] : Fin 2 → IVec S16 32) a x).toNat < S2x4096.size a := fun v363 v366 k0_hw67 => k0_hw67

def k0_chk68 (v363 : IVec S16 32) (v367 : IVec S16 32) : Prop :=
  (∀ a x, ((![v363, v367] : Fin 2 → IVec S16 32) a x).toNat < S2x4096.size a)
instance k0_chk68.dec : ∀ (v363 : IVec S16 32) (v367 : IVec S16 32), Decidable (k0_chk68 v363 v367) := fun v363 v367 => decidable_of_iff' _ (Iff.of_eq (k0_chk68.eq_1 v363 v367))
theorem k0_idx68_inb : ∀ (v363 : IVec S16 32) (v367 : IVec S16 32) (k0_hw68 : k0_chk68 v363 v367), ∀ a x, ((![v363, v367] : Fin 2 → IVec S16 32) a x).toNat < S2x4096.size a := fun v363 v367 k0_hw68 => k0_hw68

def k0_chk69 (v368 : IVec S16 32) (v369 : IVec S16 32) : Prop :=
  (∀ a x, ((![v368, v369] : Fin 2 → IVec S16 32) a x).toNat < S2x4096.size a)
instance k0_chk69.dec : ∀ (v368 : IVec S16 32) (v369 : IVec S16 32), Decidable (k0_chk69 v368 v369) := fun v368 v369 => decidable_of_iff' _ (Iff.of_eq (k0_chk69.eq_1 v368 v369))
theorem k0_idx69_inb : ∀ (v368 : IVec S16 32) (v369 : IVec S16 32) (k0_hw69 : k0_chk69 v368 v369), ∀ a x, ((![v368, v369] : Fin 2 → IVec S16 32) a x).toNat < S2x4096.size a := fun v368 v369 k0_hw69 => k0_hw69

def k0_chk70 (v368 : IVec S16 32) (v370 : IVec S16 32) : Prop :=
  (∀ a x, ((![v368, v370] : Fin 2 → IVec S16 32) a x).toNat < S2x4096.size a)
instance k0_chk70.dec : ∀ (v368 : IVec S16 32) (v370 : IVec S16 32), Decidable (k0_chk70 v368 v370) := fun v368 v370 => decidable_of_iff' _ (Iff.of_eq (k0_chk70.eq_1 v368 v370))
theorem k0_idx70_inb : ∀ (v368 : IVec S16 32) (v370 : IVec S16 32) (k0_hw70 : k0_chk70 v368 v370), ∀ a x, ((![v368, v370] : Fin 2 → IVec S16 32) a x).toNat < S2x4096.size a := fun v368 v370 k0_hw70 => k0_hw70

def k0_chk71 (v368 : IVec S16 32) (v371 : IVec S16 32) : Prop :=
  (∀ a x, ((![v368, v371] : Fin 2 → IVec S16 32) a x).toNat < S2x4096.size a)
instance k0_chk71.dec : ∀ (v368 : IVec S16 32) (v371 : IVec S16 32), Decidable (k0_chk71 v368 v371) := fun v368 v371 => decidable_of_iff' _ (Iff.of_eq (k0_chk71.eq_1 v368 v371))
theorem k0_idx71_inb : ∀ (v368 : IVec S16 32) (v371 : IVec S16 32) (k0_hw71 : k0_chk71 v368 v371), ∀ a x, ((![v368, v371] : Fin 2 → IVec S16 32) a x).toNat < S2x4096.size a := fun v368 v371 k0_hw71 => k0_hw71

def k0_chk72 (v368 : IVec S16 32) (v372 : IVec S16 32) : Prop :=
  (∀ a x, ((![v368, v372] : Fin 2 → IVec S16 32) a x).toNat < S2x4096.size a)
instance k0_chk72.dec : ∀ (v368 : IVec S16 32) (v372 : IVec S16 32), Decidable (k0_chk72 v368 v372) := fun v368 v372 => decidable_of_iff' _ (Iff.of_eq (k0_chk72.eq_1 v368 v372))
theorem k0_idx72_inb : ∀ (v368 : IVec S16 32) (v372 : IVec S16 32) (k0_hw72 : k0_chk72 v368 v372), ∀ a x, ((![v368, v372] : Fin 2 → IVec S16 32) a x).toNat < S2x4096.size a := fun v368 v372 k0_hw72 => k0_hw72
def k0_off11 (i : grid0.Coords) (k0_t1 : Fin k0_t1_loop.trips) (c0_i32_329 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_328 : BitVec 32 := 8#32
  let v357 : BitVec 32 := Scalar.muli arg30 c8_i32_328
  let v358 : BitVec 32 := Scalar.addi v357 c0_i32_329
  let c2_i32_343 : BitVec 32 := 2#32
  let v373 : BitVec 32 := Scalar.muli v358 c2_i32_343
  let v374 : BitVec 32 := Scalar.addi v2 v373
  let c0_i32_344 : BitVec 32 := 0#32
  ![v374.toNat, 0]
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_328 : BitVec 32 := 8#32
  let v357 : BitVec 32 := Scalar.muli arg30 c8_i32_328
  let c0_i32_329 : BitVec 32 := 0#32
  let v358 : BitVec 32 := Scalar.addi v357 c0_i32_329
  let c1_i32_346 : BitVec 32 := 1#32
  let v377 : BitVec 32 := Scalar.subi v358 c1_i32_346
  let c2_i32_347 : BitVec 32 := 2#32
  let v378 : BitVec 32 := Scalar.muli v377 c2_i32_347
  let v379 : BitVec 32 := Scalar.addi v2 v378
  let c0_i32_348 : BitVec 32 := 0#32
  ![v379.toNat, 0]
def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_328 : BitVec 32 := 8#32
  let v357 : BitVec 32 := Scalar.muli arg30 c8_i32_328
  let c0_i32_329 : BitVec 32 := 0#32
  let v358 : BitVec 32 := Scalar.addi v357 c0_i32_329
  let c8_i32_350 : BitVec 32 := 8#32
  let v382 : BitVec 32 := Scalar.addi v358 c8_i32_350
  let c1_i32_351 : BitVec 32 := 1#32
  let v383 : BitVec 32 := Scalar.subi v382 c1_i32_351
  let c2_i32_352 : BitVec 32 := 2#32
  let v384 : BitVec 32 := Scalar.muli v383 c2_i32_352
  let v385 : BitVec 32 := Scalar.addi v2 v384
  let c0_i32_353 : BitVec 32 := 0#32
  ![v385.toNat, 0]

def k0_chk73 (v394 : IVec S16 32) (v395 : IVec S16 32) : Prop :=
  (∀ a x, ((![v394, v395] : Fin 2 → IVec S16 32) a x).toNat < S2x4096.size a)
instance k0_chk73.dec : ∀ (v394 : IVec S16 32) (v395 : IVec S16 32), Decidable (k0_chk73 v394 v395) := fun v394 v395 => decidable_of_iff' _ (Iff.of_eq (k0_chk73.eq_1 v394 v395))
theorem k0_idx73_inb : ∀ (v394 : IVec S16 32) (v395 : IVec S16 32) (k0_hw73 : k0_chk73 v394 v395), ∀ a x, ((![v394, v395] : Fin 2 → IVec S16 32) a x).toNat < S2x4096.size a := fun v394 v395 k0_hw73 => k0_hw73

def k0_chk74 (v394 : IVec S16 32) (v396 : IVec S16 32) : Prop :=
  (∀ a x, ((![v394, v396] : Fin 2 → IVec S16 32) a x).toNat < S2x4096.size a)
instance k0_chk74.dec : ∀ (v394 : IVec S16 32) (v396 : IVec S16 32), Decidable (k0_chk74 v394 v396) := fun v394 v396 => decidable_of_iff' _ (Iff.of_eq (k0_chk74.eq_1 v394 v396))
theorem k0_idx74_inb : ∀ (v394 : IVec S16 32) (v396 : IVec S16 32) (k0_hw74 : k0_chk74 v394 v396), ∀ a x, ((![v394, v396] : Fin 2 → IVec S16 32) a x).toNat < S2x4096.size a := fun v394 v396 k0_hw74 => k0_hw74

def k0_chk75 (v394 : IVec S16 32) (v397 : IVec S16 32) : Prop :=
  (∀ a x, ((![v394, v397] : Fin 2 → IVec S16 32) a x).toNat < S2x4096.size a)
instance k0_chk75.dec : ∀ (v394 : IVec S16 32) (v397 : IVec S16 32), Decidable (k0_chk75 v394 v397) := fun v394 v397 => decidable_of_iff' _ (Iff.of_eq (k0_chk75.eq_1 v394 v397))
theorem k0_idx75_inb : ∀ (v394 : IVec S16 32) (v397 : IVec S16 32) (k0_hw75 : k0_chk75 v394 v397), ∀ a x, ((![v394, v397] : Fin 2 → IVec S16 32) a x).toNat < S2x4096.size a := fun v394 v397 k0_hw75 => k0_hw75

def k0_chk76 (v394 : IVec S16 32) (v398 : IVec S16 32) : Prop :=
  (∀ a x, ((![v394, v398] : Fin 2 → IVec S16 32) a x).toNat < S2x4096.size a)
instance k0_chk76.dec : ∀ (v394 : IVec S16 32) (v398 : IVec S16 32), Decidable (k0_chk76 v394 v398) := fun v394 v398 => decidable_of_iff' _ (Iff.of_eq (k0_chk76.eq_1 v394 v398))
theorem k0_idx76_inb : ∀ (v394 : IVec S16 32) (v398 : IVec S16 32) (k0_hw76 : k0_chk76 v394 v398), ∀ a x, ((![v394, v398] : Fin 2 → IVec S16 32) a x).toNat < S2x4096.size a := fun v394 v398 k0_hw76 => k0_hw76

def k0_chk77 (v399 : IVec S16 32) (v400 : IVec S16 32) : Prop :=
  (∀ a x, ((![v399, v400] : Fin 2 → IVec S16 32) a x).toNat < S2x4096.size a)
instance k0_chk77.dec : ∀ (v399 : IVec S16 32) (v400 : IVec S16 32), Decidable (k0_chk77 v399 v400) := fun v399 v400 => decidable_of_iff' _ (Iff.of_eq (k0_chk77.eq_1 v399 v400))
theorem k0_idx77_inb : ∀ (v399 : IVec S16 32) (v400 : IVec S16 32) (k0_hw77 : k0_chk77 v399 v400), ∀ a x, ((![v399, v400] : Fin 2 → IVec S16 32) a x).toNat < S2x4096.size a := fun v399 v400 k0_hw77 => k0_hw77

def k0_chk78 (v399 : IVec S16 32) (v401 : IVec S16 32) : Prop :=
  (∀ a x, ((![v399, v401] : Fin 2 → IVec S16 32) a x).toNat < S2x4096.size a)
instance k0_chk78.dec : ∀ (v399 : IVec S16 32) (v401 : IVec S16 32), Decidable (k0_chk78 v399 v401) := fun v399 v401 => decidable_of_iff' _ (Iff.of_eq (k0_chk78.eq_1 v399 v401))
theorem k0_idx78_inb : ∀ (v399 : IVec S16 32) (v401 : IVec S16 32) (k0_hw78 : k0_chk78 v399 v401), ∀ a x, ((![v399, v401] : Fin 2 → IVec S16 32) a x).toNat < S2x4096.size a := fun v399 v401 k0_hw78 => k0_hw78

def k0_chk79 (v399 : IVec S16 32) (v402 : IVec S16 32) : Prop :=
  (∀ a x, ((![v399, v402] : Fin 2 → IVec S16 32) a x).toNat < S2x4096.size a)
instance k0_chk79.dec : ∀ (v399 : IVec S16 32) (v402 : IVec S16 32), Decidable (k0_chk79 v399 v402) := fun v399 v402 => decidable_of_iff' _ (Iff.of_eq (k0_chk79.eq_1 v399 v402))
theorem k0_idx79_inb : ∀ (v399 : IVec S16 32) (v402 : IVec S16 32) (k0_hw79 : k0_chk79 v399 v402), ∀ a x, ((![v399, v402] : Fin 2 → IVec S16 32) a x).toNat < S2x4096.size a := fun v399 v402 k0_hw79 => k0_hw79

def k0_chk80 (v399 : IVec S16 32) (v403 : IVec S16 32) : Prop :=
  (∀ a x, ((![v399, v403] : Fin 2 → IVec S16 32) a x).toNat < S2x4096.size a)
instance k0_chk80.dec : ∀ (v399 : IVec S16 32) (v403 : IVec S16 32), Decidable (k0_chk80 v399 v403) := fun v399 v403 => decidable_of_iff' _ (Iff.of_eq (k0_chk80.eq_1 v399 v403))
theorem k0_idx80_inb : ∀ (v399 : IVec S16 32) (v403 : IVec S16 32) (k0_hw80 : k0_chk80 v399 v403), ∀ a x, ((![v399, v403] : Fin 2 → IVec S16 32) a x).toNat < S2x4096.size a := fun v399 v403 k0_hw80 => k0_hw80
def k0_off14 (i : grid0.Coords) (k0_t1 : Fin k0_t1_loop.trips) (c1_i32_356 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_355 : BitVec 32 := 8#32
  let v388 : BitVec 32 := Scalar.muli arg30 c8_i32_355
  let v389 : BitVec 32 := Scalar.addi v388 c1_i32_356
  let c2_i32_370 : BitVec 32 := 2#32
  let v404 : BitVec 32 := Scalar.muli v389 c2_i32_370
  let v405 : BitVec 32 := Scalar.addi v2 v404
  let c0_i32_371 : BitVec 32 := 0#32
  ![v405.toNat, 0]
def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_355 : BitVec 32 := 8#32
  let v388 : BitVec 32 := Scalar.muli arg30 c8_i32_355
  let c1_i32_356 : BitVec 32 := 1#32
  let v389 : BitVec 32 := Scalar.addi v388 c1_i32_356
  let c1_i32_373 : BitVec 32 := 1#32
  let v408 : BitVec 32 := Scalar.subi v389 c1_i32_373
  let c2_i32_374 : BitVec 32 := 2#32
  let v409 : BitVec 32 := Scalar.muli v408 c2_i32_374
  let v410 : BitVec 32 := Scalar.addi v2 v409
  let c0_i32_375 : BitVec 32 := 0#32
  ![v410.toNat, 0]
def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_355 : BitVec 32 := 8#32
  let v388 : BitVec 32 := Scalar.muli arg30 c8_i32_355
  let c1_i32_356 : BitVec 32 := 1#32
  let v389 : BitVec 32 := Scalar.addi v388 c1_i32_356
  let c8_i32_377 : BitVec 32 := 8#32
  let v413 : BitVec 32 := Scalar.addi v389 c8_i32_377
  let c1_i32_378 : BitVec 32 := 1#32
  let v414 : BitVec 32 := Scalar.subi v413 c1_i32_378
  let c2_i32_379 : BitVec 32 := 2#32
  let v415 : BitVec 32 := Scalar.muli v414 c2_i32_379
  let v416 : BitVec 32 := Scalar.addi v2 v415
  let c0_i32_380 : BitVec 32 := 0#32
  ![v416.toNat, 0]

def k0_chk81 (v425 : IVec S16 32) (v426 : IVec S16 32) : Prop :=
  (∀ a x, ((![v425, v426] : Fin 2 → IVec S16 32) a x).toNat < S2x4096.size a)
instance k0_chk81.dec : ∀ (v425 : IVec S16 32) (v426 : IVec S16 32), Decidable (k0_chk81 v425 v426) := fun v425 v426 => decidable_of_iff' _ (Iff.of_eq (k0_chk81.eq_1 v425 v426))
theorem k0_idx81_inb : ∀ (v425 : IVec S16 32) (v426 : IVec S16 32) (k0_hw81 : k0_chk81 v425 v426), ∀ a x, ((![v425, v426] : Fin 2 → IVec S16 32) a x).toNat < S2x4096.size a := fun v425 v426 k0_hw81 => k0_hw81

def k0_chk82 (v425 : IVec S16 32) (v427 : IVec S16 32) : Prop :=
  (∀ a x, ((![v425, v427] : Fin 2 → IVec S16 32) a x).toNat < S2x4096.size a)
instance k0_chk82.dec : ∀ (v425 : IVec S16 32) (v427 : IVec S16 32), Decidable (k0_chk82 v425 v427) := fun v425 v427 => decidable_of_iff' _ (Iff.of_eq (k0_chk82.eq_1 v425 v427))
theorem k0_idx82_inb : ∀ (v425 : IVec S16 32) (v427 : IVec S16 32) (k0_hw82 : k0_chk82 v425 v427), ∀ a x, ((![v425, v427] : Fin 2 → IVec S16 32) a x).toNat < S2x4096.size a := fun v425 v427 k0_hw82 => k0_hw82

def k0_chk83 (v425 : IVec S16 32) (v428 : IVec S16 32) : Prop :=
  (∀ a x, ((![v425, v428] : Fin 2 → IVec S16 32) a x).toNat < S2x4096.size a)
instance k0_chk83.dec : ∀ (v425 : IVec S16 32) (v428 : IVec S16 32), Decidable (k0_chk83 v425 v428) := fun v425 v428 => decidable_of_iff' _ (Iff.of_eq (k0_chk83.eq_1 v425 v428))
theorem k0_idx83_inb : ∀ (v425 : IVec S16 32) (v428 : IVec S16 32) (k0_hw83 : k0_chk83 v425 v428), ∀ a x, ((![v425, v428] : Fin 2 → IVec S16 32) a x).toNat < S2x4096.size a := fun v425 v428 k0_hw83 => k0_hw83

def k0_chk84 (v425 : IVec S16 32) (v429 : IVec S16 32) : Prop :=
  (∀ a x, ((![v425, v429] : Fin 2 → IVec S16 32) a x).toNat < S2x4096.size a)
instance k0_chk84.dec : ∀ (v425 : IVec S16 32) (v429 : IVec S16 32), Decidable (k0_chk84 v425 v429) := fun v425 v429 => decidable_of_iff' _ (Iff.of_eq (k0_chk84.eq_1 v425 v429))
theorem k0_idx84_inb : ∀ (v425 : IVec S16 32) (v429 : IVec S16 32) (k0_hw84 : k0_chk84 v425 v429), ∀ a x, ((![v425, v429] : Fin 2 → IVec S16 32) a x).toNat < S2x4096.size a := fun v425 v429 k0_hw84 => k0_hw84

def k0_chk85 (v430 : IVec S16 32) (v431 : IVec S16 32) : Prop :=
  (∀ a x, ((![v430, v431] : Fin 2 → IVec S16 32) a x).toNat < S2x4096.size a)
instance k0_chk85.dec : ∀ (v430 : IVec S16 32) (v431 : IVec S16 32), Decidable (k0_chk85 v430 v431) := fun v430 v431 => decidable_of_iff' _ (Iff.of_eq (k0_chk85.eq_1 v430 v431))
theorem k0_idx85_inb : ∀ (v430 : IVec S16 32) (v431 : IVec S16 32) (k0_hw85 : k0_chk85 v430 v431), ∀ a x, ((![v430, v431] : Fin 2 → IVec S16 32) a x).toNat < S2x4096.size a := fun v430 v431 k0_hw85 => k0_hw85

def k0_chk86 (v430 : IVec S16 32) (v432 : IVec S16 32) : Prop :=
  (∀ a x, ((![v430, v432] : Fin 2 → IVec S16 32) a x).toNat < S2x4096.size a)
instance k0_chk86.dec : ∀ (v430 : IVec S16 32) (v432 : IVec S16 32), Decidable (k0_chk86 v430 v432) := fun v430 v432 => decidable_of_iff' _ (Iff.of_eq (k0_chk86.eq_1 v430 v432))
theorem k0_idx86_inb : ∀ (v430 : IVec S16 32) (v432 : IVec S16 32) (k0_hw86 : k0_chk86 v430 v432), ∀ a x, ((![v430, v432] : Fin 2 → IVec S16 32) a x).toNat < S2x4096.size a := fun v430 v432 k0_hw86 => k0_hw86

def k0_chk87 (v430 : IVec S16 32) (v433 : IVec S16 32) : Prop :=
  (∀ a x, ((![v430, v433] : Fin 2 → IVec S16 32) a x).toNat < S2x4096.size a)
instance k0_chk87.dec : ∀ (v430 : IVec S16 32) (v433 : IVec S16 32), Decidable (k0_chk87 v430 v433) := fun v430 v433 => decidable_of_iff' _ (Iff.of_eq (k0_chk87.eq_1 v430 v433))
theorem k0_idx87_inb : ∀ (v430 : IVec S16 32) (v433 : IVec S16 32) (k0_hw87 : k0_chk87 v430 v433), ∀ a x, ((![v430, v433] : Fin 2 → IVec S16 32) a x).toNat < S2x4096.size a := fun v430 v433 k0_hw87 => k0_hw87

def k0_chk88 (v430 : IVec S16 32) (v434 : IVec S16 32) : Prop :=
  (∀ a x, ((![v430, v434] : Fin 2 → IVec S16 32) a x).toNat < S2x4096.size a)
instance k0_chk88.dec : ∀ (v430 : IVec S16 32) (v434 : IVec S16 32), Decidable (k0_chk88 v430 v434) := fun v430 v434 => decidable_of_iff' _ (Iff.of_eq (k0_chk88.eq_1 v430 v434))
theorem k0_idx88_inb : ∀ (v430 : IVec S16 32) (v434 : IVec S16 32) (k0_hw88 : k0_chk88 v430 v434), ∀ a x, ((![v430, v434] : Fin 2 → IVec S16 32) a x).toNat < S2x4096.size a := fun v430 v434 k0_hw88 => k0_hw88
def k0_off17 (i : grid0.Coords) (k0_t1 : Fin k0_t1_loop.trips) (c2_i32_383 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_382 : BitVec 32 := 8#32
  let v419 : BitVec 32 := Scalar.muli arg30 c8_i32_382
  let v420 : BitVec 32 := Scalar.addi v419 c2_i32_383
  let c2_i32_397 : BitVec 32 := 2#32
  let v435 : BitVec 32 := Scalar.muli v420 c2_i32_397
  let v436 : BitVec 32 := Scalar.addi v2 v435
  let c0_i32_398 : BitVec 32 := 0#32
  ![v436.toNat, 0]
def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_382 : BitVec 32 := 8#32
  let v419 : BitVec 32 := Scalar.muli arg30 c8_i32_382
  let c2_i32_383 : BitVec 32 := 2#32
  let v420 : BitVec 32 := Scalar.addi v419 c2_i32_383
  let c1_i32_400 : BitVec 32 := 1#32
  let v439 : BitVec 32 := Scalar.subi v420 c1_i32_400
  let c2_i32_401 : BitVec 32 := 2#32
  let v440 : BitVec 32 := Scalar.muli v439 c2_i32_401
  let v441 : BitVec 32 := Scalar.addi v2 v440
  let c0_i32_402 : BitVec 32 := 0#32
  ![v441.toNat, 0]
def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_382 : BitVec 32 := 8#32
  let v419 : BitVec 32 := Scalar.muli arg30 c8_i32_382
  let c2_i32_383 : BitVec 32 := 2#32
  let v420 : BitVec 32 := Scalar.addi v419 c2_i32_383
  let c8_i32_404 : BitVec 32 := 8#32
  let v444 : BitVec 32 := Scalar.addi v420 c8_i32_404
  let c1_i32_405 : BitVec 32 := 1#32
  let v445 : BitVec 32 := Scalar.subi v444 c1_i32_405
  let c2_i32_406 : BitVec 32 := 2#32
  let v446 : BitVec 32 := Scalar.muli v445 c2_i32_406
  let v447 : BitVec 32 := Scalar.addi v2 v446
  let c0_i32_407 : BitVec 32 := 0#32
  ![v447.toNat, 0]

def k0_chk89 (v456 : IVec S16 32) (v457 : IVec S16 32) : Prop :=
  (∀ a x, ((![v456, v457] : Fin 2 → IVec S16 32) a x).toNat < S2x4096.size a)
instance k0_chk89.dec : ∀ (v456 : IVec S16 32) (v457 : IVec S16 32), Decidable (k0_chk89 v456 v457) := fun v456 v457 => decidable_of_iff' _ (Iff.of_eq (k0_chk89.eq_1 v456 v457))
theorem k0_idx89_inb : ∀ (v456 : IVec S16 32) (v457 : IVec S16 32) (k0_hw89 : k0_chk89 v456 v457), ∀ a x, ((![v456, v457] : Fin 2 → IVec S16 32) a x).toNat < S2x4096.size a := fun v456 v457 k0_hw89 => k0_hw89

def k0_chk90 (v456 : IVec S16 32) (v458 : IVec S16 32) : Prop :=
  (∀ a x, ((![v456, v458] : Fin 2 → IVec S16 32) a x).toNat < S2x4096.size a)
instance k0_chk90.dec : ∀ (v456 : IVec S16 32) (v458 : IVec S16 32), Decidable (k0_chk90 v456 v458) := fun v456 v458 => decidable_of_iff' _ (Iff.of_eq (k0_chk90.eq_1 v456 v458))
theorem k0_idx90_inb : ∀ (v456 : IVec S16 32) (v458 : IVec S16 32) (k0_hw90 : k0_chk90 v456 v458), ∀ a x, ((![v456, v458] : Fin 2 → IVec S16 32) a x).toNat < S2x4096.size a := fun v456 v458 k0_hw90 => k0_hw90

def k0_chk91 (v456 : IVec S16 32) (v459 : IVec S16 32) : Prop :=
  (∀ a x, ((![v456, v459] : Fin 2 → IVec S16 32) a x).toNat < S2x4096.size a)
instance k0_chk91.dec : ∀ (v456 : IVec S16 32) (v459 : IVec S16 32), Decidable (k0_chk91 v456 v459) := fun v456 v459 => decidable_of_iff' _ (Iff.of_eq (k0_chk91.eq_1 v456 v459))
theorem k0_idx91_inb : ∀ (v456 : IVec S16 32) (v459 : IVec S16 32) (k0_hw91 : k0_chk91 v456 v459), ∀ a x, ((![v456, v459] : Fin 2 → IVec S16 32) a x).toNat < S2x4096.size a := fun v456 v459 k0_hw91 => k0_hw91

def k0_chk92 (v456 : IVec S16 32) (v460 : IVec S16 32) : Prop :=
  (∀ a x, ((![v456, v460] : Fin 2 → IVec S16 32) a x).toNat < S2x4096.size a)
instance k0_chk92.dec : ∀ (v456 : IVec S16 32) (v460 : IVec S16 32), Decidable (k0_chk92 v456 v460) := fun v456 v460 => decidable_of_iff' _ (Iff.of_eq (k0_chk92.eq_1 v456 v460))
theorem k0_idx92_inb : ∀ (v456 : IVec S16 32) (v460 : IVec S16 32) (k0_hw92 : k0_chk92 v456 v460), ∀ a x, ((![v456, v460] : Fin 2 → IVec S16 32) a x).toNat < S2x4096.size a := fun v456 v460 k0_hw92 => k0_hw92

def k0_chk93 (v461 : IVec S16 32) (v462 : IVec S16 32) : Prop :=
  (∀ a x, ((![v461, v462] : Fin 2 → IVec S16 32) a x).toNat < S2x4096.size a)
instance k0_chk93.dec : ∀ (v461 : IVec S16 32) (v462 : IVec S16 32), Decidable (k0_chk93 v461 v462) := fun v461 v462 => decidable_of_iff' _ (Iff.of_eq (k0_chk93.eq_1 v461 v462))
theorem k0_idx93_inb : ∀ (v461 : IVec S16 32) (v462 : IVec S16 32) (k0_hw93 : k0_chk93 v461 v462), ∀ a x, ((![v461, v462] : Fin 2 → IVec S16 32) a x).toNat < S2x4096.size a := fun v461 v462 k0_hw93 => k0_hw93

def k0_chk94 (v461 : IVec S16 32) (v463 : IVec S16 32) : Prop :=
  (∀ a x, ((![v461, v463] : Fin 2 → IVec S16 32) a x).toNat < S2x4096.size a)
instance k0_chk94.dec : ∀ (v461 : IVec S16 32) (v463 : IVec S16 32), Decidable (k0_chk94 v461 v463) := fun v461 v463 => decidable_of_iff' _ (Iff.of_eq (k0_chk94.eq_1 v461 v463))
theorem k0_idx94_inb : ∀ (v461 : IVec S16 32) (v463 : IVec S16 32) (k0_hw94 : k0_chk94 v461 v463), ∀ a x, ((![v461, v463] : Fin 2 → IVec S16 32) a x).toNat < S2x4096.size a := fun v461 v463 k0_hw94 => k0_hw94

def k0_chk95 (v461 : IVec S16 32) (v464 : IVec S16 32) : Prop :=
  (∀ a x, ((![v461, v464] : Fin 2 → IVec S16 32) a x).toNat < S2x4096.size a)
instance k0_chk95.dec : ∀ (v461 : IVec S16 32) (v464 : IVec S16 32), Decidable (k0_chk95 v461 v464) := fun v461 v464 => decidable_of_iff' _ (Iff.of_eq (k0_chk95.eq_1 v461 v464))
theorem k0_idx95_inb : ∀ (v461 : IVec S16 32) (v464 : IVec S16 32) (k0_hw95 : k0_chk95 v461 v464), ∀ a x, ((![v461, v464] : Fin 2 → IVec S16 32) a x).toNat < S2x4096.size a := fun v461 v464 k0_hw95 => k0_hw95

def k0_chk96 (v461 : IVec S16 32) (v465 : IVec S16 32) : Prop :=
  (∀ a x, ((![v461, v465] : Fin 2 → IVec S16 32) a x).toNat < S2x4096.size a)
instance k0_chk96.dec : ∀ (v461 : IVec S16 32) (v465 : IVec S16 32), Decidable (k0_chk96 v461 v465) := fun v461 v465 => decidable_of_iff' _ (Iff.of_eq (k0_chk96.eq_1 v461 v465))
theorem k0_idx96_inb : ∀ (v461 : IVec S16 32) (v465 : IVec S16 32) (k0_hw96 : k0_chk96 v461 v465), ∀ a x, ((![v461, v465] : Fin 2 → IVec S16 32) a x).toNat < S2x4096.size a := fun v461 v465 k0_hw96 => k0_hw96
def k0_off20 (i : grid0.Coords) (k0_t1 : Fin k0_t1_loop.trips) (c3_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_409 : BitVec 32 := 8#32
  let v450 : BitVec 32 := Scalar.muli arg30 c8_i32_409
  let v451 : BitVec 32 := Scalar.addi v450 c3_i32
  let c2_i32_423 : BitVec 32 := 2#32
  let v466 : BitVec 32 := Scalar.muli v451 c2_i32_423
  let v467 : BitVec 32 := Scalar.addi v2 v466
  let c0_i32_424 : BitVec 32 := 0#32
  ![v467.toNat, 0]
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_409 : BitVec 32 := 8#32
  let v450 : BitVec 32 := Scalar.muli arg30 c8_i32_409
  let c3_i32 : BitVec 32 := 3#32
  let v451 : BitVec 32 := Scalar.addi v450 c3_i32
  let c1_i32_426 : BitVec 32 := 1#32
  let v470 : BitVec 32 := Scalar.subi v451 c1_i32_426
  let c2_i32_427 : BitVec 32 := 2#32
  let v471 : BitVec 32 := Scalar.muli v470 c2_i32_427
  let v472 : BitVec 32 := Scalar.addi v2 v471
  let c0_i32_428 : BitVec 32 := 0#32
  ![v472.toNat, 0]
def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_409 : BitVec 32 := 8#32
  let v450 : BitVec 32 := Scalar.muli arg30 c8_i32_409
  let c3_i32 : BitVec 32 := 3#32
  let v451 : BitVec 32 := Scalar.addi v450 c3_i32
  let c8_i32_430 : BitVec 32 := 8#32
  let v475 : BitVec 32 := Scalar.addi v451 c8_i32_430
  let c1_i32_431 : BitVec 32 := 1#32
  let v476 : BitVec 32 := Scalar.subi v475 c1_i32_431
  let c2_i32_432 : BitVec 32 := 2#32
  let v477 : BitVec 32 := Scalar.muli v476 c2_i32_432
  let v478 : BitVec 32 := Scalar.addi v2 v477
  let c0_i32_433 : BitVec 32 := 0#32
  ![v478.toNat, 0]

def k0_chk97 (v487 : IVec S16 32) (v488 : IVec S16 32) : Prop :=
  (∀ a x, ((![v487, v488] : Fin 2 → IVec S16 32) a x).toNat < S2x4096.size a)
instance k0_chk97.dec : ∀ (v487 : IVec S16 32) (v488 : IVec S16 32), Decidable (k0_chk97 v487 v488) := fun v487 v488 => decidable_of_iff' _ (Iff.of_eq (k0_chk97.eq_1 v487 v488))
theorem k0_idx97_inb : ∀ (v487 : IVec S16 32) (v488 : IVec S16 32) (k0_hw97 : k0_chk97 v487 v488), ∀ a x, ((![v487, v488] : Fin 2 → IVec S16 32) a x).toNat < S2x4096.size a := fun v487 v488 k0_hw97 => k0_hw97

def k0_chk98 (v487 : IVec S16 32) (v489 : IVec S16 32) : Prop :=
  (∀ a x, ((![v487, v489] : Fin 2 → IVec S16 32) a x).toNat < S2x4096.size a)
instance k0_chk98.dec : ∀ (v487 : IVec S16 32) (v489 : IVec S16 32), Decidable (k0_chk98 v487 v489) := fun v487 v489 => decidable_of_iff' _ (Iff.of_eq (k0_chk98.eq_1 v487 v489))
theorem k0_idx98_inb : ∀ (v487 : IVec S16 32) (v489 : IVec S16 32) (k0_hw98 : k0_chk98 v487 v489), ∀ a x, ((![v487, v489] : Fin 2 → IVec S16 32) a x).toNat < S2x4096.size a := fun v487 v489 k0_hw98 => k0_hw98

def k0_chk99 (v487 : IVec S16 32) (v490 : IVec S16 32) : Prop :=
  (∀ a x, ((![v487, v490] : Fin 2 → IVec S16 32) a x).toNat < S2x4096.size a)
instance k0_chk99.dec : ∀ (v487 : IVec S16 32) (v490 : IVec S16 32), Decidable (k0_chk99 v487 v490) := fun v487 v490 => decidable_of_iff' _ (Iff.of_eq (k0_chk99.eq_1 v487 v490))
theorem k0_idx99_inb : ∀ (v487 : IVec S16 32) (v490 : IVec S16 32) (k0_hw99 : k0_chk99 v487 v490), ∀ a x, ((![v487, v490] : Fin 2 → IVec S16 32) a x).toNat < S2x4096.size a := fun v487 v490 k0_hw99 => k0_hw99

def k0_chk100 (v487 : IVec S16 32) (v491 : IVec S16 32) : Prop :=
  (∀ a x, ((![v487, v491] : Fin 2 → IVec S16 32) a x).toNat < S2x4096.size a)
instance k0_chk100.dec : ∀ (v487 : IVec S16 32) (v491 : IVec S16 32), Decidable (k0_chk100 v487 v491) := fun v487 v491 => decidable_of_iff' _ (Iff.of_eq (k0_chk100.eq_1 v487 v491))
theorem k0_idx100_inb : ∀ (v487 : IVec S16 32) (v491 : IVec S16 32) (k0_hw100 : k0_chk100 v487 v491), ∀ a x, ((![v487, v491] : Fin 2 → IVec S16 32) a x).toNat < S2x4096.size a := fun v487 v491 k0_hw100 => k0_hw100

def k0_chk101 (v492 : IVec S16 32) (v493 : IVec S16 32) : Prop :=
  (∀ a x, ((![v492, v493] : Fin 2 → IVec S16 32) a x).toNat < S2x4096.size a)
instance k0_chk101.dec : ∀ (v492 : IVec S16 32) (v493 : IVec S16 32), Decidable (k0_chk101 v492 v493) := fun v492 v493 => decidable_of_iff' _ (Iff.of_eq (k0_chk101.eq_1 v492 v493))
theorem k0_idx101_inb : ∀ (v492 : IVec S16 32) (v493 : IVec S16 32) (k0_hw101 : k0_chk101 v492 v493), ∀ a x, ((![v492, v493] : Fin 2 → IVec S16 32) a x).toNat < S2x4096.size a := fun v492 v493 k0_hw101 => k0_hw101

def k0_chk102 (v492 : IVec S16 32) (v494 : IVec S16 32) : Prop :=
  (∀ a x, ((![v492, v494] : Fin 2 → IVec S16 32) a x).toNat < S2x4096.size a)
instance k0_chk102.dec : ∀ (v492 : IVec S16 32) (v494 : IVec S16 32), Decidable (k0_chk102 v492 v494) := fun v492 v494 => decidable_of_iff' _ (Iff.of_eq (k0_chk102.eq_1 v492 v494))
theorem k0_idx102_inb : ∀ (v492 : IVec S16 32) (v494 : IVec S16 32) (k0_hw102 : k0_chk102 v492 v494), ∀ a x, ((![v492, v494] : Fin 2 → IVec S16 32) a x).toNat < S2x4096.size a := fun v492 v494 k0_hw102 => k0_hw102

def k0_chk103 (v492 : IVec S16 32) (v495 : IVec S16 32) : Prop :=
  (∀ a x, ((![v492, v495] : Fin 2 → IVec S16 32) a x).toNat < S2x4096.size a)
instance k0_chk103.dec : ∀ (v492 : IVec S16 32) (v495 : IVec S16 32), Decidable (k0_chk103 v492 v495) := fun v492 v495 => decidable_of_iff' _ (Iff.of_eq (k0_chk103.eq_1 v492 v495))
theorem k0_idx103_inb : ∀ (v492 : IVec S16 32) (v495 : IVec S16 32) (k0_hw103 : k0_chk103 v492 v495), ∀ a x, ((![v492, v495] : Fin 2 → IVec S16 32) a x).toNat < S2x4096.size a := fun v492 v495 k0_hw103 => k0_hw103

def k0_chk104 (v492 : IVec S16 32) (v496 : IVec S16 32) : Prop :=
  (∀ a x, ((![v492, v496] : Fin 2 → IVec S16 32) a x).toNat < S2x4096.size a)
instance k0_chk104.dec : ∀ (v492 : IVec S16 32) (v496 : IVec S16 32), Decidable (k0_chk104 v492 v496) := fun v492 v496 => decidable_of_iff' _ (Iff.of_eq (k0_chk104.eq_1 v492 v496))
theorem k0_idx104_inb : ∀ (v492 : IVec S16 32) (v496 : IVec S16 32) (k0_hw104 : k0_chk104 v492 v496), ∀ a x, ((![v492, v496] : Fin 2 → IVec S16 32) a x).toNat < S2x4096.size a := fun v492 v496 k0_hw104 => k0_hw104
def k0_off23 (i : grid0.Coords) (k0_t1 : Fin k0_t1_loop.trips) (c4_i32_436 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_435 : BitVec 32 := 8#32
  let v481 : BitVec 32 := Scalar.muli arg30 c8_i32_435
  let v482 : BitVec 32 := Scalar.addi v481 c4_i32_436
  let c2_i32_450 : BitVec 32 := 2#32
  let v497 : BitVec 32 := Scalar.muli v482 c2_i32_450
  let v498 : BitVec 32 := Scalar.addi v2 v497
  let c0_i32_451 : BitVec 32 := 0#32
  ![v498.toNat, 0]
def k0_off24 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_435 : BitVec 32 := 8#32
  let v481 : BitVec 32 := Scalar.muli arg30 c8_i32_435
  let c4_i32_436 : BitVec 32 := 4#32
  let v482 : BitVec 32 := Scalar.addi v481 c4_i32_436
  let c1_i32_453 : BitVec 32 := 1#32
  let v501 : BitVec 32 := Scalar.subi v482 c1_i32_453
  let c2_i32_454 : BitVec 32 := 2#32
  let v502 : BitVec 32 := Scalar.muli v501 c2_i32_454
  let v503 : BitVec 32 := Scalar.addi v2 v502
  let c0_i32_455 : BitVec 32 := 0#32
  ![v503.toNat, 0]
def k0_off25 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_435 : BitVec 32 := 8#32
  let v481 : BitVec 32 := Scalar.muli arg30 c8_i32_435
  let c4_i32_436 : BitVec 32 := 4#32
  let v482 : BitVec 32 := Scalar.addi v481 c4_i32_436
  let c8_i32_457 : BitVec 32 := 8#32
  let v506 : BitVec 32 := Scalar.addi v482 c8_i32_457
  let c1_i32_458 : BitVec 32 := 1#32
  let v507 : BitVec 32 := Scalar.subi v506 c1_i32_458
  let c2_i32_459 : BitVec 32 := 2#32
  let v508 : BitVec 32 := Scalar.muli v507 c2_i32_459
  let v509 : BitVec 32 := Scalar.addi v2 v508
  let c0_i32_460 : BitVec 32 := 0#32
  ![v509.toNat, 0]

def k0_chk105 (v518 : IVec S16 32) (v519 : IVec S16 32) : Prop :=
  (∀ a x, ((![v518, v519] : Fin 2 → IVec S16 32) a x).toNat < S2x4096.size a)
instance k0_chk105.dec : ∀ (v518 : IVec S16 32) (v519 : IVec S16 32), Decidable (k0_chk105 v518 v519) := fun v518 v519 => decidable_of_iff' _ (Iff.of_eq (k0_chk105.eq_1 v518 v519))
theorem k0_idx105_inb : ∀ (v518 : IVec S16 32) (v519 : IVec S16 32) (k0_hw105 : k0_chk105 v518 v519), ∀ a x, ((![v518, v519] : Fin 2 → IVec S16 32) a x).toNat < S2x4096.size a := fun v518 v519 k0_hw105 => k0_hw105

def k0_chk106 (v518 : IVec S16 32) (v520 : IVec S16 32) : Prop :=
  (∀ a x, ((![v518, v520] : Fin 2 → IVec S16 32) a x).toNat < S2x4096.size a)
instance k0_chk106.dec : ∀ (v518 : IVec S16 32) (v520 : IVec S16 32), Decidable (k0_chk106 v518 v520) := fun v518 v520 => decidable_of_iff' _ (Iff.of_eq (k0_chk106.eq_1 v518 v520))
theorem k0_idx106_inb : ∀ (v518 : IVec S16 32) (v520 : IVec S16 32) (k0_hw106 : k0_chk106 v518 v520), ∀ a x, ((![v518, v520] : Fin 2 → IVec S16 32) a x).toNat < S2x4096.size a := fun v518 v520 k0_hw106 => k0_hw106

def k0_chk107 (v518 : IVec S16 32) (v521 : IVec S16 32) : Prop :=
  (∀ a x, ((![v518, v521] : Fin 2 → IVec S16 32) a x).toNat < S2x4096.size a)
instance k0_chk107.dec : ∀ (v518 : IVec S16 32) (v521 : IVec S16 32), Decidable (k0_chk107 v518 v521) := fun v518 v521 => decidable_of_iff' _ (Iff.of_eq (k0_chk107.eq_1 v518 v521))
theorem k0_idx107_inb : ∀ (v518 : IVec S16 32) (v521 : IVec S16 32) (k0_hw107 : k0_chk107 v518 v521), ∀ a x, ((![v518, v521] : Fin 2 → IVec S16 32) a x).toNat < S2x4096.size a := fun v518 v521 k0_hw107 => k0_hw107

def k0_chk108 (v518 : IVec S16 32) (v522 : IVec S16 32) : Prop :=
  (∀ a x, ((![v518, v522] : Fin 2 → IVec S16 32) a x).toNat < S2x4096.size a)
instance k0_chk108.dec : ∀ (v518 : IVec S16 32) (v522 : IVec S16 32), Decidable (k0_chk108 v518 v522) := fun v518 v522 => decidable_of_iff' _ (Iff.of_eq (k0_chk108.eq_1 v518 v522))
theorem k0_idx108_inb : ∀ (v518 : IVec S16 32) (v522 : IVec S16 32) (k0_hw108 : k0_chk108 v518 v522), ∀ a x, ((![v518, v522] : Fin 2 → IVec S16 32) a x).toNat < S2x4096.size a := fun v518 v522 k0_hw108 => k0_hw108

def k0_chk109 (v523 : IVec S16 32) (v524 : IVec S16 32) : Prop :=
  (∀ a x, ((![v523, v524] : Fin 2 → IVec S16 32) a x).toNat < S2x4096.size a)
instance k0_chk109.dec : ∀ (v523 : IVec S16 32) (v524 : IVec S16 32), Decidable (k0_chk109 v523 v524) := fun v523 v524 => decidable_of_iff' _ (Iff.of_eq (k0_chk109.eq_1 v523 v524))
theorem k0_idx109_inb : ∀ (v523 : IVec S16 32) (v524 : IVec S16 32) (k0_hw109 : k0_chk109 v523 v524), ∀ a x, ((![v523, v524] : Fin 2 → IVec S16 32) a x).toNat < S2x4096.size a := fun v523 v524 k0_hw109 => k0_hw109

def k0_chk110 (v523 : IVec S16 32) (v525 : IVec S16 32) : Prop :=
  (∀ a x, ((![v523, v525] : Fin 2 → IVec S16 32) a x).toNat < S2x4096.size a)
instance k0_chk110.dec : ∀ (v523 : IVec S16 32) (v525 : IVec S16 32), Decidable (k0_chk110 v523 v525) := fun v523 v525 => decidable_of_iff' _ (Iff.of_eq (k0_chk110.eq_1 v523 v525))
theorem k0_idx110_inb : ∀ (v523 : IVec S16 32) (v525 : IVec S16 32) (k0_hw110 : k0_chk110 v523 v525), ∀ a x, ((![v523, v525] : Fin 2 → IVec S16 32) a x).toNat < S2x4096.size a := fun v523 v525 k0_hw110 => k0_hw110

def k0_chk111 (v523 : IVec S16 32) (v526 : IVec S16 32) : Prop :=
  (∀ a x, ((![v523, v526] : Fin 2 → IVec S16 32) a x).toNat < S2x4096.size a)
instance k0_chk111.dec : ∀ (v523 : IVec S16 32) (v526 : IVec S16 32), Decidable (k0_chk111 v523 v526) := fun v523 v526 => decidable_of_iff' _ (Iff.of_eq (k0_chk111.eq_1 v523 v526))
theorem k0_idx111_inb : ∀ (v523 : IVec S16 32) (v526 : IVec S16 32) (k0_hw111 : k0_chk111 v523 v526), ∀ a x, ((![v523, v526] : Fin 2 → IVec S16 32) a x).toNat < S2x4096.size a := fun v523 v526 k0_hw111 => k0_hw111

def k0_chk112 (v523 : IVec S16 32) (v527 : IVec S16 32) : Prop :=
  (∀ a x, ((![v523, v527] : Fin 2 → IVec S16 32) a x).toNat < S2x4096.size a)
instance k0_chk112.dec : ∀ (v523 : IVec S16 32) (v527 : IVec S16 32), Decidable (k0_chk112 v523 v527) := fun v523 v527 => decidable_of_iff' _ (Iff.of_eq (k0_chk112.eq_1 v523 v527))
theorem k0_idx112_inb : ∀ (v523 : IVec S16 32) (v527 : IVec S16 32) (k0_hw112 : k0_chk112 v523 v527), ∀ a x, ((![v523, v527] : Fin 2 → IVec S16 32) a x).toNat < S2x4096.size a := fun v523 v527 k0_hw112 => k0_hw112
def k0_off26 (i : grid0.Coords) (k0_t1 : Fin k0_t1_loop.trips) (c5_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_462 : BitVec 32 := 8#32
  let v512 : BitVec 32 := Scalar.muli arg30 c8_i32_462
  let v513 : BitVec 32 := Scalar.addi v512 c5_i32
  let c2_i32_476 : BitVec 32 := 2#32
  let v528 : BitVec 32 := Scalar.muli v513 c2_i32_476
  let v529 : BitVec 32 := Scalar.addi v2 v528
  let c0_i32_477 : BitVec 32 := 0#32
  ![v529.toNat, 0]
def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_462 : BitVec 32 := 8#32
  let v512 : BitVec 32 := Scalar.muli arg30 c8_i32_462
  let c5_i32 : BitVec 32 := 5#32
  let v513 : BitVec 32 := Scalar.addi v512 c5_i32
  let c1_i32_479 : BitVec 32 := 1#32
  let v532 : BitVec 32 := Scalar.subi v513 c1_i32_479
  let c2_i32_480 : BitVec 32 := 2#32
  let v533 : BitVec 32 := Scalar.muli v532 c2_i32_480
  let v534 : BitVec 32 := Scalar.addi v2 v533
  let c0_i32_481 : BitVec 32 := 0#32
  ![v534.toNat, 0]
def k0_off28 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_462 : BitVec 32 := 8#32
  let v512 : BitVec 32 := Scalar.muli arg30 c8_i32_462
  let c5_i32 : BitVec 32 := 5#32
  let v513 : BitVec 32 := Scalar.addi v512 c5_i32
  let c8_i32_483 : BitVec 32 := 8#32
  let v537 : BitVec 32 := Scalar.addi v513 c8_i32_483
  let c1_i32_484 : BitVec 32 := 1#32
  let v538 : BitVec 32 := Scalar.subi v537 c1_i32_484
  let c2_i32_485 : BitVec 32 := 2#32
  let v539 : BitVec 32 := Scalar.muli v538 c2_i32_485
  let v540 : BitVec 32 := Scalar.addi v2 v539
  let c0_i32_486 : BitVec 32 := 0#32
  ![v540.toNat, 0]

def k0_chk113 (v549 : IVec S16 32) (v550 : IVec S16 32) : Prop :=
  (∀ a x, ((![v549, v550] : Fin 2 → IVec S16 32) a x).toNat < S2x4096.size a)
instance k0_chk113.dec : ∀ (v549 : IVec S16 32) (v550 : IVec S16 32), Decidable (k0_chk113 v549 v550) := fun v549 v550 => decidable_of_iff' _ (Iff.of_eq (k0_chk113.eq_1 v549 v550))
theorem k0_idx113_inb : ∀ (v549 : IVec S16 32) (v550 : IVec S16 32) (k0_hw113 : k0_chk113 v549 v550), ∀ a x, ((![v549, v550] : Fin 2 → IVec S16 32) a x).toNat < S2x4096.size a := fun v549 v550 k0_hw113 => k0_hw113

def k0_chk114 (v549 : IVec S16 32) (v551 : IVec S16 32) : Prop :=
  (∀ a x, ((![v549, v551] : Fin 2 → IVec S16 32) a x).toNat < S2x4096.size a)
instance k0_chk114.dec : ∀ (v549 : IVec S16 32) (v551 : IVec S16 32), Decidable (k0_chk114 v549 v551) := fun v549 v551 => decidable_of_iff' _ (Iff.of_eq (k0_chk114.eq_1 v549 v551))
theorem k0_idx114_inb : ∀ (v549 : IVec S16 32) (v551 : IVec S16 32) (k0_hw114 : k0_chk114 v549 v551), ∀ a x, ((![v549, v551] : Fin 2 → IVec S16 32) a x).toNat < S2x4096.size a := fun v549 v551 k0_hw114 => k0_hw114

def k0_chk115 (v549 : IVec S16 32) (v552 : IVec S16 32) : Prop :=
  (∀ a x, ((![v549, v552] : Fin 2 → IVec S16 32) a x).toNat < S2x4096.size a)
instance k0_chk115.dec : ∀ (v549 : IVec S16 32) (v552 : IVec S16 32), Decidable (k0_chk115 v549 v552) := fun v549 v552 => decidable_of_iff' _ (Iff.of_eq (k0_chk115.eq_1 v549 v552))
theorem k0_idx115_inb : ∀ (v549 : IVec S16 32) (v552 : IVec S16 32) (k0_hw115 : k0_chk115 v549 v552), ∀ a x, ((![v549, v552] : Fin 2 → IVec S16 32) a x).toNat < S2x4096.size a := fun v549 v552 k0_hw115 => k0_hw115

def k0_chk116 (v549 : IVec S16 32) (v553 : IVec S16 32) : Prop :=
  (∀ a x, ((![v549, v553] : Fin 2 → IVec S16 32) a x).toNat < S2x4096.size a)
instance k0_chk116.dec : ∀ (v549 : IVec S16 32) (v553 : IVec S16 32), Decidable (k0_chk116 v549 v553) := fun v549 v553 => decidable_of_iff' _ (Iff.of_eq (k0_chk116.eq_1 v549 v553))
theorem k0_idx116_inb : ∀ (v549 : IVec S16 32) (v553 : IVec S16 32) (k0_hw116 : k0_chk116 v549 v553), ∀ a x, ((![v549, v553] : Fin 2 → IVec S16 32) a x).toNat < S2x4096.size a := fun v549 v553 k0_hw116 => k0_hw116

def k0_chk117 (v554 : IVec S16 32) (v555 : IVec S16 32) : Prop :=
  (∀ a x, ((![v554, v555] : Fin 2 → IVec S16 32) a x).toNat < S2x4096.size a)
instance k0_chk117.dec : ∀ (v554 : IVec S16 32) (v555 : IVec S16 32), Decidable (k0_chk117 v554 v555) := fun v554 v555 => decidable_of_iff' _ (Iff.of_eq (k0_chk117.eq_1 v554 v555))
theorem k0_idx117_inb : ∀ (v554 : IVec S16 32) (v555 : IVec S16 32) (k0_hw117 : k0_chk117 v554 v555), ∀ a x, ((![v554, v555] : Fin 2 → IVec S16 32) a x).toNat < S2x4096.size a := fun v554 v555 k0_hw117 => k0_hw117

def k0_chk118 (v554 : IVec S16 32) (v556 : IVec S16 32) : Prop :=
  (∀ a x, ((![v554, v556] : Fin 2 → IVec S16 32) a x).toNat < S2x4096.size a)
instance k0_chk118.dec : ∀ (v554 : IVec S16 32) (v556 : IVec S16 32), Decidable (k0_chk118 v554 v556) := fun v554 v556 => decidable_of_iff' _ (Iff.of_eq (k0_chk118.eq_1 v554 v556))
theorem k0_idx118_inb : ∀ (v554 : IVec S16 32) (v556 : IVec S16 32) (k0_hw118 : k0_chk118 v554 v556), ∀ a x, ((![v554, v556] : Fin 2 → IVec S16 32) a x).toNat < S2x4096.size a := fun v554 v556 k0_hw118 => k0_hw118

def k0_chk119 (v554 : IVec S16 32) (v557 : IVec S16 32) : Prop :=
  (∀ a x, ((![v554, v557] : Fin 2 → IVec S16 32) a x).toNat < S2x4096.size a)
instance k0_chk119.dec : ∀ (v554 : IVec S16 32) (v557 : IVec S16 32), Decidable (k0_chk119 v554 v557) := fun v554 v557 => decidable_of_iff' _ (Iff.of_eq (k0_chk119.eq_1 v554 v557))
theorem k0_idx119_inb : ∀ (v554 : IVec S16 32) (v557 : IVec S16 32) (k0_hw119 : k0_chk119 v554 v557), ∀ a x, ((![v554, v557] : Fin 2 → IVec S16 32) a x).toNat < S2x4096.size a := fun v554 v557 k0_hw119 => k0_hw119

def k0_chk120 (v554 : IVec S16 32) (v558 : IVec S16 32) : Prop :=
  (∀ a x, ((![v554, v558] : Fin 2 → IVec S16 32) a x).toNat < S2x4096.size a)
instance k0_chk120.dec : ∀ (v554 : IVec S16 32) (v558 : IVec S16 32), Decidable (k0_chk120 v554 v558) := fun v554 v558 => decidable_of_iff' _ (Iff.of_eq (k0_chk120.eq_1 v554 v558))
theorem k0_idx120_inb : ∀ (v554 : IVec S16 32) (v558 : IVec S16 32) (k0_hw120 : k0_chk120 v554 v558), ∀ a x, ((![v554, v558] : Fin 2 → IVec S16 32) a x).toNat < S2x4096.size a := fun v554 v558 k0_hw120 => k0_hw120
def k0_off29 (i : grid0.Coords) (k0_t1 : Fin k0_t1_loop.trips) (c6_i32_489 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_488 : BitVec 32 := 8#32
  let v543 : BitVec 32 := Scalar.muli arg30 c8_i32_488
  let v544 : BitVec 32 := Scalar.addi v543 c6_i32_489
  let c2_i32_503 : BitVec 32 := 2#32
  let v559 : BitVec 32 := Scalar.muli v544 c2_i32_503
  let v560 : BitVec 32 := Scalar.addi v2 v559
  let c0_i32_504 : BitVec 32 := 0#32
  ![v560.toNat, 0]
def k0_off30 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_488 : BitVec 32 := 8#32
  let v543 : BitVec 32 := Scalar.muli arg30 c8_i32_488
  let c6_i32_489 : BitVec 32 := 6#32
  let v544 : BitVec 32 := Scalar.addi v543 c6_i32_489
  let c1_i32_506 : BitVec 32 := 1#32
  let v563 : BitVec 32 := Scalar.subi v544 c1_i32_506
  let c2_i32_507 : BitVec 32 := 2#32
  let v564 : BitVec 32 := Scalar.muli v563 c2_i32_507
  let v565 : BitVec 32 := Scalar.addi v2 v564
  let c0_i32_508 : BitVec 32 := 0#32
  ![v565.toNat, 0]
def k0_off31 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_488 : BitVec 32 := 8#32
  let v543 : BitVec 32 := Scalar.muli arg30 c8_i32_488
  let c6_i32_489 : BitVec 32 := 6#32
  let v544 : BitVec 32 := Scalar.addi v543 c6_i32_489
  let c8_i32_510 : BitVec 32 := 8#32
  let v568 : BitVec 32 := Scalar.addi v544 c8_i32_510
  let c1_i32_511 : BitVec 32 := 1#32
  let v569 : BitVec 32 := Scalar.subi v568 c1_i32_511
  let c2_i32_512 : BitVec 32 := 2#32
  let v570 : BitVec 32 := Scalar.muli v569 c2_i32_512
  let v571 : BitVec 32 := Scalar.addi v2 v570
  let c0_i32_513 : BitVec 32 := 0#32
  ![v571.toNat, 0]

def k0_chk121 (v580 : IVec S16 32) (v581 : IVec S16 32) : Prop :=
  (∀ a x, ((![v580, v581] : Fin 2 → IVec S16 32) a x).toNat < S2x4096.size a)
instance k0_chk121.dec : ∀ (v580 : IVec S16 32) (v581 : IVec S16 32), Decidable (k0_chk121 v580 v581) := fun v580 v581 => decidable_of_iff' _ (Iff.of_eq (k0_chk121.eq_1 v580 v581))
theorem k0_idx121_inb : ∀ (v580 : IVec S16 32) (v581 : IVec S16 32) (k0_hw121 : k0_chk121 v580 v581), ∀ a x, ((![v580, v581] : Fin 2 → IVec S16 32) a x).toNat < S2x4096.size a := fun v580 v581 k0_hw121 => k0_hw121

def k0_chk122 (v580 : IVec S16 32) (v582 : IVec S16 32) : Prop :=
  (∀ a x, ((![v580, v582] : Fin 2 → IVec S16 32) a x).toNat < S2x4096.size a)
instance k0_chk122.dec : ∀ (v580 : IVec S16 32) (v582 : IVec S16 32), Decidable (k0_chk122 v580 v582) := fun v580 v582 => decidable_of_iff' _ (Iff.of_eq (k0_chk122.eq_1 v580 v582))
theorem k0_idx122_inb : ∀ (v580 : IVec S16 32) (v582 : IVec S16 32) (k0_hw122 : k0_chk122 v580 v582), ∀ a x, ((![v580, v582] : Fin 2 → IVec S16 32) a x).toNat < S2x4096.size a := fun v580 v582 k0_hw122 => k0_hw122

def k0_chk123 (v580 : IVec S16 32) (v583 : IVec S16 32) : Prop :=
  (∀ a x, ((![v580, v583] : Fin 2 → IVec S16 32) a x).toNat < S2x4096.size a)
instance k0_chk123.dec : ∀ (v580 : IVec S16 32) (v583 : IVec S16 32), Decidable (k0_chk123 v580 v583) := fun v580 v583 => decidable_of_iff' _ (Iff.of_eq (k0_chk123.eq_1 v580 v583))
theorem k0_idx123_inb : ∀ (v580 : IVec S16 32) (v583 : IVec S16 32) (k0_hw123 : k0_chk123 v580 v583), ∀ a x, ((![v580, v583] : Fin 2 → IVec S16 32) a x).toNat < S2x4096.size a := fun v580 v583 k0_hw123 => k0_hw123

def k0_chk124 (v580 : IVec S16 32) (v584 : IVec S16 32) : Prop :=
  (∀ a x, ((![v580, v584] : Fin 2 → IVec S16 32) a x).toNat < S2x4096.size a)
instance k0_chk124.dec : ∀ (v580 : IVec S16 32) (v584 : IVec S16 32), Decidable (k0_chk124 v580 v584) := fun v580 v584 => decidable_of_iff' _ (Iff.of_eq (k0_chk124.eq_1 v580 v584))
theorem k0_idx124_inb : ∀ (v580 : IVec S16 32) (v584 : IVec S16 32) (k0_hw124 : k0_chk124 v580 v584), ∀ a x, ((![v580, v584] : Fin 2 → IVec S16 32) a x).toNat < S2x4096.size a := fun v580 v584 k0_hw124 => k0_hw124

def k0_chk125 (v585 : IVec S16 32) (v586 : IVec S16 32) : Prop :=
  (∀ a x, ((![v585, v586] : Fin 2 → IVec S16 32) a x).toNat < S2x4096.size a)
instance k0_chk125.dec : ∀ (v585 : IVec S16 32) (v586 : IVec S16 32), Decidable (k0_chk125 v585 v586) := fun v585 v586 => decidable_of_iff' _ (Iff.of_eq (k0_chk125.eq_1 v585 v586))
theorem k0_idx125_inb : ∀ (v585 : IVec S16 32) (v586 : IVec S16 32) (k0_hw125 : k0_chk125 v585 v586), ∀ a x, ((![v585, v586] : Fin 2 → IVec S16 32) a x).toNat < S2x4096.size a := fun v585 v586 k0_hw125 => k0_hw125

def k0_chk126 (v585 : IVec S16 32) (v587 : IVec S16 32) : Prop :=
  (∀ a x, ((![v585, v587] : Fin 2 → IVec S16 32) a x).toNat < S2x4096.size a)
instance k0_chk126.dec : ∀ (v585 : IVec S16 32) (v587 : IVec S16 32), Decidable (k0_chk126 v585 v587) := fun v585 v587 => decidable_of_iff' _ (Iff.of_eq (k0_chk126.eq_1 v585 v587))
theorem k0_idx126_inb : ∀ (v585 : IVec S16 32) (v587 : IVec S16 32) (k0_hw126 : k0_chk126 v585 v587), ∀ a x, ((![v585, v587] : Fin 2 → IVec S16 32) a x).toNat < S2x4096.size a := fun v585 v587 k0_hw126 => k0_hw126

def k0_chk127 (v585 : IVec S16 32) (v588 : IVec S16 32) : Prop :=
  (∀ a x, ((![v585, v588] : Fin 2 → IVec S16 32) a x).toNat < S2x4096.size a)
instance k0_chk127.dec : ∀ (v585 : IVec S16 32) (v588 : IVec S16 32), Decidable (k0_chk127 v585 v588) := fun v585 v588 => decidable_of_iff' _ (Iff.of_eq (k0_chk127.eq_1 v585 v588))
theorem k0_idx127_inb : ∀ (v585 : IVec S16 32) (v588 : IVec S16 32) (k0_hw127 : k0_chk127 v585 v588), ∀ a x, ((![v585, v588] : Fin 2 → IVec S16 32) a x).toNat < S2x4096.size a := fun v585 v588 k0_hw127 => k0_hw127

def k0_chk128 (v585 : IVec S16 32) (v589 : IVec S16 32) : Prop :=
  (∀ a x, ((![v585, v589] : Fin 2 → IVec S16 32) a x).toNat < S2x4096.size a)
instance k0_chk128.dec : ∀ (v585 : IVec S16 32) (v589 : IVec S16 32), Decidable (k0_chk128 v585 v589) := fun v585 v589 => decidable_of_iff' _ (Iff.of_eq (k0_chk128.eq_1 v585 v589))
theorem k0_idx128_inb : ∀ (v585 : IVec S16 32) (v589 : IVec S16 32) (k0_hw128 : k0_chk128 v585 v589), ∀ a x, ((![v585, v589] : Fin 2 → IVec S16 32) a x).toNat < S2x4096.size a := fun v585 v589 k0_hw128 => k0_hw128
def k0_off32 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_515 : BitVec 32 := 8#32
  let v574 : BitVec 32 := Scalar.muli arg30 c8_i32_515
  let c7_i32 : BitVec 32 := 7#32
  let v575 : BitVec 32 := Scalar.addi v574 c7_i32
  let c2_i32_529 : BitVec 32 := 2#32
  let v590 : BitVec 32 := Scalar.muli v575 c2_i32_529
  let v591 : BitVec 32 := Scalar.addi v2 v590
  let c0_i32_530 : BitVec 32 := 0#32
  ![v591.toNat, 0]
def k0_off33 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_515 : BitVec 32 := 8#32
  let v574 : BitVec 32 := Scalar.muli arg30 c8_i32_515
  let c7_i32 : BitVec 32 := 7#32
  let v575 : BitVec 32 := Scalar.addi v574 c7_i32
  let c1_i32_532 : BitVec 32 := 1#32
  let v594 : BitVec 32 := Scalar.subi v575 c1_i32_532
  let c2_i32_533 : BitVec 32 := 2#32
  let v595 : BitVec 32 := Scalar.muli v594 c2_i32_533
  let v596 : BitVec 32 := Scalar.addi v2 v595
  let c0_i32_534 : BitVec 32 := 0#32
  ![v596.toNat, 0]
def k0_off34 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c1_i32_176 : BitVec 32 := 1#32
  let c1_i32_177 : BitVec 32 := 1#32
  let arg30 : BitVec 32 := Scf.iv c1_i32_176 c1_i32_177 k0_t1
  let c8_i32_515 : BitVec 32 := 8#32
  let v574 : BitVec 32 := Scalar.muli arg30 c8_i32_515
  let c7_i32 : BitVec 32 := 7#32
  let v575 : BitVec 32 := Scalar.addi v574 c7_i32
  let c8_i32_536 : BitVec 32 := 8#32
  let v599 : BitVec 32 := Scalar.addi v575 c8_i32_536
  let c1_i32_537 : BitVec 32 := 1#32
  let v600 : BitVec 32 := Scalar.subi v599 c1_i32_537
  let c2_i32_538 : BitVec 32 := 2#32
  let v601 : BitVec 32 := Scalar.muli v600 c2_i32_538
  let v602 : BitVec 32 := Scalar.addi v2 v601
  let c0_i32_539 : BitVec 32 := 0#32
  ![v602.toNat, 0]

def k0_chk129 (v202 : IVec S16 32) (v203 : IVec S16 32) : Prop :=
  (∀ a x, ((![v202, v203] : Fin 2 → IVec S16 32) a x).toNat < S2x4096.size a)
instance k0_chk129.dec : ∀ (v202 : IVec S16 32) (v203 : IVec S16 32), Decidable (k0_chk129 v202 v203) := fun v202 v203 => decidable_of_iff' _ (Iff.of_eq (k0_chk129.eq_1 v202 v203))
theorem k0_idx129_inb : ∀ (v202 : IVec S16 32) (v203 : IVec S16 32) (k0_hw129 : k0_chk129 v202 v203), ∀ a x, ((![v202, v203] : Fin 2 → IVec S16 32) a x).toNat < S2x4096.size a := fun v202 v203 k0_hw129 => k0_hw129

def k0_chk130 (v202 : IVec S16 32) (v204 : IVec S16 32) : Prop :=
  (∀ a x, ((![v202, v204] : Fin 2 → IVec S16 32) a x).toNat < S2x4096.size a)
instance k0_chk130.dec : ∀ (v202 : IVec S16 32) (v204 : IVec S16 32), Decidable (k0_chk130 v202 v204) := fun v202 v204 => decidable_of_iff' _ (Iff.of_eq (k0_chk130.eq_1 v202 v204))
theorem k0_idx130_inb : ∀ (v202 : IVec S16 32) (v204 : IVec S16 32) (k0_hw130 : k0_chk130 v202 v204), ∀ a x, ((![v202, v204] : Fin 2 → IVec S16 32) a x).toNat < S2x4096.size a := fun v202 v204 k0_hw130 => k0_hw130

def k0_chk131 (v202 : IVec S16 32) (v205 : IVec S16 32) : Prop :=
  (∀ a x, ((![v202, v205] : Fin 2 → IVec S16 32) a x).toNat < S2x4096.size a)
instance k0_chk131.dec : ∀ (v202 : IVec S16 32) (v205 : IVec S16 32), Decidable (k0_chk131 v202 v205) := fun v202 v205 => decidable_of_iff' _ (Iff.of_eq (k0_chk131.eq_1 v202 v205))
theorem k0_idx131_inb : ∀ (v202 : IVec S16 32) (v205 : IVec S16 32) (k0_hw131 : k0_chk131 v202 v205), ∀ a x, ((![v202, v205] : Fin 2 → IVec S16 32) a x).toNat < S2x4096.size a := fun v202 v205 k0_hw131 => k0_hw131

def k0_chk132 (v202 : IVec S16 32) (v206 : IVec S16 32) : Prop :=
  (∀ a x, ((![v202, v206] : Fin 2 → IVec S16 32) a x).toNat < S2x4096.size a)
instance k0_chk132.dec : ∀ (v202 : IVec S16 32) (v206 : IVec S16 32), Decidable (k0_chk132 v202 v206) := fun v202 v206 => decidable_of_iff' _ (Iff.of_eq (k0_chk132.eq_1 v202 v206))
theorem k0_idx132_inb : ∀ (v202 : IVec S16 32) (v206 : IVec S16 32) (k0_hw132 : k0_chk132 v202 v206), ∀ a x, ((![v202, v206] : Fin 2 → IVec S16 32) a x).toNat < S2x4096.size a := fun v202 v206 k0_hw132 => k0_hw132

def k0_chk133 (v207 : IVec S16 32) (v208 : IVec S16 32) : Prop :=
  (∀ a x, ((![v207, v208] : Fin 2 → IVec S16 32) a x).toNat < S2x4096.size a)
instance k0_chk133.dec : ∀ (v207 : IVec S16 32) (v208 : IVec S16 32), Decidable (k0_chk133 v207 v208) := fun v207 v208 => decidable_of_iff' _ (Iff.of_eq (k0_chk133.eq_1 v207 v208))
theorem k0_idx133_inb : ∀ (v207 : IVec S16 32) (v208 : IVec S16 32) (k0_hw133 : k0_chk133 v207 v208), ∀ a x, ((![v207, v208] : Fin 2 → IVec S16 32) a x).toNat < S2x4096.size a := fun v207 v208 k0_hw133 => k0_hw133

def k0_chk134 (v207 : IVec S16 32) (v209 : IVec S16 32) : Prop :=
  (∀ a x, ((![v207, v209] : Fin 2 → IVec S16 32) a x).toNat < S2x4096.size a)
instance k0_chk134.dec : ∀ (v207 : IVec S16 32) (v209 : IVec S16 32), Decidable (k0_chk134 v207 v209) := fun v207 v209 => decidable_of_iff' _ (Iff.of_eq (k0_chk134.eq_1 v207 v209))
theorem k0_idx134_inb : ∀ (v207 : IVec S16 32) (v209 : IVec S16 32) (k0_hw134 : k0_chk134 v207 v209), ∀ a x, ((![v207, v209] : Fin 2 → IVec S16 32) a x).toNat < S2x4096.size a := fun v207 v209 k0_hw134 => k0_hw134

def k0_chk135 (v207 : IVec S16 32) (v210 : IVec S16 32) : Prop :=
  (∀ a x, ((![v207, v210] : Fin 2 → IVec S16 32) a x).toNat < S2x4096.size a)
instance k0_chk135.dec : ∀ (v207 : IVec S16 32) (v210 : IVec S16 32), Decidable (k0_chk135 v207 v210) := fun v207 v210 => decidable_of_iff' _ (Iff.of_eq (k0_chk135.eq_1 v207 v210))
theorem k0_idx135_inb : ∀ (v207 : IVec S16 32) (v210 : IVec S16 32) (k0_hw135 : k0_chk135 v207 v210), ∀ a x, ((![v207, v210] : Fin 2 → IVec S16 32) a x).toNat < S2x4096.size a := fun v207 v210 k0_hw135 => k0_hw135

def k0_chk136 (v207 : IVec S16 32) (v211 : IVec S16 32) : Prop :=
  (∀ a x, ((![v207, v211] : Fin 2 → IVec S16 32) a x).toNat < S2x4096.size a)
instance k0_chk136.dec : ∀ (v207 : IVec S16 32) (v211 : IVec S16 32), Decidable (k0_chk136 v207 v211) := fun v207 v211 => decidable_of_iff' _ (Iff.of_eq (k0_chk136.eq_1 v207 v211))
theorem k0_idx136_inb : ∀ (v207 : IVec S16 32) (v211 : IVec S16 32) (k0_hw136 : k0_chk136 v207 v211), ∀ a x, ((![v207, v211] : Fin 2 → IVec S16 32) a x).toNat < S2x4096.size a := fun v207 v211 k0_hw136 => k0_hw136
def k0_off35 (i : grid0.Coords) (c496_i32_191 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v212 : BitVec 32 := Scalar.addi v2 c496_i32_191
  let c0_i32_192 : BitVec 32 := 0#32
  ![v212.toNat, 0]
def k0_off35_at (r : Fin 4) : BitVec 32 :=
  if r.val < 2 then
    if r.val < 1 then
      496#32
    else
      494#32
  else
    if r.val < 3 then
      510#32
    else
      498#32

def k0_chk137 (v224 : IVec S16 32) (v225 : IVec S16 32) : Prop :=
  (∀ a x, ((![v224, v225] : Fin 2 → IVec S16 32) a x).toNat < S2x4096.size a)
instance k0_chk137.dec : ∀ (v224 : IVec S16 32) (v225 : IVec S16 32), Decidable (k0_chk137 v224 v225) := fun v224 v225 => decidable_of_iff' _ (Iff.of_eq (k0_chk137.eq_1 v224 v225))
theorem k0_idx137_inb : ∀ (v224 : IVec S16 32) (v225 : IVec S16 32) (k0_hw137 : k0_chk137 v224 v225), ∀ a x, ((![v224, v225] : Fin 2 → IVec S16 32) a x).toNat < S2x4096.size a := fun v224 v225 k0_hw137 => k0_hw137

def k0_chk138 (v224 : IVec S16 32) (v226 : IVec S16 32) : Prop :=
  (∀ a x, ((![v224, v226] : Fin 2 → IVec S16 32) a x).toNat < S2x4096.size a)
instance k0_chk138.dec : ∀ (v224 : IVec S16 32) (v226 : IVec S16 32), Decidable (k0_chk138 v224 v226) := fun v224 v226 => decidable_of_iff' _ (Iff.of_eq (k0_chk138.eq_1 v224 v226))
theorem k0_idx138_inb : ∀ (v224 : IVec S16 32) (v226 : IVec S16 32) (k0_hw138 : k0_chk138 v224 v226), ∀ a x, ((![v224, v226] : Fin 2 → IVec S16 32) a x).toNat < S2x4096.size a := fun v224 v226 k0_hw138 => k0_hw138

def k0_chk139 (v224 : IVec S16 32) (v227 : IVec S16 32) : Prop :=
  (∀ a x, ((![v224, v227] : Fin 2 → IVec S16 32) a x).toNat < S2x4096.size a)
instance k0_chk139.dec : ∀ (v224 : IVec S16 32) (v227 : IVec S16 32), Decidable (k0_chk139 v224 v227) := fun v224 v227 => decidable_of_iff' _ (Iff.of_eq (k0_chk139.eq_1 v224 v227))
theorem k0_idx139_inb : ∀ (v224 : IVec S16 32) (v227 : IVec S16 32) (k0_hw139 : k0_chk139 v224 v227), ∀ a x, ((![v224, v227] : Fin 2 → IVec S16 32) a x).toNat < S2x4096.size a := fun v224 v227 k0_hw139 => k0_hw139

def k0_chk140 (v224 : IVec S16 32) (v228 : IVec S16 32) : Prop :=
  (∀ a x, ((![v224, v228] : Fin 2 → IVec S16 32) a x).toNat < S2x4096.size a)
instance k0_chk140.dec : ∀ (v224 : IVec S16 32) (v228 : IVec S16 32), Decidable (k0_chk140 v224 v228) := fun v224 v228 => decidable_of_iff' _ (Iff.of_eq (k0_chk140.eq_1 v224 v228))
theorem k0_idx140_inb : ∀ (v224 : IVec S16 32) (v228 : IVec S16 32) (k0_hw140 : k0_chk140 v224 v228), ∀ a x, ((![v224, v228] : Fin 2 → IVec S16 32) a x).toNat < S2x4096.size a := fun v224 v228 k0_hw140 => k0_hw140

def k0_chk141 (v229 : IVec S16 32) (v230 : IVec S16 32) : Prop :=
  (∀ a x, ((![v229, v230] : Fin 2 → IVec S16 32) a x).toNat < S2x4096.size a)
instance k0_chk141.dec : ∀ (v229 : IVec S16 32) (v230 : IVec S16 32), Decidable (k0_chk141 v229 v230) := fun v229 v230 => decidable_of_iff' _ (Iff.of_eq (k0_chk141.eq_1 v229 v230))
theorem k0_idx141_inb : ∀ (v229 : IVec S16 32) (v230 : IVec S16 32) (k0_hw141 : k0_chk141 v229 v230), ∀ a x, ((![v229, v230] : Fin 2 → IVec S16 32) a x).toNat < S2x4096.size a := fun v229 v230 k0_hw141 => k0_hw141

def k0_chk142 (v229 : IVec S16 32) (v231 : IVec S16 32) : Prop :=
  (∀ a x, ((![v229, v231] : Fin 2 → IVec S16 32) a x).toNat < S2x4096.size a)
instance k0_chk142.dec : ∀ (v229 : IVec S16 32) (v231 : IVec S16 32), Decidable (k0_chk142 v229 v231) := fun v229 v231 => decidable_of_iff' _ (Iff.of_eq (k0_chk142.eq_1 v229 v231))
theorem k0_idx142_inb : ∀ (v229 : IVec S16 32) (v231 : IVec S16 32) (k0_hw142 : k0_chk142 v229 v231), ∀ a x, ((![v229, v231] : Fin 2 → IVec S16 32) a x).toNat < S2x4096.size a := fun v229 v231 k0_hw142 => k0_hw142

def k0_chk143 (v229 : IVec S16 32) (v232 : IVec S16 32) : Prop :=
  (∀ a x, ((![v229, v232] : Fin 2 → IVec S16 32) a x).toNat < S2x4096.size a)
instance k0_chk143.dec : ∀ (v229 : IVec S16 32) (v232 : IVec S16 32), Decidable (k0_chk143 v229 v232) := fun v229 v232 => decidable_of_iff' _ (Iff.of_eq (k0_chk143.eq_1 v229 v232))
theorem k0_idx143_inb : ∀ (v229 : IVec S16 32) (v232 : IVec S16 32) (k0_hw143 : k0_chk143 v229 v232), ∀ a x, ((![v229, v232] : Fin 2 → IVec S16 32) a x).toNat < S2x4096.size a := fun v229 v232 k0_hw143 => k0_hw143

def k0_chk144 (v229 : IVec S16 32) (v233 : IVec S16 32) : Prop :=
  (∀ a x, ((![v229, v233] : Fin 2 → IVec S16 32) a x).toNat < S2x4096.size a)
instance k0_chk144.dec : ∀ (v229 : IVec S16 32) (v233 : IVec S16 32), Decidable (k0_chk144 v229 v233) := fun v229 v233 => decidable_of_iff' _ (Iff.of_eq (k0_chk144.eq_1 v229 v233))
theorem k0_idx144_inb : ∀ (v229 : IVec S16 32) (v233 : IVec S16 32) (k0_hw144 : k0_chk144 v229 v233), ∀ a x, ((![v229, v233] : Fin 2 → IVec S16 32) a x).toNat < S2x4096.size a := fun v229 v233 k0_hw144 => k0_hw144
def k0_off36 (i : grid0.Coords) (c498_i32_210 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v234 : BitVec 32 := Scalar.addi v2 c498_i32_210
  let c0_i32_211 : BitVec 32 := 0#32
  ![v234.toNat, 0]

def k0_chk145 (v243 : IVec S16 32) (v244 : IVec S16 32) : Prop :=
  (∀ a x, ((![v243, v244] : Fin 2 → IVec S16 32) a x).toNat < S2x4096.size a)
instance k0_chk145.dec : ∀ (v243 : IVec S16 32) (v244 : IVec S16 32), Decidable (k0_chk145 v243 v244) := fun v243 v244 => decidable_of_iff' _ (Iff.of_eq (k0_chk145.eq_1 v243 v244))
theorem k0_idx145_inb : ∀ (v243 : IVec S16 32) (v244 : IVec S16 32) (k0_hw145 : k0_chk145 v243 v244), ∀ a x, ((![v243, v244] : Fin 2 → IVec S16 32) a x).toNat < S2x4096.size a := fun v243 v244 k0_hw145 => k0_hw145

def k0_chk146 (v243 : IVec S16 32) (v245 : IVec S16 32) : Prop :=
  (∀ a x, ((![v243, v245] : Fin 2 → IVec S16 32) a x).toNat < S2x4096.size a)
instance k0_chk146.dec : ∀ (v243 : IVec S16 32) (v245 : IVec S16 32), Decidable (k0_chk146 v243 v245) := fun v243 v245 => decidable_of_iff' _ (Iff.of_eq (k0_chk146.eq_1 v243 v245))
theorem k0_idx146_inb : ∀ (v243 : IVec S16 32) (v245 : IVec S16 32) (k0_hw146 : k0_chk146 v243 v245), ∀ a x, ((![v243, v245] : Fin 2 → IVec S16 32) a x).toNat < S2x4096.size a := fun v243 v245 k0_hw146 => k0_hw146

def k0_chk147 (v243 : IVec S16 32) (v246 : IVec S16 32) : Prop :=
  (∀ a x, ((![v243, v246] : Fin 2 → IVec S16 32) a x).toNat < S2x4096.size a)
instance k0_chk147.dec : ∀ (v243 : IVec S16 32) (v246 : IVec S16 32), Decidable (k0_chk147 v243 v246) := fun v243 v246 => decidable_of_iff' _ (Iff.of_eq (k0_chk147.eq_1 v243 v246))
theorem k0_idx147_inb : ∀ (v243 : IVec S16 32) (v246 : IVec S16 32) (k0_hw147 : k0_chk147 v243 v246), ∀ a x, ((![v243, v246] : Fin 2 → IVec S16 32) a x).toNat < S2x4096.size a := fun v243 v246 k0_hw147 => k0_hw147

def k0_chk148 (v243 : IVec S16 32) (v247 : IVec S16 32) : Prop :=
  (∀ a x, ((![v243, v247] : Fin 2 → IVec S16 32) a x).toNat < S2x4096.size a)
instance k0_chk148.dec : ∀ (v243 : IVec S16 32) (v247 : IVec S16 32), Decidable (k0_chk148 v243 v247) := fun v243 v247 => decidable_of_iff' _ (Iff.of_eq (k0_chk148.eq_1 v243 v247))
theorem k0_idx148_inb : ∀ (v243 : IVec S16 32) (v247 : IVec S16 32) (k0_hw148 : k0_chk148 v243 v247), ∀ a x, ((![v243, v247] : Fin 2 → IVec S16 32) a x).toNat < S2x4096.size a := fun v243 v247 k0_hw148 => k0_hw148

def k0_chk149 (v248 : IVec S16 32) (v249 : IVec S16 32) : Prop :=
  (∀ a x, ((![v248, v249] : Fin 2 → IVec S16 32) a x).toNat < S2x4096.size a)
instance k0_chk149.dec : ∀ (v248 : IVec S16 32) (v249 : IVec S16 32), Decidable (k0_chk149 v248 v249) := fun v248 v249 => decidable_of_iff' _ (Iff.of_eq (k0_chk149.eq_1 v248 v249))
theorem k0_idx149_inb : ∀ (v248 : IVec S16 32) (v249 : IVec S16 32) (k0_hw149 : k0_chk149 v248 v249), ∀ a x, ((![v248, v249] : Fin 2 → IVec S16 32) a x).toNat < S2x4096.size a := fun v248 v249 k0_hw149 => k0_hw149

def k0_chk150 (v248 : IVec S16 32) (v250 : IVec S16 32) : Prop :=
  (∀ a x, ((![v248, v250] : Fin 2 → IVec S16 32) a x).toNat < S2x4096.size a)
instance k0_chk150.dec : ∀ (v248 : IVec S16 32) (v250 : IVec S16 32), Decidable (k0_chk150 v248 v250) := fun v248 v250 => decidable_of_iff' _ (Iff.of_eq (k0_chk150.eq_1 v248 v250))
theorem k0_idx150_inb : ∀ (v248 : IVec S16 32) (v250 : IVec S16 32) (k0_hw150 : k0_chk150 v248 v250), ∀ a x, ((![v248, v250] : Fin 2 → IVec S16 32) a x).toNat < S2x4096.size a := fun v248 v250 k0_hw150 => k0_hw150

def k0_chk151 (v248 : IVec S16 32) (v251 : IVec S16 32) : Prop :=
  (∀ a x, ((![v248, v251] : Fin 2 → IVec S16 32) a x).toNat < S2x4096.size a)
instance k0_chk151.dec : ∀ (v248 : IVec S16 32) (v251 : IVec S16 32), Decidable (k0_chk151 v248 v251) := fun v248 v251 => decidable_of_iff' _ (Iff.of_eq (k0_chk151.eq_1 v248 v251))
theorem k0_idx151_inb : ∀ (v248 : IVec S16 32) (v251 : IVec S16 32) (k0_hw151 : k0_chk151 v248 v251), ∀ a x, ((![v248, v251] : Fin 2 → IVec S16 32) a x).toNat < S2x4096.size a := fun v248 v251 k0_hw151 => k0_hw151

def k0_chk152 (v248 : IVec S16 32) (v252 : IVec S16 32) : Prop :=
  (∀ a x, ((![v248, v252] : Fin 2 → IVec S16 32) a x).toNat < S2x4096.size a)
instance k0_chk152.dec : ∀ (v248 : IVec S16 32) (v252 : IVec S16 32), Decidable (k0_chk152 v248 v252) := fun v248 v252 => decidable_of_iff' _ (Iff.of_eq (k0_chk152.eq_1 v248 v252))
theorem k0_idx152_inb : ∀ (v248 : IVec S16 32) (v252 : IVec S16 32) (k0_hw152 : k0_chk152 v248 v252), ∀ a x, ((![v248, v252] : Fin 2 → IVec S16 32) a x).toNat < S2x4096.size a := fun v248 v252 k0_hw152 => k0_hw152
def k0_off37 (i : grid0.Coords) (c500_i32_228 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v253 : BitVec 32 := Scalar.addi v2 c500_i32_228
  let c0_i32_229 : BitVec 32 := 0#32
  ![v253.toNat, 0]

def k0_chk153 (v262 : IVec S16 32) (v263 : IVec S16 32) : Prop :=
  (∀ a x, ((![v262, v263] : Fin 2 → IVec S16 32) a x).toNat < S2x4096.size a)
instance k0_chk153.dec : ∀ (v262 : IVec S16 32) (v263 : IVec S16 32), Decidable (k0_chk153 v262 v263) := fun v262 v263 => decidable_of_iff' _ (Iff.of_eq (k0_chk153.eq_1 v262 v263))
theorem k0_idx153_inb : ∀ (v262 : IVec S16 32) (v263 : IVec S16 32) (k0_hw153 : k0_chk153 v262 v263), ∀ a x, ((![v262, v263] : Fin 2 → IVec S16 32) a x).toNat < S2x4096.size a := fun v262 v263 k0_hw153 => k0_hw153

def k0_chk154 (v262 : IVec S16 32) (v264 : IVec S16 32) : Prop :=
  (∀ a x, ((![v262, v264] : Fin 2 → IVec S16 32) a x).toNat < S2x4096.size a)
instance k0_chk154.dec : ∀ (v262 : IVec S16 32) (v264 : IVec S16 32), Decidable (k0_chk154 v262 v264) := fun v262 v264 => decidable_of_iff' _ (Iff.of_eq (k0_chk154.eq_1 v262 v264))
theorem k0_idx154_inb : ∀ (v262 : IVec S16 32) (v264 : IVec S16 32) (k0_hw154 : k0_chk154 v262 v264), ∀ a x, ((![v262, v264] : Fin 2 → IVec S16 32) a x).toNat < S2x4096.size a := fun v262 v264 k0_hw154 => k0_hw154

def k0_chk155 (v262 : IVec S16 32) (v265 : IVec S16 32) : Prop :=
  (∀ a x, ((![v262, v265] : Fin 2 → IVec S16 32) a x).toNat < S2x4096.size a)
instance k0_chk155.dec : ∀ (v262 : IVec S16 32) (v265 : IVec S16 32), Decidable (k0_chk155 v262 v265) := fun v262 v265 => decidable_of_iff' _ (Iff.of_eq (k0_chk155.eq_1 v262 v265))
theorem k0_idx155_inb : ∀ (v262 : IVec S16 32) (v265 : IVec S16 32) (k0_hw155 : k0_chk155 v262 v265), ∀ a x, ((![v262, v265] : Fin 2 → IVec S16 32) a x).toNat < S2x4096.size a := fun v262 v265 k0_hw155 => k0_hw155

def k0_chk156 (v262 : IVec S16 32) (v266 : IVec S16 32) : Prop :=
  (∀ a x, ((![v262, v266] : Fin 2 → IVec S16 32) a x).toNat < S2x4096.size a)
instance k0_chk156.dec : ∀ (v262 : IVec S16 32) (v266 : IVec S16 32), Decidable (k0_chk156 v262 v266) := fun v262 v266 => decidable_of_iff' _ (Iff.of_eq (k0_chk156.eq_1 v262 v266))
theorem k0_idx156_inb : ∀ (v262 : IVec S16 32) (v266 : IVec S16 32) (k0_hw156 : k0_chk156 v262 v266), ∀ a x, ((![v262, v266] : Fin 2 → IVec S16 32) a x).toNat < S2x4096.size a := fun v262 v266 k0_hw156 => k0_hw156

def k0_chk157 (v267 : IVec S16 32) (v268 : IVec S16 32) : Prop :=
  (∀ a x, ((![v267, v268] : Fin 2 → IVec S16 32) a x).toNat < S2x4096.size a)
instance k0_chk157.dec : ∀ (v267 : IVec S16 32) (v268 : IVec S16 32), Decidable (k0_chk157 v267 v268) := fun v267 v268 => decidable_of_iff' _ (Iff.of_eq (k0_chk157.eq_1 v267 v268))
theorem k0_idx157_inb : ∀ (v267 : IVec S16 32) (v268 : IVec S16 32) (k0_hw157 : k0_chk157 v267 v268), ∀ a x, ((![v267, v268] : Fin 2 → IVec S16 32) a x).toNat < S2x4096.size a := fun v267 v268 k0_hw157 => k0_hw157

def k0_chk158 (v267 : IVec S16 32) (v269 : IVec S16 32) : Prop :=
  (∀ a x, ((![v267, v269] : Fin 2 → IVec S16 32) a x).toNat < S2x4096.size a)
instance k0_chk158.dec : ∀ (v267 : IVec S16 32) (v269 : IVec S16 32), Decidable (k0_chk158 v267 v269) := fun v267 v269 => decidable_of_iff' _ (Iff.of_eq (k0_chk158.eq_1 v267 v269))
theorem k0_idx158_inb : ∀ (v267 : IVec S16 32) (v269 : IVec S16 32) (k0_hw158 : k0_chk158 v267 v269), ∀ a x, ((![v267, v269] : Fin 2 → IVec S16 32) a x).toNat < S2x4096.size a := fun v267 v269 k0_hw158 => k0_hw158

def k0_chk159 (v267 : IVec S16 32) (v270 : IVec S16 32) : Prop :=
  (∀ a x, ((![v267, v270] : Fin 2 → IVec S16 32) a x).toNat < S2x4096.size a)
instance k0_chk159.dec : ∀ (v267 : IVec S16 32) (v270 : IVec S16 32), Decidable (k0_chk159 v267 v270) := fun v267 v270 => decidable_of_iff' _ (Iff.of_eq (k0_chk159.eq_1 v267 v270))
theorem k0_idx159_inb : ∀ (v267 : IVec S16 32) (v270 : IVec S16 32) (k0_hw159 : k0_chk159 v267 v270), ∀ a x, ((![v267, v270] : Fin 2 → IVec S16 32) a x).toNat < S2x4096.size a := fun v267 v270 k0_hw159 => k0_hw159

def k0_chk160 (v267 : IVec S16 32) (v271 : IVec S16 32) : Prop :=
  (∀ a x, ((![v267, v271] : Fin 2 → IVec S16 32) a x).toNat < S2x4096.size a)
instance k0_chk160.dec : ∀ (v267 : IVec S16 32) (v271 : IVec S16 32), Decidable (k0_chk160 v267 v271) := fun v267 v271 => decidable_of_iff' _ (Iff.of_eq (k0_chk160.eq_1 v267 v271))
theorem k0_idx160_inb : ∀ (v267 : IVec S16 32) (v271 : IVec S16 32) (k0_hw160 : k0_chk160 v267 v271), ∀ a x, ((![v267, v271] : Fin 2 → IVec S16 32) a x).toNat < S2x4096.size a := fun v267 v271 k0_hw160 => k0_hw160
def k0_off38 (i : grid0.Coords) (c502_i32_246 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v272 : BitVec 32 := Scalar.addi v2 c502_i32_246
  let c0_i32_247 : BitVec 32 := 0#32
  ![v272.toNat, 0]

def k0_chk161 (v281 : IVec S16 32) (v282 : IVec S16 32) : Prop :=
  (∀ a x, ((![v281, v282] : Fin 2 → IVec S16 32) a x).toNat < S2x4096.size a)
instance k0_chk161.dec : ∀ (v281 : IVec S16 32) (v282 : IVec S16 32), Decidable (k0_chk161 v281 v282) := fun v281 v282 => decidable_of_iff' _ (Iff.of_eq (k0_chk161.eq_1 v281 v282))
theorem k0_idx161_inb : ∀ (v281 : IVec S16 32) (v282 : IVec S16 32) (k0_hw161 : k0_chk161 v281 v282), ∀ a x, ((![v281, v282] : Fin 2 → IVec S16 32) a x).toNat < S2x4096.size a := fun v281 v282 k0_hw161 => k0_hw161

def k0_chk162 (v281 : IVec S16 32) (v283 : IVec S16 32) : Prop :=
  (∀ a x, ((![v281, v283] : Fin 2 → IVec S16 32) a x).toNat < S2x4096.size a)
instance k0_chk162.dec : ∀ (v281 : IVec S16 32) (v283 : IVec S16 32), Decidable (k0_chk162 v281 v283) := fun v281 v283 => decidable_of_iff' _ (Iff.of_eq (k0_chk162.eq_1 v281 v283))
theorem k0_idx162_inb : ∀ (v281 : IVec S16 32) (v283 : IVec S16 32) (k0_hw162 : k0_chk162 v281 v283), ∀ a x, ((![v281, v283] : Fin 2 → IVec S16 32) a x).toNat < S2x4096.size a := fun v281 v283 k0_hw162 => k0_hw162

def k0_chk163 (v281 : IVec S16 32) (v284 : IVec S16 32) : Prop :=
  (∀ a x, ((![v281, v284] : Fin 2 → IVec S16 32) a x).toNat < S2x4096.size a)
instance k0_chk163.dec : ∀ (v281 : IVec S16 32) (v284 : IVec S16 32), Decidable (k0_chk163 v281 v284) := fun v281 v284 => decidable_of_iff' _ (Iff.of_eq (k0_chk163.eq_1 v281 v284))
theorem k0_idx163_inb : ∀ (v281 : IVec S16 32) (v284 : IVec S16 32) (k0_hw163 : k0_chk163 v281 v284), ∀ a x, ((![v281, v284] : Fin 2 → IVec S16 32) a x).toNat < S2x4096.size a := fun v281 v284 k0_hw163 => k0_hw163

def k0_chk164 (v281 : IVec S16 32) (v285 : IVec S16 32) : Prop :=
  (∀ a x, ((![v281, v285] : Fin 2 → IVec S16 32) a x).toNat < S2x4096.size a)
instance k0_chk164.dec : ∀ (v281 : IVec S16 32) (v285 : IVec S16 32), Decidable (k0_chk164 v281 v285) := fun v281 v285 => decidable_of_iff' _ (Iff.of_eq (k0_chk164.eq_1 v281 v285))
theorem k0_idx164_inb : ∀ (v281 : IVec S16 32) (v285 : IVec S16 32) (k0_hw164 : k0_chk164 v281 v285), ∀ a x, ((![v281, v285] : Fin 2 → IVec S16 32) a x).toNat < S2x4096.size a := fun v281 v285 k0_hw164 => k0_hw164

def k0_chk165 (v286 : IVec S16 32) (v287 : IVec S16 32) : Prop :=
  (∀ a x, ((![v286, v287] : Fin 2 → IVec S16 32) a x).toNat < S2x4096.size a)
instance k0_chk165.dec : ∀ (v286 : IVec S16 32) (v287 : IVec S16 32), Decidable (k0_chk165 v286 v287) := fun v286 v287 => decidable_of_iff' _ (Iff.of_eq (k0_chk165.eq_1 v286 v287))
theorem k0_idx165_inb : ∀ (v286 : IVec S16 32) (v287 : IVec S16 32) (k0_hw165 : k0_chk165 v286 v287), ∀ a x, ((![v286, v287] : Fin 2 → IVec S16 32) a x).toNat < S2x4096.size a := fun v286 v287 k0_hw165 => k0_hw165

def k0_chk166 (v286 : IVec S16 32) (v288 : IVec S16 32) : Prop :=
  (∀ a x, ((![v286, v288] : Fin 2 → IVec S16 32) a x).toNat < S2x4096.size a)
instance k0_chk166.dec : ∀ (v286 : IVec S16 32) (v288 : IVec S16 32), Decidable (k0_chk166 v286 v288) := fun v286 v288 => decidable_of_iff' _ (Iff.of_eq (k0_chk166.eq_1 v286 v288))
theorem k0_idx166_inb : ∀ (v286 : IVec S16 32) (v288 : IVec S16 32) (k0_hw166 : k0_chk166 v286 v288), ∀ a x, ((![v286, v288] : Fin 2 → IVec S16 32) a x).toNat < S2x4096.size a := fun v286 v288 k0_hw166 => k0_hw166

def k0_chk167 (v286 : IVec S16 32) (v289 : IVec S16 32) : Prop :=
  (∀ a x, ((![v286, v289] : Fin 2 → IVec S16 32) a x).toNat < S2x4096.size a)
instance k0_chk167.dec : ∀ (v286 : IVec S16 32) (v289 : IVec S16 32), Decidable (k0_chk167 v286 v289) := fun v286 v289 => decidable_of_iff' _ (Iff.of_eq (k0_chk167.eq_1 v286 v289))
theorem k0_idx167_inb : ∀ (v286 : IVec S16 32) (v289 : IVec S16 32) (k0_hw167 : k0_chk167 v286 v289), ∀ a x, ((![v286, v289] : Fin 2 → IVec S16 32) a x).toNat < S2x4096.size a := fun v286 v289 k0_hw167 => k0_hw167

def k0_chk168 (v286 : IVec S16 32) (v290 : IVec S16 32) : Prop :=
  (∀ a x, ((![v286, v290] : Fin 2 → IVec S16 32) a x).toNat < S2x4096.size a)
instance k0_chk168.dec : ∀ (v286 : IVec S16 32) (v290 : IVec S16 32), Decidable (k0_chk168 v286 v290) := fun v286 v290 => decidable_of_iff' _ (Iff.of_eq (k0_chk168.eq_1 v286 v290))
theorem k0_idx168_inb : ∀ (v286 : IVec S16 32) (v290 : IVec S16 32) (k0_hw168 : k0_chk168 v286 v290), ∀ a x, ((![v286, v290] : Fin 2 → IVec S16 32) a x).toNat < S2x4096.size a := fun v286 v290 k0_hw168 => k0_hw168
def k0_off39 (i : grid0.Coords) (c504_i32_264 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v291 : BitVec 32 := Scalar.addi v2 c504_i32_264
  let c0_i32_265 : BitVec 32 := 0#32
  ![v291.toNat, 0]

def k0_chk169 (v300 : IVec S16 32) (v301 : IVec S16 32) : Prop :=
  (∀ a x, ((![v300, v301] : Fin 2 → IVec S16 32) a x).toNat < S2x4096.size a)
instance k0_chk169.dec : ∀ (v300 : IVec S16 32) (v301 : IVec S16 32), Decidable (k0_chk169 v300 v301) := fun v300 v301 => decidable_of_iff' _ (Iff.of_eq (k0_chk169.eq_1 v300 v301))
theorem k0_idx169_inb : ∀ (v300 : IVec S16 32) (v301 : IVec S16 32) (k0_hw169 : k0_chk169 v300 v301), ∀ a x, ((![v300, v301] : Fin 2 → IVec S16 32) a x).toNat < S2x4096.size a := fun v300 v301 k0_hw169 => k0_hw169

def k0_chk170 (v300 : IVec S16 32) (v302 : IVec S16 32) : Prop :=
  (∀ a x, ((![v300, v302] : Fin 2 → IVec S16 32) a x).toNat < S2x4096.size a)
instance k0_chk170.dec : ∀ (v300 : IVec S16 32) (v302 : IVec S16 32), Decidable (k0_chk170 v300 v302) := fun v300 v302 => decidable_of_iff' _ (Iff.of_eq (k0_chk170.eq_1 v300 v302))
theorem k0_idx170_inb : ∀ (v300 : IVec S16 32) (v302 : IVec S16 32) (k0_hw170 : k0_chk170 v300 v302), ∀ a x, ((![v300, v302] : Fin 2 → IVec S16 32) a x).toNat < S2x4096.size a := fun v300 v302 k0_hw170 => k0_hw170

def k0_chk171 (v300 : IVec S16 32) (v303 : IVec S16 32) : Prop :=
  (∀ a x, ((![v300, v303] : Fin 2 → IVec S16 32) a x).toNat < S2x4096.size a)
instance k0_chk171.dec : ∀ (v300 : IVec S16 32) (v303 : IVec S16 32), Decidable (k0_chk171 v300 v303) := fun v300 v303 => decidable_of_iff' _ (Iff.of_eq (k0_chk171.eq_1 v300 v303))
theorem k0_idx171_inb : ∀ (v300 : IVec S16 32) (v303 : IVec S16 32) (k0_hw171 : k0_chk171 v300 v303), ∀ a x, ((![v300, v303] : Fin 2 → IVec S16 32) a x).toNat < S2x4096.size a := fun v300 v303 k0_hw171 => k0_hw171

def k0_chk172 (v300 : IVec S16 32) (v304 : IVec S16 32) : Prop :=
  (∀ a x, ((![v300, v304] : Fin 2 → IVec S16 32) a x).toNat < S2x4096.size a)
instance k0_chk172.dec : ∀ (v300 : IVec S16 32) (v304 : IVec S16 32), Decidable (k0_chk172 v300 v304) := fun v300 v304 => decidable_of_iff' _ (Iff.of_eq (k0_chk172.eq_1 v300 v304))
theorem k0_idx172_inb : ∀ (v300 : IVec S16 32) (v304 : IVec S16 32) (k0_hw172 : k0_chk172 v300 v304), ∀ a x, ((![v300, v304] : Fin 2 → IVec S16 32) a x).toNat < S2x4096.size a := fun v300 v304 k0_hw172 => k0_hw172

def k0_chk173 (v305 : IVec S16 32) (v306 : IVec S16 32) : Prop :=
  (∀ a x, ((![v305, v306] : Fin 2 → IVec S16 32) a x).toNat < S2x4096.size a)
instance k0_chk173.dec : ∀ (v305 : IVec S16 32) (v306 : IVec S16 32), Decidable (k0_chk173 v305 v306) := fun v305 v306 => decidable_of_iff' _ (Iff.of_eq (k0_chk173.eq_1 v305 v306))
theorem k0_idx173_inb : ∀ (v305 : IVec S16 32) (v306 : IVec S16 32) (k0_hw173 : k0_chk173 v305 v306), ∀ a x, ((![v305, v306] : Fin 2 → IVec S16 32) a x).toNat < S2x4096.size a := fun v305 v306 k0_hw173 => k0_hw173

def k0_chk174 (v305 : IVec S16 32) (v307 : IVec S16 32) : Prop :=
  (∀ a x, ((![v305, v307] : Fin 2 → IVec S16 32) a x).toNat < S2x4096.size a)
instance k0_chk174.dec : ∀ (v305 : IVec S16 32) (v307 : IVec S16 32), Decidable (k0_chk174 v305 v307) := fun v305 v307 => decidable_of_iff' _ (Iff.of_eq (k0_chk174.eq_1 v305 v307))
theorem k0_idx174_inb : ∀ (v305 : IVec S16 32) (v307 : IVec S16 32) (k0_hw174 : k0_chk174 v305 v307), ∀ a x, ((![v305, v307] : Fin 2 → IVec S16 32) a x).toNat < S2x4096.size a := fun v305 v307 k0_hw174 => k0_hw174

def k0_chk175 (v305 : IVec S16 32) (v308 : IVec S16 32) : Prop :=
  (∀ a x, ((![v305, v308] : Fin 2 → IVec S16 32) a x).toNat < S2x4096.size a)
instance k0_chk175.dec : ∀ (v305 : IVec S16 32) (v308 : IVec S16 32), Decidable (k0_chk175 v305 v308) := fun v305 v308 => decidable_of_iff' _ (Iff.of_eq (k0_chk175.eq_1 v305 v308))
theorem k0_idx175_inb : ∀ (v305 : IVec S16 32) (v308 : IVec S16 32) (k0_hw175 : k0_chk175 v305 v308), ∀ a x, ((![v305, v308] : Fin 2 → IVec S16 32) a x).toNat < S2x4096.size a := fun v305 v308 k0_hw175 => k0_hw175

def k0_chk176 (v305 : IVec S16 32) (v309 : IVec S16 32) : Prop :=
  (∀ a x, ((![v305, v309] : Fin 2 → IVec S16 32) a x).toNat < S2x4096.size a)
instance k0_chk176.dec : ∀ (v305 : IVec S16 32) (v309 : IVec S16 32), Decidable (k0_chk176 v305 v309) := fun v305 v309 => decidable_of_iff' _ (Iff.of_eq (k0_chk176.eq_1 v305 v309))
theorem k0_idx176_inb : ∀ (v305 : IVec S16 32) (v309 : IVec S16 32) (k0_hw176 : k0_chk176 v305 v309), ∀ a x, ((![v305, v309] : Fin 2 → IVec S16 32) a x).toNat < S2x4096.size a := fun v305 v309 k0_hw176 => k0_hw176
def k0_off40 (i : grid0.Coords) (c506_i32_282 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v310 : BitVec 32 := Scalar.addi v2 c506_i32_282
  let c0_i32_283 : BitVec 32 := 0#32
  ![v310.toNat, 0]

def k0_chk177 (v319 : IVec S16 32) (v320 : IVec S16 32) : Prop :=
  (∀ a x, ((![v319, v320] : Fin 2 → IVec S16 32) a x).toNat < S2x4096.size a)
instance k0_chk177.dec : ∀ (v319 : IVec S16 32) (v320 : IVec S16 32), Decidable (k0_chk177 v319 v320) := fun v319 v320 => decidable_of_iff' _ (Iff.of_eq (k0_chk177.eq_1 v319 v320))
theorem k0_idx177_inb : ∀ (v319 : IVec S16 32) (v320 : IVec S16 32) (k0_hw177 : k0_chk177 v319 v320), ∀ a x, ((![v319, v320] : Fin 2 → IVec S16 32) a x).toNat < S2x4096.size a := fun v319 v320 k0_hw177 => k0_hw177

def k0_chk178 (v319 : IVec S16 32) (v321 : IVec S16 32) : Prop :=
  (∀ a x, ((![v319, v321] : Fin 2 → IVec S16 32) a x).toNat < S2x4096.size a)
instance k0_chk178.dec : ∀ (v319 : IVec S16 32) (v321 : IVec S16 32), Decidable (k0_chk178 v319 v321) := fun v319 v321 => decidable_of_iff' _ (Iff.of_eq (k0_chk178.eq_1 v319 v321))
theorem k0_idx178_inb : ∀ (v319 : IVec S16 32) (v321 : IVec S16 32) (k0_hw178 : k0_chk178 v319 v321), ∀ a x, ((![v319, v321] : Fin 2 → IVec S16 32) a x).toNat < S2x4096.size a := fun v319 v321 k0_hw178 => k0_hw178

def k0_chk179 (v319 : IVec S16 32) (v322 : IVec S16 32) : Prop :=
  (∀ a x, ((![v319, v322] : Fin 2 → IVec S16 32) a x).toNat < S2x4096.size a)
instance k0_chk179.dec : ∀ (v319 : IVec S16 32) (v322 : IVec S16 32), Decidable (k0_chk179 v319 v322) := fun v319 v322 => decidable_of_iff' _ (Iff.of_eq (k0_chk179.eq_1 v319 v322))
theorem k0_idx179_inb : ∀ (v319 : IVec S16 32) (v322 : IVec S16 32) (k0_hw179 : k0_chk179 v319 v322), ∀ a x, ((![v319, v322] : Fin 2 → IVec S16 32) a x).toNat < S2x4096.size a := fun v319 v322 k0_hw179 => k0_hw179

def k0_chk180 (v319 : IVec S16 32) (v323 : IVec S16 32) : Prop :=
  (∀ a x, ((![v319, v323] : Fin 2 → IVec S16 32) a x).toNat < S2x4096.size a)
instance k0_chk180.dec : ∀ (v319 : IVec S16 32) (v323 : IVec S16 32), Decidable (k0_chk180 v319 v323) := fun v319 v323 => decidable_of_iff' _ (Iff.of_eq (k0_chk180.eq_1 v319 v323))
theorem k0_idx180_inb : ∀ (v319 : IVec S16 32) (v323 : IVec S16 32) (k0_hw180 : k0_chk180 v319 v323), ∀ a x, ((![v319, v323] : Fin 2 → IVec S16 32) a x).toNat < S2x4096.size a := fun v319 v323 k0_hw180 => k0_hw180

def k0_chk181 (v324 : IVec S16 32) (v325 : IVec S16 32) : Prop :=
  (∀ a x, ((![v324, v325] : Fin 2 → IVec S16 32) a x).toNat < S2x4096.size a)
instance k0_chk181.dec : ∀ (v324 : IVec S16 32) (v325 : IVec S16 32), Decidable (k0_chk181 v324 v325) := fun v324 v325 => decidable_of_iff' _ (Iff.of_eq (k0_chk181.eq_1 v324 v325))
theorem k0_idx181_inb : ∀ (v324 : IVec S16 32) (v325 : IVec S16 32) (k0_hw181 : k0_chk181 v324 v325), ∀ a x, ((![v324, v325] : Fin 2 → IVec S16 32) a x).toNat < S2x4096.size a := fun v324 v325 k0_hw181 => k0_hw181

def k0_chk182 (v324 : IVec S16 32) (v326 : IVec S16 32) : Prop :=
  (∀ a x, ((![v324, v326] : Fin 2 → IVec S16 32) a x).toNat < S2x4096.size a)
instance k0_chk182.dec : ∀ (v324 : IVec S16 32) (v326 : IVec S16 32), Decidable (k0_chk182 v324 v326) := fun v324 v326 => decidable_of_iff' _ (Iff.of_eq (k0_chk182.eq_1 v324 v326))
theorem k0_idx182_inb : ∀ (v324 : IVec S16 32) (v326 : IVec S16 32) (k0_hw182 : k0_chk182 v324 v326), ∀ a x, ((![v324, v326] : Fin 2 → IVec S16 32) a x).toNat < S2x4096.size a := fun v324 v326 k0_hw182 => k0_hw182

def k0_chk183 (v324 : IVec S16 32) (v327 : IVec S16 32) : Prop :=
  (∀ a x, ((![v324, v327] : Fin 2 → IVec S16 32) a x).toNat < S2x4096.size a)
instance k0_chk183.dec : ∀ (v324 : IVec S16 32) (v327 : IVec S16 32), Decidable (k0_chk183 v324 v327) := fun v324 v327 => decidable_of_iff' _ (Iff.of_eq (k0_chk183.eq_1 v324 v327))
theorem k0_idx183_inb : ∀ (v324 : IVec S16 32) (v327 : IVec S16 32) (k0_hw183 : k0_chk183 v324 v327), ∀ a x, ((![v324, v327] : Fin 2 → IVec S16 32) a x).toNat < S2x4096.size a := fun v324 v327 k0_hw183 => k0_hw183

def k0_chk184 (v324 : IVec S16 32) (v328 : IVec S16 32) : Prop :=
  (∀ a x, ((![v324, v328] : Fin 2 → IVec S16 32) a x).toNat < S2x4096.size a)
instance k0_chk184.dec : ∀ (v324 : IVec S16 32) (v328 : IVec S16 32), Decidable (k0_chk184 v324 v328) := fun v324 v328 => decidable_of_iff' _ (Iff.of_eq (k0_chk184.eq_1 v324 v328))
theorem k0_idx184_inb : ∀ (v324 : IVec S16 32) (v328 : IVec S16 32) (k0_hw184 : k0_chk184 v324 v328), ∀ a x, ((![v324, v328] : Fin 2 → IVec S16 32) a x).toNat < S2x4096.size a := fun v324 v328 k0_hw184 => k0_hw184
def k0_off41 (i : grid0.Coords) (c508_i32_300 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v329 : BitVec 32 := Scalar.addi v2 c508_i32_300
  let c0_i32_301 : BitVec 32 := 0#32
  ![v329.toNat, 0]

def k0_chk185 (v338 : IVec S16 32) (v339 : IVec S16 32) : Prop :=
  (∀ a x, ((![v338, v339] : Fin 2 → IVec S16 32) a x).toNat < S2x4096.size a)
instance k0_chk185.dec : ∀ (v338 : IVec S16 32) (v339 : IVec S16 32), Decidable (k0_chk185 v338 v339) := fun v338 v339 => decidable_of_iff' _ (Iff.of_eq (k0_chk185.eq_1 v338 v339))
theorem k0_idx185_inb : ∀ (v338 : IVec S16 32) (v339 : IVec S16 32) (k0_hw185 : k0_chk185 v338 v339), ∀ a x, ((![v338, v339] : Fin 2 → IVec S16 32) a x).toNat < S2x4096.size a := fun v338 v339 k0_hw185 => k0_hw185

def k0_chk186 (v338 : IVec S16 32) (v340 : IVec S16 32) : Prop :=
  (∀ a x, ((![v338, v340] : Fin 2 → IVec S16 32) a x).toNat < S2x4096.size a)
instance k0_chk186.dec : ∀ (v338 : IVec S16 32) (v340 : IVec S16 32), Decidable (k0_chk186 v338 v340) := fun v338 v340 => decidable_of_iff' _ (Iff.of_eq (k0_chk186.eq_1 v338 v340))
theorem k0_idx186_inb : ∀ (v338 : IVec S16 32) (v340 : IVec S16 32) (k0_hw186 : k0_chk186 v338 v340), ∀ a x, ((![v338, v340] : Fin 2 → IVec S16 32) a x).toNat < S2x4096.size a := fun v338 v340 k0_hw186 => k0_hw186

def k0_chk187 (v338 : IVec S16 32) (v341 : IVec S16 32) : Prop :=
  (∀ a x, ((![v338, v341] : Fin 2 → IVec S16 32) a x).toNat < S2x4096.size a)
instance k0_chk187.dec : ∀ (v338 : IVec S16 32) (v341 : IVec S16 32), Decidable (k0_chk187 v338 v341) := fun v338 v341 => decidable_of_iff' _ (Iff.of_eq (k0_chk187.eq_1 v338 v341))
theorem k0_idx187_inb : ∀ (v338 : IVec S16 32) (v341 : IVec S16 32) (k0_hw187 : k0_chk187 v338 v341), ∀ a x, ((![v338, v341] : Fin 2 → IVec S16 32) a x).toNat < S2x4096.size a := fun v338 v341 k0_hw187 => k0_hw187

def k0_chk188 (v338 : IVec S16 32) (v342 : IVec S16 32) : Prop :=
  (∀ a x, ((![v338, v342] : Fin 2 → IVec S16 32) a x).toNat < S2x4096.size a)
instance k0_chk188.dec : ∀ (v338 : IVec S16 32) (v342 : IVec S16 32), Decidable (k0_chk188 v338 v342) := fun v338 v342 => decidable_of_iff' _ (Iff.of_eq (k0_chk188.eq_1 v338 v342))
theorem k0_idx188_inb : ∀ (v338 : IVec S16 32) (v342 : IVec S16 32) (k0_hw188 : k0_chk188 v338 v342), ∀ a x, ((![v338, v342] : Fin 2 → IVec S16 32) a x).toNat < S2x4096.size a := fun v338 v342 k0_hw188 => k0_hw188

def k0_chk189 (v343 : IVec S16 32) (v344 : IVec S16 32) : Prop :=
  (∀ a x, ((![v343, v344] : Fin 2 → IVec S16 32) a x).toNat < S2x4096.size a)
instance k0_chk189.dec : ∀ (v343 : IVec S16 32) (v344 : IVec S16 32), Decidable (k0_chk189 v343 v344) := fun v343 v344 => decidable_of_iff' _ (Iff.of_eq (k0_chk189.eq_1 v343 v344))
theorem k0_idx189_inb : ∀ (v343 : IVec S16 32) (v344 : IVec S16 32) (k0_hw189 : k0_chk189 v343 v344), ∀ a x, ((![v343, v344] : Fin 2 → IVec S16 32) a x).toNat < S2x4096.size a := fun v343 v344 k0_hw189 => k0_hw189

def k0_chk190 (v343 : IVec S16 32) (v345 : IVec S16 32) : Prop :=
  (∀ a x, ((![v343, v345] : Fin 2 → IVec S16 32) a x).toNat < S2x4096.size a)
instance k0_chk190.dec : ∀ (v343 : IVec S16 32) (v345 : IVec S16 32), Decidable (k0_chk190 v343 v345) := fun v343 v345 => decidable_of_iff' _ (Iff.of_eq (k0_chk190.eq_1 v343 v345))
theorem k0_idx190_inb : ∀ (v343 : IVec S16 32) (v345 : IVec S16 32) (k0_hw190 : k0_chk190 v343 v345), ∀ a x, ((![v343, v345] : Fin 2 → IVec S16 32) a x).toNat < S2x4096.size a := fun v343 v345 k0_hw190 => k0_hw190

def k0_chk191 (v343 : IVec S16 32) (v346 : IVec S16 32) : Prop :=
  (∀ a x, ((![v343, v346] : Fin 2 → IVec S16 32) a x).toNat < S2x4096.size a)
instance k0_chk191.dec : ∀ (v343 : IVec S16 32) (v346 : IVec S16 32), Decidable (k0_chk191 v343 v346) := fun v343 v346 => decidable_of_iff' _ (Iff.of_eq (k0_chk191.eq_1 v343 v346))
theorem k0_idx191_inb : ∀ (v343 : IVec S16 32) (v346 : IVec S16 32) (k0_hw191 : k0_chk191 v343 v346), ∀ a x, ((![v343, v346] : Fin 2 → IVec S16 32) a x).toNat < S2x4096.size a := fun v343 v346 k0_hw191 => k0_hw191

def k0_chk192 (v343 : IVec S16 32) (v347 : IVec S16 32) : Prop :=
  (∀ a x, ((![v343, v347] : Fin 2 → IVec S16 32) a x).toNat < S2x4096.size a)
instance k0_chk192.dec : ∀ (v343 : IVec S16 32) (v347 : IVec S16 32), Decidable (k0_chk192 v343 v347) := fun v343 v347 => decidable_of_iff' _ (Iff.of_eq (k0_chk192.eq_1 v343 v347))
theorem k0_idx192_inb : ∀ (v343 : IVec S16 32) (v347 : IVec S16 32) (k0_hw192 : k0_chk192 v343 v347), ∀ a x, ((![v343, v347] : Fin 2 → IVec S16 32) a x).toNat < S2x4096.size a := fun v343 v347 k0_hw192 => k0_hw192
def k0_off42 (i : grid0.Coords) (c510_i32_319 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v348 : BitVec 32 := Scalar.addi v2 c510_i32_319
  let c0_i32_320 : BitVec 32 := 0#32
  ![v348.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S64_S16_0 : ∀ a, (![0] : Fin 1 → Nat) a + S16.size a ≤ S64.size a
  h_S16 : 0 < S16.numel
  h_S2x4096 : 0 < S2x4096.numel
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  hcc0_scratch9 : 0 + S_.numel ≤ 17
  hcc0_scratch10 : 1 + S_.numel ≤ 17
  hcc0_scratch11 : 2 + S_.numel ≤ 17
  hcc0_scratch12 : 3 + S_.numel ≤ 17
  hcc0_scratch13 : 4 + S_.numel ≤ 17
  hcc0_scratch14 : 5 + S_.numel ≤ 17
  hcc0_scratch15 : 6 + S_.numel ≤ 17
  hcc0_scratch16 : 7 + S_.numel ≤ 17
  hcc0_scratch17 : 8 + S_.numel ≤ 17
  hcc0_scratch18 : 9 + S_.numel ≤ 17
  hcc0_scratch19 : 10 + S_.numel ≤ 17
  hcc0_scratch20 : 11 + S_.numel ≤ 17
  hcc0_scratch21 : 12 + S_.numel ≤ 17
  hcc0_scratch22 : 13 + S_.numel ≤ 17
  hcc0_scratch23 : 14 + S_.numel ≤ 17
  hcc0_scratch24 : 15 + S_.numel ≤ 17
  hcc0_scoped0 : 16 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 7), ∀ a, (k0_off1 i (BitVec.ofNat 32 (2 * r.val))) a + S2x4096.size a ≤ S16384x4096.size a
  k0_off2_inb : ∀ i : grid0.Coords, ∀ (r : Fin 3), ∀ a, (k0_off2 i (k0_off2_at r)) a + S2x4096.size a ≤ S16384x4096.size a
  k0_off3_inb : ∀ i : grid0.Coords, ∀ (r : Fin 4), ∀ a, (k0_off3 i (k0_off3_at r)) a + S2x4096.size a ≤ S16384x4096.size a
  k0_off4_inb : ∀ i : grid0.Coords, ∀ (r : Fin 4), ∀ a, (k0_off4 i (k0_off4_at r)) a + S2x4096.size a ≤ S16384x4096.size a
  k0_off5_inb : ∀ i : grid0.Coords, ∀ (r : Fin 4), ∀ a, (k0_off5 i (k0_off5_at r)) a + S2x4096.size a ≤ S16384x4096.size a
  k0_off6_inb : ∀ i : grid0.Coords, ∀ (r : Fin 4), ∀ a, (k0_off6 i (k0_off6_at r)) a + S2x4096.size a ≤ S16384x4096.size a
  k0_off7_inb : ∀ i : grid0.Coords, ∀ (r : Fin 4), ∀ a, (k0_off7 i (k0_off7_at r)) a + S2x4096.size a ≤ S16384x4096.size a
  k0_off8_inb : ∀ i : grid0.Coords, ∀ (r : Fin 4), ∀ a, (k0_off8 i (k0_off8_at r)) a + S2x4096.size a ≤ S16384x4096.size a
  k0_off9_inb : ∀ i : grid0.Coords, ∀ (r : Fin 4), ∀ a, (k0_off9 i (k0_off9_at r)) a + S2x4096.size a ≤ S16384x4096.size a
  k0_t1_ok : k0_t1_loop.OK
  k0_off10_inb : ∀ (i : grid0.Coords) (k0_t1 : Fin k0_t1_loop.trips), ∀ a, (k0_off10 i k0_t1) a + S2x4096.size a ≤ S16384x4096.size a
  k0_off11_inb : ∀ (i : grid0.Coords) (k0_t1 : Fin k0_t1_loop.trips), ∀ (r : Fin 2), ∀ a, (k0_off11 i k0_t1 (BitVec.ofNat 32 r.val)) a + S2x4096.size a ≤ S16384x4096.size a
  k0_off12_inb : ∀ (i : grid0.Coords) (k0_t1 : Fin k0_t1_loop.trips), ∀ a, (k0_off12 i k0_t1) a + S2x4096.size a ≤ S16384x4096.size a
  k0_off13_inb : ∀ (i : grid0.Coords) (k0_t1 : Fin k0_t1_loop.trips), ∀ a, (k0_off13 i k0_t1) a + S2x4096.size a ≤ S16384x4096.size a
  k0_off14_inb : ∀ (i : grid0.Coords) (k0_t1 : Fin k0_t1_loop.trips), ∀ (r : Fin 2), ∀ a, (k0_off14 i k0_t1 (BitVec.ofNat 32 (1 + r.val))) a + S2x4096.size a ≤ S16384x4096.size a
  k0_off15_inb : ∀ (i : grid0.Coords) (k0_t1 : Fin k0_t1_loop.trips), ∀ a, (k0_off15 i k0_t1) a + S2x4096.size a ≤ S16384x4096.size a
  k0_off16_inb : ∀ (i : grid0.Coords) (k0_t1 : Fin k0_t1_loop.trips), ∀ a, (k0_off16 i k0_t1) a + S2x4096.size a ≤ S16384x4096.size a
  k0_off17_inb : ∀ (i : grid0.Coords) (k0_t1 : Fin k0_t1_loop.trips), ∀ (r : Fin 2), ∀ a, (k0_off17 i k0_t1 (BitVec.ofNat 32 (2 + r.val))) a + S2x4096.size a ≤ S16384x4096.size a
  k0_off18_inb : ∀ (i : grid0.Coords) (k0_t1 : Fin k0_t1_loop.trips), ∀ a, (k0_off18 i k0_t1) a + S2x4096.size a ≤ S16384x4096.size a
  k0_off19_inb : ∀ (i : grid0.Coords) (k0_t1 : Fin k0_t1_loop.trips), ∀ a, (k0_off19 i k0_t1) a + S2x4096.size a ≤ S16384x4096.size a
  k0_off20_inb : ∀ (i : grid0.Coords) (k0_t1 : Fin k0_t1_loop.trips), ∀ (r : Fin 2), ∀ a, (k0_off20 i k0_t1 (BitVec.ofNat 32 (3 + r.val))) a + S2x4096.size a ≤ S16384x4096.size a
  k0_off21_inb : ∀ (i : grid0.Coords) (k0_t1 : Fin k0_t1_loop.trips), ∀ a, (k0_off21 i k0_t1) a + S2x4096.size a ≤ S16384x4096.size a
  k0_off22_inb : ∀ (i : grid0.Coords) (k0_t1 : Fin k0_t1_loop.trips), ∀ a, (k0_off22 i k0_t1) a + S2x4096.size a ≤ S16384x4096.size a
  k0_off23_inb : ∀ (i : grid0.Coords) (k0_t1 : Fin k0_t1_loop.trips), ∀ (r : Fin 2), ∀ a, (k0_off23 i k0_t1 (BitVec.ofNat 32 (4 + r.val))) a + S2x4096.size a ≤ S16384x4096.size a
  k0_off24_inb : ∀ (i : grid0.Coords) (k0_t1 : Fin k0_t1_loop.trips), ∀ a, (k0_off24 i k0_t1) a + S2x4096.size a ≤ S16384x4096.size a
  k0_off25_inb : ∀ (i : grid0.Coords) (k0_t1 : Fin k0_t1_loop.trips), ∀ a, (k0_off25 i k0_t1) a + S2x4096.size a ≤ S16384x4096.size a
  k0_off26_inb : ∀ (i : grid0.Coords) (k0_t1 : Fin k0_t1_loop.trips), ∀ (r : Fin 2), ∀ a, (k0_off26 i k0_t1 (BitVec.ofNat 32 (5 + r.val))) a + S2x4096.size a ≤ S16384x4096.size a
  k0_off27_inb : ∀ (i : grid0.Coords) (k0_t1 : Fin k0_t1_loop.trips), ∀ a, (k0_off27 i k0_t1) a + S2x4096.size a ≤ S16384x4096.size a
  k0_off28_inb : ∀ (i : grid0.Coords) (k0_t1 : Fin k0_t1_loop.trips), ∀ a, (k0_off28 i k0_t1) a + S2x4096.size a ≤ S16384x4096.size a
  k0_off29_inb : ∀ (i : grid0.Coords) (k0_t1 : Fin k0_t1_loop.trips), ∀ (r : Fin 2), ∀ a, (k0_off29 i k0_t1 (BitVec.ofNat 32 (6 + r.val))) a + S2x4096.size a ≤ S16384x4096.size a
  k0_off30_inb : ∀ (i : grid0.Coords) (k0_t1 : Fin k0_t1_loop.trips), ∀ a, (k0_off30 i k0_t1) a + S2x4096.size a ≤ S16384x4096.size a
  k0_off31_inb : ∀ (i : grid0.Coords) (k0_t1 : Fin k0_t1_loop.trips), ∀ a, (k0_off31 i k0_t1) a + S2x4096.size a ≤ S16384x4096.size a
  k0_off32_inb : ∀ (i : grid0.Coords) (k0_t1 : Fin k0_t1_loop.trips), ∀ a, (k0_off32 i k0_t1) a + S2x4096.size a ≤ S16384x4096.size a
  k0_off33_inb : ∀ (i : grid0.Coords) (k0_t1 : Fin k0_t1_loop.trips), ∀ a, (k0_off33 i k0_t1) a + S2x4096.size a ≤ S16384x4096.size a
  k0_off34_inb : ∀ (i : grid0.Coords) (k0_t1 : Fin k0_t1_loop.trips), ∀ a, (k0_off34 i k0_t1) a + S2x4096.size a ≤ S16384x4096.size a
  k0_off35_inb : ∀ i : grid0.Coords, ∀ (r : Fin 4), ∀ a, (k0_off35 i (k0_off35_at r)) a + S2x4096.size a ≤ S16384x4096.size a
  k0_off36_inb : ∀ i : grid0.Coords, ∀ (r : Fin 3), ∀ a, (k0_off36 i (BitVec.ofNat 32 (496 + 2 * r.val))) a + S2x4096.size a ≤ S16384x4096.size a
  k0_off37_inb : ∀ i : grid0.Coords, ∀ (r : Fin 3), ∀ a, (k0_off37 i (BitVec.ofNat 32 (498 + 2 * r.val))) a + S2x4096.size a ≤ S16384x4096.size a
  k0_off38_inb : ∀ i : grid0.Coords, ∀ (r : Fin 3), ∀ a, (k0_off38 i (BitVec.ofNat 32 (500 + 2 * r.val))) a + S2x4096.size a ≤ S16384x4096.size a
  k0_off39_inb : ∀ i : grid0.Coords, ∀ (r : Fin 3), ∀ a, (k0_off39 i (BitVec.ofNat 32 (502 + 2 * r.val))) a + S2x4096.size a ≤ S16384x4096.size a
  k0_off40_inb : ∀ i : grid0.Coords, ∀ (r : Fin 3), ∀ a, (k0_off40 i (BitVec.ofNat 32 (504 + 2 * r.val))) a + S2x4096.size a ≤ S16384x4096.size a
  k0_off41_inb : ∀ i : grid0.Coords, ∀ (r : Fin 3), ∀ a, (k0_off41 i (BitVec.ofNat 32 (506 + 2 * r.val))) a + S2x4096.size a ≤ S16384x4096.size a
  k0_off42_inb : ∀ i : grid0.Coords, ∀ (r : Fin 2), ∀ a, (k0_off42 i (BitVec.ofNat 32 (508 + 2 * r.val))) a + S2x4096.size a ≤ S16384x4096.size a

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scratch17 : DmaSems sig S_ := SemArray.consecutive 8 S_ hcc0_scratch17
abbrev cc0_scratch18 : DmaSems sig S_ := SemArray.consecutive 9 S_ hcc0_scratch18
abbrev cc0_scratch19 : DmaSems sig S_ := SemArray.consecutive 10 S_ hcc0_scratch19
abbrev cc0_scratch20 : DmaSems sig S_ := SemArray.consecutive 11 S_ hcc0_scratch20
abbrev cc0_scratch21 : DmaSems sig S_ := SemArray.consecutive 12 S_ hcc0_scratch21
abbrev cc0_scratch22 : DmaSems sig S_ := SemArray.consecutive 13 S_ hcc0_scratch22
abbrev cc0_scratch23 : DmaSems sig S_ := SemArray.consecutive 14 S_ hcc0_scratch23
abbrev cc0_scratch24 : DmaSems sig S_ := SemArray.consecutive 15 S_ hcc0_scratch24
abbrev cc0_scoped0 : DmaSems sig S_ := SemArray.consecutive 16 S_ hcc0_scoped0

class Facts : Prop extends Facts₀ where

variable [Facts]
-- ==== ReferenceIdeal.lean ====
abbrev S16384x4096 : Shape := ⟨2, ![16384, 4096]⟩
abbrev S64 : Shape := ⟨1, ![64]⟩
abbrev S_ : Shape := ⟨0, ![]⟩
abbrev S64x1 : Shape := ⟨2, ![64, 1]⟩
abbrev S16384x64 : Shape := ⟨2, ![16384, 64]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S64x1, .i32⟩
  | .hbm, ⟨10, _⟩ => ⟨S_, .f32⟩
  | .hbm, ⟨11, _⟩ => ⟨S16384x64, .f32⟩
  | .hbm, ⟨12, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S16384x64 : S_.BroadcastsInDim S16384x64 (![] : Fin 0 → Fin S16384x64.rank)
  scatter_S16384x4096_S64x1_S16384x64_0_1_1_1_wf : ScatterDims.WF S16384x4096 S64x1 S16384x64 [0] [1] [1] 1

variable [Facts₀]

def scatter_S16384x4096_S64x1_S16384x64_0_1_1_1 : ScatterDims S16384x4096 S64x1 S16384x64 where
  updateWindowDims := [0]
  insertedWindowDims := [1]
  scatterDimsToOperandDims := [1]
  indexVectorDim := 1
  wf := scatter_S16384x4096_S64x1_S16384x64_0_1_1_1_wf

class Facts : Prop extends Facts₀ where

variable [Facts]
-- ==== Proof.Spec.lean ====
/-
  The function both programs compute. `x` is a 16384 × 4096 array of floats and `k` a list of 64
  column numbers; the result is `x` with every column that `k` names set to zero and every other
  column kept. A column number is a 32-bit word read unsigned; `MaskOK` says each is below 4096,
  the width of a row, which is what makes it the number of a column at all.
-/
import Idealize.ShloMosaic.PureOps
import Idealize.ShloMosaic.Lib.ValueIdx

noncomputable section

namespace Cert.Proof.Spec

open Idealize.ShloMosaic

abbrev SX : Shape := ⟨2, ![16384, 4096]⟩
abbrev SK : Shape := ⟨1, ![64]⟩

/-- Every word of the list names a column of a 4096-wide row. -/
def MaskOK (k : IVec SK 32) : Prop := ∀ i, (k i).toNat < 4096

/-- The float zero, as the word both programs spell it. -/
abbrev zeroF {F : FTy → Type} [FloatOps F] : F .f32 := Scalar.ofBits .f32 0x00000000#32

open Classical in
/-- `x` with the columns `k` names zeroed: entry `(r, c)` is zero when some word of `k` is `c`, else `x (r, c)`. -/
def zeroCols {F : FTy → Type} [FloatOps F] (x : FVec F SX .f32) (k : IVec SK 32) : FVec F SX .f32 :=
  fun j => if ∃ i, (k i).toNat = (j 1).val then zeroF else x j

open Classical in
theorem zeroCols_apply {F : FTy → Type} [FloatOps F] (x : FVec F SX .f32) (k : IVec SK 32) (j : SX.Idx) :
    zeroCols x k j = if ∃ i, (k i).toNat = (j 1).val then zeroF else x j := rfl

end Cert.Proof.Spec

end
-- ==== Proof.PreDecode.lean ====
/-
  What the precondition says of the list of column numbers: all three of its conjuncts are "every entry satisfies
  a comparison", and the last two, read of one 32-bit word, say that the word is non-negative as a signed number
  and below 4096, hence below 4096 as an unsigned one.
-/
import proofs.«218967_g49014166782275_cont_8to1_c_257_31_alg».proof.Pre_finite_inputs
import proofs.«218967_g49014166782275_cont_8to1_c_257_31_alg».proof.Proof.Gen.Pre_finite_inputs
import proofs.«218967_g49014166782275_cont_8to1_c_257_31_alg».proof.Proof.Spec
import Idealize.ShloMosaic.Lib.ReduceAll
import Idealize.ShloMosaic.Lib.StableHlo.Predicate

noncomputable section

namespace Cert.Proof.PreDecode

open Idealize.ShloMosaic Cert.Proof.Spec

/-- A 32-bit word that is at least 0 and below 4096 as a SIGNED number is below 4096 as an unsigned one: being
    non-negative, its signed and unsigned readings agree (a word of 2³¹ or more reads negative). -/
theorem toNat_lt_of_sge_slt (v : BitVec 32) (h0 : IntOp.cmpi .sge v 0#32 = 1#1)
    (h1 : IntOp.cmpi .slt v 4096#32 = 1#1) : v.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  rw [BitVec.toInt_eq_toNat_cond] at h0 h1
  have hv := v.isLt
  split at h0 <;> omega

/-- Where the precondition's predicate is all ones, every column number is below 4096. -/
theorem maskOK_of_pre {F : FTy → Type} [FloatOps F] [Cert.Pre_finite_inputs.Facts]
    (x : FVec F Cert.Pre_finite_inputs.S16384x4096 .f32) (k : IVec Cert.Pre_finite_inputs.S64 32)
    (h : Cert.Pre_finite_inputs.fn (F := F) x k = fun _ => 1#1) : MaskOK k := by
  -- a rank-0 array has exactly one index
  haveI : Subsingleton Cert.Pre_finite_inputs.S_.Idx := ⟨fun _ _ => funext fun d => d.elim0⟩
  -- the predicate at its one index is a conjunction of three "all" reductions
  have h' := congrFun h ValueIdx.ix0
  dsimp only [Cert.Pre_finite_inputs.fn] at h'
  obtain ⟨h12, h3⟩ := IntOp.andi_eq_one.1 h'
  obtain ⟨_, h2⟩ := IntOp.andi_eq_one.1 h12
  intro i
  -- the second says word i is at least 0 signed, the third that it is below 4096 signed
  have a2 := Host.reduce_andi_all _ _ _ _ _ h2 i
  have a3 := Host.reduce_andi_all _ _ _ _ _ h3 i
  exact toNat_lt_of_sge_slt (k i) a2 a3

end Cert.Proof.PreDecode

end
-- ==== Proof.RefValue.lean ====
/-
  The reference's side. Its program first replaces a negative column number by that number plus 4096, then
  scatters a zero into every row at each column the list names, updates outside the array being dropped. Where
  every number is already between 0 and 4095 the first step changes nothing and no update is dropped, so the
  result is the input with exactly the named columns zeroed.
-/
import proofs.«218967_g49014166782275_cont_8to1_c_257_31_alg».proof.Defs
import proofs.«218967_g49014166782275_cont_8to1_c_257_31_alg».proof.Proof.Gen.ReferenceIdeal
import proofs.«218967_g49014166782275_cont_8to1_c_257_31_alg».proof.Proof.Gen.ReferenceIdeal.Run
import proofs.«218967_g49014166782275_cont_8to1_c_257_31_alg».proof.Proof.Gen.ReferenceIdeal.Read
import proofs.«218967_g49014166782275_cont_8to1_c_257_31_alg».proof.Proof.Spec

noncomputable section

namespace Cert.Proof.RefValue

open Idealize.ShloMosaic Idealize.SL.Sem Cert.Proof.Spec

section Helpers

/-! ## A scatter of one constant

The scatter is a left fold over the update positions: each position either lands on an element of the result, which
it overwrites, or lands nowhere and changes nothing. When every update carries the same value `z`, the order of the
positions does not matter: an element ends at `z` if some position lands on it, and keeps the operand's value
otherwise. -/

open Classical in
/-- A left fold of steps, each writing `z` at the place its position lands on (if any): the value at `b` is `z` when
    some position of the list lands on `b`, the starting value otherwise. By induction on the list, for every
    starting value. -/
theorem foldl_write_apply {ι β γ : Type} (land : ι → Option β) (z : γ)
    (step : (β → γ) → ι → (β → γ))
    (hstep : ∀ r n b, step r n b = if land n = some b then z else r b)
    (l : List ι) (r : β → γ) (b : β) :
    l.foldl step r b = if ∃ n ∈ l, land n = some b then z else r b := by
  induction l generalizing r with
  | nil => simp
  | cons n l ih =>
    rw [List.foldl_cons, ih, hstep]
    by_cases h1 : ∃ n' ∈ l, land n' = some b
    · rw [if_pos h1, if_pos]
      obtain ⟨n', hn', h⟩ := h1
      exact ⟨n', List.mem_cons_of_mem _ hn', h⟩
    · rw [if_neg h1]
      by_cases h2 : land n = some b
      · rw [if_pos h2, if_pos ⟨n, List.mem_cons_self, h2⟩]
      · rw [if_neg h2, if_neg]
        rintro ⟨n', hn', h⟩
        rcases List.mem_cons.1 hn' with rfl | hn'
        · exact h2 h
        · exact h1 ⟨n', hn', h⟩

open Classical in
/-- A scatter whose body returns the update, of updates all equal to `z`: the result at `i'` is `z` if some update
    index lands on `i'`, and the operand at `i'` otherwise. -/
theorem scatter_const_apply {s si u : Shape} {α : Type} {w : Nat} (d : ScatterDims s si u) (x : s.Idx → α)
    (idx : IVec si w) (upd : u.Idx → α) (z : α) (hz : ∀ j, upd j = z) (i' : s.Idx) :
    Host.scatter d (fun _ b => b) x idx upd i' = if ∃ j : u.Idx, d.resultIdx? j idx = some i' then z else x i' := by
  unfold Host.scatter
  rw [foldl_write_apply (fun n => d.resultIdx? (u.rowMajor.symm n) idx) z]
  · by_cases h : ∃ j : u.Idx, d.resultIdx? j idx = some i'
    · rw [if_pos h, if_pos]
      obtain ⟨j, hj⟩ := h
      exact ⟨u.rowMajor j, List.mem_finRange _, by rw [Equiv.symm_apply_apply]; exact hj⟩
    · rw [if_neg h, if_neg]
      rintro ⟨n, -, hn⟩
      exact h ⟨_, hn⟩
  · intro r n b
    dsimp only
    cases hr : d.resultIdx? (u.rowMajor.symm n) idx with
    | none => simp
    | some i =>
      dsimp only
      by_cases hb : b = i
      · subst hb; rw [if_pos rfl, if_pos rfl, hz]
      · rw [if_neg hb, if_neg]
        intro h; exact hb (Option.some.inj h).symm

/-! ## Where an update lands, for this program's dimension numbers

Operand `16384 × 4096`, scatter indices `64 × 1`, updates `16384 × 64`; the updates' axis 0 is the window axis and goes
to the operand's axis 0, the operand's axis 1 is inserted and is the one the index vector's single component names.
So update `(r, c)` lands at `(r, idx (c, 0))`, the word read signed, when that is a column; nowhere otherwise. -/

open Cert.ReferenceIdeal Cert.ReferenceIdeal.Gen

abbrev dn : ScatterDims S16384x4096 S64x1 S16384x64 := scatter_S16384x4096_S64x1_S16384x64_0_1_1_1

theorem start_zero (j : S16384x64.Idx) (idx : IVec S64x1 32) : dn.start j idx 0 = 0 := by
  unfold ScatterDims.start
  rw [dif_neg (by decide)]

theorem start_one (j : S16384x64.Idx) (idx : IVec S64x1 32) :
    ∃ c, dn.start j idx 1 = (idx (dn.siIdx j c)).toInt := by
  unfold ScatterDims.start
  rw [dif_pos (by decide)]
  exact ⟨_, rfl⟩

theorem siIdx_zero (j : S16384x64.Idx) (c : Fin dn.scatterDimsToOperandDims.length) :
    (dn.siIdx j c 0).val = (j 1).val := rfl

theorem window_zero (j : S16384x64.Idx) : dn.window j 0 = (j 0).val := rfl

theorem window_one (j : S16384x64.Idx) : dn.window j 1 = 0 := rfl

/-- A word below 4096, read signed, is the word read unsigned. -/
theorem toInt_of_lt {v : BitVec 32} (h : v.toNat < 4096) : v.toInt = (v.toNat : Int) := by
  rw [BitVec.toInt_eq_toNat_cond]
  split <;> omega

/-- With every scatter index the list's word at the same position, each below 4096: some update lands on `i'` exactly
    when some word of the list is the column of `i'`. From an update `(r, c)` landing on `i'` the word at `c` is that
    column; conversely the update `(row of i', c)` lands on `i'` when the word at `c` is its column. -/
theorem lands_iff (k : IVec S64 32) (hk : ∀ i, (k i).toNat < 4096) (idx : IVec S64x1 32)
    (hidx : ∀ I : S64x1.Idx, idx I = k (Read.idx_main_v5 I)) (i' : S16384x4096.Idx) :
    (∃ j : S16384x64.Idx, dn.resultIdx? j idx = some i') ↔ ∃ i : S64.Idx, (k i).toNat = (i' 1).val := by
  constructor
  · rintro ⟨j, hj⟩
    unfold ScatterDims.resultIdx? at hj
    split at hj
    · have e := Option.some.inj hj
      obtain ⟨c, hc⟩ := start_one j idx
      refine ⟨Read.idx_main_v5 (dn.siIdx j c), ?_⟩
      have e1 : (i' 1).val = (dn.start j idx 1 + dn.window j 1).toNat := by rw [← e]
      rw [e1, hc, window_one, hidx, toInt_of_lt (hk _)]
      simp
    · exact absurd hj (by simp)
  · rintro ⟨i, hi⟩
    let j : S16384x64.Idx := fun a => match a with
      | ⟨0, _⟩ => ⟨(i' 0).val, (i' 0).isLt⟩
      | ⟨1, _⟩ => ⟨(i 0).val, (i 0).isLt⟩
    refine ⟨j, ?_⟩
    obtain ⟨c, hc⟩ := start_one j idx
    have hi5 : Read.idx_main_v5 (dn.siIdx j c) = i := by
      funext a
      match a with
      | ⟨0, _⟩ => exact Fin.ext (siIdx_zero j c)
    have h1 : dn.start j idx 1 + dn.window j 1 = ((i' 1).val : Int) := by
      rw [hc, window_one, hidx, hi5, toInt_of_lt (hk i), hi]
      simp
    have h0 : dn.start j idx 0 + dn.window j 0 = ((i' 0).val : Int) := by
      rw [start_zero, window_zero]
      simp [j]
    unfold ScatterDims.resultIdx?
    rw [dif_pos]
    · congr 1
      funext a
      apply Fin.ext
      match a with
      | ⟨0, _⟩ => show (dn.start j idx 0 + dn.window j 0).toNat = (i' 0).val; rw [h0]; simp
      | ⟨1, _⟩ => show (dn.start j idx 1 + dn.window j 1).toNat = (i' 1).val; rw [h1]; simp
    · intro a
      match a with
      | ⟨0, _⟩ =>
        show 0 ≤ dn.start j idx 0 + dn.window j 0 ∧ dn.start j idx 0 + dn.window j 0 < ((16384 : Nat) : Int)
        rw [h0]; have : (i' 0).val < 16384 := (i' 0).isLt; constructor <;> omega
      | ⟨1, _⟩ =>
        show 0 ≤ dn.start j idx 1 + dn.window j 1 ∧ dn.start j idx 1 + dn.window j 1 < ((4096 : Nat) : Int)
        rw [h1]; have : (i' 1).val < 4096 := (i' 1).isLt; constructor <;> omega

/-! ## The scatter indices are the list's words, and the result -/

/-- Where the word is below 4096 it is not negative read signed, so the select between "the word plus 4096" and "the
    word" keeps the word. -/
theorem keep_word (k : IVec S64 32) (i : S64.Idx) (h : (k i).toNat < 4096) :
    Read.val_main_v4 (F := Ideal) k i = k i := by
  rw [Read.val_main_v4_apply, Read.val_main_v1_apply, Read.val_main_v0_apply, Read.val_main_c_apply]
  have hlt : (k i).slt 0#32 = false := by
    simp only [BitVec.slt, BitVec.toInt_zero, decide_eq_false_iff_not, Int.not_lt]
    rw [toInt_of_lt h]
    omega
  show (if BitVec.ofBool ((k i).slt 0#32) = 1 then _ else _) = _
  rw [hlt]
  rfl

/-- The reference's result, as the composed term of its arguments, is the input with the named columns zeroed, when
    every column number is below 4096. -/
theorem ref_value (x : FVec Ideal SX .f32) (k : IVec SK 32) (hk : MaskOK k) :
    Read.val_main_v7 (F := Ideal) x k = zeroCols (F := Ideal) x k := by
  funext i'
  rw [zeroCols_apply]
  unfold Read.val_main_v7
  rw [scatter_const_apply dn x (Read.val_main_v5 (F := Ideal) k) (Read.val_main_v6 (F := Ideal)) zeroF (fun _ => rfl) i']
  have hiff := lands_iff k hk (Read.val_main_v5 (F := Ideal) k)
    (fun I => by rw [Read.val_main_v5_apply, keep_word k _ (hk _)]) i'
  by_cases h : ∃ i : SK.Idx, (k i).toNat = (i' 1).val
  · rw [if_pos h, if_pos (hiff.2 h)]
  · rw [if_neg h, if_neg (fun h' => h (hiff.1 h'))]

end Helpers

/-- The reference's run: it ends, faults nowhere, leaves both arguments as they were, and its result is the input
    with the named columns zeroed, provided every column number is below 4096. -/
theorem ref_run (m : (ℓ : Loc Cert.ReferenceIdeal.nD Cert.ReferenceIdeal.τ Cert.ReferenceIdeal.sig) → Buf (Elt Ideal) ℓ)
    (ρ : Dev Cert.ReferenceIdeal.nD → PrngReg)
    (hk : ∀ c : Dev Cert.ReferenceIdeal.nD, MaskOK (m ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v7)
          = zeroCols (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((Cert.ReferenceIdeal.Read.val_main_v7_eq _ _).trans (ref_value _ _ (hk c))), (h c).2⟩)
    (Cert.ReferenceIdeal.Value.run (F := Ideal) m ρ)

end Cert.Proof.RefValue

end
-- ==== Proof.ResI.lean ====
/-
  The launch set-up of the program and what its threads hand one another. The device has two SparseCores of sixteen
  tiles; tile `s` of core `c` owns the 512 rows of the arrays from row `1024 s + 512 c`, and works through them in
  256 chunks of two rows. A chunk is named by its number `n = 512 s + 256 c + g` among all 8192 chunks: it is the set
  of entries whose row, halved, is `n`. Each tile is handed a read share of the input and of the list, and its 256
  chunks of the result outright; it hands the shares back unchanged and the chunks holding the input with the listed
  columns zeroed.
-/
import proofs.«218967_g49014166782275_cont_8to1_c_257_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218967_g49014166782275_cont_8to1_c_257_31_alg».proof.Proof.Gen.KernelIdeal
import proofs.«218967_g49014166782275_cont_8to1_c_257_31_alg».proof.Proof.Gen.KernelIdeal.Skeleton
import proofs.«218967_g49014166782275_cont_8to1_c_257_31_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec (MaskOK zeroCols zeroF)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)
local notation "sK" => (Memref.whole Cert.KernelIdeal.cc0_scratch0 : Memref Cert.KernelIdeal.sig Kind.scVector Space.vmem Cert.KernelIdeal.S64 EltTy.i32)
local notation "sB1" => (Memref.whole Cert.KernelIdeal.cc0_scratch1 : Memref Cert.KernelIdeal.sig Kind.scVector Space.vmem Cert.KernelIdeal.S2x4096 EltTy.f32)
local notation "sB2" => (Memref.whole Cert.KernelIdeal.cc0_scratch2 : Memref Cert.KernelIdeal.sig Kind.scVector Space.vmem Cert.KernelIdeal.S2x4096 EltTy.f32)
local notation "sB3" => (Memref.whole Cert.KernelIdeal.cc0_scratch3 : Memref Cert.KernelIdeal.sig Kind.scVector Space.vmem Cert.KernelIdeal.S2x4096 EltTy.f32)
local notation "sB4" => (Memref.whole Cert.KernelIdeal.cc0_scratch4 : Memref Cert.KernelIdeal.sig Kind.scVector Space.vmem Cert.KernelIdeal.S2x4096 EltTy.f32)
local notation "sB5" => (Memref.whole Cert.KernelIdeal.cc0_scratch5 : Memref Cert.KernelIdeal.sig Kind.scVector Space.vmem Cert.KernelIdeal.S2x4096 EltTy.f32)
local notation "sB6" => (Memref.whole Cert.KernelIdeal.cc0_scratch6 : Memref Cert.KernelIdeal.sig Kind.scVector Space.vmem Cert.KernelIdeal.S2x4096 EltTy.f32)
local notation "sB7" => (Memref.whole Cert.KernelIdeal.cc0_scratch7 : Memref Cert.KernelIdeal.sig Kind.scVector Space.vmem Cert.KernelIdeal.S2x4096 EltTy.f32)
local notation "sB8" => (Memref.whole Cert.KernelIdeal.cc0_scratch8 : Memref Cert.KernelIdeal.sig Kind.scVector Space.vmem Cert.KernelIdeal.S2x4096 EltTy.f32)

abbrev xLoc (d : Dev nD) : Loc nD τ sig := (SparseCore.T d).loc main_arg0
abbrev kLoc (d : Dev nD) : Loc nD τ sig := (SparseCore.T d).loc main_arg1
abbrev oLoc (d : Dev nD) : Loc nD τ sig := (SparseCore.T d).loc main_v0

variable [FloatOps F]

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Chunks -/

/-- The chunk number of an entry: its row halved. -/
def chunkOf (j : S16384x4096.Idx) : ℕ := (j 0).val / 2

/-- Chunk `n`: the entries of rows `2 n` and `2 n + 1`. -/
def chunkSet (n : ℕ) : Finset S16384x4096.Idx := Finset.univ.filter fun j => chunkOf j = n

/-- The number of chunk `g` of tile `s` of core `c`. -/
def chunkNo (c s g : ℕ) : ℕ := 512 * s + 256 * c + g

/-- The read share of tile `s` of core `c`: token `16 c + s` of the full share. -/
def tileTok (c s : ℕ) : PosShare TreeShare := Transfers.shareTokN fullShare (16 * c + s)

/-- What the program leaves in the result: the input with the listed columns zeroed. -/
def Zbuf (d : Dev nD) : Buf (Elt F) (oLoc d) := zeroCols (F := F) (m (xLoc d)) (m (kLoc d))

/-! ## What the handshakes carry -/

/-- A tile's operands: its read shares of the input and the list, its chunks of the result at the contents `f`. -/
def tilePay (d : Dev nD) (c s : ℕ) (f : Buf (Elt F) (oLoc d)) : sProp 𝕄 :=
  iprop((xLoc d ↦{tileTok c s} m (xLoc d)) ∗ (kLoc d ↦{tileTok c s} m (kLoc d))
    ∗ bigSep (Finset.univ : Finset (Fin 256)) fun g => oLoc d ↦[chunkSet (chunkNo c s g.val)]{fullShare} f)

/-- The one call: each core's start payload is its tiles' operands with the result at its launch contents, its done
    payload the same with the result at `Zbuf`; a tile's go and taskDone payloads are its own. -/
def P : (K (F := F)).Pay (nD := nD) (Val := Elt F) (Name := ℕ) (U := UU) where
  st := fun _ d c => bigSep (Finset.univ : Finset (Fin ((K (F := F)).nSub 0))) fun i => tilePay m d c.val i.val (m (oLoc d))
  dn := fun _ d c => bigSep (Finset.univ : Finset (Fin ((K (F := F)).nSub 0))) fun i => tilePay m d c.val i.val (Zbuf m d)
  go := fun _ d c i => tilePay m d c.val i.val (m (oLoc d))
  td := fun _ d c i => tilePay m d c.val i.val (Zbuf m d)
  x := fun _ _ => iprop(emp)

instance P_storable : (P (F := F) m).IsStorable where
  st _ d c := by unfold P tilePay; infer_instance
  dn _ d c := by unfold P tilePay; infer_instance
  go _ d c i := by unfold P tilePay; infer_instance
  td _ d c i := by unfold P tilePay; infer_instance

/-- What the claim reads off the final memory: the result at `Zbuf`, the two arguments unchanged. -/
def QC : PUnit × MemSt nD τ sig (Elt F) → Prop := fun r =>
  ∀ c : Dev nD, r.2.mem (oLoc c) = Zbuf m c ∧ r.2.mem (xLoc c) = m (xLoc c) ∧ r.2.mem (kLoc c) = m (kLoc c)

end Cert.Proof.KI

end
-- ==== Proof.LaunchI.lean ====
/-
  The launch. @main on the TensorCore holds the three arrays whole; it cuts the input and the list into read shares,
  one per tile, and the result into its 8192 chunks, starts both SparseCores with them, and on their return joins the
  shares and the chunks again: the input and the list as they were, the result one array holding the input with the
  listed columns zeroed (every chunk came back at that one function, and the chunks are pairwise disjoint and cover the
  array, a chunk being a fibre of "row halved").
-/
import proofs.«218967_g49014166782275_cont_8to1_c_257_31_alg».proof.Proof.ResI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

/-! ## Read shares, one per tile -/

/-- An array held whole is the remainder after 32 read shares together with the 32 shares, share `16 c + i` being that
    of tile `i` of core `c`. -/
theorem shares_cut (ℓ : Loc nD τ sig) (f : Buf (Elt F) ℓ) :
    (ℓ ↦{fullShare} f : sProp 𝕄) ⊣⊢ iprop((ℓ ↦{Transfers.shareDrop fullShare 32} f)
      ∗ bigSep Finset.univ fun c : Fin 2 => bigSep Finset.univ fun i : Fin 16 => ℓ ↦{tileTok c.val i.val} f) := by
  have e : (bigSep Finset.univ fun c : Fin 2 => bigSep Finset.univ fun i : Fin 16 => (ℓ ↦{tileTok c.val i.val} f : sProp 𝕄))
      = bigSep Finset.univ fun t : Fin 32 => ℓ ↦{Transfers.shareTok fullShare 32 t} f := by
    rw [bigSep_univ_equiv (finProdFinEquiv : Fin 2 × Fin 16 ≃ Fin 32) (fun t : Fin 32 => (ℓ ↦{Transfers.shareTok fullShare 32 t} f : sProp 𝕄)),
      bigSep_univ_prod]
    refine bigSep_congr fun c _ => bigSep_congr fun i _ => ?_
    show _ = (ℓ ↦{Transfers.shareTokN fullShare (i.val + 16 * c.val)} f : sProp 𝕄)
    unfold tileTok; rw [Nat.add_comm]
  rw [e]
  exact Transfers.pointsTo_toks fullShare 32

/-! ## The result's chunks -/

/-- A chunk's number determines its core, tile and place. -/
theorem chunkNo_inj {c s g c' s' g' : ℕ} (hc : c < 2) (hg : g < 256) (hc' : c' < 2) (hg' : g' < 256)
    (h : chunkNo c s g = chunkNo c' s' g') : c = c' ∧ s = s' ∧ g = g' := by
  unfold chunkNo at h; omega

/-- The chunk of place `g` of tile `s` of core `c`, the three as one index. -/
def triSet (t : Fin 2 × Fin 16 × Fin 256) : Finset S16384x4096.Idx := chunkSet (chunkNo t.1.val t.2.1.val t.2.2.val)

/-- Chunks of different numbers share no entry: a chunk is a fibre of "row halved". -/
theorem tri_disjoint : ∀ t ∈ (Finset.univ : Finset (Fin 2 × Fin 16 × Fin 256)), ∀ t' ∈ (Finset.univ : Finset (Fin 2 × Fin 16 × Fin 256)),
    t ≠ t' → Disjoint (triSet t) (triSet t') := by
  rintro ⟨c, s, g⟩ - ⟨c', s', g'⟩ - hne
  unfold triSet chunkSet
  refine Finset.disjoint_filter.mpr fun j _ h1 h2 => hne ?_
  obtain ⟨e1, e2, e3⟩ := chunkNo_inj c.isLt g.isLt c'.isLt g'.isLt (h1.symm.trans h2)
  exact Prod.ext (Fin.ext e1) (Prod.ext (Fin.ext e2) (Fin.ext e3))

/-- Every entry is in some chunk: its row halved is below 8192, and every such number is `512 s + 256 c + g`. -/
theorem tri_cover : (Finset.univ : Finset (Fin 2 × Fin 16 × Fin 256)).biUnion triSet = Finset.univ := by
  apply Finset.eq_univ_of_forall
  intro j
  rw [Finset.mem_biUnion]
  have hj : (j 0).val < 16384 := (j 0).isLt
  have hn : chunkOf j < 8192 := by unfold chunkOf; omega
  refine ⟨(⟨(chunkOf j / 256) % 2, by omega⟩, ⟨chunkOf j / 512, by omega⟩, ⟨chunkOf j % 256, by omega⟩), Finset.mem_univ _, ?_⟩
  unfold triSet chunkSet
  refine Finset.mem_filter.mpr ⟨Finset.mem_univ _, ?_⟩
  show chunkOf j = chunkNo ((chunkOf j / 256) % 2) (chunkOf j / 512) (chunkOf j % 256)
  unfold chunkNo; omega

/-- The result held whole is its 8192 chunks, by core, tile and place. -/
theorem chunks_cut (d : Dev nD) (f : Buf (Elt F) (oLoc d)) :
    (oLoc d ↦{fullShare} f : sProp 𝕄) = bigSep Finset.univ fun c : Fin 2 => bigSep Finset.univ fun s : Fin 16 =>
      bigSep Finset.univ fun g : Fin 256 => oLoc d ↦[chunkSet (chunkNo c.val s.val g.val)]{fullShare} f := by
  have h : (oLoc d ↦{fullShare} f : sProp 𝕄) = bigSep Finset.univ fun t : Fin 2 × Fin 16 × Fin 256 => oLoc d ↦[triSet t]{fullShare} f := by
    rw [← pointsTo_biUnion Finset.univ (ℓ := oLoc d) triSet tri_disjoint, tri_cover]
  rw [h, bigSep_univ_prod]
  refine bigSep_congr fun c _ => ?_
  rw [bigSep_univ_prod]; rfl

/-! ## The three arrays, cut for the call and joined after it -/

/-- The input and the list held whole and the result held whole at `f` are: the two remainders of the read shares, and
    for every tile its two read shares and its chunks of the result at `f`. -/
theorem arrays_cut (d : Dev nD) (f : Buf (Elt F) (oLoc d)) :
    iprop((xLoc d ↦{fullShare} m (xLoc d)) ∗ (kLoc d ↦{fullShare} m (kLoc d)) ∗ oLoc d ↦{fullShare} f)
      ⊣⊢ iprop(((xLoc d ↦{Transfers.shareDrop fullShare 32} m (xLoc d)) ∗ (kLoc d ↦{Transfers.shareDrop fullShare 32} m (kLoc d)))
        ∗ bigSep Finset.univ fun c : Fin 2 => bigSep Finset.univ fun i : Fin 16 => tilePay m d c.val i.val f) := by
  unfold tilePay
  simp only [bigSep_sep']
  rw [chunks_cut d f]
  constructor
  · iintro ⟨Hx, Hk, Ho⟩
    ihave Hx' := (shares_cut (F := F) (xLoc d) (m (xLoc d))).1 $$ Hx
    ihave Hk' := (shares_cut (F := F) (kLoc d) (m (kLoc d))).1 $$ Hk
    icases Hx' with ⟨Rx, Tx⟩
    icases Hk' with ⟨Rk, Tk⟩
    isplitl [Rx Rk]; · isplitl [Rx] <;> iassumption
    isplitl [Tx]; · iexact Tx
    isplitl [Tk]; · iexact Tk
    iexact Ho
  · iintro ⟨⟨Rx, Rk⟩, Tx, Tk, Ho⟩
    isplitl [Rx Tx]
    · iapply (shares_cut (F := F) (xLoc d) (m (xLoc d))).2
      isplitl [Rx] <;> iassumption
    isplitl [Rk Tk]
    · iapply (shares_cut (F := F) (kLoc d) (m (kLoc d))).2
      isplitl [Rk] <;> iassumption
    iexact Ho

omit [FloatOps F] in
/-- What is handed on whole comes back whole. -/
theorem keep_and_return (A B : sProp 𝕄) : A ⊢ |={Set.univ}=> iprop(A ∗ (B -∗ B)) := by
  iintro H; imodintro
  isplitl [H]; · iexact H
  iintro H; iexact H

/-- A core's operands are its tiles' operands, and its results theirs: nothing to regroup. -/
theorem vecSplit : (K (F := F)).VecSplit' (P m) 0 := by
  intro d c
  unfold P; dsimp only
  exact keep_and_return _ _

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (kLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two cores, and what it hands back: every tile's operands. -/
theorem st0_eq (d : Dev nD) : (bigSep Finset.univ fun c : Fin ((K (F := F)).nCore 0) => (P m).st 0 d c)
    = bigSep Finset.univ fun c : Fin 2 => bigSep Finset.univ fun i : Fin 16 => tilePay m d c.val i.val (m (oLoc d)) := by
  unfold P; dsimp only
theorem dn0_eq (d : Dev nD) : (bigSep Finset.univ fun c : Fin ((K (F := F)).nCore 0) => (P m).dn 0 d c)
    = bigSep Finset.univ fun c : Fin 2 => bigSep Finset.univ fun i : Fin 16 => tilePay m d c.val i.val (Zbuf m d) := by
  unfold P; dsimp only

/-- What @main leaves the claim: the two arguments at their launch contents, the result at `Zbuf`. -/
abbrev FIN (d : Dev nD) : sProp 𝕄 :=
  iprop((xLoc d ↦{fullShare} m (xLoc d)) ∗ (kLoc d ↦{fullShare} m (kLoc d)) ∗ oLoc d ↦{fullShare} Zbuf m d)

/-- @main on device `d`'s TensorCore: the arrays cut, the one call, the arrays joined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨-, Harr, -, -⟩, -⟩
  ihave Hcut := (arrays_cut m d (m (oLoc d))).1 $$ Harr
  icases Hcut with ⟨Hrem, Hpay⟩
  iapply ((K (F := F)).wp_run (D (F := F)) 𝒱 (EH := EH) (P := P m) κ d 0) $$ [Hst Hpay Hrem]
  isplitr; · iexact Hctx
  isplitl [Hst]; · iexact Hst
  isplitl [Hpay]; · rw [st0_eq]; iexact Hpay
  iintro ⟨Hst, Hdn⟩
  ihave Hdn' := (Entails.of_eq (dn0_eq m d)) $$ Hdn
  ihave Hfin := (arrays_cut m d (Zbuf m d)).2 $$ [Hrem Hdn']
  · isplitl [Hrem] <;> iassumption
  imodintro
  isplitl [Hst]; · iexact Hst
  iexact Hfin

def fq (d : Dev nD) (s' : Phys nD τ sig (Elt F)) : Prop :=
  s'.mem.mem (oLoc d) = Zbuf m d ∧ s'.mem.mem (xLoc d) = m (xLoc d) ∧ s'.mem.mem (kLoc d) = m (kLoc d)

theorem hfin (d : Dev nD) (s' : Phys nD τ sig (Elt F)) : iprop(FIN m d ∗ SI s') ⊢ (⌜fq m d s'⌝ : sProp 𝕄) := by
  iintro ⟨⟨Hx, Hk, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (SI_pointsTo_agree (st := s') (ℓ := oLoc d) (I := Finset.univ) (q := fullShare) (f := Zbuf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- The program's run, from the tiles' obligation: every weakly fair execution of the device's threads terminates,
    nothing faulting, the result at `Zbuf`, the arguments unchanged. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.GeoI.lean ====
/-
  A tile's chunks as rectangles of the arrays. Tile `(L 0, L 1)` (core, subcore) owns the 512 rows from row
  `1024 (L 1) + 512 (L 0)`; its chunk `g` is the two rows from `1024 (L 1) + 512 (L 0) + 2 g`, all 4096 columns. The
  program computes a chunk's first row as a 32-bit word, base plus `2 g`; nothing wraps, so the word is that number.
  As a set of entries the chunk is the fibre of "row halved" over `512 (L 1) + 256 (L 0) + g`.
-/
import proofs.«218967_g49014166782275_cont_8to1_c_257_31_alg».proof.Proof.ResI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

/-- The first entry of chunk `g` of tile `L`: row `1024 (L 1) + 512 (L 0) + 2 g`, column 0. -/
def rowOffs (L : grid0.Coords) (g : ℕ) : Fin 2 → ℕ := ![1024 * (L 1).val + 512 * (L 0).val + 2 * g, 0]

omit [FloatOps F] in
theorem rowOffs_inb (L : grid0.Coords) (g : ℕ) (hg : g < 256) : ∀ a, rowOffs L g a + S2x4096.size a ≤ S16384x4096.size a := by
  have h0 : (L 0).val < 2 := (L 0).isLt
  have h1 : (L 1).val < 16 := (L 1).isLt
  refine Fin.forall_fin_two.mpr ⟨?_, ?_⟩
  · show 1024 * (L 1).val + 512 * (L 0).val + 2 * g + 2 ≤ 16384
    omega
  · show 0 + 4096 ≤ 4096
    omega

/-- Chunk `g` of tile `L` as a rectangle: two whole rows. -/
abbrev cRect (L : grid0.Coords) (g : Fin 256) : Rect S16384x4096 := Rect.unit (s := S16384x4096) (rowOffs L g.val) S2x4096.size (rowOffs_inb L g.val g.isLt)

/-- Chunk `g` of the input and of the result, as the tile's thread slices them. -/
abbrev xCh (L : grid0.Coords) (g : Fin 256) : Memref sig .scVector .hbm S2x4096 .f32 := (xW).slice (cRect L g) (fun _ => rfl)
abbrev oCh (L : grid0.Coords) (g : Fin 256) : Memref sig .scVector .hbm S2x4096 .f32 := (oW).slice (cRect L g) (fun _ => rfl)

omit [FloatOps F] in
/-- Two rectangles of the same sizes at equal offsets are one rectangle. -/
theorem rect_unit_congr {o o' : Fin 2 → ℕ} (e : o = o') (h : ∀ a, o a + S2x4096.size a ≤ S16384x4096.size a)
    (h' : ∀ a, o' a + S2x4096.size a ≤ S16384x4096.size a) :
    Rect.unit (s := S16384x4096) o S2x4096.size h = Rect.unit (s := S16384x4096) o' S2x4096.size h' := by
  subst e; rfl

omit [FloatOps F] in
/-- The program's word arithmetic for a chunk's first row does not wrap: base plus `2 g`, for every tile and every chunk.
    (`k0_off1` is the offset function of the unrolled accesses; `k0_off2` … `k0_off9` and `k0_off35` … `k0_off42` are the
    same function, by definition.) -/
theorem off_eq : ∀ (L : grid0.Coords) (g : Fin 256), k0_off1 L (BitVec.ofNat 32 (2 * g.val)) = rowOffs L g.val := by
  intro L g
  have h0 : (L 0).val < 2 := (L 0).isLt
  have h1 : (L 1).val < 16 := (L 1).isLt
  have hg : g.val < 256 := g.isLt
  -- the word, read as a number: every product and sum stays below 2 ^ 32
  have hw : ((BitVec.ofNat 32 (L 1).val * 2#32 + BitVec.ofNat 32 (L 0).val) * 512#32 + BitVec.ofNat 32 (2 * g.val)).toNat
      = 1024 * (L 1).val + 512 * (L 0).val + 2 * g.val := by
    simp only [BitVec.toNat_add, BitVec.toNat_mul, BitVec.toNat_ofNat, Nat.reducePow]
    omega
  show ![((BitVec.ofNat 32 (L 1).val * 2#32 + BitVec.ofNat 32 (L 0).val) * 512#32 + BitVec.ofNat 32 (2 * g.val)).toNat, 0]
      = ![1024 * (L 1).val + 512 * (L 0).val + 2 * g.val, 0]
  rw [hw]

omit [FloatOps F] in
/-- The chunk's rectangle, as a set of entries: an entry lies in rows `2 n`, `2 n + 1` exactly when its row halved
    is `n`; the chunk's first row is `2 (512 (L 1) + 256 (L 0) + g)`, and its columns are all of them. -/
theorem cRect_set (L : grid0.Coords) (g : Fin 256) : (cRect L g).set = chunkSet (chunkNo (L 0).val (L 1).val g.val) := by
  have h0 : (L 0).val < 2 := (L 0).isLt
  have h1 : (L 1).val < 16 := (L 1).isLt
  have hg : g.val < 256 := g.isLt
  ext j
  have hj1 : (j 1).val < 4096 := (j 1).isLt
  rw [Rect.mem_set_unit]
  rw [chunkSet, Finset.mem_filter]
  simp only [chunkOf, chunkNo, Finset.mem_univ, true_and]
  constructor
  · intro h
    have ha : 1024 * (L 1).val + 512 * (L 0).val + 2 * g.val ≤ (j 0).val
        ∧ (j 0).val < 1024 * (L 1).val + 512 * (L 0).val + 2 * g.val + 2 := h 0
    omega
  · intro h
    refine Fin.forall_fin_two.mpr ⟨?_, ?_⟩
    · show 1024 * (L 1).val + 512 * (L 0).val + 2 * g.val ≤ (j 0).val
        ∧ (j 0).val < 1024 * (L 1).val + 512 * (L 0).val + 2 * g.val + 2
      omega
    · show 0 ≤ (j 1).val ∧ (j 1).val < 0 + 4096
      omega

omit [FloatOps F] in
/-- A chunk of the result, as a set of entries, is the fibre of "row halved" over its number (ResI's `chunkSet`,
    `chunkNo`). The same for the input's chunk: the two arrays have one shape. -/
theorem set_oCh (L : grid0.Coords) (g : Fin 256) : (oCh L g).view.set = chunkSet (chunkNo (L 0).val (L 1).val g.val) := by
  show ((View.whole (main_v0_scv : Ref sig .scVector)).slice (cRect L g)).set = _
  rw [View.set_slice, ← cRect_set]; exact Finset.map_refl
omit [FloatOps F] in
theorem set_xCh (L : grid0.Coords) (g : Fin 256) : (xCh L g).view.set = chunkSet (chunkNo (L 0).val (L 1).val g.val) := by
  show ((View.whole (main_arg0_scv : Ref sig .scVector)).slice (cRect L g)).set = _
  rw [View.set_slice, ← cRect_set]; exact Finset.map_refl

omit [FloatOps F] in
/-- Entry `y` of a chunk, in the array: row `2 n + y 0` for the chunk's first row `2 n`, column `y 1`. -/
theorem emb_oCh (L : grid0.Coords) (g : Fin 256) (y : S2x4096.Idx) :
    ((oCh L g).view.emb y 0).val = 1024 * (L 1).val + 512 * (L 0).val + 2 * g.val + (y 0).val ∧ ((oCh L g).view.emb y 1).val = (y 1).val := by
  -- a slice of a whole array places entry `y` at offset plus (unit stride times) coordinate, axis by axis
  constructor
  · show 1024 * (L 1).val + 512 * (L 0).val + 2 * g.val + 1 * (y 0).val = 1024 * (L 1).val + 512 * (L 0).val + 2 * g.val + (y 0).val
    omega
  · show 0 + 1 * (y 1).val = (y 1).val
    omega
omit [FloatOps F] in
theorem emb_xCh (L : grid0.Coords) (g : Fin 256) (y : S2x4096.Idx) : (xCh L g).view.emb y = (oCh L g).view.emb y := by
  -- both are the one rectangle's placement in arrays of one shape
  rfl

omit [FloatOps F] in
/-- A chunk of the result held as the thread slices it is the chunk held by its set of entries (ResI's spelling). -/
theorem pts_oCh (d : Dev nD) (L : grid0.Coords) (g : Fin 256) (f : Buf (Elt F) (oLoc d)) :
    ((oCh L g).view.loc (thr d L) ↦[(oCh L g).view.set]{fullShare} f : sProp 𝕄)
      = (oLoc d ↦[chunkSet (chunkNo (L 0).val (L 1).val g.val)]{fullShare} f) := by
  rw [set_oCh]

end Cert.Proof.KI

end
-- ==== Proof.OffsI.lean ====
/-
  The program's spellings of a tile's chunks. Every access computes its chunk's first row as a word: base plus a
  constant in the unrolled stretches, base plus sixteen times the trip number plus a constant inside the loop. Each such
  spelling is the chunk of the canonical numbering: chunk `w / 2` for the constant word `w`, chunk `8 k + c` in trip `k`.
-/
import proofs.«218967_g49014166782275_cont_8to1_c_257_31_alg».proof.Proof.GeoI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

omit [FloatOps F] in
/-- A chunk number inside the loop stays below 256: there are at most 30 trips. -/
theorem lt8 (k : Fin k0_t1_loop.trips) (c : ℕ) (hc : c ≤ 23) : 8 * k.val + c < 256 := by
  have h1 : k0_t1_loop.trips ≤ 30 := k0_t1_abs.2.1
  have h2 : k.val < k0_t1_loop.trips := k.isLt
  omega

omit [FloatOps F] in
/-- A slice of the result at two whole rows whose first entry is that of chunk `g` is chunk `g`. -/
theorem o_slice_eq {L : grid0.Coords} {off : Fin 2 → ℕ} {g : ℕ} (hg : g < 256) (e : off = rowOffs L g)
    (h : ∀ a, off a + S2x4096.size a ≤ S16384x4096.size a) :
    (oW).slice (Rect.unit (s := S16384x4096) off S2x4096.size h) (fun _ => rfl) = oCh L ⟨g, hg⟩ := by
  subst e; rfl

omit [FloatOps F] in
/-- The same for the input. -/
theorem x_slice_eq {L : grid0.Coords} {off : Fin 2 → ℕ} {g : ℕ} (hg : g < 256) (e : off = rowOffs L g)
    (h : ∀ a, off a + S2x4096.size a ≤ S16384x4096.size a) :
    (xW).slice (Rect.unit (s := S16384x4096) off S2x4096.size h) (fun _ => rfl) = xCh L ⟨g, hg⟩ := by
  subst e; rfl

omit [FloatOps F] in
/-- Row `n`, column 0 is the first entry of chunk `g` of tile `L` when `n` is the tile's base row plus `2 g`. -/
theorem rowOffs_of (L : grid0.Coords) (g n : ℕ) (e : n = 1024 * (L 1).val + 512 * (L 0).val + 2 * g) :
    (![n, 0] : Fin 2 → ℕ) = rowOffs L g := by
  subst e; rfl

omit [FloatOps F] in
/-- The offset function of the unrolled accesses at the word `2 g`, spelt with `g` a number below 256. -/
theorem off_eq' (L : grid0.Coords) (g : ℕ) (hg : g < 256) : k0_off1 L (BitVec.ofNat 32 (2 * g)) = rowOffs L g :=
  off_eq L ⟨g, hg⟩

/-! ## The unrolled stretches -/

omit [FloatOps F] in
theorem o_off2_0 (L : grid0.Coords) :
    (oW).slice (Rect.unit (s := S16384x4096) (k0_off2 L 0#32) S2x4096.size (k0_off2_inb L 0)) (fun _ => rfl) = oCh L ⟨0, by decide⟩ :=
  o_slice_eq _ (show k0_off1 L (BitVec.ofNat 32 (2 * 0)) = rowOffs L 0 from off_eq' L 0 (by decide)) _

omit [FloatOps F] in
theorem o_off3_2 (L : grid0.Coords) :
    (oW).slice (Rect.unit (s := S16384x4096) (k0_off3 L 2#32) S2x4096.size (k0_off3_inb L 0)) (fun _ => rfl) = oCh L ⟨1, by decide⟩ :=
  o_slice_eq _ (show k0_off1 L (BitVec.ofNat 32 (2 * 1)) = rowOffs L 1 from off_eq' L 1 (by decide)) _

omit [FloatOps F] in
theorem o_off4_4 (L : grid0.Coords) :
    (oW).slice (Rect.unit (s := S16384x4096) (k0_off4 L 4#32) S2x4096.size (k0_off4_inb L 0)) (fun _ => rfl) = oCh L ⟨2, by decide⟩ :=
  o_slice_eq _ (show k0_off1 L (BitVec.ofNat 32 (2 * 2)) = rowOffs L 2 from off_eq' L 2 (by decide)) _

omit [FloatOps F] in
theorem o_off5_6 (L : grid0.Coords) :
    (oW).slice (Rect.unit (s := S16384x4096) (k0_off5 L 6#32) S2x4096.size (k0_off5_inb L 0)) (fun _ => rfl) = oCh L ⟨3, by decide⟩ :=
  o_slice_eq _ (show k0_off1 L (BitVec.ofNat 32 (2 * 3)) = rowOffs L 3 from off_eq' L 3 (by decide)) _

omit [FloatOps F] in
theorem o_off6_8 (L : grid0.Coords) :
    (oW).slice (Rect.unit (s := S16384x4096) (k0_off6 L 8#32) S2x4096.size (k0_off6_inb L 0)) (fun _ => rfl) = oCh L ⟨4, by decide⟩ :=
  o_slice_eq _ (show k0_off1 L (BitVec.ofNat 32 (2 * 4)) = rowOffs L 4 from off_eq' L 4 (by decide)) _

omit [FloatOps F] in
theorem o_off7_10 (L : grid0.Coords) :
    (oW).slice (Rect.unit (s := S16384x4096) (k0_off7 L 10#32) S2x4096.size (k0_off7_inb L 0)) (fun _ => rfl) = oCh L ⟨5, by decide⟩ :=
  o_slice_eq _ (show k0_off1 L (BitVec.ofNat 32 (2 * 5)) = rowOffs L 5 from off_eq' L 5 (by decide)) _

omit [FloatOps F] in
theorem o_off8_12 (L : grid0.Coords) :
    (oW).slice (Rect.unit (s := S16384x4096) (k0_off8 L 12#32) S2x4096.size (k0_off8_inb L 0)) (fun _ => rfl) = oCh L ⟨6, by decide⟩ :=
  o_slice_eq _ (show k0_off1 L (BitVec.ofNat 32 (2 * 6)) = rowOffs L 6 from off_eq' L 6 (by decide)) _

omit [FloatOps F] in
theorem o_off9_14 (L : grid0.Coords) :
    (oW).slice (Rect.unit (s := S16384x4096) (k0_off9 L 14#32) S2x4096.size (k0_off9_inb L 0)) (fun _ => rfl) = oCh L ⟨7, by decide⟩ :=
  o_slice_eq _ (show k0_off1 L (BitVec.ofNat 32 (2 * 7)) = rowOffs L 7 from off_eq' L 7 (by decide)) _

omit [FloatOps F] in
theorem o_off35_496 (L : grid0.Coords) :
    (oW).slice (Rect.unit (s := S16384x4096) (k0_off35 L 496#32) S2x4096.size (k0_off35_inb L 0)) (fun _ => rfl) = oCh L ⟨248, by decide⟩ :=
  o_slice_eq _ (show k0_off1 L (BitVec.ofNat 32 (2 * 248)) = rowOffs L 248 from off_eq' L 248 (by decide)) _

omit [FloatOps F] in
theorem o_off36_498 (L : grid0.Coords) :
    (oW).slice (Rect.unit (s := S16384x4096) (k0_off36 L 498#32) S2x4096.size (k0_off36_inb L 1)) (fun _ => rfl) = oCh L ⟨249, by decide⟩ :=
  o_slice_eq _ (show k0_off1 L (BitVec.ofNat 32 (2 * 249)) = rowOffs L 249 from off_eq' L 249 (by decide)) _

omit [FloatOps F] in
theorem o_off37_500 (L : grid0.Coords) :
    (oW).slice (Rect.unit (s := S16384x4096) (k0_off37 L 500#32) S2x4096.size (k0_off37_inb L 1)) (fun _ => rfl) = oCh L ⟨250, by decide⟩ :=
  o_slice_eq _ (show k0_off1 L (BitVec.ofNat 32 (2 * 250)) = rowOffs L 250 from off_eq' L 250 (by decide)) _

omit [FloatOps F] in
theorem o_off38_502 (L : grid0.Coords) :
    (oW).slice (Rect.unit (s := S16384x4096) (k0_off38 L 502#32) S2x4096.size (k0_off38_inb L 1)) (fun _ => rfl) = oCh L ⟨251, by decide⟩ :=
  o_slice_eq _ (show k0_off1 L (BitVec.ofNat 32 (2 * 251)) = rowOffs L 251 from off_eq' L 251 (by decide)) _

omit [FloatOps F] in
theorem o_off39_504 (L : grid0.Coords) :
    (oW).slice (Rect.unit (s := S16384x4096) (k0_off39 L 504#32) S2x4096.size (k0_off39_inb L 1)) (fun _ => rfl) = oCh L ⟨252, by decide⟩ :=
  o_slice_eq _ (show k0_off1 L (BitVec.ofNat 32 (2 * 252)) = rowOffs L 252 from off_eq' L 252 (by decide)) _

omit [FloatOps F] in
theorem o_off40_506 (L : grid0.Coords) :
    (oW).slice (Rect.unit (s := S16384x4096) (k0_off40 L 506#32) S2x4096.size (k0_off40_inb L 1)) (fun _ => rfl) = oCh L ⟨253, by decide⟩ :=
  o_slice_eq _ (show k0_off1 L (BitVec.ofNat 32 (2 * 253)) = rowOffs L 253 from off_eq' L 253 (by decide)) _

omit [FloatOps F] in
theorem o_off41_508 (L : grid0.Coords) :
    (oW).slice (Rect.unit (s := S16384x4096) (k0_off41 L 508#32) S2x4096.size (k0_off41_inb L 1)) (fun _ => rfl) = oCh L ⟨254, by decide⟩ :=
  o_slice_eq _ (show k0_off1 L (BitVec.ofNat 32 (2 * 254)) = rowOffs L 254 from off_eq' L 254 (by decide)) _

omit [FloatOps F] in
theorem o_off42_510 (L : grid0.Coords) :
    (oW).slice (Rect.unit (s := S16384x4096) (k0_off42 L 510#32) S2x4096.size (k0_off42_inb L 1)) (fun _ => rfl) = oCh L ⟨255, by decide⟩ :=
  o_slice_eq _ (show k0_off1 L (BitVec.ofNat 32 (2 * 255)) = rowOffs L 255 from off_eq' L 255 (by decide)) _

omit [FloatOps F] in
theorem x_off3_16 (L : grid0.Coords) :
    (xW).slice (Rect.unit (s := S16384x4096) (k0_off3 L 16#32) S2x4096.size (k0_off3_inb L 2)) (fun _ => rfl) = xCh L ⟨8, by decide⟩ :=
  x_slice_eq _ (show k0_off1 L (BitVec.ofNat 32 (2 * 8)) = rowOffs L 8 from off_eq' L 8 (by decide)) _

omit [FloatOps F] in
theorem x_off4_18 (L : grid0.Coords) :
    (xW).slice (Rect.unit (s := S16384x4096) (k0_off4 L 18#32) S2x4096.size (k0_off4_inb L 2)) (fun _ => rfl) = xCh L ⟨9, by decide⟩ :=
  x_slice_eq _ (show k0_off1 L (BitVec.ofNat 32 (2 * 9)) = rowOffs L 9 from off_eq' L 9 (by decide)) _

omit [FloatOps F] in
theorem x_off5_20 (L : grid0.Coords) :
    (xW).slice (Rect.unit (s := S16384x4096) (k0_off5 L 20#32) S2x4096.size (k0_off5_inb L 2)) (fun _ => rfl) = xCh L ⟨10, by decide⟩ :=
  x_slice_eq _ (show k0_off1 L (BitVec.ofNat 32 (2 * 10)) = rowOffs L 10 from off_eq' L 10 (by decide)) _

omit [FloatOps F] in
theorem x_off6_22 (L : grid0.Coords) :
    (xW).slice (Rect.unit (s := S16384x4096) (k0_off6 L 22#32) S2x4096.size (k0_off6_inb L 2)) (fun _ => rfl) = xCh L ⟨11, by decide⟩ :=
  x_slice_eq _ (show k0_off1 L (BitVec.ofNat 32 (2 * 11)) = rowOffs L 11 from off_eq' L 11 (by decide)) _

omit [FloatOps F] in
theorem x_off7_24 (L : grid0.Coords) :
    (xW).slice (Rect.unit (s := S16384x4096) (k0_off7 L 24#32) S2x4096.size (k0_off7_inb L 2)) (fun _ => rfl) = xCh L ⟨12, by decide⟩ :=
  x_slice_eq _ (show k0_off1 L (BitVec.ofNat 32 (2 * 12)) = rowOffs L 12 from off_eq' L 12 (by decide)) _

omit [FloatOps F] in
theorem x_off8_26 (L : grid0.Coords) :
    (xW).slice (Rect.unit (s := S16384x4096) (k0_off8 L 26#32) S2x4096.size (k0_off8_inb L 2)) (fun _ => rfl) = xCh L ⟨13, by decide⟩ :=
  x_slice_eq _ (show k0_off1 L (BitVec.ofNat 32 (2 * 13)) = rowOffs L 13 from off_eq' L 13 (by decide)) _

omit [FloatOps F] in
theorem x_off9_28 (L : grid0.Coords) :
    (xW).slice (Rect.unit (s := S16384x4096) (k0_off9 L 28#32) S2x4096.size (k0_off9_inb L 2)) (fun _ => rfl) = xCh L ⟨14, by decide⟩ :=
  x_slice_eq _ (show k0_off1 L (BitVec.ofNat 32 (2 * 14)) = rowOffs L 14 from off_eq' L 14 (by decide)) _

omit [FloatOps F] in
theorem x_off1_0 (L : grid0.Coords) :
    (xW).slice (Rect.unit (s := S16384x4096) (k0_off1 L 0#32) S2x4096.size (k0_off1_inb L 0)) (fun _ => rfl) = xCh L ⟨0, by decide⟩ :=
  x_slice_eq _ (show k0_off1 L (BitVec.ofNat 32 (2 * 0)) = rowOffs L 0 from off_eq' L 0 (by decide)) _

omit [FloatOps F] in
theorem x_off1_2 (L : grid0.Coords) :
    (xW).slice (Rect.unit (s := S16384x4096) (k0_off1 L 2#32) S2x4096.size (k0_off1_inb L 1)) (fun _ => rfl) = xCh L ⟨1, by decide⟩ :=
  x_slice_eq _ (show k0_off1 L (BitVec.ofNat 32 (2 * 1)) = rowOffs L 1 from off_eq' L 1 (by decide)) _

omit [FloatOps F] in
theorem x_off1_4 (L : grid0.Coords) :
    (xW).slice (Rect.unit (s := S16384x4096) (k0_off1 L 4#32) S2x4096.size (k0_off1_inb L 2)) (fun _ => rfl) = xCh L ⟨2, by decide⟩ :=
  x_slice_eq _ (show k0_off1 L (BitVec.ofNat 32 (2 * 2)) = rowOffs L 2 from off_eq' L 2 (by decide)) _

omit [FloatOps F] in
theorem x_off1_6 (L : grid0.Coords) :
    (xW).slice (Rect.unit (s := S16384x4096) (k0_off1 L 6#32) S2x4096.size (k0_off1_inb L 3)) (fun _ => rfl) = xCh L ⟨3, by decide⟩ :=
  x_slice_eq _ (show k0_off1 L (BitVec.ofNat 32 (2 * 3)) = rowOffs L 3 from off_eq' L 3 (by decide)) _

omit [FloatOps F] in
theorem x_off1_8 (L : grid0.Coords) :
    (xW).slice (Rect.unit (s := S16384x4096) (k0_off1 L 8#32) S2x4096.size (k0_off1_inb L 4)) (fun _ => rfl) = xCh L ⟨4, by decide⟩ :=
  x_slice_eq _ (show k0_off1 L (BitVec.ofNat 32 (2 * 4)) = rowOffs L 4 from off_eq' L 4 (by decide)) _

omit [FloatOps F] in
theorem x_off1_10 (L : grid0.Coords) :
    (xW).slice (Rect.unit (s := S16384x4096) (k0_off1 L 10#32) S2x4096.size (k0_off1_inb L 5)) (fun _ => rfl) = xCh L ⟨5, by decide⟩ :=
  x_slice_eq _ (show k0_off1 L (BitVec.ofNat 32 (2 * 5)) = rowOffs L 5 from off_eq' L 5 (by decide)) _

omit [FloatOps F] in
theorem x_off1_12 (L : grid0.Coords) :
    (xW).slice (Rect.unit (s := S16384x4096) (k0_off1 L 12#32) S2x4096.size (k0_off1_inb L 6)) (fun _ => rfl) = xCh L ⟨6, by decide⟩ :=
  x_slice_eq _ (show k0_off1 L (BitVec.ofNat 32 (2 * 6)) = rowOffs L 6 from off_eq' L 6 (by decide)) _

omit [FloatOps F] in
theorem x_off2_14 (L : grid0.Coords) :
    (xW).slice (Rect.unit (s := S16384x4096) (k0_off2 L 14#32) S2x4096.size (k0_off2_inb L 1)) (fun _ => rfl) = xCh L ⟨7, by decide⟩ :=
  x_slice_eq _ (show k0_off1 L (BitVec.ofNat 32 (2 * 7)) = rowOffs L 7 from off_eq' L 7 (by decide)) _

omit [FloatOps F] in
theorem x_off35_510 (L : grid0.Coords) :
    (xW).slice (Rect.unit (s := S16384x4096) (k0_off35 L 510#32) S2x4096.size (k0_off35_inb L 2)) (fun _ => rfl) = xCh L ⟨255, by decide⟩ :=
  x_slice_eq _ (show k0_off1 L (BitVec.ofNat 32 (2 * 255)) = rowOffs L 255 from off_eq' L 255 (by decide)) _

/-! ## The loop -/

omit [FloatOps F] in
theorem o_off11 (L : grid0.Coords) (k : Fin k0_t1_loop.trips) :
    (oW).slice (Rect.unit (s := S16384x4096) (k0_off11 L k 0#32) S2x4096.size (k0_off11_inb L k 0)) (fun _ => rfl) = oCh L ⟨8 * k.val + 8, lt8 k 8 (by decide)⟩ :=
  o_slice_eq _ ((k0_off11_eq L k ⟨0, by decide⟩).trans (rowOffs_of L _ _ (by dsimp only; omega))) _

omit [FloatOps F] in
theorem o_off14 (L : grid0.Coords) (k : Fin k0_t1_loop.trips) :
    (oW).slice (Rect.unit (s := S16384x4096) (k0_off14 L k 1#32) S2x4096.size (k0_off14_inb L k 0)) (fun _ => rfl) = oCh L ⟨8 * k.val + 9, lt8 k 9 (by decide)⟩ :=
  o_slice_eq _ ((k0_off14_eq L k ⟨0, by decide⟩).trans (rowOffs_of L _ _ (by dsimp only; omega))) _

omit [FloatOps F] in
theorem o_off17 (L : grid0.Coords) (k : Fin k0_t1_loop.trips) :
    (oW).slice (Rect.unit (s := S16384x4096) (k0_off17 L k 2#32) S2x4096.size (k0_off17_inb L k 0)) (fun _ => rfl) = oCh L ⟨8 * k.val + 10, lt8 k 10 (by decide)⟩ :=
  o_slice_eq _ ((k0_off17_eq L k ⟨0, by decide⟩).trans (rowOffs_of L _ _ (by dsimp only; omega))) _

omit [FloatOps F] in
theorem o_off20 (L : grid0.Coords) (k : Fin k0_t1_loop.trips) :
    (oW).slice (Rect.unit (s := S16384x4096) (k0_off20 L k 3#32) S2x4096.size (k0_off20_inb L k 0)) (fun _ => rfl) = oCh L ⟨8 * k.val + 11, lt8 k 11 (by decide)⟩ :=
  o_slice_eq _ ((k0_off20_eq L k ⟨0, by decide⟩).trans (rowOffs_of L _ _ (by dsimp only; omega))) _

omit [FloatOps F] in
theorem o_off23 (L : grid0.Coords) (k : Fin k0_t1_loop.trips) :
    (oW).slice (Rect.unit (s := S16384x4096) (k0_off23 L k 4#32) S2x4096.size (k0_off23_inb L k 0)) (fun _ => rfl) = oCh L ⟨8 * k.val + 12, lt8 k 12 (by decide)⟩ :=
  o_slice_eq _ ((k0_off23_eq L k ⟨0, by decide⟩).trans (rowOffs_of L _ _ (by dsimp only; omega))) _

omit [FloatOps F] in
theorem o_off26 (L : grid0.Coords) (k : Fin k0_t1_loop.trips) :
    (oW).slice (Rect.unit (s := S16384x4096) (k0_off26 L k 5#32) S2x4096.size (k0_off26_inb L k 0)) (fun _ => rfl) = oCh L ⟨8 * k.val + 13, lt8 k 13 (by decide)⟩ :=
  o_slice_eq _ ((k0_off26_eq L k ⟨0, by decide⟩).trans (rowOffs_of L _ _ (by dsimp only; omega))) _

omit [FloatOps F] in
theorem o_off29 (L : grid0.Coords) (k : Fin k0_t1_loop.trips) :
    (oW).slice (Rect.unit (s := S16384x4096) (k0_off29 L k 6#32) S2x4096.size (k0_off29_inb L k 0)) (fun _ => rfl) = oCh L ⟨8 * k.val + 14, lt8 k 14 (by decide)⟩ :=
  o_slice_eq _ ((k0_off29_eq L k ⟨0, by decide⟩).trans (rowOffs_of L _ _ (by dsimp only; omega))) _

omit [FloatOps F] in
theorem o_off32 (L : grid0.Coords) (k : Fin k0_t1_loop.trips) :
    (oW).slice (Rect.unit (s := S16384x4096) (k0_off32 L k) S2x4096.size (k0_off32_inb L k)) (fun _ => rfl) = oCh L ⟨8 * k.val + 15, lt8 k 15 (by decide)⟩ :=
  o_slice_eq _ ((k0_off32_eq L k).trans (rowOffs_of L _ _ (by omega))) _

omit [FloatOps F] in
theorem x_off16 (L : grid0.Coords) (k : Fin k0_t1_loop.trips) :
    (xW).slice (Rect.unit (s := S16384x4096) (k0_off16 L k) S2x4096.size (k0_off16_inb L k)) (fun _ => rfl) = xCh L ⟨8 * k.val + 16, lt8 k 16 (by decide)⟩ :=
  x_slice_eq _ ((k0_off16_eq L k).trans (rowOffs_of L _ _ (by omega))) _

omit [FloatOps F] in
theorem x_off19 (L : grid0.Coords) (k : Fin k0_t1_loop.trips) :
    (xW).slice (Rect.unit (s := S16384x4096) (k0_off19 L k) S2x4096.size (k0_off19_inb L k)) (fun _ => rfl) = xCh L ⟨8 * k.val + 17, lt8 k 17 (by decide)⟩ :=
  x_slice_eq _ ((k0_off19_eq L k).trans (rowOffs_of L _ _ (by omega))) _

omit [FloatOps F] in
theorem x_off22 (L : grid0.Coords) (k : Fin k0_t1_loop.trips) :
    (xW).slice (Rect.unit (s := S16384x4096) (k0_off22 L k) S2x4096.size (k0_off22_inb L k)) (fun _ => rfl) = xCh L ⟨8 * k.val + 18, lt8 k 18 (by decide)⟩ :=
  x_slice_eq _ ((k0_off22_eq L k).trans (rowOffs_of L _ _ (by omega))) _

omit [FloatOps F] in
theorem x_off25 (L : grid0.Coords) (k : Fin k0_t1_loop.trips) :
    (xW).slice (Rect.unit (s := S16384x4096) (k0_off25 L k) S2x4096.size (k0_off25_inb L k)) (fun _ => rfl) = xCh L ⟨8 * k.val + 19, lt8 k 19 (by decide)⟩ :=
  x_slice_eq _ ((k0_off25_eq L k).trans (rowOffs_of L _ _ (by omega))) _

omit [FloatOps F] in
theorem x_off28 (L : grid0.Coords) (k : Fin k0_t1_loop.trips) :
    (xW).slice (Rect.unit (s := S16384x4096) (k0_off28 L k) S2x4096.size (k0_off28_inb L k)) (fun _ => rfl) = xCh L ⟨8 * k.val + 20, lt8 k 20 (by decide)⟩ :=
  x_slice_eq _ ((k0_off28_eq L k).trans (rowOffs_of L _ _ (by omega))) _

omit [FloatOps F] in
theorem x_off31 (L : grid0.Coords) (k : Fin k0_t1_loop.trips) :
    (xW).slice (Rect.unit (s := S16384x4096) (k0_off31 L k) S2x4096.size (k0_off31_inb L k)) (fun _ => rfl) = xCh L ⟨8 * k.val + 21, lt8 k 21 (by decide)⟩ :=
  x_slice_eq _ ((k0_off31_eq L k).trans (rowOffs_of L _ _ (by omega))) _

omit [FloatOps F] in
theorem x_off34 (L : grid0.Coords) (k : Fin k0_t1_loop.trips) :
    (xW).slice (Rect.unit (s := S16384x4096) (k0_off34 L k) S2x4096.size (k0_off34_inb L k)) (fun _ => rfl) = xCh L ⟨8 * k.val + 22, lt8 k 22 (by decide)⟩ :=
  x_slice_eq _ ((k0_off34_eq L k).trans (rowOffs_of L _ _ (by omega))) _

omit [FloatOps F] in
theorem x_off13 (L : grid0.Coords) (k : Fin k0_t1_loop.trips) :
    (xW).slice (Rect.unit (s := S16384x4096) (k0_off13 L k) S2x4096.size (k0_off13_inb L k)) (fun _ => rfl) = xCh L ⟨8 * k.val + 15, lt8 k 15 (by decide)⟩ :=
  x_slice_eq _ ((k0_off13_eq L k).trans (rowOffs_of L _ _ (by omega))) _

/-! ## The offsets themselves

The equations above, one level down: the program's first-entry offsets are the canonical chunks' first entries. -/

omit [FloatOps F] in
theorem e_off1_0 (L : grid0.Coords) : k0_off1 L 0#32 = rowOffs L 0 :=
  show k0_off1 L (BitVec.ofNat 32 (2 * 0)) = rowOffs L 0 from off_eq' L 0 (by decide)

omit [FloatOps F] in
theorem e_off1_2 (L : grid0.Coords) : k0_off1 L 2#32 = rowOffs L 1 :=
  show k0_off1 L (BitVec.ofNat 32 (2 * 1)) = rowOffs L 1 from off_eq' L 1 (by decide)

omit [FloatOps F] in
theorem e_off1_4 (L : grid0.Coords) : k0_off1 L 4#32 = rowOffs L 2 :=
  show k0_off1 L (BitVec.ofNat 32 (2 * 2)) = rowOffs L 2 from off_eq' L 2 (by decide)

omit [FloatOps F] in
theorem e_off1_6 (L : grid0.Coords) : k0_off1 L 6#32 = rowOffs L 3 :=
  show k0_off1 L (BitVec.ofNat 32 (2 * 3)) = rowOffs L 3 from off_eq' L 3 (by decide)

omit [FloatOps F] in
theorem e_off1_8 (L : grid0.Coords) : k0_off1 L 8#32 = rowOffs L 4 :=
  show k0_off1 L (BitVec.ofNat 32 (2 * 4)) = rowOffs L 4 from off_eq' L 4 (by decide)

omit [FloatOps F] in
theorem e_off1_10 (L : grid0.Coords) : k0_off1 L 10#32 = rowOffs L 5 :=
  show k0_off1 L (BitVec.ofNat 32 (2 * 5)) = rowOffs L 5 from off_eq' L 5 (by decide)

omit [FloatOps F] in
theorem e_off1_12 (L : grid0.Coords) : k0_off1 L 12#32 = rowOffs L 6 :=
  show k0_off1 L (BitVec.ofNat 32 (2 * 6)) = rowOffs L 6 from off_eq' L 6 (by decide)

omit [FloatOps F] in
theorem e_off2_0 (L : grid0.Coords) : k0_off2 L 0#32 = rowOffs L 0 :=
  show k0_off1 L (BitVec.ofNat 32 (2 * 0)) = rowOffs L 0 from off_eq' L 0 (by decide)

omit [FloatOps F] in
theorem e_off2_14 (L : grid0.Coords) : k0_off2 L 14#32 = rowOffs L 7 :=
  show k0_off1 L (BitVec.ofNat 32 (2 * 7)) = rowOffs L 7 from off_eq' L 7 (by decide)

omit [FloatOps F] in
theorem e_off3_2 (L : grid0.Coords) : k0_off3 L 2#32 = rowOffs L 1 :=
  show k0_off1 L (BitVec.ofNat 32 (2 * 1)) = rowOffs L 1 from off_eq' L 1 (by decide)

omit [FloatOps F] in
theorem e_off3_16 (L : grid0.Coords) : k0_off3 L 16#32 = rowOffs L 8 :=
  show k0_off1 L (BitVec.ofNat 32 (2 * 8)) = rowOffs L 8 from off_eq' L 8 (by decide)

omit [FloatOps F] in
theorem e_off4_4 (L : grid0.Coords) : k0_off4 L 4#32 = rowOffs L 2 :=
  show k0_off1 L (BitVec.ofNat 32 (2 * 2)) = rowOffs L 2 from off_eq' L 2 (by decide)

omit [FloatOps F] in
theorem e_off4_18 (L : grid0.Coords) : k0_off4 L 18#32 = rowOffs L 9 :=
  show k0_off1 L (BitVec.ofNat 32 (2 * 9)) = rowOffs L 9 from off_eq' L 9 (by decide)

omit [FloatOps F] in
theorem e_off5_6 (L : grid0.Coords) : k0_off5 L 6#32 = rowOffs L 3 :=
  show k0_off1 L (BitVec.ofNat 32 (2 * 3)) = rowOffs L 3 from off_eq' L 3 (by decide)

omit [FloatOps F] in
theorem e_off5_20 (L : grid0.Coords) : k0_off5 L 20#32 = rowOffs L 10 :=
  show k0_off1 L (BitVec.ofNat 32 (2 * 10)) = rowOffs L 10 from off_eq' L 10 (by decide)

omit [FloatOps F] in
theorem e_off6_8 (L : grid0.Coords) : k0_off6 L 8#32 = rowOffs L 4 :=
  show k0_off1 L (BitVec.ofNat 32 (2 * 4)) = rowOffs L 4 from off_eq' L 4 (by decide)

omit [FloatOps F] in
theorem e_off6_22 (L : grid0.Coords) : k0_off6 L 22#32 = rowOffs L 11 :=
  show k0_off1 L (BitVec.ofNat 32 (2 * 11)) = rowOffs L 11 from off_eq' L 11 (by decide)

omit [FloatOps F] in
theorem e_off7_10 (L : grid0.Coords) : k0_off7 L 10#32 = rowOffs L 5 :=
  show k0_off1 L (BitVec.ofNat 32 (2 * 5)) = rowOffs L 5 from off_eq' L 5 (by decide)

omit [FloatOps F] in
theorem e_off7_24 (L : grid0.Coords) : k0_off7 L 24#32 = rowOffs L 12 :=
  show k0_off1 L (BitVec.ofNat 32 (2 * 12)) = rowOffs L 12 from off_eq' L 12 (by decide)

omit [FloatOps F] in
theorem e_off8_12 (L : grid0.Coords) : k0_off8 L 12#32 = rowOffs L 6 :=
  show k0_off1 L (BitVec.ofNat 32 (2 * 6)) = rowOffs L 6 from off_eq' L 6 (by decide)

omit [FloatOps F] in
theorem e_off8_26 (L : grid0.Coords) : k0_off8 L 26#32 = rowOffs L 13 :=
  show k0_off1 L (BitVec.ofNat 32 (2 * 13)) = rowOffs L 13 from off_eq' L 13 (by decide)

omit [FloatOps F] in
theorem e_off9_14 (L : grid0.Coords) : k0_off9 L 14#32 = rowOffs L 7 :=
  show k0_off1 L (BitVec.ofNat 32 (2 * 7)) = rowOffs L 7 from off_eq' L 7 (by decide)

omit [FloatOps F] in
theorem e_off9_28 (L : grid0.Coords) : k0_off9 L 28#32 = rowOffs L 14 :=
  show k0_off1 L (BitVec.ofNat 32 (2 * 14)) = rowOffs L 14 from off_eq' L 14 (by decide)

omit [FloatOps F] in
theorem e_off35_496 (L : grid0.Coords) : k0_off35 L 496#32 = rowOffs L 248 :=
  show k0_off1 L (BitVec.ofNat 32 (2 * 248)) = rowOffs L 248 from off_eq' L 248 (by decide)

omit [FloatOps F] in
theorem e_off35_510 (L : grid0.Coords) : k0_off35 L 510#32 = rowOffs L 255 :=
  show k0_off1 L (BitVec.ofNat 32 (2 * 255)) = rowOffs L 255 from off_eq' L 255 (by decide)

omit [FloatOps F] in
theorem e_off36_498 (L : grid0.Coords) : k0_off36 L 498#32 = rowOffs L 249 :=
  show k0_off1 L (BitVec.ofNat 32 (2 * 249)) = rowOffs L 249 from off_eq' L 249 (by decide)

omit [FloatOps F] in
theorem e_off37_500 (L : grid0.Coords) : k0_off37 L 500#32 = rowOffs L 250 :=
  show k0_off1 L (BitVec.ofNat 32 (2 * 250)) = rowOffs L 250 from off_eq' L 250 (by decide)

omit [FloatOps F] in
theorem e_off38_502 (L : grid0.Coords) : k0_off38 L 502#32 = rowOffs L 251 :=
  show k0_off1 L (BitVec.ofNat 32 (2 * 251)) = rowOffs L 251 from off_eq' L 251 (by decide)

omit [FloatOps F] in
theorem e_off39_504 (L : grid0.Coords) : k0_off39 L 504#32 = rowOffs L 252 :=
  show k0_off1 L (BitVec.ofNat 32 (2 * 252)) = rowOffs L 252 from off_eq' L 252 (by decide)

omit [FloatOps F] in
theorem e_off40_506 (L : grid0.Coords) : k0_off40 L 506#32 = rowOffs L 253 :=
  show k0_off1 L (BitVec.ofNat 32 (2 * 253)) = rowOffs L 253 from off_eq' L 253 (by decide)

omit [FloatOps F] in
theorem e_off41_508 (L : grid0.Coords) : k0_off41 L 508#32 = rowOffs L 254 :=
  show k0_off1 L (BitVec.ofNat 32 (2 * 254)) = rowOffs L 254 from off_eq' L 254 (by decide)

omit [FloatOps F] in
theorem e_off42_510 (L : grid0.Coords) : k0_off42 L 510#32 = rowOffs L 255 :=
  show k0_off1 L (BitVec.ofNat 32 (2 * 255)) = rowOffs L 255 from off_eq' L 255 (by decide)

omit [FloatOps F] in
theorem e_off11 (L : grid0.Coords) (k : Fin k0_t1_loop.trips) : k0_off11 L k 0#32 = rowOffs L (8 * k.val + 8) :=
  (k0_off11_eq L k ⟨0, by decide⟩).trans (rowOffs_of L _ _ (by dsimp only; omega))

omit [FloatOps F] in
theorem e_off14 (L : grid0.Coords) (k : Fin k0_t1_loop.trips) : k0_off14 L k 1#32 = rowOffs L (8 * k.val + 9) :=
  (k0_off14_eq L k ⟨0, by decide⟩).trans (rowOffs_of L _ _ (by dsimp only; omega))

omit [FloatOps F] in
theorem e_off17 (L : grid0.Coords) (k : Fin k0_t1_loop.trips) : k0_off17 L k 2#32 = rowOffs L (8 * k.val + 10) :=
  (k0_off17_eq L k ⟨0, by decide⟩).trans (rowOffs_of L _ _ (by dsimp only; omega))

omit [FloatOps F] in
theorem e_off20 (L : grid0.Coords) (k : Fin k0_t1_loop.trips) : k0_off20 L k 3#32 = rowOffs L (8 * k.val + 11) :=
  (k0_off20_eq L k ⟨0, by decide⟩).trans (rowOffs_of L _ _ (by dsimp only; omega))

omit [FloatOps F] in
theorem e_off23 (L : grid0.Coords) (k : Fin k0_t1_loop.trips) : k0_off23 L k 4#32 = rowOffs L (8 * k.val + 12) :=
  (k0_off23_eq L k ⟨0, by decide⟩).trans (rowOffs_of L _ _ (by dsimp only; omega))

omit [FloatOps F] in
theorem e_off26 (L : grid0.Coords) (k : Fin k0_t1_loop.trips) : k0_off26 L k 5#32 = rowOffs L (8 * k.val + 13) :=
  (k0_off26_eq L k ⟨0, by decide⟩).trans (rowOffs_of L _ _ (by dsimp only; omega))

omit [FloatOps F] in
theorem e_off29 (L : grid0.Coords) (k : Fin k0_t1_loop.trips) : k0_off29 L k 6#32 = rowOffs L (8 * k.val + 14) :=
  (k0_off29_eq L k ⟨0, by decide⟩).trans (rowOffs_of L _ _ (by dsimp only; omega))

omit [FloatOps F] in
theorem e_off32 (L : grid0.Coords) (k : Fin k0_t1_loop.trips) : k0_off32 L k = rowOffs L (8 * k.val + 15) :=
  (k0_off32_eq L k).trans (rowOffs_of L _ _ (by omega))

omit [FloatOps F] in
theorem e_off13 (L : grid0.Coords) (k : Fin k0_t1_loop.trips) : k0_off13 L k = rowOffs L (8 * k.val + 15) :=
  (k0_off13_eq L k).trans (rowOffs_of L _ _ (by omega))

omit [FloatOps F] in
theorem e_off16 (L : grid0.Coords) (k : Fin k0_t1_loop.trips) : k0_off16 L k = rowOffs L (8 * k.val + 16) :=
  (k0_off16_eq L k).trans (rowOffs_of L _ _ (by omega))

omit [FloatOps F] in
theorem e_off19 (L : grid0.Coords) (k : Fin k0_t1_loop.trips) : k0_off19 L k = rowOffs L (8 * k.val + 17) :=
  (k0_off19_eq L k).trans (rowOffs_of L _ _ (by omega))

omit [FloatOps F] in
theorem e_off22 (L : grid0.Coords) (k : Fin k0_t1_loop.trips) : k0_off22 L k = rowOffs L (8 * k.val + 18) :=
  (k0_off22_eq L k).trans (rowOffs_of L _ _ (by omega))

omit [FloatOps F] in
theorem e_off25 (L : grid0.Coords) (k : Fin k0_t1_loop.trips) : k0_off25 L k = rowOffs L (8 * k.val + 19) :=
  (k0_off25_eq L k).trans (rowOffs_of L _ _ (by omega))

omit [FloatOps F] in
theorem e_off28 (L : grid0.Coords) (k : Fin k0_t1_loop.trips) : k0_off28 L k = rowOffs L (8 * k.val + 20) :=
  (k0_off28_eq L k).trans (rowOffs_of L _ _ (by omega))

omit [FloatOps F] in
theorem e_off31 (L : grid0.Coords) (k : Fin k0_t1_loop.trips) : k0_off31 L k = rowOffs L (8 * k.val + 21) :=
  (k0_off31_eq L k).trans (rowOffs_of L _ _ (by omega))

omit [FloatOps F] in
theorem e_off34 (L : grid0.Coords) (k : Fin k0_t1_loop.trips) : k0_off34 L k = rowOffs L (8 * k.val + 22) :=
  (k0_off34_eq L k).trans (rowOffs_of L _ _ (by omega))

end Cert.Proof.KI

end
-- ==== Proof.ScatVal.lean ====
/-
  What eight indexed stores of a zero vector leave in a 2 × 4096 buffer. One such store takes a row number `r`
  (the same in every lane) and sixteen column numbers `w`, and writes zero at `(r, w x)` for each lane `x`; every
  other entry keeps its value. Done for both rows and for the four groups of sixteen consecutive entries of a
  64-entry list `k`, the buffer ends with exactly the columns `k` names zeroed in both rows.
-/
import Idealize.ShloMosaic.PureOps
import Idealize.ShloMosaic.Lib.ValueIdx
import proofs.«218967_g49014166782275_cont_8to1_c_257_31_alg».proof.Proof.Spec

noncomputable section

namespace Cert.Proof.ScatVal

open Idealize.ShloMosaic Cert.Proof.Spec

abbrev S2 : Shape := ⟨2, ![2, 4096]⟩
abbrev S16 : Shape := ⟨1, ![16]⟩

/-- A left fold whose every step overwrites with one constant `c` the points a predicate `P k` selects and keeps the
    rest: a point no step of the list selects keeps the starting function's value. -/
theorem foldl_const_neg {ι α β : Type} (P : ι → α → Prop) [∀ k j, Decidable (P k j)] (c : β)
    (step : (α → β) → ι → (α → β)) (hstep : ∀ g k, step g k = fun j => if P k j then c else g j)
    (l : List ι) (g : α → β) (j : α) (hn : ∀ k, k ∈ l → ¬ P k j) :
    l.foldl step g j = g j := by
  induction l generalizing g with
  | nil => rfl
  | cons a l ih =>
    rw [List.foldl_cons, ih (step g a) (fun k hk => hn k (List.mem_cons_of_mem a hk)), hstep g a]
    exact if_neg (hn a List.mem_cons_self)

/-- The same fold at a point some step of the list selects: the constant. -/
theorem foldl_const_pos {ι α β : Type} (P : ι → α → Prop) [∀ k j, Decidable (P k j)] (c : β)
    (step : (α → β) → ι → (α → β)) (hstep : ∀ g k, step g k = fun j => if P k j then c else g j)
    (l : List ι) (g : α → β) (j : α) (hp : ∃ k, k ∈ l ∧ P k j) :
    l.foldl step g j = c := by
  induction l generalizing g with
  | nil =>
    obtain ⟨k, hk, _⟩ := hp
    exact absurd hk List.not_mem_nil
  | cons a l ih =>
    rw [List.foldl_cons]
    by_cases hl : ∃ k, k ∈ l ∧ P k j
    · exact ih (step g a) hl
    · have hn : ∀ k, k ∈ l → ¬ P k j := fun k hk hpk => hl ⟨k, hk, hpk⟩
      rw [foldl_const_neg P c step hstep l (step g a) j hn, hstep g a]
      obtain ⟨k, hk, hpk⟩ := hp
      rcases List.mem_cons.mp hk with rfl | hk
      · exact if_pos hpk
      · exact absurd hpk (hn k hk)

/-- Every index of a sixteen-lane vector is the index of one of its lanes. -/
theorem eq_ofLane (x : S16.Idx) : x = Shape.ofLane (d := ![16]) (x 0) := by
  funext a
  match a with
  | ⟨0, _⟩ => rfl

/-- The side condition of one store: the row number below 2 and every column number below 4096. -/
abbrev InRange (r : BitVec 32) (w : IVec S16 32) : Prop :=
  ∀ a x, ((![broadcast S16 r, w] : Fin 2 → IVec S16 32) a x).toNat < S2.size a

theorem inRange_of {r : BitVec 32} {w : IVec S16 32} (hr : r.toNat < 2) (hw : ∀ x, (w x).toNat < 4096) : InRange r w := by
  intro a x
  match a with
  | ⟨0, _⟩ => exact hr
  | ⟨1, _⟩ => exact hw x

/-- One indexed store of the zero vector: zero at `(r, w x)` for every lane `x`, the rest kept. -/
def zrow {F : FTy → Type} [FloatOps F] (f : Vec F S2 .f32) (r : BitVec 32) (w : IVec S16 32) (h : InRange r w) : Vec F S2 .f32 :=
  storeIdx f ![broadcast S16 r, w] (broadcast S16 (zeroF (F := F))) (fun _ => 1#1) false h

open Classical in
/-- One store, entry by entry. -/
theorem zrow_apply {F : FTy → Type} [FloatOps F] (f : Vec F S2 .f32) (r : BitVec 32) (w : IVec S16 32) (h : InRange r w) (j : S2.Idx) :
    zrow f r w h j = if (j 0).val = r.toNat ∧ ∃ x, (w x).toNat = (j 1).val then zeroF else f j := by
  have hstep : ∀ (g : Vec F S2 .f32) (k : Fin 16),
      (fun (g : Vec F S2 .f32) (k : Fin (![16] 0)) =>
        let x := Shape.ofLane (d := ![16]) k
        if (fun _ => 1#1 : IVec S16 1) x = 1 then
          let i := idxAt (s := S2) ![broadcast S16 r, w] h x
          let y := if false then Elt.idxAdd .f32 (g i) (broadcast S16 (zeroF (F := F)) x) else broadcast S16 (zeroF (F := F)) x
          fun j => if (∀ a, (j a).val = (i a).val) then y else g j
        else g) g k
      = fun j => if (∀ a, (j a).val = (idxAt (s := S2) ![broadcast S16 r, w] h (Shape.ofLane (d := ![16]) k) a).val)
          then zeroF (F := F) else g j := by
    intro g k
    rfl
  by_cases hc : (j 0).val = r.toNat ∧ ∃ x, (w x).toNat = (j 1).val
  · rw [if_pos hc]
    obtain ⟨h0, x, hx⟩ := hc
    refine foldl_const_pos _ _ _ hstep _ f j ⟨x 0, List.mem_finRange _, ?_⟩
    intro a
    rw [← eq_ofLane x]
    match a with
    | ⟨0, _⟩ => exact h0
    | ⟨1, _⟩ => exact hx.symm
  · rw [if_neg hc]
    refine foldl_const_neg _ _ _ hstep _ f j ?_
    intro k _ hk
    exact hc ⟨hk 0, Shape.ofLane (d := ![16]) k, (hk 1).symm⟩

/-- Group `o` of the list: its entries `16 o .. 16 o + 15`. -/
def grp (k : IVec SK 32) (o : Fin 4) : IVec S16 32 := fun x =>
  k (fun a => match a with
    | ⟨0, _⟩ => ⟨16 * o.val + (x 0).val, by
        have h1 : (x 0).val < 16 := (x 0).isLt
        have h2 : o.val < 4 := o.isLt
        show 16 * o.val + (x 0).val < 64
        omega⟩)

/-- An entry of the list is an entry of one of its four groups of sixteen, and conversely: entry `i` is entry
    `i % 16` of group `i / 16`. -/
theorem exists_grp (k : IVec SK 32) (c : Nat) :
    (∃ i, (k i).toNat = c) ↔ ∃ (o : Fin 4) (x : S16.Idx), (grp k o x).toNat = c := by
  constructor
  · rintro ⟨i, hi⟩
    have hlt : (i 0).val < 64 := (i 0).isLt
    refine ⟨⟨(i 0).val / 16, by omega⟩, Shape.ofLane (d := ![16]) ⟨(i 0).val % 16, Nat.mod_lt _ (by decide)⟩, ?_⟩
    have hidx : (fun a => match a with
        | ⟨0, _⟩ => (⟨16 * ((i 0).val / 16) + (i 0).val % 16, by omega⟩ : Fin 64) : SK.Idx) = i := by
      funext a
      match a with
      | ⟨0, _⟩ =>
        apply Fin.ext
        show 16 * ((i 0).val / 16) + (i 0).val % 16 = (i 0).val
        omega
    show (k _).toNat = c
    rw [← hi]
    exact congrArg (fun t => (k t).toNat) hidx
  · rintro ⟨o, x, hx⟩
    exact ⟨_, hx⟩

open Classical in
/-- The eight stores in the order the kernel makes them (row 0 with groups 0 to 3, then row 1 with groups 0 to 3), from a
    buffer `f`: the columns the list names are zero in both rows, every other entry is `f`'s. The eight column vectors
    are given with the equations that say which group each is. -/
theorem zrow8 {F : FTy → Type} [FloatOps F] (f : Vec F S2 .f32) (k : IVec SK 32)
    (w0 w1 w2 w3 w4 w5 w6 w7 : IVec S16 32)
    (e0 : w0 = grp k 0) (e1 : w1 = grp k 1) (e2 : w2 = grp k 2) (e3 : w3 = grp k 3)
    (e4 : w4 = grp k 0) (e5 : w5 = grp k 1) (e6 : w6 = grp k 2) (e7 : w7 = grp k 3)
    (h0 : InRange 0#32 w0) (h1 : InRange 0#32 w1) (h2 : InRange 0#32 w2) (h3 : InRange 0#32 w3)
    (h4 : InRange 1#32 w4) (h5 : InRange 1#32 w5) (h6 : InRange 1#32 w6) (h7 : InRange 1#32 w7) :
    zrow (zrow (zrow (zrow (zrow (zrow (zrow (zrow f 0#32 w0 h0) 0#32 w1 h1) 0#32 w2 h2) 0#32 w3 h3) 1#32 w4 h4) 1#32 w5 h5) 1#32 w6 h6) 1#32 w7 h7
      = fun j => if ∃ i, (k i).toNat = (j 1).val then zeroF else f j := by
  subst e0 e1 e2 e3 e4 e5 e6 e7
  funext j
  simp only [zrow_apply]
  have hz : (0#32).toNat = 0 := rfl
  have ho : (1#32).toNat = 1 := rfl
  have hrow : (j 0).val < 2 := (j 0).isLt
  by_cases hE : ∃ i, (k i).toNat = (j 1).val
  · rw [if_pos hE]
    obtain ⟨o, x, hx⟩ := (exists_grp k (j 1).val).mp hE
    split_ifs with c7 c6 c5 c4 c3 c2 c1 c0
    all_goals first
      | rfl
      | (exfalso
         rw [ho] at c7 c6 c5 c4
         rw [hz] at c3 c2 c1 c0
         rcases Nat.lt_succ_iff_lt_or_eq.mp hrow with h0 | h1
         · have h0' : (j 0).val = 0 := by omega
           match o, hx with
           | ⟨0, _⟩, hx => exact c0 ⟨h0', x, hx⟩
           | ⟨1, _⟩, hx => exact c1 ⟨h0', x, hx⟩
           | ⟨2, _⟩, hx => exact c2 ⟨h0', x, hx⟩
           | ⟨3, _⟩, hx => exact c3 ⟨h0', x, hx⟩
         · match o, hx with
           | ⟨0, _⟩, hx => exact c4 ⟨h1, x, hx⟩
           | ⟨1, _⟩, hx => exact c5 ⟨h1, x, hx⟩
           | ⟨2, _⟩, hx => exact c6 ⟨h1, x, hx⟩
           | ⟨3, _⟩, hx => exact c7 ⟨h1, x, hx⟩)
  · rw [if_neg hE]
    have hno : ∀ (o : Fin 4), ¬ ∃ x, (grp k o x).toNat = (j 1).val := by
      intro o hx
      obtain ⟨x, hx⟩ := hx
      exact hE ((exists_grp k (j 1).val).mpr ⟨o, x, hx⟩)
    rw [if_neg (fun hc => hno 3 hc.2), if_neg (fun hc => hno 2 hc.2), if_neg (fun hc => hno 1 hc.2),
      if_neg (fun hc => hno 0 hc.2), if_neg (fun hc => hno 3 hc.2), if_neg (fun hc => hno 2 hc.2),
      if_neg (fun hc => hno 1 hc.2), if_neg (fun hc => hno 0 hc.2)]

end Cert.Proof.ScatVal

end
-- ==== Proof.ValI.lean ====
/-
  Values. A two-row buffer that held chunk `X` of the input and then took the kernel's eight indexed stores of zero
  (row 0 then row 1, each with the four groups of sixteen consecutive entries of the tile's copy of the list) holds `X`
  with the listed columns zeroed. Copied out whole to the chunk's place in the result, that is the function the program
  is to compute, restricted to the chunk: a chunk's entry `y` sits at the chunk's first row plus `y 0`, column `y 1`, and
  zeroing columns does not look at the row.
-/
import proofs.«218967_g49014166782275_cont_8to1_c_257_31_alg».proof.Proof.GeoI
import proofs.«218967_g49014166782275_cont_8to1_c_257_31_alg».proof.Proof.ScatVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

local notation "sK" => (Memref.whole Cert.KernelIdeal.cc0_scratch0 : Memref Cert.KernelIdeal.sig Kind.scVector Space.vmem Cert.KernelIdeal.S64 EltTy.i32)

/-- Sixteen consecutive entries, from entry `o`, of the tile's copy `KC` of the list, as the kernel loads them. -/
abbrev rdK (KC : S64.Idx → BitVec 32) (o : ℕ) (h : ∀ a, (![o] : Fin 1 → ℕ) a + S16.size a ≤ S64.size a) : IVec S16 32 :=
  View.readAt (Elt F) (sK).view (Rect.unit (s := S64) ![o] S16.size h).toLoadRect KC

/-- Entry `x` of the sixteen read from entry `o` is entry `o + x 0` of the copy: the view is the whole buffer and the
    rectangle has unit stride. -/
theorem rdK_apply (KC : S64.Idx → BitVec 32) (o : ℕ) (h : ∀ a, (![o] : Fin 1 → ℕ) a + S16.size a ≤ S64.size a) (x : S16.Idx) :
    rdK (F := F) KC o h x = KC ((Rect.unit (s := S64) ![o] S16.size h).toLoadRect.idx x) := rfl

/-- The sixteen entries read from entry `16 o` are group `o` of the copy. -/
theorem rdK_grp (KC : S64.Idx → BitVec 32) (o : Fin 4) (n : ℕ) (hn : n = 16 * o.val)
    (h : ∀ a, (![n] : Fin 1 → ℕ) a + S16.size a ≤ S64.size a) :
    rdK (F := F) KC n h = ScatVal.grp KC o := by
  subst hn
  funext x
  rw [rdK_apply]
  refine congrArg KC (funext fun a => Fin.ext ?_)
  match a with
  | ⟨0, _⟩ =>
    show 16 * o.val + 1 * (x 0).val = 16 * o.val + (x 0).val
    omega

/-- The side condition of each of the eight stores holds when the copy's entries are below 4096. -/
theorem rdK_inRange (KC : S64.Idx → BitVec 32) (hKC : ∀ j, BitVec.toNat (KC j) < 4096) (r : BitVec 32) (hr : r.toNat < 2) (o : ℕ)
    (h : ∀ a, (![o] : Fin 1 → ℕ) a + S16.size a ≤ S64.size a) :
    ∀ a x, ((![broadcast S16 r, rdK (F := F) KC o h] : Fin 2 → IVec S16 32) a x).toNat < S2x4096.size a :=
  ScatVal.inRange_of hr (fun x => by rw [rdK_apply]; exact hKC _)

open Classical in
/-- The buffer after the eight stores: `X` with the columns the copy names zeroed. -/
theorem content_eq (X : Vec F S2x4096 .f32) (KC : S64.Idx → BitVec 32)
    (h0 : ∀ a x, ((![broadcast S16 0#32, (rdK (F := F) KC 0 inb_S64_S16_0)] : Fin 2 → IVec S16 32) a x).toNat < S2x4096.size a)
    (h1 : ∀ a x, ((![broadcast S16 0#32, (rdK (F := F) KC 16 inb_S64_S16_16)] : Fin 2 → IVec S16 32) a x).toNat < S2x4096.size a)
    (h2 : ∀ a x, ((![broadcast S16 0#32, (rdK (F := F) KC 32 inb_S64_S16_32)] : Fin 2 → IVec S16 32) a x).toNat < S2x4096.size a)
    (h3 : ∀ a x, ((![broadcast S16 0#32, (rdK (F := F) KC 48 inb_S64_S16_48)] : Fin 2 → IVec S16 32) a x).toNat < S2x4096.size a)
    (h4 : ∀ a x, ((![broadcast S16 1#32, (rdK (F := F) KC 0 inb_S64_S16_0)] : Fin 2 → IVec S16 32) a x).toNat < S2x4096.size a)
    (h5 : ∀ a x, ((![broadcast S16 1#32, (rdK (F := F) KC 16 inb_S64_S16_16)] : Fin 2 → IVec S16 32) a x).toNat < S2x4096.size a)
    (h6 : ∀ a x, ((![broadcast S16 1#32, (rdK (F := F) KC 32 inb_S64_S16_32)] : Fin 2 → IVec S16 32) a x).toNat < S2x4096.size a)
    (h7 : ∀ a x, ((![broadcast S16 1#32, (rdK (F := F) KC 48 inb_S64_S16_48)] : Fin 2 → IVec S16 32) a x).toNat < S2x4096.size a) :
    (storeIdx (storeIdx (storeIdx (storeIdx (storeIdx (storeIdx (storeIdx (storeIdx X ![broadcast S16 0#32, (rdK (F := F) KC 0 inb_S64_S16_0)] (k0_pay1 (F := F)) (fun _ => 1#1) false h0) ![broadcast S16 0#32, (rdK (F := F) KC 16 inb_S64_S16_16)] (k0_pay1 (F := F)) (fun _ => 1#1) false h1) ![broadcast S16 0#32, (rdK (F := F) KC 32 inb_S64_S16_32)] (k0_pay1 (F := F)) (fun _ => 1#1) false h2) ![broadcast S16 0#32, (rdK (F := F) KC 48 inb_S64_S16_48)] (k0_pay1 (F := F)) (fun _ => 1#1) false h3) ![broadcast S16 1#32, (rdK (F := F) KC 0 inb_S64_S16_0)] (k0_pay1 (F := F)) (fun _ => 1#1) false h4) ![broadcast S16 1#32, (rdK (F := F) KC 16 inb_S64_S16_16)] (k0_pay1 (F := F)) (fun _ => 1#1) false h5) ![broadcast S16 1#32, (rdK (F := F) KC 32 inb_S64_S16_32)] (k0_pay1 (F := F)) (fun _ => 1#1) false h6) ![broadcast S16 1#32, (rdK (F := F) KC 48 inb_S64_S16_48)] (k0_pay1 (F := F)) (fun _ => 1#1) false h7)
      = fun y => if ∃ i, BitVec.toNat (KC i) = (y 1).val then zeroF else X y :=
  ScatVal.zrow8 (F := F) X KC _ _ _ _ _ _ _ _
    (rdK_grp KC 0 0 rfl _) (rdK_grp KC 1 16 rfl _) (rdK_grp KC 2 32 rfl _) (rdK_grp KC 3 48 rfl _)
    (rdK_grp KC 0 0 rfl _) (rdK_grp KC 1 16 rfl _) (rdK_grp KC 2 32 rfl _) (rdK_grp KC 3 48 rfl _)
    h0 h1 h2 h3 h4 h5 h6 h7

/-- Chunk `g` of the input as the copy-in reads it. -/
abbrev xval (d : Dev nD) (L : grid0.Coords) (g : Fin 256) : Vec F S2x4096 .f32 :=
  ReadAs.same.apply (View.read (Elt F) (xCh L g).view (m (xLoc d)))

open Classical in
/-- A value that is chunk `g` of the input with the listed columns zeroed is the program's function on that chunk. -/
theorem zeroed_is_Zbuf (d : Dev nD) (L : grid0.Coords) (g : Fin 256) (y : S2x4096.Idx) :
    (if ∃ i, BitVec.toNat (m (kLoc d) i) = (y 1).val then zeroF else xval m d L g y) = Zbuf m d ((oCh L g).view.emb y) := by
  unfold Zbuf
  rw [Cert.Proof.Spec.zeroCols_apply, (emb_oCh L g y).2, ← emb_xCh L g y]
  have hx : xval m d L g y = m (xLoc d) ((xCh L g).view.emb y) := (View.read_apply _ _).trans (cast_eq _ _)
  rw [hx]
  exact if_congr Iff.rfl rfl rfl

/-- The chunk of the result after a buffer holding `v` was copied out over it: where `v` is the program's function on
    the chunk, the chunk holds the program's function. -/
theorem out_val (d : Dev nD) (L : grid0.Coords) (g : Fin 256) (f0 : Buf (Elt F) (oLoc d)) (v : Vec F S2x4096 .f32)
    (hv : ∀ y, v y = Zbuf m d ((oCh L g).view.emb y)) :
    ((oCh L g).view.loc (thr d L) ↦[(oCh L g).view.set]{fullShare} (oCh L g).view.writes (Elt F) f0 [⟨Rect.whole _, v⟩] : sProp 𝕄)
      = ((oCh L g).view.loc (thr d L) ↦[(oCh L g).view.set]{fullShare} Zbuf m d) := by
  refine pointsTo_congr fun i hi => ?_
  obtain ⟨y, -, rfl⟩ := Finset.mem_map.mp hi
  have h := View.read_writes_cons_emb (Val := Elt F) (oCh L g).view f0 (Rect.whole _) v [] y
  rw [Rect.emb_whole_apply, View.read_apply] at h
  rw [← hv y, ← h]
  exact (cast_eq _ _).symm

end Cert.Proof.KI

end
-- ==== Proof.SetsI.lean ====
/-
  Book-keeping of a tile's 256 chunks of the result while the kernel works through them in order: the chunks from some
  number on still hold their launch contents, the chunks below some number hold the program's function. Both are
  separating conjunctions over a set of chunk numbers cut off at a bound, so one chunk more or less is one conjunct more
  or less.
-/
import proofs.«218967_g49014166782275_cont_8to1_c_257_31_alg».proof.Proof.GeoI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

/-- Chunk `g` of the tile's part of the result, holding `f`. -/
abbrev oc (d : Dev nD) (L : grid0.Coords) (g : Fin 256) (f : Buf (Elt F) (oLoc d)) : sProp 𝕄 :=
  oLoc d ↦[chunkSet (chunkNo (L 0).val (L 1).val g.val)]{fullShare} f

/-- The chunks numbered `n` and above, at their launch contents. -/
def todo (d : Dev nD) (L : grid0.Coords) (n : ℕ) : sProp 𝕄 :=
  bigSep (Finset.univ.filter fun g : Fin 256 => n ≤ g.val) fun g => oc d L g (m (oLoc d))

/-- The chunks numbered below `n`, at the program's function. -/
def done (d : Dev nD) (L : grid0.Coords) (n : ℕ) : sProp 𝕄 :=
  bigSep (Finset.univ.filter fun g : Fin 256 => g.val < n) fun g => oc d L g (Zbuf m d)

/-- Separating conjunction is commutative and associative, as equations of assertions. -/
theorem sep_comm_eq (X Y : sProp 𝕄) : iprop(X ∗ Y) = iprop(Y ∗ X) :=
  Std.Commutative.comm (op := fun (a b : sProp 𝕄) => BI.sep a b) X Y
theorem sep_assoc_eq (X Y Z : sProp 𝕄) : iprop((X ∗ Y) ∗ Z) = iprop(X ∗ Y ∗ Z) :=
  Std.Associative.assoc (op := fun (a b : sProp 𝕄) => BI.sep a b) X Y Z

/-- The chunk numbers from `n` on are `n` and the chunk numbers from `n + 1` on; `n` is not among the latter. -/
theorem filter_ge_eq (n : ℕ) (h : n < 256) :
    (Finset.univ.filter fun g : Fin 256 => n ≤ g.val) = insert ⟨n, h⟩ (Finset.univ.filter fun g : Fin 256 => n + 1 ≤ g.val) := by
  ext g
  simp only [Finset.mem_filter, Finset.mem_univ, true_and, Finset.mem_insert, Fin.ext_iff]
  omega
theorem not_mem_filter_ge (n : ℕ) (h : n < 256) : (⟨n, h⟩ : Fin 256) ∉ Finset.univ.filter fun g : Fin 256 => n + 1 ≤ g.val := by
  simp only [Finset.mem_filter, Finset.mem_univ, true_and]
  omega

/-- The chunk numbers below `n + 1` are `n` and the chunk numbers below `n`; `n` is not among the latter. -/
theorem filter_lt_eq (n : ℕ) (h : n < 256) :
    (Finset.univ.filter fun g : Fin 256 => g.val < n + 1) = insert ⟨n, h⟩ (Finset.univ.filter fun g : Fin 256 => g.val < n) := by
  ext g
  simp only [Finset.mem_filter, Finset.mem_univ, true_and, Finset.mem_insert, Fin.ext_iff]
  omega
theorem not_mem_filter_lt (n : ℕ) (h : n < 256) : (⟨n, h⟩ : Fin 256) ∉ Finset.univ.filter fun g : Fin 256 => g.val < n := by
  simp only [Finset.mem_filter, Finset.mem_univ, true_and]
  omega

theorem todo_zero (d : Dev nD) (L : grid0.Coords) :
    todo m d L 0 = bigSep (Finset.univ : Finset (Fin 256)) fun g => oc d L g (m (oLoc d)) := by
  unfold todo
  rw [Finset.filter_true_of_mem (fun g _ => Nat.zero_le _)]

theorem done_all (d : Dev nD) (L : grid0.Coords) :
    done m d L 256 = bigSep (Finset.univ : Finset (Fin 256)) fun g => oc d L g (Zbuf m d) := by
  unfold done
  rw [Finset.filter_true_of_mem (fun g _ => g.isLt)]

theorem todo_end (d : Dev nD) (L : grid0.Coords) : todo m d L 256 = (iprop(emp) : sProp 𝕄) := by
  unfold todo
  rw [Finset.filter_false_of_mem (fun g _ => Nat.not_le.mpr g.isLt)]
  rfl

theorem done_zero (d : Dev nD) (L : grid0.Coords) : done m d L 0 = (iprop(emp) : sProp 𝕄) := by
  unfold done
  rw [Finset.filter_false_of_mem (fun g _ => Nat.not_lt_zero _)]
  rfl

theorem todo_succ (d : Dev nD) (L : grid0.Coords) (n : ℕ) (h : n < 256) :
    todo m d L n = iprop(oc d L ⟨n, h⟩ (m (oLoc d)) ∗ todo m d L (n + 1)) := by
  unfold todo
  rw [filter_ge_eq n h, BI.bigSep_insert (not_mem_filter_ge n h)]
  rfl

theorem done_succ (d : Dev nD) (L : grid0.Coords) (n : ℕ) (h : n < 256) :
    done m d L (n + 1) = iprop(done m d L n ∗ oc d L ⟨n, h⟩ (Zbuf m d)) := by
  unfold done
  rw [filter_lt_eq n h, BI.bigSep_insert (not_mem_filter_lt n h)]
  exact sep_comm_eq _ _

/-- Eight chunks at once off the front of the untouched ones. -/
theorem todo8 (d : Dev nD) (L : grid0.Coords) (n : ℕ) (h : n + 7 < 256) :
    todo m d L n = iprop(oc d L ⟨n, by omega⟩ (m (oLoc d)) ∗ oc d L ⟨n + 1, by omega⟩ (m (oLoc d)) ∗ oc d L ⟨n + 2, by omega⟩ (m (oLoc d)) ∗ oc d L ⟨n + 3, by omega⟩ (m (oLoc d)) ∗ oc d L ⟨n + 4, by omega⟩ (m (oLoc d)) ∗ oc d L ⟨n + 5, by omega⟩ (m (oLoc d)) ∗ oc d L ⟨n + 6, by omega⟩ (m (oLoc d)) ∗ oc d L ⟨n + 7, by omega⟩ (m (oLoc d)) ∗ todo m d L (n + 8)) := by
  rw [todo_succ m d L n (by omega), todo_succ m d L (n + 1) (by omega), todo_succ m d L (n + 2) (by omega),
    todo_succ m d L (n + 3) (by omega), todo_succ m d L (n + 4) (by omega), todo_succ m d L (n + 5) (by omega),
    todo_succ m d L (n + 6) (by omega), todo_succ m d L (n + 7) (by omega)]

/-- Eight chunks at once onto the finished ones. -/
theorem done8 (d : Dev nD) (L : grid0.Coords) (n : ℕ) (h : n + 7 < 256) :
    done m d L (n + 8) = iprop(done m d L n ∗ oc d L ⟨n, by omega⟩ (Zbuf m d) ∗ oc d L ⟨n + 1, by omega⟩ (Zbuf m d) ∗ oc d L ⟨n + 2, by omega⟩ (Zbuf m d) ∗ oc d L ⟨n + 3, by omega⟩ (Zbuf m d) ∗ oc d L ⟨n + 4, by omega⟩ (Zbuf m d) ∗ oc d L ⟨n + 5, by omega⟩ (Zbuf m d) ∗ oc d L ⟨n + 6, by omega⟩ (Zbuf m d) ∗ oc d L ⟨n + 7, by omega⟩ (Zbuf m d)) := by
  rw [done_succ m d L (n + 7) (by omega), done_succ m d L (n + 6) (by omega), done_succ m d L (n + 5) (by omega),
    done_succ m d L (n + 4) (by omega), done_succ m d L (n + 3) (by omega), done_succ m d L (n + 2) (by omega),
    done_succ m d L (n + 1) (by omega), done_succ m d L n (by omega)]
  simp only [sep_assoc_eq]

/-- `emp` is a left unit of the separating conjunction, as an equation. -/
theorem emp_sep_eqn (P : sProp 𝕄) : iprop(emp ∗ P) = P := Idealize.SL.BI.equiv_iff.mp Idealize.SL.BI.emp_sep

/-- Seven chunks at once onto the finished ones. -/
theorem done7n (d : Dev nD) (L : grid0.Coords) (n : ℕ) (h : n + 6 < 256) :
    done m d L (n + 7) = iprop(done m d L n ∗ oc d L ⟨n, by omega⟩ (Zbuf m d) ∗ oc d L ⟨n + 1, by omega⟩ (Zbuf m d) ∗ oc d L ⟨n + 2, by omega⟩ (Zbuf m d) ∗ oc d L ⟨n + 3, by omega⟩ (Zbuf m d) ∗ oc d L ⟨n + 4, by omega⟩ (Zbuf m d) ∗ oc d L ⟨n + 5, by omega⟩ (Zbuf m d) ∗ oc d L ⟨n + 6, by omega⟩ (Zbuf m d)) := by
  rw [done_succ m d L (n + 6) (by omega), done_succ m d L (n + 5) (by omega), done_succ m d L (n + 4) (by omega),
    done_succ m d L (n + 3) (by omega), done_succ m d L (n + 2) (by omega), done_succ m d L (n + 1) (by omega),
    done_succ m d L n (by omega)]
  simp only [sep_assoc_eq]

/-- The first seven chunks finished: nothing is finished below chunk 0. -/
theorem done7 (d : Dev nD) (L : grid0.Coords) : done m d L (0 + 7) = iprop(oc d L ⟨0, by decide⟩ (Zbuf m d) ∗ oc d L ⟨1, by decide⟩ (Zbuf m d) ∗ oc d L ⟨2, by decide⟩ (Zbuf m d) ∗ oc d L ⟨3, by decide⟩ (Zbuf m d) ∗ oc d L ⟨4, by decide⟩ (Zbuf m d) ∗ oc d L ⟨5, by decide⟩ (Zbuf m d) ∗ oc d L ⟨6, by decide⟩ (Zbuf m d)) := by
  have h := done7n m d L 0 (by decide)
  rw [done_zero m d L, emp_sep_eqn] at h
  exact h

/-- Nine chunks at once onto the finished ones. -/
theorem done9 (d : Dev nD) (L : grid0.Coords) (n : ℕ) (h : n + 8 < 256) :
    done m d L (n + 9) = iprop(done m d L n ∗ oc d L ⟨n, by omega⟩ (Zbuf m d) ∗ oc d L ⟨n + 1, by omega⟩ (Zbuf m d) ∗ oc d L ⟨n + 2, by omega⟩ (Zbuf m d) ∗ oc d L ⟨n + 3, by omega⟩ (Zbuf m d) ∗ oc d L ⟨n + 4, by omega⟩ (Zbuf m d) ∗ oc d L ⟨n + 5, by omega⟩ (Zbuf m d) ∗ oc d L ⟨n + 6, by omega⟩ (Zbuf m d) ∗ oc d L ⟨n + 7, by omega⟩ (Zbuf m d) ∗ oc d L ⟨n + 8, by omega⟩ (Zbuf m d)) := by
  rw [done_succ m d L (n + 8) (by omega), done_succ m d L (n + 7) (by omega), done_succ m d L (n + 6) (by omega),
    done_succ m d L (n + 5) (by omega), done_succ m d L (n + 4) (by omega), done_succ m d L (n + 3) (by omega),
    done_succ m d L (n + 2) (by omega), done_succ m d L (n + 1) (by omega), done_succ m d L n (by omega)]
  simp only [sep_assoc_eq]

end Cert.Proof.KI

end
-- ==== Proof.RingI.lean ====
/-
  The ring. A tile works through its 256 chunks with eight two-row buffers: chunk `g` is copied into buffer `g mod 8`,
  has its listed columns zeroed there, and is copied out to the result; the copy-in of chunk `g + 7` is started as soon
  as the copy-out of chunk `g - 1`, from the same buffer, is known to have finished. Each buffer has a semaphore of its
  own for copies in and another for copies out, so at most one copy is pending on any semaphore. Between two steps that
  start a round of eight (chunk number `n` a multiple of eight) the state is always the same: the copies-in of chunks
  `n .. n+6` pending into buffers 0..6, the copy-out of chunk `n-1` pending from buffer 7, the chunks below `n-1`
  finished, the chunks from `n` on untouched. That state, as an assertion, is the loop's invariant.
-/
import proofs.«218967_g49014166782275_cont_8to1_c_257_31_alg».proof.Proof.OffsI
import proofs.«218967_g49014166782275_cont_8to1_c_257_31_alg».proof.Proof.ValI
import proofs.«218967_g49014166782275_cont_8to1_c_257_31_alg».proof.Proof.SetsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

local notation "sK" => (Memref.whole Cert.KernelIdeal.cc0_scratch0 : Memref Cert.KernelIdeal.sig Kind.scVector Space.vmem Cert.KernelIdeal.S64 EltTy.i32)
local notation "sB1" => (Memref.whole Cert.KernelIdeal.cc0_scratch1 : Memref Cert.KernelIdeal.sig Kind.scVector Space.vmem Cert.KernelIdeal.S2x4096 EltTy.f32)
local notation "sB2" => (Memref.whole Cert.KernelIdeal.cc0_scratch2 : Memref Cert.KernelIdeal.sig Kind.scVector Space.vmem Cert.KernelIdeal.S2x4096 EltTy.f32)
local notation "sB3" => (Memref.whole Cert.KernelIdeal.cc0_scratch3 : Memref Cert.KernelIdeal.sig Kind.scVector Space.vmem Cert.KernelIdeal.S2x4096 EltTy.f32)
local notation "sB4" => (Memref.whole Cert.KernelIdeal.cc0_scratch4 : Memref Cert.KernelIdeal.sig Kind.scVector Space.vmem Cert.KernelIdeal.S2x4096 EltTy.f32)
local notation "sB5" => (Memref.whole Cert.KernelIdeal.cc0_scratch5 : Memref Cert.KernelIdeal.sig Kind.scVector Space.vmem Cert.KernelIdeal.S2x4096 EltTy.f32)
local notation "sB6" => (Memref.whole Cert.KernelIdeal.cc0_scratch6 : Memref Cert.KernelIdeal.sig Kind.scVector Space.vmem Cert.KernelIdeal.S2x4096 EltTy.f32)
local notation "sB7" => (Memref.whole Cert.KernelIdeal.cc0_scratch7 : Memref Cert.KernelIdeal.sig Kind.scVector Space.vmem Cert.KernelIdeal.S2x4096 EltTy.f32)
local notation "sB8" => (Memref.whole Cert.KernelIdeal.cc0_scratch8 : Memref Cert.KernelIdeal.sig Kind.scVector Space.vmem Cert.KernelIdeal.S2x4096 EltTy.f32)

/-- A chunk of the input as a set of entries of the array. -/
abbrev xSet (L : grid0.Coords) (g : Fin 256) : Finset S16384x4096.Idx := (xCh L g).view.set

/-- Chunk number `n`, read modulo 256 (every number met is below 256). -/
def gi (n : ℕ) : Fin 256 := ⟨n % 256, Nat.mod_lt _ (by decide)⟩

omit [FloatOps F] in
theorem gi_of_lt {n : ℕ} (h : n < 256) : gi n = ⟨n, h⟩ := Fin.ext (Nat.mod_eq_of_lt h)

/-- Chunk `n` of the tile's part of the result, holding `f`. -/
abbrev ocN (d : Dev nD) (L : grid0.Coords) (n : ℕ) (f : Buf (Elt F) (oLoc d)) : sProp 𝕄 :=
  oLoc d ↦[chunkSet (chunkNo (L 0).val (L 1).val n)]{fullShare} f

omit [FloatOps F] in
theorem ocN_congr (d : Dev nD) (L : grid0.Coords) {a b : ℕ} (e : a = b) (f : Buf (Elt F) (oLoc d)) : ocN d L a f = ocN d L b f := by
  subst e; rfl

omit [FloatOps F] in
/-- A chunk held by its number is the chunk held as the program slices it, whatever the spelling of the slice's offsets. -/
theorem ocN_prog (d : Dev nD) (L : grid0.Coords) (n : ℕ) (hn : n < 256) {off : Fin 2 → ℕ}
    {h : ∀ a, off a + S2x4096.size a ≤ S16384x4096.size a} (e : off = rowOffs L n) (f : Buf (Elt F) (oLoc d)) :
    ocN d L n f = (((oW).slice (Rect.unit (s := S16384x4096) off S2x4096.size h) (fun _ => rfl)).view.loc (thr d L)
        ↦[((oW).slice (Rect.unit (s := S16384x4096) off S2x4096.size h) (fun _ => rfl)).view.set]{fullShare} f : sProp 𝕄) := by
  subst e
  exact (pts_oCh d L ⟨n, hn⟩ f).symm

section
variable (d : Dev nD) (L : grid0.Coords) (q : PosShare TreeShare)

/-- The copy-in of chunk `g` into buffer `B` pending on semaphore `sm`, reading the input through its read token `b`:
    the flight (which will deliver the buffer holding the chunk, and the chunk's entries of the input back) and the
    token's other entries. -/
def rdFl (Bp : Vec F S2x4096 .f32 → sProp 𝕄) (sm : SemLoc sig) (b : Fin 8) (g : Fin 256) : sProp 𝕄 :=
  iprop(Transfers.Flight countersEmb (thr d L) sm default 262144
      iprop(Bp (xval m d L g) ∗ (xW).view.loc (thr d L) ↦[xSet L g]{Transfers.shareTok q 8 b} m (xLoc d))
    ∗ ((xW).view.loc (thr d L) ↦[Finset.univ \ xSet L g]{Transfers.shareTok q 8 b} m (xLoc d)))

/-- The copy-out of chunk `n` from buffer 7 pending: it will deliver the chunk holding the program's function and the
    buffer back. -/
def wrFl (n : ℕ) : sProp 𝕄 :=
  iprop(∃ f8, Transfers.Flight countersEmb (thr d L) (SemLoc.dma (SemArray.sem cc0_scratch24)) default 262144
      iprop(ocN d L n (Zbuf m d) ∗ (sB8).view.loc (thr d L) ↦{fullShare} f8))

/-- The state at the head of the round that starts with chunk `8 k + 8` (the loop's trip `k`). -/
def inv (O : CellTallies nD τ sig (HIx 1)) (W : Waits sig (HIx 1)) (KC : S64.Idx → BitVec 32) (k : ℕ) (_ : Unit) : sProp 𝕄 :=
  iprop(Transfers.MayWaits (thr d L) (none : HIx 1) O
    ∗ ((sK).view.loc (thr d L) ↦{fullShare} KC)
    ∗ ((xW).view.loc (thr d L) ↦{Transfers.shareTok q 8 (7 : Fin 8)} m (xLoc d))
    ∗ rdFl m d L q (fun v => (sB1).view.loc (thr d L) ↦{fullShare} v) (SemLoc.dma (SemArray.sem cc0_scratch9)) (0 : Fin 8) (gi (8 * k + 8))
    ∗ rdFl m d L q (fun v => (sB2).view.loc (thr d L) ↦{fullShare} v) (SemLoc.dma (SemArray.sem cc0_scratch10)) (1 : Fin 8) (gi (8 * k + 9))
    ∗ rdFl m d L q (fun v => (sB3).view.loc (thr d L) ↦{fullShare} v) (SemLoc.dma (SemArray.sem cc0_scratch11)) (2 : Fin 8) (gi (8 * k + 10))
    ∗ rdFl m d L q (fun v => (sB4).view.loc (thr d L) ↦{fullShare} v) (SemLoc.dma (SemArray.sem cc0_scratch12)) (3 : Fin 8) (gi (8 * k + 11))
    ∗ rdFl m d L q (fun v => (sB5).view.loc (thr d L) ↦{fullShare} v) (SemLoc.dma (SemArray.sem cc0_scratch13)) (4 : Fin 8) (gi (8 * k + 12))
    ∗ rdFl m d L q (fun v => (sB6).view.loc (thr d L) ↦{fullShare} v) (SemLoc.dma (SemArray.sem cc0_scratch14)) (5 : Fin 8) (gi (8 * k + 13))
    ∗ rdFl m d L q (fun v => (sB7).view.loc (thr d L) ↦{fullShare} v) (SemLoc.dma (SemArray.sem cc0_scratch15)) (6 : Fin 8) (gi (8 * k + 14))
    ∗ wrFl m d L (8 * k + 7)
    ∗ semVal (thr d L, (SemLoc.dma (SemArray.sem cc0_scratch16))) 0
    ∗ semVal (thr d L, (SemLoc.dma (SemArray.sem cc0_scratch17))) 0
    ∗ semVal (thr d L, (SemLoc.dma (SemArray.sem cc0_scratch18))) 0
    ∗ semVal (thr d L, (SemLoc.dma (SemArray.sem cc0_scratch19))) 0
    ∗ semVal (thr d L, (SemLoc.dma (SemArray.sem cc0_scratch20))) 0
    ∗ semVal (thr d L, (SemLoc.dma (SemArray.sem cc0_scratch21))) 0
    ∗ semVal (thr d L, (SemLoc.dma (SemArray.sem cc0_scratch22))) 0
    ∗ semVal (thr d L, (SemLoc.dma (SemArray.sem cc0_scratch23))) 0
    ∗ todo m d L (8 * k + 8) ∗ done m d L (8 * k + 7)
    ∗ ∃ W', ⌜∀ p ∈ W', p ∈ W ∨ p.2 = none⌝ ∗ owes (thr d L) O W')

end

/-! ## From what a run leaves to the invariant's spelling -/

/-- A chunk of the result after its buffer was copied out over it, the buffer holding chunk `n` of the input with the
    kernel's eight stores of zero made: it holds the program's function. The slice's offsets are spelt as the run
    spells them; `e` says which chunk that is. -/
theorem chunk_done (d : Dev nD) (L : grid0.Coords) (n : ℕ) (hn : n < 256) {off : Fin 2 → ℕ}
    {h : ∀ a, off a + S2x4096.size a ≤ S16384x4096.size a} (e : off = rowOffs L n) (f0 : Buf (Elt F) (oLoc d))
    (KC : S64.Idx → BitVec 32) (hKC2 : ∀ j, KC j = m (kLoc d) j) (X : Vec F S2x4096 .f32) (hX : X = xval m d L ⟨n, hn⟩)
    (h0 : ∀ a x, ((![broadcast S16 0#32, (rdK (F := F) KC 0 inb_S64_S16_0)] : Fin 2 → IVec S16 32) a x).toNat < S2x4096.size a)
    (h1 : ∀ a x, ((![broadcast S16 0#32, (rdK (F := F) KC 16 inb_S64_S16_16)] : Fin 2 → IVec S16 32) a x).toNat < S2x4096.size a)
    (h2 : ∀ a x, ((![broadcast S16 0#32, (rdK (F := F) KC 32 inb_S64_S16_32)] : Fin 2 → IVec S16 32) a x).toNat < S2x4096.size a)
    (h3 : ∀ a x, ((![broadcast S16 0#32, (rdK (F := F) KC 48 inb_S64_S16_48)] : Fin 2 → IVec S16 32) a x).toNat < S2x4096.size a)
    (h4 : ∀ a x, ((![broadcast S16 1#32, (rdK (F := F) KC 0 inb_S64_S16_0)] : Fin 2 → IVec S16 32) a x).toNat < S2x4096.size a)
    (h5 : ∀ a x, ((![broadcast S16 1#32, (rdK (F := F) KC 16 inb_S64_S16_16)] : Fin 2 → IVec S16 32) a x).toNat < S2x4096.size a)
    (h6 : ∀ a x, ((![broadcast S16 1#32, (rdK (F := F) KC 32 inb_S64_S16_32)] : Fin 2 → IVec S16 32) a x).toNat < S2x4096.size a)
    (h7 : ∀ a x, ((![broadcast S16 1#32, (rdK (F := F) KC 48 inb_S64_S16_48)] : Fin 2 → IVec S16 32) a x).toNat < S2x4096.size a)
    (rdv : Vec F S2x4096 .f32 → Vec F S2x4096 .f32) (hrd : ∀ C, rdv C = C) :
    (((oW).slice (Rect.unit (s := S16384x4096) off S2x4096.size h) (fun _ => rfl)).view.loc (thr d L) ↦[((oW).slice (Rect.unit (s := S16384x4096) off S2x4096.size h) (fun _ => rfl)).view.set]{fullShare}
        ((oW).slice (Rect.unit (s := S16384x4096) off S2x4096.size h) (fun _ => rfl)).view.writes (Elt F) f0 [⟨Rect.whole _, rdv (storeIdx (storeIdx (storeIdx (storeIdx (storeIdx (storeIdx (storeIdx (storeIdx X ![broadcast S16 0#32, (rdK (F := F) KC 0 inb_S64_S16_0)] (k0_pay1 (F := F)) (fun _ => 1#1) false h0) ![broadcast S16 0#32, (rdK (F := F) KC 16 inb_S64_S16_16)] (k0_pay1 (F := F)) (fun _ => 1#1) false h1) ![broadcast S16 0#32, (rdK (F := F) KC 32 inb_S64_S16_32)] (k0_pay1 (F := F)) (fun _ => 1#1) false h2) ![broadcast S16 0#32, (rdK (F := F) KC 48 inb_S64_S16_48)] (k0_pay1 (F := F)) (fun _ => 1#1) false h3) ![broadcast S16 1#32, (rdK (F := F) KC 0 inb_S64_S16_0)] (k0_pay1 (F := F)) (fun _ => 1#1) false h4) ![broadcast S16 1#32, (rdK (F := F) KC 16 inb_S64_S16_16)] (k0_pay1 (F := F)) (fun _ => 1#1) false h5) ![broadcast S16 1#32, (rdK (F := F) KC 32 inb_S64_S16_32)] (k0_pay1 (F := F)) (fun _ => 1#1) false h6) ![broadcast S16 1#32, (rdK (F := F) KC 48 inb_S64_S16_48)] (k0_pay1 (F := F)) (fun _ => 1#1) false h7)⟩] : sProp 𝕄)
      = ocN d L n (Zbuf m d) := by
  subst e
  have hvv : ∀ y, rdv (storeIdx (storeIdx (storeIdx (storeIdx (storeIdx (storeIdx (storeIdx (storeIdx X ![broadcast S16 0#32, (rdK (F := F) KC 0 inb_S64_S16_0)] (k0_pay1 (F := F)) (fun _ => 1#1) false h0) ![broadcast S16 0#32, (rdK (F := F) KC 16 inb_S64_S16_16)] (k0_pay1 (F := F)) (fun _ => 1#1) false h1) ![broadcast S16 0#32, (rdK (F := F) KC 32 inb_S64_S16_32)] (k0_pay1 (F := F)) (fun _ => 1#1) false h2) ![broadcast S16 0#32, (rdK (F := F) KC 48 inb_S64_S16_48)] (k0_pay1 (F := F)) (fun _ => 1#1) false h3) ![broadcast S16 1#32, (rdK (F := F) KC 0 inb_S64_S16_0)] (k0_pay1 (F := F)) (fun _ => 1#1) false h4) ![broadcast S16 1#32, (rdK (F := F) KC 16 inb_S64_S16_16)] (k0_pay1 (F := F)) (fun _ => 1#1) false h5) ![broadcast S16 1#32, (rdK (F := F) KC 32 inb_S64_S16_32)] (k0_pay1 (F := F)) (fun _ => 1#1) false h6) ![broadcast S16 1#32, (rdK (F := F) KC 48 inb_S64_S16_48)] (k0_pay1 (F := F)) (fun _ => 1#1) false h7) y = Zbuf m d ((oCh L ⟨n, hn⟩).view.emb y) := by
    intro y
    rw [hrd, content_eq, hX]
    have hk' : (fun i => BitVec.toNat (KC i)) = fun i => BitVec.toNat (m (kLoc d) i) := funext fun i => congrArg BitVec.toNat (hKC2 i)
    simp only [hKC2]
    exact zeroed_is_Zbuf m d L ⟨n, hn⟩ y
  exact (out_val m d L ⟨n, hn⟩ f0 _ hvv).trans (pts_oCh d L ⟨n, hn⟩ (Zbuf m d))

/-- What a pending copy-in delivers, as a run spells it (the input's chunk through the program's offsets), is the
    invariant's spelling: the buffer at the chunk's value and the chunk's entries of the input. -/
theorem rd_norm (d : Dev nD) (L : grid0.Coords) (q : PosShare TreeShare) (b : Fin 8) (n : ℕ) (hn : n < 256) {off : Fin 2 → ℕ}
    {h : ∀ a, off a + S2x4096.size a ≤ S16384x4096.size a} (e : off = rowOffs L n) (Bp : Vec F S2x4096 .f32 → sProp 𝕄) :
    (iprop(Bp (ReadAs.same.apply (View.read (Elt F) ((xW).slice (Rect.unit (s := S16384x4096) off S2x4096.size h) (fun _ => rfl)).view (m (xLoc d))))
        ∗ (xW).view.loc (thr d L) ↦[((xW).slice (Rect.unit (s := S16384x4096) off S2x4096.size h) (fun _ => rfl)).view.set]{Transfers.shareTok q 8 b} m (xLoc d)) : sProp 𝕄)
      = iprop(Bp (xval m d L ⟨n, hn⟩) ∗ (xW).view.loc (thr d L) ↦[xSet L ⟨n, hn⟩]{Transfers.shareTok q 8 b} m (xLoc d)) := by
  subst e; rfl

omit [FloatOps F] in
/-- The same for the entries of the input the pending copy-in does not read. -/
theorem rest_norm (d : Dev nD) (L : grid0.Coords) (q : PosShare TreeShare) (b : Fin 8) (n : ℕ) (hn : n < 256) {off : Fin 2 → ℕ}
    {h : ∀ a, off a + S2x4096.size a ≤ S16384x4096.size a} (e : off = rowOffs L n) :
    ((xW).view.loc (thr d L) ↦[Finset.univ \ ((xW).slice (Rect.unit (s := S16384x4096) off S2x4096.size h) (fun _ => rfl)).view.set]{Transfers.shareTok q 8 b} m (xLoc d) : sProp 𝕄)
      = ((xW).view.loc (thr d L) ↦[Finset.univ \ xSet L ⟨n, hn⟩]{Transfers.shareTok q 8 b} m (xLoc d)) := by
  subst e; rfl

/-- The value a copy-in reads, as a run spells it, is the chunk's value. -/
theorem xval_norm (d : Dev nD) (L : grid0.Coords) (n : ℕ) (hn : n < 256) {off : Fin 2 → ℕ}
    {h : ∀ a, off a + S2x4096.size a ≤ S16384x4096.size a} (e : off = rowOffs L n) :
    (ReadAs.same.apply (View.read (Elt F) ((xW).slice (Rect.unit (s := S16384x4096) off S2x4096.size h) (fun _ => rfl)).view (m (xLoc d))) : Vec F S2x4096 .f32) = xval m d L ⟨n, hn⟩ := by
  subst e; rfl

omit [FloatOps F] in
/-- A whole buffer held by its view's own entries is the buffer held whole. -/
theorem pts_set_univ (r : Ref sig .scVector) (d : Dev nD) (cc : Fin τ.nSC) (i : Fin τ.nSub) (qq : PosShare TreeShare)
    (f : Buf (Elt F) ((Memref.whole r).view.loc (V d cc i))) :
    ((Memref.whole r).view.loc (V d cc i) ↦[(Memref.whole r).view.set]{qq} f : sProp 𝕄) = ((Memref.whole r).view.loc (V d cc i) ↦{qq} f) := by
  simp only [Memref.view_whole, View.set_whole]

/-! A buffer just copied into holds the chunk read, whatever it held before (one lemma per buffer of the ring). -/
theorem wrX1 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB1).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX2 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB2).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX3 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB3).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX4 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB4).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX5 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB5).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX6 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB6).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX7 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB7).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX8 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB8).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

omit [FloatOps F] in
/-- The chunk's entries of the input, as a run spells them, are the invariant's spelling. -/
theorem xs_norm (d : Dev nD) (L : grid0.Coords) (q : PosShare TreeShare) (b : Fin 8) (n : ℕ) (hn : n < 256) {off : Fin 2 → ℕ}
    {h : ∀ a, off a + S2x4096.size a ≤ S16384x4096.size a} (e : off = rowOffs L n) :
    ((xW).view.loc (thr d L) ↦[((xW).slice (Rect.unit (s := S16384x4096) off S2x4096.size h) (fun _ => rfl)).view.set]{Transfers.shareTok q 8 b} m (xLoc d) : sProp 𝕄)
      = ((xW).view.loc (thr d L) ↦[xSet L ⟨n, hn⟩]{Transfers.shareTok q 8 b} m (xLoc d)) := by
  subst e; rfl

end Cert.Proof.KI

end
-- ==== Proof.StepI.lean ====
/-
  One indexed store of a tile, as a step of the body's run. The machine's indexed store reads the whole buffer and
  writes it back with the named entries replaced; over a whole buffer both accesses are the buffer's contents
  themselves, so the step takes the contents `f` to `storeIdx f …` and nothing else changes.
-/
import proofs.«218967_g49014166782275_cont_8to1_c_257_31_alg».proof.Proof.ResI
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

omit [FloatOps F] in
theorem pts_whole_eq (r : Ref sig .scVector) (d : Dev nD) (cc : Fin τ.nSC) (i : Fin τ.nSub) (f : Buf (Elt F) ((Memref.whole r).view.loc (V d cc i))) :
    ((((Memref.whole r).access (.whole _)).loc (V d cc i) ↦[((Memref.whole r).access (.whole _)).set]{fullShare} f : sProp 𝕄))
      = ((Memref.whole r).view.loc (V d cc i) ↦{fullShare} f) := by
  rw [show ((Memref.whole r).access (.whole _)).set = Finset.univ from Memref.set_access_whole r]

/-- An indexed store into a whole tile buffer: the buffer's contents `f` become `storeIdx f …`. -/
theorem wp_zscat (i : Fin (sig.nNear .scVector .vmem)) (hn : sig.names .scVector .vmem i = true)
    (d : Dev nD) (cc : Fin τ.nSC) (s : Fin τ.nSub) {dd : Fin 1 → Nat}
    {idxs : Fin (⟨.vmem, i, hn⟩ : Ref sig .scVector).ty.shape.rank → IVec ⟨1, dd⟩ 32} {v : Vec F ⟨1, dd⟩ (⟨.vmem, i, hn⟩ : Ref sig .scVector).ty.elt}
    {mask : IVec ⟨1, dd⟩ 1} {add : Bool} {h : ∀ a x, (idxs a x).toNat < (⟨.vmem, i, hn⟩ : Ref sig .scVector).ty.shape.size a}
    {hs : ((Memref.whole (⟨.vmem, i, hn⟩ : Ref sig .scVector)).access (.whole _)).Stores Finset.univ}
    {α : Type} {k : PUnit → Prog (TpuEff nD τ sig (Elt F) Λ₀ (V d cc s).2) α} {Q : α → sProp 𝕄}
    (f : (⟨.vmem, i, hn⟩ : Ref sig .scVector).ty.Contents (Elt F)) :
    ((Memref.whole (⟨.vmem, i, hn⟩ : Ref sig .scVector)).view.loc (V d cc s) ↦{fullShare} f : sProp 𝕄)
      ⊢ iprop((((Memref.whole (⟨.vmem, i, hn⟩ : Ref sig .scVector)).view.loc (V d cc s) ↦{fullShare} storeIdx f idxs v mask add h)
          -∗ wp frame (wpE (defs₀ (F := F)) 𝒱₀ (V d cc s) none) Set.univ (k ⟨⟩) Q)
        -∗ wp frame (wpE (defs₀ (F := F)) 𝒱₀ (V d cc s) none) Set.univ (SparseCore.vectorStoreIdx (Memref.whole (⟨.vmem, i, hn⟩ : Ref sig .scVector)) idxs v mask add h hs >>= k) Q) := by
  iintro H Hk
  ihave H' := (Entails.of_eq (pts_whole_eq (F := F) (⟨.vmem, i, hn⟩ : Ref sig .scVector) d cc s f).symm) $$ H
  iapply (SparseCore.wp_vectorStoreIdx 𝒱₀ (V d cc s) none Set.univ) $$ H'
  rw [Memref.read_access_whole, Memref.write_access_whole_univ, pts_whole_eq]
  iexact Hk

end Cert.Proof.KI

end
-- ==== Proof.TripI.lean ====
/-
  One trip of the loop: a round of eight chunks. From the ring's state at chunk `8 k + 8` the eight steps wait for a
  chunk's copy-in, zero its listed columns, start its copy-out, wait for the previous copy-out and start the copy-in
  seven chunks ahead; the state they leave is the ring's state at chunk `8 k + 16`.
-/
import proofs.«218967_g49014166782275_cont_8to1_c_257_31_alg».proof.Proof.RingI
import proofs.«218967_g49014166782275_cont_8to1_c_257_31_alg».proof.Proof.StepI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

local notation "sK" => (Memref.whole Cert.KernelIdeal.cc0_scratch0 : Memref Cert.KernelIdeal.sig Kind.scVector Space.vmem Cert.KernelIdeal.S64 EltTy.i32)
local notation "sB1" => (Memref.whole Cert.KernelIdeal.cc0_scratch1 : Memref Cert.KernelIdeal.sig Kind.scVector Space.vmem Cert.KernelIdeal.S2x4096 EltTy.f32)
local notation "sB2" => (Memref.whole Cert.KernelIdeal.cc0_scratch2 : Memref Cert.KernelIdeal.sig Kind.scVector Space.vmem Cert.KernelIdeal.S2x4096 EltTy.f32)
local notation "sB3" => (Memref.whole Cert.KernelIdeal.cc0_scratch3 : Memref Cert.KernelIdeal.sig Kind.scVector Space.vmem Cert.KernelIdeal.S2x4096 EltTy.f32)
local notation "sB4" => (Memref.whole Cert.KernelIdeal.cc0_scratch4 : Memref Cert.KernelIdeal.sig Kind.scVector Space.vmem Cert.KernelIdeal.S2x4096 EltTy.f32)
local notation "sB5" => (Memref.whole Cert.KernelIdeal.cc0_scratch5 : Memref Cert.KernelIdeal.sig Kind.scVector Space.vmem Cert.KernelIdeal.S2x4096 EltTy.f32)
local notation "sB6" => (Memref.whole Cert.KernelIdeal.cc0_scratch6 : Memref Cert.KernelIdeal.sig Kind.scVector Space.vmem Cert.KernelIdeal.S2x4096 EltTy.f32)
local notation "sB7" => (Memref.whole Cert.KernelIdeal.cc0_scratch7 : Memref Cert.KernelIdeal.sig Kind.scVector Space.vmem Cert.KernelIdeal.S2x4096 EltTy.f32)
local notation "sB8" => (Memref.whole Cert.KernelIdeal.cc0_scratch8 : Memref Cert.KernelIdeal.sig Kind.scVector Space.vmem Cert.KernelIdeal.S2x4096 EltTy.f32)

local macro "zs" H:ident b:num dd:ident LL:ident hk:ident : tactic => `(tactic| (
  iapply (wp_zscat $b rfl $dd (cV $LL) (jV $LL)) $$ $H:ident; iintro $H:ident
  sl_exec (disch := exact rdK_inRange (F := F) _ $hk _ (by decide) _ _)))

set_option maxHeartbeats 8000000 in
theorem trip (d : Dev nD) (L : grid0.Coords) (q : PosShare TreeShare) (O : CellTallies nD τ sig (HIx 1)) (W : Waits sig (HIx 1))
    (KC : S64.Idx → BitVec 32) (hKC : ∀ j, BitVec.toNat (KC j) < 4096) (hKC2 : ∀ j, KC j = m (kLoc d) j)
    (k : Fin k0_t1_loop.trips) (v2 : BitVec 32) (v184 : IVec S16 32) :
    inv m d L q O W KC k.val () ⊢ wp frame (wpE (defs₀ (F := F)) 𝒱₀ (thr d L) none) Set.univ
          (k0_t1_body L xW (Memref.isWhole_whole _) kW (Memref.isWhole_whole _) oW (Memref.isWhole_whole _)
            sK (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _)
            cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0 v2 (k0_pay1 (F := F)) v184 k ())
          fun r => inv m d L q O W KC (k.val + 1) r := by
  have hk15 : 8 * k.val + 8 + 7 < 256 := by have := lt8 k 15 (by decide); omega
  unfold inv rdFl wrFl
  beta_reduce
  iintro ⟨#Hmw, HsK, Hx7, ⟨Hf0, Hx0⟩, ⟨Hf1, Hx1⟩, ⟨Hf2, Hx2⟩, ⟨Hf3, Hx3⟩, ⟨Hf4, Hx4⟩, ⟨Hf5, Hx5⟩, ⟨Hf6, Hx6⟩, ⟨%f8, Hfw⟩, Hs8, Hs9, Hs10, Hs11, Hs12, Hs13, Hs14, Hs15, Htodo, Hdone, %W', %hW', HO⟩
  -- the round's eight chunks of the result, off the untouched ones, each spelt as its step slices it
  ihave Ht := (Entails.of_eq (todo8 m d L (8 * k.val + 8) hk15)) $$ Htodo
  icases Ht with ⟨Ho0, Ho1, Ho2, Ho3, Ho4, Ho5, Ho6, Ho7, Htodo⟩
  ihave Ho0 := (Entails.of_eq ((ocN_congr d L (by omega : 8 * k.val + 8 = 8 * k.val + 8) _).trans (ocN_prog d L (8 * k.val + 8) (lt8 k 8 (by decide)) (e_off11 L k) (m (oLoc d))))) $$ Ho0
  ihave Ho1 := (Entails.of_eq ((ocN_congr d L (by omega : 8 * k.val + 8 + 1 = 8 * k.val + 9) _).trans (ocN_prog d L (8 * k.val + 9) (lt8 k 9 (by decide)) (e_off14 L k) (m (oLoc d))))) $$ Ho1
  ihave Ho2 := (Entails.of_eq ((ocN_congr d L (by omega : 8 * k.val + 8 + 2 = 8 * k.val + 10) _).trans (ocN_prog d L (8 * k.val + 10) (lt8 k 10 (by decide)) (e_off17 L k) (m (oLoc d))))) $$ Ho2
  ihave Ho3 := (Entails.of_eq ((ocN_congr d L (by omega : 8 * k.val + 8 + 3 = 8 * k.val + 11) _).trans (ocN_prog d L (8 * k.val + 11) (lt8 k 11 (by decide)) (e_off20 L k) (m (oLoc d))))) $$ Ho3
  ihave Ho4 := (Entails.of_eq ((ocN_congr d L (by omega : 8 * k.val + 8 + 4 = 8 * k.val + 12) _).trans (ocN_prog d L (8 * k.val + 12) (lt8 k 12 (by decide)) (e_off23 L k) (m (oLoc d))))) $$ Ho4
  ihave Ho5 := (Entails.of_eq ((ocN_congr d L (by omega : 8 * k.val + 8 + 5 = 8 * k.val + 13) _).trans (ocN_prog d L (8 * k.val + 13) (lt8 k 13 (by decide)) (e_off26 L k) (m (oLoc d))))) $$ Ho5
  ihave Ho6 := (Entails.of_eq ((ocN_congr d L (by omega : 8 * k.val + 8 + 6 = 8 * k.val + 14) _).trans (ocN_prog d L (8 * k.val + 14) (lt8 k 14 (by decide)) (e_off29 L k) (m (oLoc d))))) $$ Ho6
  ihave Ho7 := (Entails.of_eq ((ocN_congr d L (by omega : 8 * k.val + 8 + 7 = 8 * k.val + 15) _).trans (ocN_prog d L (8 * k.val + 15) (lt8 k 15 (by decide)) (e_off32 L k) (m (oLoc d))))) $$ Ho7
  sl_exec (disch := exact rdK_inRange (F := F) _ hKC _ (by decide) _ _)
  zs Hf0_dst 1 d L hKC
  zs Hf0_dst 1 d L hKC
  zs Hf0_dst 1 d L hKC
  zs Hf0_dst 1 d L hKC
  zs Hf0_dst 1 d L hKC
  zs Hf0_dst 1 d L hKC
  zs Hf0_dst 1 d L hKC
  zs Hf0_dst 1 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hfw_src 8 d L hKC
  zs Hfw_src 8 d L hKC
  zs Hfw_src 8 d L hKC
  zs Hfw_src 8 d L hKC
  zs Hfw_src 8 d L hKC
  zs Hfw_src 8 d L hKC
  zs Hfw_src 8 d L hKC
  zs Hfw_src 8 d L hKC
  sl_step
  unfold trip.sl.dma0 trip.sl.dma0_2 trip.sl.dma0_4 trip.sl.dma0_6 trip.sl.dma0_8 trip.sl.dma0_10 trip.sl.dma0_12 trip.sl.dma0_14 trip.sl.dma0_1 trip.sl.dma0_3 trip.sl.dma0_5 trip.sl.dma0_7 trip.sl.dma0_9 trip.sl.dma0_11 trip.sl.dma0_13 trip.sl.dma0_15 trip.sl.r trip.sl.r_1 trip.sl.v363 trip.sl.v368 trip.sl.v394 trip.sl.v399 trip.sl.v425 trip.sl.v430 trip.sl.v456 trip.sl.v461 trip.sl.v487 trip.sl.v492 trip.sl.v518 trip.sl.v523 trip.sl.v549 trip.sl.v554 trip.sl.v580 trip.sl.v585
  isplitr; · iexact Hmw
  isplitl [HsK]; · iexact HsK
  isplitl [Hx7]; · iexact Hx7
  isplitl [Hf0 Hx0]
  · rw [show gi (8 * (k.val + 1) + 8) = ⟨8 * k.val + 16, lt8 k 16 (by decide)⟩ from (by rw [show 8 * (k.val + 1) + 8 = 8 * k.val + 16 from by omega]; exact gi_of_lt _)]
    isplitl [Hf0]
    · ihave H := (Transfers.Flight_mono _ _ (Entails.of_eq (rd_norm m d L _ (0 : Fin 8) (8 * k.val + 16) (lt8 k 16 (by decide)) (e_off16 L k) ((fun (C v : Vec F S2x4096 .f32) => ((sB1).view.loc (thr d L) ↦{fullShare} View.write (Elt F) (sB1).view C v Finset.univ : sProp 𝕄)) _)))) $$ Hf0
      simp only [Memref.view_whole, View.write_whole_univ]
      iexact H
    · ihave H := (Entails.of_eq (rest_norm m d L _ (0 : Fin 8) (8 * k.val + 16) (lt8 k 16 (by decide)) (e_off16 L k))) $$ Hx0
      iexact H
  isplitl [Hf1 Hx1]
  · rw [show gi (8 * (k.val + 1) + 9) = ⟨8 * k.val + 17, lt8 k 17 (by decide)⟩ from (by rw [show 8 * (k.val + 1) + 9 = 8 * k.val + 17 from by omega]; exact gi_of_lt _)]
    isplitl [Hf1]
    · ihave H := (Transfers.Flight_mono _ _ (Entails.of_eq (rd_norm m d L _ (1 : Fin 8) (8 * k.val + 17) (lt8 k 17 (by decide)) (e_off19 L k) ((fun (C v : Vec F S2x4096 .f32) => ((sB2).view.loc (thr d L) ↦{fullShare} View.write (Elt F) (sB2).view C v Finset.univ : sProp 𝕄)) _)))) $$ Hf1
      simp only [Memref.view_whole, View.write_whole_univ]
      iexact H
    · ihave H := (Entails.of_eq (rest_norm m d L _ (1 : Fin 8) (8 * k.val + 17) (lt8 k 17 (by decide)) (e_off19 L k))) $$ Hx1
      iexact H
  isplitl [Hf2 Hx2]
  · rw [show gi (8 * (k.val + 1) + 10) = ⟨8 * k.val + 18, lt8 k 18 (by decide)⟩ from (by rw [show 8 * (k.val + 1) + 10 = 8 * k.val + 18 from by omega]; exact gi_of_lt _)]
    isplitl [Hf2]
    · ihave H := (Transfers.Flight_mono _ _ (Entails.of_eq (rd_norm m d L _ (2 : Fin 8) (8 * k.val + 18) (lt8 k 18 (by decide)) (e_off22 L k) ((fun (C v : Vec F S2x4096 .f32) => ((sB3).view.loc (thr d L) ↦{fullShare} View.write (Elt F) (sB3).view C v Finset.univ : sProp 𝕄)) _)))) $$ Hf2
      simp only [Memref.view_whole, View.write_whole_univ]
      iexact H
    · ihave H := (Entails.of_eq (rest_norm m d L _ (2 : Fin 8) (8 * k.val + 18) (lt8 k 18 (by decide)) (e_off22 L k))) $$ Hx2
      iexact H
  isplitl [Hf3 Hx3]
  · rw [show gi (8 * (k.val + 1) + 11) = ⟨8 * k.val + 19, lt8 k 19 (by decide)⟩ from (by rw [show 8 * (k.val + 1) + 11 = 8 * k.val + 19 from by omega]; exact gi_of_lt _)]
    isplitl [Hf3]
    · ihave H := (Transfers.Flight_mono _ _ (Entails.of_eq (rd_norm m d L _ (3 : Fin 8) (8 * k.val + 19) (lt8 k 19 (by decide)) (e_off25 L k) ((fun (C v : Vec F S2x4096 .f32) => ((sB4).view.loc (thr d L) ↦{fullShare} View.write (Elt F) (sB4).view C v Finset.univ : sProp 𝕄)) _)))) $$ Hf3
      simp only [Memref.view_whole, View.write_whole_univ]
      iexact H
    · ihave H := (Entails.of_eq (rest_norm m d L _ (3 : Fin 8) (8 * k.val + 19) (lt8 k 19 (by decide)) (e_off25 L k))) $$ Hx3
      iexact H
  isplitl [Hf4 Hx4]
  · rw [show gi (8 * (k.val + 1) + 12) = ⟨8 * k.val + 20, lt8 k 20 (by decide)⟩ from (by rw [show 8 * (k.val + 1) + 12 = 8 * k.val + 20 from by omega]; exact gi_of_lt _)]
    isplitl [Hf4]
    · ihave H := (Transfers.Flight_mono _ _ (Entails.of_eq (rd_norm m d L _ (4 : Fin 8) (8 * k.val + 20) (lt8 k 20 (by decide)) (e_off28 L k) ((fun (C v : Vec F S2x4096 .f32) => ((sB5).view.loc (thr d L) ↦{fullShare} View.write (Elt F) (sB5).view C v Finset.univ : sProp 𝕄)) _)))) $$ Hf4
      simp only [Memref.view_whole, View.write_whole_univ]
      iexact H
    · ihave H := (Entails.of_eq (rest_norm m d L _ (4 : Fin 8) (8 * k.val + 20) (lt8 k 20 (by decide)) (e_off28 L k))) $$ Hx4
      iexact H
  isplitl [Hf5 Hx5]
  · rw [show gi (8 * (k.val + 1) + 13) = ⟨8 * k.val + 21, lt8 k 21 (by decide)⟩ from (by rw [show 8 * (k.val + 1) + 13 = 8 * k.val + 21 from by omega]; exact gi_of_lt _)]
    isplitl [Hf5]
    · ihave H := (Transfers.Flight_mono _ _ (Entails.of_eq (rd_norm m d L _ (5 : Fin 8) (8 * k.val + 21) (lt8 k 21 (by decide)) (e_off31 L k) ((fun (C v : Vec F S2x4096 .f32) => ((sB6).view.loc (thr d L) ↦{fullShare} View.write (Elt F) (sB6).view C v Finset.univ : sProp 𝕄)) _)))) $$ Hf5
      simp only [Memref.view_whole, View.write_whole_univ]
      iexact H
    · ihave H := (Entails.of_eq (rest_norm m d L _ (5 : Fin 8) (8 * k.val + 21) (lt8 k 21 (by decide)) (e_off31 L k))) $$ Hx5
      iexact H
  isplitl [Hf6 Hx6]
  · rw [show gi (8 * (k.val + 1) + 14) = ⟨8 * k.val + 22, lt8 k 22 (by decide)⟩ from (by rw [show 8 * (k.val + 1) + 14 = 8 * k.val + 22 from by omega]; exact gi_of_lt _)]
    isplitl [Hf6]
    · ihave H := (Transfers.Flight_mono _ _ (Entails.of_eq (rd_norm m d L _ (6 : Fin 8) (8 * k.val + 22) (lt8 k 22 (by decide)) (e_off34 L k) ((fun (C v : Vec F S2x4096 .f32) => ((sB7).view.loc (thr d L) ↦{fullShare} View.write (Elt F) (sB7).view C v Finset.univ : sProp 𝕄)) _)))) $$ Hf6
      simp only [Memref.view_whole, View.write_whole_univ]
      iexact H
    · ihave H := (Entails.of_eq (rest_norm m d L _ (6 : Fin 8) (8 * k.val + 22) (lt8 k 22 (by decide)) (e_off34 L k))) $$ Hx6
      iexact H
  -- the copy-out of chunk 8 k + 15 pending from buffer 7
  isplitl [Hfw]
  · iexists _
    iapply (Transfers.Flight_mono _ _ ?_) $$ Hfw
    iintro ⟨Hc, Hb⟩
    isplitl [Hc]
    · ihave Hc := (Entails.of_eq ((chunk_done m d L (8 * k.val + 15) (lt8 k 15 (by decide)) (e_off32 L k) (m (oLoc d)) KC hKC2 _ (wrX8 m d L _ (8 * k.val + 15) (lt8 k 15 (by decide)) (e_off13 L k)) _ _ _ _ _ _ _ _ (fun C => ReadAs.same.apply (View.read (Elt F) (sB8).view C)) (fun _ => rfl)).trans (ocN_congr d L (by omega : 8 * k.val + 15 = 8 * (k.val + 1) + 7) _))) $$ Hc
      iexact Hc
    · ihave Hb := (Entails.of_eq (pts_set_univ (F := F) cc0_scratch8 d (cV L) (jV L) fullShare _)) $$ Hb
      iexact Hb
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  -- the untouched chunks, and the finished ones with this round's eight
  isplitl [Htodo]
  · rw [show 8 * (k.val + 1) + 8 = 8 * k.val + 8 + 8 from by omega]; iexact Htodo
  isplitl [Hdone Hfw_dst Ho0 Ho1 Ho2 Ho3 Ho4 Ho5 Ho6]
  · rw [show 8 * (k.val + 1) + 7 = 8 * k.val + 7 + 8 from by omega, done8 m d L (8 * k.val + 7) (by have := lt8 k 14 (by decide); omega)]
    isplitl [Hdone]; · iexact Hdone
    isplitl [Hfw_dst]; · iexact Hfw_dst
    isplitl [Ho0]
    · ihave H := (Entails.of_eq ((chunk_done m d L (8 * k.val + 8) (lt8 k 8 (by decide)) (e_off11 L k) (m (oLoc d)) KC hKC2 _ (congrArg (xval m d L) (gi_of_lt (lt8 k 8 (by decide)))) _ _ _ _ _ _ _ _ (fun C => ReadAs.same.apply (View.read (Elt F) (sB1).view C)) (fun _ => rfl)).trans (ocN_congr d L (by omega : 8 * k.val + 8 = 8 * k.val + 7 + 1) _))) $$ Ho0
      iexact H
    isplitl [Ho1]
    · ihave H := (Entails.of_eq ((chunk_done m d L (8 * k.val + 9) (lt8 k 9 (by decide)) (e_off14 L k) (m (oLoc d)) KC hKC2 _ (congrArg (xval m d L) (gi_of_lt (lt8 k 9 (by decide)))) _ _ _ _ _ _ _ _ (fun C => ReadAs.same.apply (View.read (Elt F) (sB2).view C)) (fun _ => rfl)).trans (ocN_congr d L (by omega : 8 * k.val + 9 = 8 * k.val + 7 + 2) _))) $$ Ho1
      iexact H
    isplitl [Ho2]
    · ihave H := (Entails.of_eq ((chunk_done m d L (8 * k.val + 10) (lt8 k 10 (by decide)) (e_off17 L k) (m (oLoc d)) KC hKC2 _ (congrArg (xval m d L) (gi_of_lt (lt8 k 10 (by decide)))) _ _ _ _ _ _ _ _ (fun C => ReadAs.same.apply (View.read (Elt F) (sB3).view C)) (fun _ => rfl)).trans (ocN_congr d L (by omega : 8 * k.val + 10 = 8 * k.val + 7 + 3) _))) $$ Ho2
      iexact H
    isplitl [Ho3]
    · ihave H := (Entails.of_eq ((chunk_done m d L (8 * k.val + 11) (lt8 k 11 (by decide)) (e_off20 L k) (m (oLoc d)) KC hKC2 _ (congrArg (xval m d L) (gi_of_lt (lt8 k 11 (by decide)))) _ _ _ _ _ _ _ _ (fun C => ReadAs.same.apply (View.read (Elt F) (sB4).view C)) (fun _ => rfl)).trans (ocN_congr d L (by omega : 8 * k.val + 11 = 8 * k.val + 7 + 4) _))) $$ Ho3
      iexact H
    isplitl [Ho4]
    · ihave H := (Entails.of_eq ((chunk_done m d L (8 * k.val + 12) (lt8 k 12 (by decide)) (e_off23 L k) (m (oLoc d)) KC hKC2 _ (congrArg (xval m d L) (gi_of_lt (lt8 k 12 (by decide)))) _ _ _ _ _ _ _ _ (fun C => ReadAs.same.apply (View.read (Elt F) (sB5).view C)) (fun _ => rfl)).trans (ocN_congr d L (by omega : 8 * k.val + 12 = 8 * k.val + 7 + 5) _))) $$ Ho4
      iexact H
    isplitl [Ho5]
    · ihave H := (Entails.of_eq ((chunk_done m d L (8 * k.val + 13) (lt8 k 13 (by decide)) (e_off26 L k) (m (oLoc d)) KC hKC2 _ (congrArg (xval m d L) (gi_of_lt (lt8 k 13 (by decide)))) _ _ _ _ _ _ _ _ (fun C => ReadAs.same.apply (View.read (Elt F) (sB6).view C)) (fun _ => rfl)).trans (ocN_congr d L (by omega : 8 * k.val + 13 = 8 * k.val + 7 + 6) _))) $$ Ho5
      iexact H
    · ihave H := (Entails.of_eq ((chunk_done m d L (8 * k.val + 14) (lt8 k 14 (by decide)) (e_off29 L k) (m (oLoc d)) KC hKC2 _ (congrArg (xval m d L) (gi_of_lt (lt8 k 14 (by decide)))) _ _ _ _ _ _ _ _ (fun C => ReadAs.same.apply (View.read (Elt F) (sB7).view C)) (fun _ => rfl)).trans (ocN_congr d L (by omega : 8 * k.val + 14 = 8 * k.val + 7 + 7) _))) $$ Ho6
      iexact H
  -- the waits recorded: all at the kernel's own index
  iexists _; isplitr; swap
  · iexact HO
  · ipureintro; intro p hp
    iterate 16 (rcases Finset.mem_insert.mp hp with rfl | hp; · exact .inr rfl)
    exact hW' p hp

end Cert.Proof.KI

end
-- ==== Proof.TileResI.lean ====
/-
  A tile's own resources, named. The launch hands a tile all the buffers and semaphores that are its own as two big
  separating conjunctions over finite sets; the kernel uses nine of the buffers (its copy of the list and the eight
  two-row buffers of its ring) and seventeen of the DMA semaphores. Each is a member of its set, so the conjunction
  splits into that member and the conjunction over the set with the member erased; doing so once per buffer and
  per semaphore names them all and leaves the rest.
-/
import proofs.«218967_g49014166782275_cont_8to1_c_257_31_alg».proof.Proof.ResI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

/-- A big separating conjunction over a finite set, with the members of a duplicate-free list of its elements split
    off one after another: the members in the list's order, then the conjunction over the set with them all erased. -/
theorem bigSep_eraseList {M : Type} [URA M] {I : Type} [DecidableEq I] (Φ : I → sProp M) :
    ∀ (l : List I) (t : Finset I), l.Nodup → (∀ x ∈ l, x ∈ t) →
      bigSep t Φ = l.foldr (fun x acc => iprop(Φ x ∗ acc)) (bigSep (l.foldl Finset.erase t) Φ)
  | [], _, _, _ => rfl
  | x :: xs, t, hnd, hmem => by
    have hx : x ∈ t := hmem x List.mem_cons_self
    have hnd' := List.nodup_cons.mp hnd
    have hmem' : ∀ y ∈ xs, y ∈ t.erase x := fun y hy =>
      Finset.mem_erase.mpr ⟨fun e => hnd'.1 (e ▸ hy), hmem y (List.mem_cons_of_mem x hy)⟩
    refine (SparseCore.bigSep_erase' hx).trans ?_
    exact congrArg (fun R => iprop(Φ x ∗ R)) (bigSep_eraseList Φ xs (t.erase x) hnd'.2 hmem')

/-- The seventeen DMA semaphores the kernel uses, in the order it is handed them. -/
def usedSems : List (DmaSem sig) :=
  [cc0_scoped0.sem, cc0_scratch9.sem, cc0_scratch10.sem, cc0_scratch11.sem, cc0_scratch12.sem, cc0_scratch13.sem,
   cc0_scratch14.sem, cc0_scratch15.sem, cc0_scratch16.sem, cc0_scratch17.sem, cc0_scratch18.sem, cc0_scratch19.sem,
   cc0_scratch20.sem, cc0_scratch21.sem, cc0_scratch22.sem, cc0_scratch23.sem, cc0_scratch24.sem]

/-- They are seventeen different semaphores. -/
theorem usedSems_nodup : usedSems.Nodup := by decide

/-- Every DMA semaphore of a vector subcore is a scoped one. -/
theorem dma_scoped : ∀ n : DmaSem sig, (SemLoc.dma n : SemLoc sig).isScoped .scVector = true := by decide

/-- The tile's cell of DMA semaphore `n`. -/
abbrev dmaCell (d : Dev nD) (L : grid0.Coords) (n : DmaSem sig) : GSem nD τ sig := (thr d L, SemLoc.dma n)

/-- Different semaphores have different cells. -/
theorem dmaCell_injective (d : Dev nD) (L : grid0.Coords) : Function.Injective (dmaCell d L) := by
  intro a b e
  have e2 : (SemLoc.dma a : SemLoc sig) = SemLoc.dma b := congrArg Prod.snd e
  exact SemLoc.dma.inj e2

/-- The cell of any DMA semaphore of the tile is one of the tile's own. -/
theorem dmaCell_mem (d : Dev nD) (L : grid0.Coords) (n : DmaSem sig) : dmaCell d L n ∈ ownCells (thr d L) :=
  (mem_ownCells (g := dmaCell d L n)).mpr ⟨rfl, dma_scoped n⟩

/-- The tile's DMA semaphores the kernel does not use: its own cells with the seventeen it uses erased. -/
def restCells (d : Dev nD) (L : grid0.Coords) : Finset (GSem nD τ sig) :=
  (usedSems.map (dmaCell d L)).foldl Finset.erase (ownCells (thr d L))

omit [FloatOps F] in
/-- The tile's own semaphores at zero are the seventeen DMA semaphores of the kernel at zero and the rest at zero. -/
theorem ownSems0_V (d : Dev nD) (L : grid0.Coords) :
    (ownSems0 (thr d L) : sProp 𝕄)
      = iprop(semVal (thr d L, SemLoc.dma cc0_scoped0.sem) 0
          ∗ semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ semVal (thr d L, SemLoc.dma cc0_scratch16.sem) 0
          ∗ semVal (thr d L, SemLoc.dma cc0_scratch17.sem) 0
          ∗ semVal (thr d L, SemLoc.dma cc0_scratch18.sem) 0
          ∗ semVal (thr d L, SemLoc.dma cc0_scratch19.sem) 0
          ∗ semVal (thr d L, SemLoc.dma cc0_scratch20.sem) 0
          ∗ semVal (thr d L, SemLoc.dma cc0_scratch21.sem) 0
          ∗ semVal (thr d L, SemLoc.dma cc0_scratch22.sem) 0
          ∗ semVal (thr d L, SemLoc.dma cc0_scratch23.sem) 0
          ∗ semVal (thr d L, SemLoc.dma cc0_scratch24.sem) 0
          ∗ bigSep (restCells d L) fun g => semVal g 0) := by
  unfold SparseCore.Cfg.ownSems0
  have hmem : ∀ x ∈ usedSems.map (dmaCell d L), x ∈ ownCells (thr d L) := by
    intro x hx
    obtain ⟨n, _, rfl⟩ := List.mem_map.mp hx
    exact dmaCell_mem d L n
  have h := bigSep_eraseList (fun g => (semVal g 0 : sProp 𝕄)) (usedSems.map (dmaCell d L)) (ownCells (thr d L))
    (usedSems_nodup.map (dmaCell_injective d L)) hmem
  rw [show List.foldl Finset.erase (ownCells (thr d L)) (usedSems.map (dmaCell d L)) = restCells d L from rfl] at h
  rw [h]
  simp only [usedSems, List.map_cons, List.map_nil, List.foldr_cons, List.foldr_nil]

/-- The nine buffers the kernel uses, as the tile's references: its copy of the list, then the eight two-row buffers. -/
def usedRefs (L : grid0.Coords) : List (DevRef τ sig) :=
  [(Proc.scVector (cV L) (jV L)).devRef cc0_scratch0, (Proc.scVector (cV L) (jV L)).devRef cc0_scratch1,
   (Proc.scVector (cV L) (jV L)).devRef cc0_scratch2, (Proc.scVector (cV L) (jV L)).devRef cc0_scratch3,
   (Proc.scVector (cV L) (jV L)).devRef cc0_scratch4, (Proc.scVector (cV L) (jV L)).devRef cc0_scratch5,
   (Proc.scVector (cV L) (jV L)).devRef cc0_scratch6, (Proc.scVector (cV L) (jV L)).devRef cc0_scratch7,
   (Proc.scVector (cV L) (jV L)).devRef cc0_scratch8]

/-- They are nine different buffers: the nine references are different, and a processor's references name its
    buffers one to one. -/
theorem usedRefs_nodup (L : grid0.Coords) : (usedRefs L).Nodup := by
  have h : ([cc0_scratch0, cc0_scratch1, cc0_scratch2, cc0_scratch3, cc0_scratch4, cc0_scratch5, cc0_scratch6,
      cc0_scratch7, cc0_scratch8] : List (Ref sig .scVector)).Nodup := by decide
  exact h.map (Proc.devRef_injective (Proc.scVector (cV L) (jV L)))

/-- Each is one of the tile's own buffers. -/
theorem usedRefs_mem (L : grid0.Coords) : ∀ x ∈ usedRefs L, x ∈ ownRefs (τ := τ) (.scVector (cV L) (jV L)) := by
  intro x hx
  simp only [usedRefs, List.mem_cons, List.not_mem_nil, or_false] at hx
  rcases hx with rfl | rfl | rfl | rfl | rfl | rfl | rfl | rfl | rfl <;>
    exact SparseCore.Cfg.mem_ownRefs_of_owner (p := Proc.scVector (cV L) (jV L)) rfl

/-- The tile's buffers the kernel does not use: its own references with the nine it uses erased. -/
def restRefs (L : grid0.Coords) : Finset (DevRef τ sig) :=
  (usedRefs L).foldl Finset.erase (ownRefs (τ := τ) (.scVector (cV L) (jV L)))

omit [FloatOps F] in
/-- The tile's own buffers, each at some contents, are the nine buffers of the kernel and the rest. -/
theorem ownBufs_V (d : Dev nD) (L : grid0.Coords) :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ (∃ f, (thr d L).loc cc0_scratch7 ↦{fullShare} f)
          ∗ (∃ f, (thr d L).loc cc0_scratch8 ↦{fullShare} f)
          ∗ bigSep (restRefs L) fun b => iprop(∃ f, ((d, b) : Loc nD τ sig) ↦{fullShare} f)) := by
  unfold SparseCore.Cfg.ownBufs
  have h := bigSep_eraseList (fun b => (iprop(∃ f, ((d, b) : Loc nD τ sig) ↦{fullShare} f) : sProp 𝕄)) (usedRefs L)
    (ownRefs (τ := τ) (.scVector (cV L) (jV L))) (usedRefs_nodup L) (usedRefs_mem L)
  rw [show List.foldl Finset.erase (ownRefs (τ := τ) (.scVector (cV L) (jV L))) (usedRefs L) = restRefs L from rfl] at h
  refine h.trans ?_
  simp only [usedRefs, List.foldr_cons, List.foldr_nil]

end Cert.Proof.KI

end
-- ==== Proof.TokI.lean ====
/-
  A tile's read share of the input, cut eight ways. The tile keeps up to eight copies-in pending at once, one per
  semaphore, and each borrows the chunk it reads from a share of its own; so the tile's share is cut into eight tokens
  and a remainder, and put together again at the end. The same assertion is spelt two ways: by the array's location as
  the TensorCore names it, and as the tile's thread addresses the whole array.
-/
import proofs.«218967_g49014166782275_cont_8to1_c_257_31_alg».proof.Proof.ResI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

local notation "sK" => (Memref.whole Cert.KernelIdeal.cc0_scratch0 : Memref Cert.KernelIdeal.sig Kind.scVector Space.vmem Cert.KernelIdeal.S64 EltTy.i32)
local notation "sB1" => (Memref.whole Cert.KernelIdeal.cc0_scratch1 : Memref Cert.KernelIdeal.sig Kind.scVector Space.vmem Cert.KernelIdeal.S2x4096 EltTy.f32)
local notation "sB2" => (Memref.whole Cert.KernelIdeal.cc0_scratch2 : Memref Cert.KernelIdeal.sig Kind.scVector Space.vmem Cert.KernelIdeal.S2x4096 EltTy.f32)
local notation "sB3" => (Memref.whole Cert.KernelIdeal.cc0_scratch3 : Memref Cert.KernelIdeal.sig Kind.scVector Space.vmem Cert.KernelIdeal.S2x4096 EltTy.f32)
local notation "sB4" => (Memref.whole Cert.KernelIdeal.cc0_scratch4 : Memref Cert.KernelIdeal.sig Kind.scVector Space.vmem Cert.KernelIdeal.S2x4096 EltTy.f32)
local notation "sB5" => (Memref.whole Cert.KernelIdeal.cc0_scratch5 : Memref Cert.KernelIdeal.sig Kind.scVector Space.vmem Cert.KernelIdeal.S2x4096 EltTy.f32)
local notation "sB6" => (Memref.whole Cert.KernelIdeal.cc0_scratch6 : Memref Cert.KernelIdeal.sig Kind.scVector Space.vmem Cert.KernelIdeal.S2x4096 EltTy.f32)
local notation "sB7" => (Memref.whole Cert.KernelIdeal.cc0_scratch7 : Memref Cert.KernelIdeal.sig Kind.scVector Space.vmem Cert.KernelIdeal.S2x4096 EltTy.f32)
local notation "sB8" => (Memref.whole Cert.KernelIdeal.cc0_scratch8 : Memref Cert.KernelIdeal.sig Kind.scVector Space.vmem Cert.KernelIdeal.S2x4096 EltTy.f32)

omit [FloatOps F] in
/-- A separating conjunction over the numbers below eight is its eight conjuncts, lowest number first. -/
theorem bigSep_range8 (Φ : ℕ → sProp 𝕄) :
    BI.bigSep (Finset.range 8) Φ = iprop(Φ 0 ∗ Φ 1 ∗ Φ 2 ∗ Φ 3 ∗ Φ 4 ∗ Φ 5 ∗ Φ 6 ∗ Φ 7) := by
  rw [show Finset.range 8 = {0, 1, 2, 3, 4, 5, 6, 7} from by decide,
    BI.bigSep_insert (by decide), BI.bigSep_insert (by decide), BI.bigSep_insert (by decide), BI.bigSep_insert (by decide),
    BI.bigSep_insert (by decide), BI.bigSep_insert (by decide), BI.bigSep_insert (by decide), BI.bigSep_singleton]
  rfl

omit [FloatOps F] in
/-- The input whole, as the tile addresses it, is the input by its location. -/
theorem pts_x (d : Dev nD) (L : grid0.Coords) (q : PosShare TreeShare) (f : Buf (Elt F) (xLoc d)) :
    ((xW).view.loc (thr d L) ↦{q} f : sProp 𝕄) = (xLoc d ↦{q} f) := by
  simp only [Memref.view_whole, View.set_whole]

omit [FloatOps F] in
/-- The list whole, as the tile addresses it, is the list by its location. -/
theorem pts_k (d : Dev nD) (L : grid0.Coords) (q : PosShare TreeShare) (f : Buf (Elt F) (kLoc d)) :
    ((kW).view.loc (thr d L) ↦{q} f : sProp 𝕄) = (kLoc d ↦{q} f) := by
  simp only [Memref.view_whole, View.set_whole]

omit [FloatOps F] in
/-- The tile's share of the input is a remainder and eight read tokens, each as the tile addresses the array. -/
theorem x_split8 (d : Dev nD) (L : grid0.Coords) (q : PosShare TreeShare) (f : Buf (Elt F) (xLoc d)) :
    (xLoc d ↦{q} f : sProp 𝕄) ⊣⊢ iprop(((xW).view.loc (thr d L) ↦{Transfers.shareDrop q 8} f)
      ∗ ((xW).view.loc (thr d L) ↦{Transfers.shareTok q 8 (0 : Fin 8)} f)
      ∗ ((xW).view.loc (thr d L) ↦{Transfers.shareTok q 8 (1 : Fin 8)} f)
      ∗ ((xW).view.loc (thr d L) ↦{Transfers.shareTok q 8 (2 : Fin 8)} f)
      ∗ ((xW).view.loc (thr d L) ↦{Transfers.shareTok q 8 (3 : Fin 8)} f)
      ∗ ((xW).view.loc (thr d L) ↦{Transfers.shareTok q 8 (4 : Fin 8)} f)
      ∗ ((xW).view.loc (thr d L) ↦{Transfers.shareTok q 8 (5 : Fin 8)} f)
      ∗ ((xW).view.loc (thr d L) ↦{Transfers.shareTok q 8 (6 : Fin 8)} f)
      ∗ ((xW).view.loc (thr d L) ↦{Transfers.shareTok q 8 (7 : Fin 8)} f)) := by
  have h : (xLoc d ↦{q} f : sProp 𝕄) ⊣⊢ iprop((xLoc d ↦{Transfers.shareDrop q 8} f)
      ∗ BI.bigSep (Finset.range 8) (fun i => xLoc d ↦{Transfers.shareTokN q i} f)) := Transfers.pointsTo_toks_range q 8
  rw [bigSep_range8] at h
  rw [pts_x d L, pts_x d L, pts_x d L, pts_x d L, pts_x d L, pts_x d L, pts_x d L, pts_x d L, pts_x d L]
  exact h

end Cert.Proof.KI

end
-- ==== Proof.BodyI.lean ====
/-
  One tile's run of the kernel: the list is copied into the tile, the first seven copies-in are started, the first
  round of eight steps is made, the loop makes thirty more rounds at the ring's invariant, the last round drains the
  ring; at the end every one of the tile's 256 chunks of the result holds the input's chunk with the listed columns
  zeroed, and the read shares, the buffers and the semaphores are as they were handed over.
-/
import proofs.«218967_g49014166782275_cont_8to1_c_257_31_alg».proof.Proof.TripI
import proofs.«218967_g49014166782275_cont_8to1_c_257_31_alg».proof.Proof.TileResI
import proofs.«218967_g49014166782275_cont_8to1_c_257_31_alg».proof.Proof.TokI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

local notation "sK" => (Memref.whole Cert.KernelIdeal.cc0_scratch0 : Memref Cert.KernelIdeal.sig Kind.scVector Space.vmem Cert.KernelIdeal.S64 EltTy.i32)
local notation "sB1" => (Memref.whole Cert.KernelIdeal.cc0_scratch1 : Memref Cert.KernelIdeal.sig Kind.scVector Space.vmem Cert.KernelIdeal.S2x4096 EltTy.f32)
local notation "sB2" => (Memref.whole Cert.KernelIdeal.cc0_scratch2 : Memref Cert.KernelIdeal.sig Kind.scVector Space.vmem Cert.KernelIdeal.S2x4096 EltTy.f32)
local notation "sB3" => (Memref.whole Cert.KernelIdeal.cc0_scratch3 : Memref Cert.KernelIdeal.sig Kind.scVector Space.vmem Cert.KernelIdeal.S2x4096 EltTy.f32)
local notation "sB4" => (Memref.whole Cert.KernelIdeal.cc0_scratch4 : Memref Cert.KernelIdeal.sig Kind.scVector Space.vmem Cert.KernelIdeal.S2x4096 EltTy.f32)
local notation "sB5" => (Memref.whole Cert.KernelIdeal.cc0_scratch5 : Memref Cert.KernelIdeal.sig Kind.scVector Space.vmem Cert.KernelIdeal.S2x4096 EltTy.f32)
local notation "sB6" => (Memref.whole Cert.KernelIdeal.cc0_scratch6 : Memref Cert.KernelIdeal.sig Kind.scVector Space.vmem Cert.KernelIdeal.S2x4096 EltTy.f32)
local notation "sB7" => (Memref.whole Cert.KernelIdeal.cc0_scratch7 : Memref Cert.KernelIdeal.sig Kind.scVector Space.vmem Cert.KernelIdeal.S2x4096 EltTy.f32)
local notation "sB8" => (Memref.whole Cert.KernelIdeal.cc0_scratch8 : Memref Cert.KernelIdeal.sig Kind.scVector Space.vmem Cert.KernelIdeal.S2x4096 EltTy.f32)

/-- The tile's copy of the list, right after it was copied in: a write of the list over the scratch's old contents;
    its entries are the list's. -/
theorem copy_lt (fK kv : S64.Idx → BitVec 32) (hkv : ∀ j, BitVec.toNat (kv j) < 4096) :
    ∀ j, BitVec.toNat (View.write (Elt F) (sK).view fK kv Finset.univ j) < 4096 := by
  intro j
  simp only [Memref.view_whole, View.write_whole_univ]
  exact hkv j

theorem copy_eq (fK kv : S64.Idx → BitVec 32) : ∀ j, View.write (Elt F) (sK).view fK kv Finset.univ j = kv j := by
  intro j
  simp only [Memref.view_whole, View.write_whole_univ]

local macro "zs" H:ident b:num dd:ident LL:ident hk:ident : tactic => `(tactic| (
  iapply (wp_zscat $b rfl $dd (cV $LL) (jV $LL)) $$ $H:ident; iintro $H:ident
  sl_exec (disch := exact rdK_inRange (F := F) _ $hk _ (by decide) _ _)))

omit [FloatOps F] in
/-- A tile's own buffer by its location is the buffer as the tile addresses it whole. -/
theorem pts_b (r : Ref sig .scVector) (d : Dev nD) (L : grid0.Coords) (qq : PosShare TreeShare) (f : Buf (Elt F) ((thr d L).loc r)) :
    ((thr d L).loc r ↦{qq} f : sProp 𝕄) = ((Memref.whole r).view.loc (thr d L) ↦{qq} f) := rfl

omit [FloatOps F] in
/-- The loop makes thirty trips. -/
theorem trips_eq : Scf.trips k0_t1_loop.lb k0_t1_loop.ub k0_t1_loop.st = 30 := by decide

set_option maxHeartbeats 16000000 in
theorem tile_body (hF : (K (F := F)).Facts) (d : Dev nD) (L : grid0.Coords) (hk : MaskOK (m (kLoc d)))
    (O : CellTallies nD τ sig (HIx 1)) (W : Waits sig (HIx 1)) (hO : ∀ g, O g none = 0) :
    (iprop(levAts (K (F := F)).L (K (F := F)).lev ∗ emp ∗ tilePay m d (L 0).val (L 1).val (m (oLoc d))
        ∗ scopedBufs (thr d L) ∗ scopedSems0 (thr d L) ∗ owes (thr d L) O W) : sProp 𝕄)
      ⊢ wp frame (wpE (defs₀ (F := F)) 𝒱₀ (thr d L) none) Set.univ
          (cc0__sc_body L xW (Memref.isWhole_whole _) kW (Memref.isWhole_whole _) oW (Memref.isWhole_whole _)
            sK (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _)
            cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0)
          fun _ => iprop(tilePay m d (L 0).val (L 1).val (Zbuf m d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tilePay
  iintro ⟨#Hlv, -, ⟨Hx, Hk, Hch⟩, ⟨⟨%fK, HsK⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩, ⟨Hs0, Hs1, Hs2, Hs3, Hs4, Hs5, Hs6, Hs7, Hs8, Hs9, Hs10, Hs11, Hs12, Hs13, Hs14, Hs15, Hs16, Hsems⟩, HO⟩
  ihave Hmw := ((K (F := F)).mayWaits_none (thr := thr d L) hO) $$ Hlv
  -- the read share of the input, eight ways; the list; the buffers as the tile addresses them
  ihave Hx := ((x_split8 (F := F) d L _ _).1) $$ Hx
  icases Hx with ⟨Hxr, Hx0, Hx1, Hx2, Hx3, Hx4, Hx5, Hx6, Hx7⟩
  ihave Hk := (Entails.of_eq (pts_k (F := F) d L _ _).symm) $$ Hk
  ihave HsK := (Entails.of_eq (pts_b (F := F) cc0_scratch0 d L _ _)) $$ HsK
  ihave Hb1 := (Entails.of_eq (pts_b (F := F) cc0_scratch1 d L _ _)) $$ Hb1
  ihave Hb2 := (Entails.of_eq (pts_b (F := F) cc0_scratch2 d L _ _)) $$ Hb2
  ihave Hb3 := (Entails.of_eq (pts_b (F := F) cc0_scratch3 d L _ _)) $$ Hb3
  ihave Hb4 := (Entails.of_eq (pts_b (F := F) cc0_scratch4 d L _ _)) $$ Hb4
  ihave Hb5 := (Entails.of_eq (pts_b (F := F) cc0_scratch5 d L _ _)) $$ Hb5
  ihave Hb6 := (Entails.of_eq (pts_b (F := F) cc0_scratch6 d L _ _)) $$ Hb6
  ihave Hb7 := (Entails.of_eq (pts_b (F := F) cc0_scratch7 d L _ _)) $$ Hb7
  ihave Hb8 := (Entails.of_eq (pts_b (F := F) cc0_scratch8 d L _ _)) $$ Hb8
  -- the first round's eight chunks of the result, each spelt as its step slices it
  ihave Ht := (Entails.of_eq (todo_zero m d L).symm) $$ Hch
  ihave Ht := (Entails.of_eq (todo8 m d L 0 (by decide))) $$ Ht
  icases Ht with ⟨Ho0, Ho1, Ho2, Ho3, Ho4, Ho5, Ho6, Ho7, Htodo⟩
  ihave Ho0 := (Entails.of_eq ((ocN_congr d L (by omega : 0 = 0) _).trans (ocN_prog d L 0 (by decide) (e_off2_0 L) (m (oLoc d))))) $$ Ho0
  ihave Ho1 := (Entails.of_eq ((ocN_congr d L (by omega : 0 + 1 = 1) _).trans (ocN_prog d L 1 (by decide) (e_off3_2 L) (m (oLoc d))))) $$ Ho1
  ihave Ho2 := (Entails.of_eq ((ocN_congr d L (by omega : 0 + 2 = 2) _).trans (ocN_prog d L 2 (by decide) (e_off4_4 L) (m (oLoc d))))) $$ Ho2
  ihave Ho3 := (Entails.of_eq ((ocN_congr d L (by omega : 0 + 3 = 3) _).trans (ocN_prog d L 3 (by decide) (e_off5_6 L) (m (oLoc d))))) $$ Ho3
  ihave Ho4 := (Entails.of_eq ((ocN_congr d L (by omega : 0 + 4 = 4) _).trans (ocN_prog d L 4 (by decide) (e_off6_8 L) (m (oLoc d))))) $$ Ho4
  ihave Ho5 := (Entails.of_eq ((ocN_congr d L (by omega : 0 + 5 = 5) _).trans (ocN_prog d L 5 (by decide) (e_off7_10 L) (m (oLoc d))))) $$ Ho5
  ihave Ho6 := (Entails.of_eq ((ocN_congr d L (by omega : 0 + 6 = 6) _).trans (ocN_prog d L 6 (by decide) (e_off8_12 L) (m (oLoc d))))) $$ Ho6
  ihave Ho7 := (Entails.of_eq ((ocN_congr d L (by omega : 0 + 7 = 7) _).trans (ocN_prog d L 7 (by decide) (e_off9_14 L) (m (oLoc d))))) $$ Ho7
  sl_exec (disch := exact rdK_inRange (F := F) _ (copy_lt _ _ (fun j => hk j)) _ (by decide) _ _)
  have hKC := copy_lt (F := F) fK (tile_body.sl.dma0 m d) (fun j => hk j)
  have hKC2 : ∀ j, View.write (Elt F) (sK).view fK (tile_body.sl.dma0 m d) Finset.univ j = m (kLoc d) j := copy_eq (F := F) fK (tile_body.sl.dma0 m d)
  zs Hb1 1 d L hKC
  zs Hb1 1 d L hKC
  zs Hb1 1 d L hKC
  zs Hb1 1 d L hKC
  zs Hb1 1 d L hKC
  zs Hb1 1 d L hKC
  zs Hb1 1 d L hKC
  zs Hb1 1 d L hKC
  zs Hb2 2 d L hKC
  zs Hb2 2 d L hKC
  zs Hb2 2 d L hKC
  zs Hb2 2 d L hKC
  zs Hb2 2 d L hKC
  zs Hb2 2 d L hKC
  zs Hb2 2 d L hKC
  zs Hb2 2 d L hKC
  zs Hb3 3 d L hKC
  zs Hb3 3 d L hKC
  zs Hb3 3 d L hKC
  zs Hb3 3 d L hKC
  zs Hb3 3 d L hKC
  zs Hb3 3 d L hKC
  zs Hb3 3 d L hKC
  zs Hb3 3 d L hKC
  zs Hb4 4 d L hKC
  zs Hb4 4 d L hKC
  zs Hb4 4 d L hKC
  zs Hb4 4 d L hKC
  zs Hb4 4 d L hKC
  zs Hb4 4 d L hKC
  zs Hb4 4 d L hKC
  zs Hb4 4 d L hKC
  zs Hb5 5 d L hKC
  zs Hb5 5 d L hKC
  zs Hb5 5 d L hKC
  zs Hb5 5 d L hKC
  zs Hb5 5 d L hKC
  zs Hb5 5 d L hKC
  zs Hb5 5 d L hKC
  zs Hb5 5 d L hKC
  zs Hb6 6 d L hKC
  zs Hb6 6 d L hKC
  zs Hb6 6 d L hKC
  zs Hb6 6 d L hKC
  zs Hb6 6 d L hKC
  zs Hb6 6 d L hKC
  zs Hb6 6 d L hKC
  zs Hb6 6 d L hKC
  zs Hb7 7 d L hKC
  zs Hb7 7 d L hKC
  zs Hb7 7 d L hKC
  zs Hb7 7 d L hKC
  zs Hb7 7 d L hKC
  zs Hb7 7 d L hKC
  zs Hb7 7 d L hKC
  zs Hb7 7 d L hKC
  zs Hb8 8 d L hKC
  zs Hb8 8 d L hKC
  zs Hb8 8 d L hKC
  zs Hb8 8 d L hKC
  zs Hb8 8 d L hKC
  zs Hb8 8 d L hKC
  zs Hb8 8 d L hKC
  zs Hb8 8 d L hKC
  -- the loop, at the ring's invariant
  sl_for (inv m d L (tileTok (L 0).val (L 1).val) O W (View.write (Elt F) (sK).view fK (tile_body.sl.dma0 m d) Finset.univ)) $$ [Hmw HsK Hx7 Hs1 Hx0 Hs2 Hx1 Hs3 Hx2 Hs4 Hx3 Hs5 Hx4 Hs6 Hx5 Hs7 Hx6 Hs16 Hs8 Hs9 Hs10 Hs11 Hs12 Hs13 Hs14 Hs15 Htodo Ho0 Ho1 Ho2 Ho3 Ho4 Ho5 Ho6 HO]
  case region =>
    intro k _
    exact trip m d L _ O W _ hKC hKC2 k _ _
  · unfold inv rdFl wrFl
    beta_reduce
    unfold tile_body.sl.dma0_8 tile_body.sl.dma0_10 tile_body.sl.dma0_12 tile_body.sl.dma0_14 tile_body.sl.dma0_16 tile_body.sl.dma0_18 tile_body.sl.dma0_20 tile_body.sl.dma0_22 tile_body.sl.dma0_1 tile_body.sl.dma0_2 tile_body.sl.dma0_3 tile_body.sl.dma0_4 tile_body.sl.dma0_5 tile_body.sl.dma0_6 tile_body.sl.dma0_7 tile_body.sl.dma0_9 tile_body.sl.dma0_11 tile_body.sl.dma0_13 tile_body.sl.dma0_15 tile_body.sl.dma0_17 tile_body.sl.dma0_19 tile_body.sl.dma0_21 tile_body.sl.dma0_23 tile_body.sl.v28 tile_body.sl.v33 tile_body.sl.v47 tile_body.sl.v52 tile_body.sl.v69 tile_body.sl.v74 tile_body.sl.v91 tile_body.sl.v96 tile_body.sl.v113 tile_body.sl.v118 tile_body.sl.v135 tile_body.sl.v140 tile_body.sl.v157 tile_body.sl.v162 tile_body.sl.v179 tile_body.sl.v184
    isplitl [Hmw]; · iexact Hmw
    isplitl [HsK]; · iexact HsK
    isplitl [Hx7]; · iexact Hx7
    isplitl [Hs1 Hx0]
    · rw [show gi (8 * 0 + 8) = (⟨8, by decide⟩ : Fin 256) from by decide]
      isplitl [Hs1]
      · ihave H := (Transfers.Flight_mono _ _ (Entails.of_eq (rd_norm m d L (tileTok (L 0).val (L 1).val) (0 : Fin 8) 8 (by decide) (off := k0_off3 L 16#32) (h := k0_off3_inb L 2) (e_off3_16 L) ((fun (C v : Vec F S2x4096 .f32) => ((sB1).view.loc (thr d L) ↦{fullShare} View.write (Elt F) (sB1).view C v Finset.univ : sProp 𝕄)) _)))) $$ Hs1
        simp only [Memref.view_whole, View.write_whole_univ]
        iexact H
      · ihave H := (Entails.of_eq (rest_norm m d L (tileTok (L 0).val (L 1).val) (0 : Fin 8) 8 (by decide) (off := k0_off3 L 16#32) (h := k0_off3_inb L 2) (e_off3_16 L))) $$ Hx0
        iexact H
    isplitl [Hs2 Hx1]
    · rw [show gi (8 * 0 + 9) = (⟨9, by decide⟩ : Fin 256) from by decide]
      isplitl [Hs2]
      · ihave H := (Transfers.Flight_mono _ _ (Entails.of_eq (rd_norm m d L (tileTok (L 0).val (L 1).val) (1 : Fin 8) 9 (by decide) (off := k0_off4 L 18#32) (h := k0_off4_inb L 2) (e_off4_18 L) ((fun (C v : Vec F S2x4096 .f32) => ((sB2).view.loc (thr d L) ↦{fullShare} View.write (Elt F) (sB2).view C v Finset.univ : sProp 𝕄)) _)))) $$ Hs2
        simp only [Memref.view_whole, View.write_whole_univ]
        iexact H
      · ihave H := (Entails.of_eq (rest_norm m d L (tileTok (L 0).val (L 1).val) (1 : Fin 8) 9 (by decide) (off := k0_off4 L 18#32) (h := k0_off4_inb L 2) (e_off4_18 L))) $$ Hx1
        iexact H
    isplitl [Hs3 Hx2]
    · rw [show gi (8 * 0 + 10) = (⟨10, by decide⟩ : Fin 256) from by decide]
      isplitl [Hs3]
      · ihave H := (Transfers.Flight_mono _ _ (Entails.of_eq (rd_norm m d L (tileTok (L 0).val (L 1).val) (2 : Fin 8) 10 (by decide) (off := k0_off5 L 20#32) (h := k0_off5_inb L 2) (e_off5_20 L) ((fun (C v : Vec F S2x4096 .f32) => ((sB3).view.loc (thr d L) ↦{fullShare} View.write (Elt F) (sB3).view C v Finset.univ : sProp 𝕄)) _)))) $$ Hs3
        simp only [Memref.view_whole, View.write_whole_univ]
        iexact H
      · ihave H := (Entails.of_eq (rest_norm m d L (tileTok (L 0).val (L 1).val) (2 : Fin 8) 10 (by decide) (off := k0_off5 L 20#32) (h := k0_off5_inb L 2) (e_off5_20 L))) $$ Hx2
        iexact H
    isplitl [Hs4 Hx3]
    · rw [show gi (8 * 0 + 11) = (⟨11, by decide⟩ : Fin 256) from by decide]
      isplitl [Hs4]
      · ihave H := (Transfers.Flight_mono _ _ (Entails.of_eq (rd_norm m d L (tileTok (L 0).val (L 1).val) (3 : Fin 8) 11 (by decide) (off := k0_off6 L 22#32) (h := k0_off6_inb L 2) (e_off6_22 L) ((fun (C v : Vec F S2x4096 .f32) => ((sB4).view.loc (thr d L) ↦{fullShare} View.write (Elt F) (sB4).view C v Finset.univ : sProp 𝕄)) _)))) $$ Hs4
        simp only [Memref.view_whole, View.write_whole_univ]
        iexact H
      · ihave H := (Entails.of_eq (rest_norm m d L (tileTok (L 0).val (L 1).val) (3 : Fin 8) 11 (by decide) (off := k0_off6 L 22#32) (h := k0_off6_inb L 2) (e_off6_22 L))) $$ Hx3
        iexact H
    isplitl [Hs5 Hx4]
    · rw [show gi (8 * 0 + 12) = (⟨12, by decide⟩ : Fin 256) from by decide]
      isplitl [Hs5]
      · ihave H := (Transfers.Flight_mono _ _ (Entails.of_eq (rd_norm m d L (tileTok (L 0).val (L 1).val) (4 : Fin 8) 12 (by decide) (off := k0_off7 L 24#32) (h := k0_off7_inb L 2) (e_off7_24 L) ((fun (C v : Vec F S2x4096 .f32) => ((sB5).view.loc (thr d L) ↦{fullShare} View.write (Elt F) (sB5).view C v Finset.univ : sProp 𝕄)) _)))) $$ Hs5
        simp only [Memref.view_whole, View.write_whole_univ]
        iexact H
      · ihave H := (Entails.of_eq (rest_norm m d L (tileTok (L 0).val (L 1).val) (4 : Fin 8) 12 (by decide) (off := k0_off7 L 24#32) (h := k0_off7_inb L 2) (e_off7_24 L))) $$ Hx4
        iexact H
    isplitl [Hs6 Hx5]
    · rw [show gi (8 * 0 + 13) = (⟨13, by decide⟩ : Fin 256) from by decide]
      isplitl [Hs6]
      · ihave H := (Transfers.Flight_mono _ _ (Entails.of_eq (rd_norm m d L (tileTok (L 0).val (L 1).val) (5 : Fin 8) 13 (by decide) (off := k0_off8 L 26#32) (h := k0_off8_inb L 2) (e_off8_26 L) ((fun (C v : Vec F S2x4096 .f32) => ((sB6).view.loc (thr d L) ↦{fullShare} View.write (Elt F) (sB6).view C v Finset.univ : sProp 𝕄)) _)))) $$ Hs6
        simp only [Memref.view_whole, View.write_whole_univ]
        iexact H
      · ihave H := (Entails.of_eq (rest_norm m d L (tileTok (L 0).val (L 1).val) (5 : Fin 8) 13 (by decide) (off := k0_off8 L 26#32) (h := k0_off8_inb L 2) (e_off8_26 L))) $$ Hx5
        iexact H
    isplitl [Hs7 Hx6]
    · rw [show gi (8 * 0 + 14) = (⟨14, by decide⟩ : Fin 256) from by decide]
      isplitl [Hs7]
      · ihave H := (Transfers.Flight_mono _ _ (Entails.of_eq (rd_norm m d L (tileTok (L 0).val (L 1).val) (6 : Fin 8) 14 (by decide) (off := k0_off9 L 28#32) (h := k0_off9_inb L 2) (e_off9_28 L) ((fun (C v : Vec F S2x4096 .f32) => ((sB7).view.loc (thr d L) ↦{fullShare} View.write (Elt F) (sB7).view C v Finset.univ : sProp 𝕄)) _)))) $$ Hs7
        simp only [Memref.view_whole, View.write_whole_univ]
        iexact H
      · ihave H := (Entails.of_eq (rest_norm m d L (tileTok (L 0).val (L 1).val) (6 : Fin 8) 14 (by decide) (off := k0_off9 L 28#32) (h := k0_off9_inb L 2) (e_off9_28 L))) $$ Hx6
        iexact H
    isplitl [Hs16]
    · iexists _
      iapply (Transfers.Flight_mono _ _ ?_) $$ Hs16
      iintro ⟨Hc, Hb⟩
      isplitl [Hc]
      · ihave Hc := (Entails.of_eq ((chunk_done m d L 7 (by decide) (off := k0_off9 L 14#32) (h := k0_off9_inb L 0) (e_off9_14 L) _ _ hKC2 _ (wrX8 m d L _ 7 (by decide) (off := k0_off2 L 14#32) (h := k0_off2_inb L 1) (e_off2_14 L)) _ _ _ _ _ _ _ _ (fun C => ReadAs.same.apply (View.read (Elt F) (sB8).view C)) (fun _ => rfl)).trans (ocN_congr d L (by omega : 7 = 8 * 0 + 7) _))) $$ Hc
        iexact Hc
      · ihave Hb := (Entails.of_eq (pts_set_univ (F := F) cc0_scratch8 d (cV L) (jV L) fullShare _)) $$ Hb
        iexact Hb
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Htodo]; · iexact Htodo
    isplitl [Ho0 Ho1 Ho2 Ho3 Ho4 Ho5 Ho6]
    · rw [show (8 * 0 + 7 : ℕ) = 0 + 7 from rfl, done7 m d L]
      isplitl [Ho0]
      · ihave H := (Entails.of_eq (chunk_done m d L 0 (by decide) (off := k0_off2 L 0#32) (h := k0_off2_inb L 0) (e_off2_0 L) _ _ hKC2 _ (wrX1 m d L _ 0 (by decide) (off := k0_off1 L 0#32) (h := k0_off1_inb L 0) (e_off1_0 L)) _ _ _ _ _ _ _ _ (fun C => ReadAs.same.apply (View.read (Elt F) (sB1).view C)) (fun _ => rfl))) $$ Ho0
        iexact H
      isplitl [Ho1]
      · ihave H := (Entails.of_eq (chunk_done m d L 1 (by decide) (off := k0_off3 L 2#32) (h := k0_off3_inb L 0) (e_off3_2 L) _ _ hKC2 _ (wrX2 m d L _ 1 (by decide) (off := k0_off1 L 2#32) (h := k0_off1_inb L 1) (e_off1_2 L)) _ _ _ _ _ _ _ _ (fun C => ReadAs.same.apply (View.read (Elt F) (sB2).view C)) (fun _ => rfl))) $$ Ho1
        iexact H
      isplitl [Ho2]
      · ihave H := (Entails.of_eq (chunk_done m d L 2 (by decide) (off := k0_off4 L 4#32) (h := k0_off4_inb L 0) (e_off4_4 L) _ _ hKC2 _ (wrX3 m d L _ 2 (by decide) (off := k0_off1 L 4#32) (h := k0_off1_inb L 2) (e_off1_4 L)) _ _ _ _ _ _ _ _ (fun C => ReadAs.same.apply (View.read (Elt F) (sB3).view C)) (fun _ => rfl))) $$ Ho2
        iexact H
      isplitl [Ho3]
      · ihave H := (Entails.of_eq (chunk_done m d L 3 (by decide) (off := k0_off5 L 6#32) (h := k0_off5_inb L 0) (e_off5_6 L) _ _ hKC2 _ (wrX4 m d L _ 3 (by decide) (off := k0_off1 L 6#32) (h := k0_off1_inb L 3) (e_off1_6 L)) _ _ _ _ _ _ _ _ (fun C => ReadAs.same.apply (View.read (Elt F) (sB4).view C)) (fun _ => rfl))) $$ Ho3
        iexact H
      isplitl [Ho4]
      · ihave H := (Entails.of_eq (chunk_done m d L 4 (by decide) (off := k0_off6 L 8#32) (h := k0_off6_inb L 0) (e_off6_8 L) _ _ hKC2 _ (wrX5 m d L _ 4 (by decide) (off := k0_off1 L 8#32) (h := k0_off1_inb L 4) (e_off1_8 L)) _ _ _ _ _ _ _ _ (fun C => ReadAs.same.apply (View.read (Elt F) (sB5).view C)) (fun _ => rfl))) $$ Ho4
        iexact H
      isplitl [Ho5]
      · ihave H := (Entails.of_eq (chunk_done m d L 5 (by decide) (off := k0_off7 L 10#32) (h := k0_off7_inb L 0) (e_off7_10 L) _ _ hKC2 _ (wrX6 m d L _ 5 (by decide) (off := k0_off1 L 10#32) (h := k0_off1_inb L 5) (e_off1_10 L)) _ _ _ _ _ _ _ _ (fun C => ReadAs.same.apply (View.read (Elt F) (sB6).view C)) (fun _ => rfl))) $$ Ho5
        iexact H
      · ihave H := (Entails.of_eq (chunk_done m d L 6 (by decide) (off := k0_off8 L 12#32) (h := k0_off8_inb L 0) (e_off8_12 L) _ _ hKC2 _ (wrX7 m d L _ 6 (by decide) (off := k0_off1 L 12#32) (h := k0_off1_inb L 6) (e_off1_12 L)) _ _ _ _ _ _ _ _ (fun C => ReadAs.same.apply (View.read (Elt F) (sB7).view C)) (fun _ => rfl))) $$ Ho6
        iexact H
    iexists _; isplitr; swap
    · iexact HO
    · ipureintro; intro p hp
      iterate 40 (first | (rcases Finset.mem_insert.mp hp with rfl | hp; · exact .inr rfl) | skip)
      exact .inl hp
  -- after the loop: the ring's state at chunk 248
  iintro %_ HI
  unfold inv rdFl wrFl
  beta_reduce
  icases HI with ⟨#Hmw', HsK, Hx7, ⟨Hf0, Hx0⟩, ⟨Hf1, Hx1⟩, ⟨Hf2, Hx2⟩, ⟨Hf3, Hx3⟩, ⟨Hf4, Hx4⟩, ⟨Hf5, Hx5⟩, ⟨Hf6, Hx6⟩, ⟨%f8', Hfw⟩, Hr7, Hw0, Hw1, Hw2, Hw3, Hw4, Hw5, Hw6, Htodo, Hdone, %W', %hW', HO⟩
  rw [trips_eq]
  ihave Ht := (Entails.of_eq (todo8 m d L (8 * 30 + 8) (by decide))) $$ Htodo
  icases Ht with ⟨Ho0, Ho1, Ho2, Ho3, Ho4, Ho5, Ho6, Ho7, Htodo⟩
  ihave Ho0 := (Entails.of_eq ((ocN_congr d L (by omega : 8 * 30 + 8 = 248) _).trans (ocN_prog d L 248 (by decide) (e_off35_496 L) (m (oLoc d))))) $$ Ho0
  ihave Ho1 := (Entails.of_eq ((ocN_congr d L (by omega : 8 * 30 + 8 + 1 = 249) _).trans (ocN_prog d L 249 (by decide) (e_off36_498 L) (m (oLoc d))))) $$ Ho1
  ihave Ho2 := (Entails.of_eq ((ocN_congr d L (by omega : 8 * 30 + 8 + 2 = 250) _).trans (ocN_prog d L 250 (by decide) (e_off37_500 L) (m (oLoc d))))) $$ Ho2
  ihave Ho3 := (Entails.of_eq ((ocN_congr d L (by omega : 8 * 30 + 8 + 3 = 251) _).trans (ocN_prog d L 251 (by decide) (e_off38_502 L) (m (oLoc d))))) $$ Ho3
  ihave Ho4 := (Entails.of_eq ((ocN_congr d L (by omega : 8 * 30 + 8 + 4 = 252) _).trans (ocN_prog d L 252 (by decide) (e_off39_504 L) (m (oLoc d))))) $$ Ho4
  ihave Ho5 := (Entails.of_eq ((ocN_congr d L (by omega : 8 * 30 + 8 + 5 = 253) _).trans (ocN_prog d L 253 (by decide) (e_off40_506 L) (m (oLoc d))))) $$ Ho5
  ihave Ho6 := (Entails.of_eq ((ocN_congr d L (by omega : 8 * 30 + 8 + 6 = 254) _).trans (ocN_prog d L 254 (by decide) (e_off41_508 L) (m (oLoc d))))) $$ Ho6
  ihave Ho7 := (Entails.of_eq ((ocN_congr d L (by omega : 8 * 30 + 8 + 7 = 255) _).trans (ocN_prog d L 255 (by decide) (e_off42_510 L) (m (oLoc d))))) $$ Ho7
  sl_exec (disch := exact rdK_inRange (F := F) _ hKC _ (by decide) _ _)
  zs Hf0_dst 1 d L hKC
  zs Hf0_dst 1 d L hKC
  zs Hf0_dst 1 d L hKC
  zs Hf0_dst 1 d L hKC
  zs Hf0_dst 1 d L hKC
  zs Hf0_dst 1 d L hKC
  zs Hf0_dst 1 d L hKC
  zs Hf0_dst 1 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hfw_src 8 d L hKC
  zs Hfw_src 8 d L hKC
  zs Hfw_src 8 d L hKC
  zs Hfw_src 8 d L hKC
  zs Hfw_src 8 d L hKC
  zs Hfw_src 8 d L hKC
  zs Hfw_src 8 d L hKC
  zs Hfw_src 8 d L hKC
  sl_step
  unfold tile_body.sl.dma0_24 tile_body.sl.dma0_26 tile_body.sl.dma0_27 tile_body.sl.dma0_28 tile_body.sl.dma0_29 tile_body.sl.dma0_30 tile_body.sl.dma0_31 tile_body.sl.dma0_32 tile_body.sl.dma0_25 tile_body.sl.r tile_body.sl.r_1 tile_body.sl.r_2 tile_body.sl.r_3 tile_body.sl.v202 tile_body.sl.v224 tile_body.sl.v229 tile_body.sl.v243 tile_body.sl.v262 tile_body.sl.v267 tile_body.sl.v281 tile_body.sl.v286 tile_body.sl.v300 tile_body.sl.v305 tile_body.sl.v319 tile_body.sl.v324 tile_body.sl.v338 tile_body.sl.v343
  unfold k0_pay2 k0_pay3
  -- hand everything back: the read shares joined, the 256 chunks finished, the buffers and semaphores as they came
  iclear Hb8
  isplitl [Hxr Hx0 Hx1 Hx2 Hx3 Hx4 Hx5 Hx6 Hx7 Hk Hdone Hfw_dst Ho0 Ho1 Ho2 Ho3 Ho4 Ho5 Ho6 Ho7]
  · isplitl [Hxr Hx0 Hx1 Hx2 Hx3 Hx4 Hx5 Hx6 Hx7]
    · iapply ((x_split8 (F := F) d L _ _).2)
      isplitl [Hxr]; · iexact Hxr
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      iexact Hx7
    isplitl [Hk]
    · iapply (Entails.of_eq (pts_k (F := F) d L _ _)); iexact Hk
    · iapply (Entails.of_eq (done_all m d L))
      rw [show (256 : ℕ) = 247 + 9 from rfl, done9 m d L 247 (by decide)]
      isplitl [Hdone]; · iexact Hdone
      isplitl [Hfw_dst]; · iexact Hfw_dst
      isplitl [Ho0]
      · ihave H := (Entails.of_eq ((chunk_done m d L 248 (by decide) (off := k0_off35 L 496#32) (h := k0_off35_inb L 0) (e_off35_496 L) _ _ hKC2 _ (congrArg (xval m d L) (by decide : gi (8 * 30 + 8) = (⟨248, by decide⟩ : Fin 256))) _ _ _ _ _ _ _ _ (fun C => ReadAs.same.apply (View.read (Elt F) (sB1).view C)) (fun _ => rfl)).trans (ocN_congr d L (by omega : 248 = 247 + 1) _))) $$ Ho0
        iexact H
      isplitl [Ho1]
      · ihave H := (Entails.of_eq ((chunk_done m d L 249 (by decide) (off := k0_off36 L 498#32) (h := k0_off36_inb L 1) (e_off36_498 L) _ _ hKC2 _ (congrArg (xval m d L) (by decide : gi (8 * 30 + 9) = (⟨249, by decide⟩ : Fin 256))) _ _ _ _ _ _ _ _ (fun C => ReadAs.same.apply (View.read (Elt F) (sB2).view C)) (fun _ => rfl)).trans (ocN_congr d L (by omega : 249 = 247 + 2) _))) $$ Ho1
        iexact H
      isplitl [Ho2]
      · ihave H := (Entails.of_eq ((chunk_done m d L 250 (by decide) (off := k0_off37 L 500#32) (h := k0_off37_inb L 1) (e_off37_500 L) _ _ hKC2 _ (congrArg (xval m d L) (by decide : gi (8 * 30 + 10) = (⟨250, by decide⟩ : Fin 256))) _ _ _ _ _ _ _ _ (fun C => ReadAs.same.apply (View.read (Elt F) (sB3).view C)) (fun _ => rfl)).trans (ocN_congr d L (by omega : 250 = 247 + 3) _))) $$ Ho2
        iexact H
      isplitl [Ho3]
      · ihave H := (Entails.of_eq ((chunk_done m d L 251 (by decide) (off := k0_off38 L 502#32) (h := k0_off38_inb L 1) (e_off38_502 L) _ _ hKC2 _ (congrArg (xval m d L) (by decide : gi (8 * 30 + 11) = (⟨251, by decide⟩ : Fin 256))) _ _ _ _ _ _ _ _ (fun C => ReadAs.same.apply (View.read (Elt F) (sB4).view C)) (fun _ => rfl)).trans (ocN_congr d L (by omega : 251 = 247 + 4) _))) $$ Ho3
        iexact H
      isplitl [Ho4]
      · ihave H := (Entails.of_eq ((chunk_done m d L 252 (by decide) (off := k0_off39 L 504#32) (h := k0_off39_inb L 1) (e_off39_504 L) _ _ hKC2 _ (congrArg (xval m d L) (by decide : gi (8 * 30 + 12) = (⟨252, by decide⟩ : Fin 256))) _ _ _ _ _ _ _ _ (fun C => ReadAs.same.apply (View.read (Elt F) (sB5).view C)) (fun _ => rfl)).trans (ocN_congr d L (by omega : 252 = 247 + 5) _))) $$ Ho4
        iexact H
      isplitl [Ho5]
      · ihave H := (Entails.of_eq ((chunk_done m d L 253 (by decide) (off := k0_off40 L 506#32) (h := k0_off40_inb L 1) (e_off40_506 L) _ _ hKC2 _ (congrArg (xval m d L) (by decide : gi (8 * 30 + 13) = (⟨253, by decide⟩ : Fin 256))) _ _ _ _ _ _ _ _ (fun C => ReadAs.same.apply (View.read (Elt F) (sB6).view C)) (fun _ => rfl)).trans (ocN_congr d L (by omega : 253 = 247 + 6) _))) $$ Ho5
        iexact H
      isplitl [Ho6]
      · ihave H := (Entails.of_eq ((chunk_done m d L 254 (by decide) (off := k0_off41 L 508#32) (h := k0_off41_inb L 1) (e_off41_508 L) _ _ hKC2 _ (congrArg (xval m d L) (by decide : gi (8 * 30 + 14) = (⟨254, by decide⟩ : Fin 256))) _ _ _ _ _ _ _ _ (fun C => ReadAs.same.apply (View.read (Elt F) (sB7).view C)) (fun _ => rfl)).trans (ocN_congr d L (by omega : 254 = 247 + 7) _))) $$ Ho6
        iexact H
      · ihave H := (Entails.of_eq ((chunk_done m d L 255 (by decide) (off := k0_off42 L 510#32) (h := k0_off42_inb L 1) (e_off42_510 L) _ _ hKC2 _ (wrX8 m d L _ 255 (by decide) (off := k0_off35 L 510#32) (h := k0_off35_inb L 2) (e_off35_510 L)) _ _ _ _ _ _ _ _ (fun C => ReadAs.same.apply (View.read (Elt F) (sB8).view C)) (fun _ => rfl)).trans (ocN_congr d L (by omega : 255 = 247 + 8) _))) $$ Ho7
        iexact H
  isplitl [HsK Hf0_dst Hf1_dst Hf2_dst Hf3_dst Hf4_dst Hf5_dst Hf6_dst Hfw_src Hbufs]
  · isplitl [HsK]
    · iexists _; iapply (Entails.of_eq (pts_b (F := F) cc0_scratch0 d L _ _).symm); iexact HsK
    isplitl [Hf0_dst]
    · iexists _; iapply (Entails.of_eq (pts_b (F := F) cc0_scratch1 d L _ _).symm); iexact Hf0_dst
    isplitl [Hf1_dst]
    · iexists _; iapply (Entails.of_eq (pts_b (F := F) cc0_scratch2 d L _ _).symm); iexact Hf1_dst
    isplitl [Hf2_dst]
    · iexists _; iapply (Entails.of_eq (pts_b (F := F) cc0_scratch3 d L _ _).symm); iexact Hf2_dst
    isplitl [Hf3_dst]
    · iexists _; iapply (Entails.of_eq (pts_b (F := F) cc0_scratch4 d L _ _).symm); iexact Hf3_dst
    isplitl [Hf4_dst]
    · iexists _; iapply (Entails.of_eq (pts_b (F := F) cc0_scratch5 d L _ _).symm); iexact Hf4_dst
    isplitl [Hf5_dst]
    · iexists _; iapply (Entails.of_eq (pts_b (F := F) cc0_scratch6 d L _ _).symm); iexact Hf5_dst
    isplitl [Hf6_dst]
    · iexists _; iapply (Entails.of_eq (pts_b (F := F) cc0_scratch7 d L _ _).symm); iexact Hf6_dst
    isplitl [Hfw_src]
    · iexists _; iapply (Entails.of_eq (pts_b (F := F) cc0_scratch8 d L _ _).symm); iexact Hfw_src
    iexact Hbufs
  isplitl [Hs0 Hf0 Hf1 Hf2 Hf3 Hf4 Hf5 Hf6 Hr7 Hw0 Hw1 Hw2 Hw3 Hw4 Hw5 Hw6 Hfw Hsems]
  · isplitl [Hs0]; · iexact Hs0
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hr7]; · iexact Hr7
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hfw]; · iexact Hfw
    iexact Hsems
  iexists _; isplitr; swap
  · iexact HO
  · ipureintro; intro p hp
    iterate 40 (first | (rcases Finset.mem_insert.mp hp with rfl | hp; · exact .inr rfl) | skip)
    exact hW' p hp

end Cert.Proof.KI

end
-- ==== Proof.ObligI.lean ====
/-
  The tiles' obligation to the launch: the body table's row for a vector subcore is the kernel at that subcore's
  coordinates, and the tile's go and taskDone payloads are its operands before and after.
-/
import proofs.«218967_g49014166782275_cont_8to1_c_257_31_alg».proof.Proof.BodyI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S16384x4096 EltTy.f32)
local notation "kW" => (Memref.whole Cert.KernelIdeal.main_arg1_scv : Memref Cert.KernelIdeal.sig Kind.scVector Space.hbm Cert.KernelIdeal.S64 EltTy.i32)
local notation "oW" => (Memref.whole Cert.KernelIdeal.main_v0_scv : Memref Cert.KernelIdeal.sig Kind.scVector Space.hbm Cert.KernelIdeal.S16384x4096 EltTy.f32)

variable [FloatOps F]

local notation "sK" => (Memref.whole Cert.KernelIdeal.cc0_scratch0 : Memref Cert.KernelIdeal.sig Kind.scVector Space.vmem Cert.KernelIdeal.S64 EltTy.i32)
local notation "sB1" => (Memref.whole Cert.KernelIdeal.cc0_scratch1 : Memref Cert.KernelIdeal.sig Kind.scVector Space.vmem Cert.KernelIdeal.S2x4096 EltTy.f32)
local notation "sB2" => (Memref.whole Cert.KernelIdeal.cc0_scratch2 : Memref Cert.KernelIdeal.sig Kind.scVector Space.vmem Cert.KernelIdeal.S2x4096 EltTy.f32)
local notation "sB3" => (Memref.whole Cert.KernelIdeal.cc0_scratch3 : Memref Cert.KernelIdeal.sig Kind.scVector Space.vmem Cert.KernelIdeal.S2x4096 EltTy.f32)
local notation "sB4" => (Memref.whole Cert.KernelIdeal.cc0_scratch4 : Memref Cert.KernelIdeal.sig Kind.scVector Space.vmem Cert.KernelIdeal.S2x4096 EltTy.f32)
local notation "sB5" => (Memref.whole Cert.KernelIdeal.cc0_scratch5 : Memref Cert.KernelIdeal.sig Kind.scVector Space.vmem Cert.KernelIdeal.S2x4096 EltTy.f32)
local notation "sB6" => (Memref.whole Cert.KernelIdeal.cc0_scratch6 : Memref Cert.KernelIdeal.sig Kind.scVector Space.vmem Cert.KernelIdeal.S2x4096 EltTy.f32)
local notation "sB7" => (Memref.whole Cert.KernelIdeal.cc0_scratch7 : Memref Cert.KernelIdeal.sig Kind.scVector Space.vmem Cert.KernelIdeal.S2x4096 EltTy.f32)
local notation "sB8" => (Memref.whole Cert.KernelIdeal.cc0_scratch8 : Memref Cert.KernelIdeal.sig Kind.scVector Space.vmem Cert.KernelIdeal.S2x4096 EltTy.f32)

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row for a vector subcore: the kernel at the subcore's grid point, over the whole arrays and
    the tile's own scratch buffers and semaphores, when the grid holds that subcore. -/
theorem defs₀_vector (c : Fin τ.nSC) (s : Fin τ.nSub) :
    defs₀ (F := F) (.scVector c s) 0 ()
      = SparseCore.onTile hcore0 hsub0 (fun c s => cc0__sc_body (coordsV c s) xW (Memref.isWhole_whole _) kW (Memref.isWhole_whole _) oW (Memref.isWhole_whole _)
          sK (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _)
          cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0) ⟨⟩ c s := rfl

omit [FloatOps F] in
/-- The body leaves only waits it was handed or waits of no call; the launch allows, beside those, waits of call `q`. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro
    intro p hp
    rcases hW' p hp with h | h
    · exact Or.inl h
    · exact Or.inr (Or.inl h)
  · iexact HO

/-- What the launch theorem asks of every tile, from the list's entries being column numbers. -/
theorem tileObl (hk : ∀ d : Dev nD, MaskOK (m (kLoc d))) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  -- the tile's payloads, spelt out: its operands before and after
  unfold P; dsimp only
  exact (tile_body m facts d (coordsV ⟨_, hc.1⟩ ⟨_, hc.2⟩) (hk d) O W hO).trans (wp_mono frame _ _ fun _ => obl_post)

end Cert.Proof.KI

end
-- ==== Proof.ResB.lean ====
/-
  The launch set-up of the program and what its threads hand one another. The device has two SparseCores of sixteen
  tiles; tile `s` of core `c` owns the 512 rows of the arrays from row `1024 s + 512 c`, and works through them in
  256 chunks of two rows. A chunk is named by its number `n = 512 s + 256 c + g` among all 8192 chunks: it is the set
  of entries whose row, halved, is `n`. Each tile is handed a read share of the input and of the list, and its 256
  chunks of the result outright; it hands the shares back unchanged and the chunks holding the input with the listed
  columns zeroed.
-/
import proofs.«218967_g49014166782275_cont_8to1_c_257_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218967_g49014166782275_cont_8to1_c_257_31_alg».proof.Proof.Gen.Kernel
import proofs.«218967_g49014166782275_cont_8to1_c_257_31_alg».proof.Proof.Gen.Kernel.Skeleton
import proofs.«218967_g49014166782275_cont_8to1_c_257_31_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec (MaskOK zeroCols zeroF)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)
local notation "sK" => (Memref.whole Cert.Kernel.cc0_scratch0 : Memref Cert.Kernel.sig Kind.scVector Space.vmem Cert.Kernel.S64 EltTy.i32)
local notation "sB1" => (Memref.whole Cert.Kernel.cc0_scratch1 : Memref Cert.Kernel.sig Kind.scVector Space.vmem Cert.Kernel.S2x4096 EltTy.f32)
local notation "sB2" => (Memref.whole Cert.Kernel.cc0_scratch2 : Memref Cert.Kernel.sig Kind.scVector Space.vmem Cert.Kernel.S2x4096 EltTy.f32)
local notation "sB3" => (Memref.whole Cert.Kernel.cc0_scratch3 : Memref Cert.Kernel.sig Kind.scVector Space.vmem Cert.Kernel.S2x4096 EltTy.f32)
local notation "sB4" => (Memref.whole Cert.Kernel.cc0_scratch4 : Memref Cert.Kernel.sig Kind.scVector Space.vmem Cert.Kernel.S2x4096 EltTy.f32)
local notation "sB5" => (Memref.whole Cert.Kernel.cc0_scratch5 : Memref Cert.Kernel.sig Kind.scVector Space.vmem Cert.Kernel.S2x4096 EltTy.f32)
local notation "sB6" => (Memref.whole Cert.Kernel.cc0_scratch6 : Memref Cert.Kernel.sig Kind.scVector Space.vmem Cert.Kernel.S2x4096 EltTy.f32)
local notation "sB7" => (Memref.whole Cert.Kernel.cc0_scratch7 : Memref Cert.Kernel.sig Kind.scVector Space.vmem Cert.Kernel.S2x4096 EltTy.f32)
local notation "sB8" => (Memref.whole Cert.Kernel.cc0_scratch8 : Memref Cert.Kernel.sig Kind.scVector Space.vmem Cert.Kernel.S2x4096 EltTy.f32)

abbrev xLoc (d : Dev nD) : Loc nD τ sig := (SparseCore.T d).loc main_arg0
abbrev kLoc (d : Dev nD) : Loc nD τ sig := (SparseCore.T d).loc main_arg1
abbrev oLoc (d : Dev nD) : Loc nD τ sig := (SparseCore.T d).loc main_v0

variable [FloatOps F]

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Chunks -/

/-- The chunk number of an entry: its row halved. -/
def chunkOf (j : S16384x4096.Idx) : ℕ := (j 0).val / 2

/-- Chunk `n`: the entries of rows `2 n` and `2 n + 1`. -/
def chunkSet (n : ℕ) : Finset S16384x4096.Idx := Finset.univ.filter fun j => chunkOf j = n

/-- The number of chunk `g` of tile `s` of core `c`. -/
def chunkNo (c s g : ℕ) : ℕ := 512 * s + 256 * c + g

/-- The read share of tile `s` of core `c`: token `16 c + s` of the full share. -/
def tileTok (c s : ℕ) : PosShare TreeShare := Transfers.shareTokN fullShare (16 * c + s)

/-- What the program leaves in the result: the input with the listed columns zeroed. -/
def Zbuf (d : Dev nD) : Buf (Elt F) (oLoc d) := zeroCols (F := F) (m (xLoc d)) (m (kLoc d))

/-! ## What the handshakes carry -/

/-- A tile's operands: its read shares of the input and the list, its chunks of the result at the contents `f`. -/
def tilePay (d : Dev nD) (c s : ℕ) (f : Buf (Elt F) (oLoc d)) : sProp 𝕄 :=
  iprop((xLoc d ↦{tileTok c s} m (xLoc d)) ∗ (kLoc d ↦{tileTok c s} m (kLoc d))
    ∗ bigSep (Finset.univ : Finset (Fin 256)) fun g => oLoc d ↦[chunkSet (chunkNo c s g.val)]{fullShare} f)

/-- The one call: each core's start payload is its tiles' operands with the result at its launch contents, its done
    payload the same with the result at `Zbuf`; a tile's go and taskDone payloads are its own. -/
def P : (K (F := F)).Pay (nD := nD) (Val := Elt F) (Name := ℕ) (U := UU) where
  st := fun _ d c => bigSep (Finset.univ : Finset (Fin ((K (F := F)).nSub 0))) fun i => tilePay m d c.val i.val (m (oLoc d))
  dn := fun _ d c => bigSep (Finset.univ : Finset (Fin ((K (F := F)).nSub 0))) fun i => tilePay m d c.val i.val (Zbuf m d)
  go := fun _ d c i => tilePay m d c.val i.val (m (oLoc d))
  td := fun _ d c i => tilePay m d c.val i.val (Zbuf m d)
  x := fun _ _ => iprop(emp)

instance P_storable : (P (F := F) m).IsStorable where
  st _ d c := by unfold P tilePay; infer_instance
  dn _ d c := by unfold P tilePay; infer_instance
  go _ d c i := by unfold P tilePay; infer_instance
  td _ d c i := by unfold P tilePay; infer_instance

/-- What the claim reads off the final memory: the result at `Zbuf`, the two arguments unchanged. -/
def QC : PUnit × MemSt nD τ sig (Elt F) → Prop := fun r =>
  ∀ c : Dev nD, r.2.mem (oLoc c) = Zbuf m c ∧ r.2.mem (xLoc c) = m (xLoc c) ∧ r.2.mem (kLoc c) = m (kLoc c)

end Cert.Proof.KB

end
-- ==== Proof.LaunchB.lean ====
/-
  The launch. @main on the TensorCore holds the three arrays whole; it cuts the input and the list into read shares,
  one per tile, and the result into its 8192 chunks, starts both SparseCores with them, and on their return joins the
  shares and the chunks again: the input and the list as they were, the result one array holding the input with the
  listed columns zeroed (every chunk came back at that one function, and the chunks are pairwise disjoint and cover the
  array, a chunk being a fibre of "row halved").
-/
import proofs.«218967_g49014166782275_cont_8to1_c_257_31_alg».proof.Proof.ResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

/-! ## Read shares, one per tile -/

/-- An array held whole is the remainder after 32 read shares together with the 32 shares, share `16 c + i` being that
    of tile `i` of core `c`. -/
theorem shares_cut (ℓ : Loc nD τ sig) (f : Buf (Elt F) ℓ) :
    (ℓ ↦{fullShare} f : sProp 𝕄) ⊣⊢ iprop((ℓ ↦{Transfers.shareDrop fullShare 32} f)
      ∗ bigSep Finset.univ fun c : Fin 2 => bigSep Finset.univ fun i : Fin 16 => ℓ ↦{tileTok c.val i.val} f) := by
  have e : (bigSep Finset.univ fun c : Fin 2 => bigSep Finset.univ fun i : Fin 16 => (ℓ ↦{tileTok c.val i.val} f : sProp 𝕄))
      = bigSep Finset.univ fun t : Fin 32 => ℓ ↦{Transfers.shareTok fullShare 32 t} f := by
    rw [bigSep_univ_equiv (finProdFinEquiv : Fin 2 × Fin 16 ≃ Fin 32) (fun t : Fin 32 => (ℓ ↦{Transfers.shareTok fullShare 32 t} f : sProp 𝕄)),
      bigSep_univ_prod]
    refine bigSep_congr fun c _ => bigSep_congr fun i _ => ?_
    show _ = (ℓ ↦{Transfers.shareTokN fullShare (i.val + 16 * c.val)} f : sProp 𝕄)
    unfold tileTok; rw [Nat.add_comm]
  rw [e]
  exact Transfers.pointsTo_toks fullShare 32

/-! ## The result's chunks -/

/-- A chunk's number determines its core, tile and place. -/
theorem chunkNo_inj {c s g c' s' g' : ℕ} (hc : c < 2) (hg : g < 256) (hc' : c' < 2) (hg' : g' < 256)
    (h : chunkNo c s g = chunkNo c' s' g') : c = c' ∧ s = s' ∧ g = g' := by
  unfold chunkNo at h; omega

/-- The chunk of place `g` of tile `s` of core `c`, the three as one index. -/
def triSet (t : Fin 2 × Fin 16 × Fin 256) : Finset S16384x4096.Idx := chunkSet (chunkNo t.1.val t.2.1.val t.2.2.val)

/-- Chunks of different numbers share no entry: a chunk is a fibre of "row halved". -/
theorem tri_disjoint : ∀ t ∈ (Finset.univ : Finset (Fin 2 × Fin 16 × Fin 256)), ∀ t' ∈ (Finset.univ : Finset (Fin 2 × Fin 16 × Fin 256)),
    t ≠ t' → Disjoint (triSet t) (triSet t') := by
  rintro ⟨c, s, g⟩ - ⟨c', s', g'⟩ - hne
  unfold triSet chunkSet
  refine Finset.disjoint_filter.mpr fun j _ h1 h2 => hne ?_
  obtain ⟨e1, e2, e3⟩ := chunkNo_inj c.isLt g.isLt c'.isLt g'.isLt (h1.symm.trans h2)
  exact Prod.ext (Fin.ext e1) (Prod.ext (Fin.ext e2) (Fin.ext e3))

/-- Every entry is in some chunk: its row halved is below 8192, and every such number is `512 s + 256 c + g`. -/
theorem tri_cover : (Finset.univ : Finset (Fin 2 × Fin 16 × Fin 256)).biUnion triSet = Finset.univ := by
  apply Finset.eq_univ_of_forall
  intro j
  rw [Finset.mem_biUnion]
  have hj : (j 0).val < 16384 := (j 0).isLt
  have hn : chunkOf j < 8192 := by unfold chunkOf; omega
  refine ⟨(⟨(chunkOf j / 256) % 2, by omega⟩, ⟨chunkOf j / 512, by omega⟩, ⟨chunkOf j % 256, by omega⟩), Finset.mem_univ _, ?_⟩
  unfold triSet chunkSet
  refine Finset.mem_filter.mpr ⟨Finset.mem_univ _, ?_⟩
  show chunkOf j = chunkNo ((chunkOf j / 256) % 2) (chunkOf j / 512) (chunkOf j % 256)
  unfold chunkNo; omega

/-- The result held whole is its 8192 chunks, by core, tile and place. -/
theorem chunks_cut (d : Dev nD) (f : Buf (Elt F) (oLoc d)) :
    (oLoc d ↦{fullShare} f : sProp 𝕄) = bigSep Finset.univ fun c : Fin 2 => bigSep Finset.univ fun s : Fin 16 =>
      bigSep Finset.univ fun g : Fin 256 => oLoc d ↦[chunkSet (chunkNo c.val s.val g.val)]{fullShare} f := by
  have h : (oLoc d ↦{fullShare} f : sProp 𝕄) = bigSep Finset.univ fun t : Fin 2 × Fin 16 × Fin 256 => oLoc d ↦[triSet t]{fullShare} f := by
    rw [← pointsTo_biUnion Finset.univ (ℓ := oLoc d) triSet tri_disjoint, tri_cover]
  rw [h, bigSep_univ_prod]
  refine bigSep_congr fun c _ => ?_
  rw [bigSep_univ_prod]; rfl

/-! ## The three arrays, cut for the call and joined after it -/

/-- The input and the list held whole and the result held whole at `f` are: the two remainders of the read shares, and
    for every tile its two read shares and its chunks of the result at `f`. -/
theorem arrays_cut (d : Dev nD) (f : Buf (Elt F) (oLoc d)) :
    iprop((xLoc d ↦{fullShare} m (xLoc d)) ∗ (kLoc d ↦{fullShare} m (kLoc d)) ∗ oLoc d ↦{fullShare} f)
      ⊣⊢ iprop(((xLoc d ↦{Transfers.shareDrop fullShare 32} m (xLoc d)) ∗ (kLoc d ↦{Transfers.shareDrop fullShare 32} m (kLoc d)))
        ∗ bigSep Finset.univ fun c : Fin 2 => bigSep Finset.univ fun i : Fin 16 => tilePay m d c.val i.val f) := by
  unfold tilePay
  simp only [bigSep_sep']
  rw [chunks_cut d f]
  constructor
  · iintro ⟨Hx, Hk, Ho⟩
    ihave Hx' := (shares_cut (F := F) (xLoc d) (m (xLoc d))).1 $$ Hx
    ihave Hk' := (shares_cut (F := F) (kLoc d) (m (kLoc d))).1 $$ Hk
    icases Hx' with ⟨Rx, Tx⟩
    icases Hk' with ⟨Rk, Tk⟩
    isplitl [Rx Rk]; · isplitl [Rx] <;> iassumption
    isplitl [Tx]; · iexact Tx
    isplitl [Tk]; · iexact Tk
    iexact Ho
  · iintro ⟨⟨Rx, Rk⟩, Tx, Tk, Ho⟩
    isplitl [Rx Tx]
    · iapply (shares_cut (F := F) (xLoc d) (m (xLoc d))).2
      isplitl [Rx] <;> iassumption
    isplitl [Rk Tk]
    · iapply (shares_cut (F := F) (kLoc d) (m (kLoc d))).2
      isplitl [Rk] <;> iassumption
    iexact Ho

omit [FloatOps F] in
/-- What is handed on whole comes back whole. -/
theorem keep_and_return (A B : sProp 𝕄) : A ⊢ |={Set.univ}=> iprop(A ∗ (B -∗ B)) := by
  iintro H; imodintro
  isplitl [H]; · iexact H
  iintro H; iexact H

/-- A core's operands are its tiles' operands, and its results theirs: nothing to regroup. -/
theorem vecSplit : (K (F := F)).VecSplit' (P m) 0 := by
  intro d c
  unfold P; dsimp only
  exact keep_and_return _ _

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (kLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two cores, and what it hands back: every tile's operands. -/
theorem st0_eq (d : Dev nD) : (bigSep Finset.univ fun c : Fin ((K (F := F)).nCore 0) => (P m).st 0 d c)
    = bigSep Finset.univ fun c : Fin 2 => bigSep Finset.univ fun i : Fin 16 => tilePay m d c.val i.val (m (oLoc d)) := by
  unfold P; dsimp only
theorem dn0_eq (d : Dev nD) : (bigSep Finset.univ fun c : Fin ((K (F := F)).nCore 0) => (P m).dn 0 d c)
    = bigSep Finset.univ fun c : Fin 2 => bigSep Finset.univ fun i : Fin 16 => tilePay m d c.val i.val (Zbuf m d) := by
  unfold P; dsimp only

/-- What @main leaves the claim: the two arguments at their launch contents, the result at `Zbuf`. -/
abbrev FIN (d : Dev nD) : sProp 𝕄 :=
  iprop((xLoc d ↦{fullShare} m (xLoc d)) ∗ (kLoc d ↦{fullShare} m (kLoc d)) ∗ oLoc d ↦{fullShare} Zbuf m d)

/-- @main on device `d`'s TensorCore: the arrays cut, the one call, the arrays joined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨-, Harr, -, -⟩, -⟩
  ihave Hcut := (arrays_cut m d (m (oLoc d))).1 $$ Harr
  icases Hcut with ⟨Hrem, Hpay⟩
  iapply ((K (F := F)).wp_run (D (F := F)) 𝒱 (EH := EH) (P := P m) κ d 0) $$ [Hst Hpay Hrem]
  isplitr; · iexact Hctx
  isplitl [Hst]; · iexact Hst
  isplitl [Hpay]; · rw [st0_eq]; iexact Hpay
  iintro ⟨Hst, Hdn⟩
  ihave Hdn' := (Entails.of_eq (dn0_eq m d)) $$ Hdn
  ihave Hfin := (arrays_cut m d (Zbuf m d)).2 $$ [Hrem Hdn']
  · isplitl [Hrem] <;> iassumption
  imodintro
  isplitl [Hst]; · iexact Hst
  iexact Hfin

def fq (d : Dev nD) (s' : Phys nD τ sig (Elt F)) : Prop :=
  s'.mem.mem (oLoc d) = Zbuf m d ∧ s'.mem.mem (xLoc d) = m (xLoc d) ∧ s'.mem.mem (kLoc d) = m (kLoc d)

theorem hfin (d : Dev nD) (s' : Phys nD τ sig (Elt F)) : iprop(FIN m d ∗ SI s') ⊢ (⌜fq m d s'⌝ : sProp 𝕄) := by
  iintro ⟨⟨Hx, Hk, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (SI_pointsTo_agree (st := s') (ℓ := oLoc d) (I := Finset.univ) (q := fullShare) (f := Zbuf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- The program's run, from the tiles' obligation: every weakly fair execution of the device's threads terminates,
    nothing faulting, the result at `Zbuf`, the arguments unchanged. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.GeoB.lean ====
/-
  A tile's chunks as rectangles of the arrays. Tile `(L 0, L 1)` (core, subcore) owns the 512 rows from row
  `1024 (L 1) + 512 (L 0)`; its chunk `g` is the two rows from `1024 (L 1) + 512 (L 0) + 2 g`, all 4096 columns. The
  program computes a chunk's first row as a 32-bit word, base plus `2 g`; nothing wraps, so the word is that number.
  As a set of entries the chunk is the fibre of "row halved" over `512 (L 1) + 256 (L 0) + g`.
-/
import proofs.«218967_g49014166782275_cont_8to1_c_257_31_alg».proof.Proof.ResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

/-- The first entry of chunk `g` of tile `L`: row `1024 (L 1) + 512 (L 0) + 2 g`, column 0. -/
def rowOffs (L : grid0.Coords) (g : ℕ) : Fin 2 → ℕ := ![1024 * (L 1).val + 512 * (L 0).val + 2 * g, 0]

omit [FloatOps F] in
theorem rowOffs_inb (L : grid0.Coords) (g : ℕ) (hg : g < 256) : ∀ a, rowOffs L g a + S2x4096.size a ≤ S16384x4096.size a := by
  have h0 : (L 0).val < 2 := (L 0).isLt
  have h1 : (L 1).val < 16 := (L 1).isLt
  refine Fin.forall_fin_two.mpr ⟨?_, ?_⟩
  · show 1024 * (L 1).val + 512 * (L 0).val + 2 * g + 2 ≤ 16384
    omega
  · show 0 + 4096 ≤ 4096
    omega

/-- Chunk `g` of tile `L` as a rectangle: two whole rows. -/
abbrev cRect (L : grid0.Coords) (g : Fin 256) : Rect S16384x4096 := Rect.unit (s := S16384x4096) (rowOffs L g.val) S2x4096.size (rowOffs_inb L g.val g.isLt)

/-- Chunk `g` of the input and of the result, as the tile's thread slices them. -/
abbrev xCh (L : grid0.Coords) (g : Fin 256) : Memref sig .scVector .hbm S2x4096 .f32 := (xW).slice (cRect L g) (fun _ => rfl)
abbrev oCh (L : grid0.Coords) (g : Fin 256) : Memref sig .scVector .hbm S2x4096 .f32 := (oW).slice (cRect L g) (fun _ => rfl)

omit [FloatOps F] in
/-- Two rectangles of the same sizes at equal offsets are one rectangle. -/
theorem rect_unit_congr {o o' : Fin 2 → ℕ} (e : o = o') (h : ∀ a, o a + S2x4096.size a ≤ S16384x4096.size a)
    (h' : ∀ a, o' a + S2x4096.size a ≤ S16384x4096.size a) :
    Rect.unit (s := S16384x4096) o S2x4096.size h = Rect.unit (s := S16384x4096) o' S2x4096.size h' := by
  subst e; rfl

omit [FloatOps F] in
/-- The program's word arithmetic for a chunk's first row does not wrap: base plus `2 g`, for every tile and every chunk.
    (`k0_off1` is the offset function of the unrolled accesses; `k0_off2` … `k0_off9` and `k0_off35` … `k0_off42` are the
    same function, by definition.) -/
theorem off_eq : ∀ (L : grid0.Coords) (g : Fin 256), k0_off1 L (BitVec.ofNat 32 (2 * g.val)) = rowOffs L g.val := by
  intro L g
  have h0 : (L 0).val < 2 := (L 0).isLt
  have h1 : (L 1).val < 16 := (L 1).isLt
  have hg : g.val < 256 := g.isLt
  -- the word, read as a number: every product and sum stays below 2 ^ 32
  have hw : ((BitVec.ofNat 32 (L 1).val * 2#32 + BitVec.ofNat 32 (L 0).val) * 512#32 + BitVec.ofNat 32 (2 * g.val)).toNat
      = 1024 * (L 1).val + 512 * (L 0).val + 2 * g.val := by
    simp only [BitVec.toNat_add, BitVec.toNat_mul, BitVec.toNat_ofNat, Nat.reducePow]
    omega
  show ![((BitVec.ofNat 32 (L 1).val * 2#32 + BitVec.ofNat 32 (L 0).val) * 512#32 + BitVec.ofNat 32 (2 * g.val)).toNat, 0]
      = ![1024 * (L 1).val + 512 * (L 0).val + 2 * g.val, 0]
  rw [hw]

omit [FloatOps F] in
/-- The chunk's rectangle, as a set of entries: an entry lies in rows `2 n`, `2 n + 1` exactly when its row halved
    is `n`; the chunk's first row is `2 (512 (L 1) + 256 (L 0) + g)`, and its columns are all of them. -/
theorem cRect_set (L : grid0.Coords) (g : Fin 256) : (cRect L g).set = chunkSet (chunkNo (L 0).val (L 1).val g.val) := by
  have h0 : (L 0).val < 2 := (L 0).isLt
  have h1 : (L 1).val < 16 := (L 1).isLt
  have hg : g.val < 256 := g.isLt
  ext j
  have hj1 : (j 1).val < 4096 := (j 1).isLt
  rw [Rect.mem_set_unit]
  rw [chunkSet, Finset.mem_filter]
  simp only [chunkOf, chunkNo, Finset.mem_univ, true_and]
  constructor
  · intro h
    have ha : 1024 * (L 1).val + 512 * (L 0).val + 2 * g.val ≤ (j 0).val
        ∧ (j 0).val < 1024 * (L 1).val + 512 * (L 0).val + 2 * g.val + 2 := h 0
    omega
  · intro h
    refine Fin.forall_fin_two.mpr ⟨?_, ?_⟩
    · show 1024 * (L 1).val + 512 * (L 0).val + 2 * g.val ≤ (j 0).val
        ∧ (j 0).val < 1024 * (L 1).val + 512 * (L 0).val + 2 * g.val + 2
      omega
    · show 0 ≤ (j 1).val ∧ (j 1).val < 0 + 4096
      omega

omit [FloatOps F] in
/-- A chunk of the result, as a set of entries, is the fibre of "row halved" over its number (ResI's `chunkSet`,
    `chunkNo`). The same for the input's chunk: the two arrays have one shape. -/
theorem set_oCh (L : grid0.Coords) (g : Fin 256) : (oCh L g).view.set = chunkSet (chunkNo (L 0).val (L 1).val g.val) := by
  show ((View.whole (main_v0_scv : Ref sig .scVector)).slice (cRect L g)).set = _
  rw [View.set_slice, ← cRect_set]; exact Finset.map_refl
omit [FloatOps F] in
theorem set_xCh (L : grid0.Coords) (g : Fin 256) : (xCh L g).view.set = chunkSet (chunkNo (L 0).val (L 1).val g.val) := by
  show ((View.whole (main_arg0_scv : Ref sig .scVector)).slice (cRect L g)).set = _
  rw [View.set_slice, ← cRect_set]; exact Finset.map_refl

omit [FloatOps F] in
/-- Entry `y` of a chunk, in the array: row `2 n + y 0` for the chunk's first row `2 n`, column `y 1`. -/
theorem emb_oCh (L : grid0.Coords) (g : Fin 256) (y : S2x4096.Idx) :
    ((oCh L g).view.emb y 0).val = 1024 * (L 1).val + 512 * (L 0).val + 2 * g.val + (y 0).val ∧ ((oCh L g).view.emb y 1).val = (y 1).val := by
  -- a slice of a whole array places entry `y` at offset plus (unit stride times) coordinate, axis by axis
  constructor
  · show 1024 * (L 1).val + 512 * (L 0).val + 2 * g.val + 1 * (y 0).val = 1024 * (L 1).val + 512 * (L 0).val + 2 * g.val + (y 0).val
    omega
  · show 0 + 1 * (y 1).val = (y 1).val
    omega
omit [FloatOps F] in
theorem emb_xCh (L : grid0.Coords) (g : Fin 256) (y : S2x4096.Idx) : (xCh L g).view.emb y = (oCh L g).view.emb y := by
  -- both are the one rectangle's placement in arrays of one shape
  rfl

omit [FloatOps F] in
/-- A chunk of the result held as the thread slices it is the chunk held by its set of entries (ResI's spelling). -/
theorem pts_oCh (d : Dev nD) (L : grid0.Coords) (g : Fin 256) (f : Buf (Elt F) (oLoc d)) :
    ((oCh L g).view.loc (thr d L) ↦[(oCh L g).view.set]{fullShare} f : sProp 𝕄)
      = (oLoc d ↦[chunkSet (chunkNo (L 0).val (L 1).val g.val)]{fullShare} f) := by
  rw [set_oCh]

end Cert.Proof.KB

end
-- ==== Proof.OffsB.lean ====
/-
  The program's spellings of a tile's chunks. Every access computes its chunk's first row as a word: base plus a
  constant in the unrolled stretches, base plus sixteen times the trip number plus a constant inside the loop. Each such
  spelling is the chunk of the canonical numbering: chunk `w / 2` for the constant word `w`, chunk `8 k + c` in trip `k`.
-/
import proofs.«218967_g49014166782275_cont_8to1_c_257_31_alg».proof.Proof.GeoB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

omit [FloatOps F] in
/-- A chunk number inside the loop stays below 256: there are at most 30 trips. -/
theorem lt8 (k : Fin k0_t1_loop.trips) (c : ℕ) (hc : c ≤ 23) : 8 * k.val + c < 256 := by
  have h1 : k0_t1_loop.trips ≤ 30 := k0_t1_abs.2.1
  have h2 : k.val < k0_t1_loop.trips := k.isLt
  omega

omit [FloatOps F] in
/-- A slice of the result at two whole rows whose first entry is that of chunk `g` is chunk `g`. -/
theorem o_slice_eq {L : grid0.Coords} {off : Fin 2 → ℕ} {g : ℕ} (hg : g < 256) (e : off = rowOffs L g)
    (h : ∀ a, off a + S2x4096.size a ≤ S16384x4096.size a) :
    (oW).slice (Rect.unit (s := S16384x4096) off S2x4096.size h) (fun _ => rfl) = oCh L ⟨g, hg⟩ := by
  subst e; rfl

omit [FloatOps F] in
/-- The same for the input. -/
theorem x_slice_eq {L : grid0.Coords} {off : Fin 2 → ℕ} {g : ℕ} (hg : g < 256) (e : off = rowOffs L g)
    (h : ∀ a, off a + S2x4096.size a ≤ S16384x4096.size a) :
    (xW).slice (Rect.unit (s := S16384x4096) off S2x4096.size h) (fun _ => rfl) = xCh L ⟨g, hg⟩ := by
  subst e; rfl

omit [FloatOps F] in
/-- Row `n`, column 0 is the first entry of chunk `g` of tile `L` when `n` is the tile's base row plus `2 g`. -/
theorem rowOffs_of (L : grid0.Coords) (g n : ℕ) (e : n = 1024 * (L 1).val + 512 * (L 0).val + 2 * g) :
    (![n, 0] : Fin 2 → ℕ) = rowOffs L g := by
  subst e; rfl

omit [FloatOps F] in
/-- The offset function of the unrolled accesses at the word `2 g`, spelt with `g` a number below 256. -/
theorem off_eq' (L : grid0.Coords) (g : ℕ) (hg : g < 256) : k0_off1 L (BitVec.ofNat 32 (2 * g)) = rowOffs L g :=
  off_eq L ⟨g, hg⟩

/-! ## The unrolled stretches -/

omit [FloatOps F] in
theorem o_off2_0 (L : grid0.Coords) :
    (oW).slice (Rect.unit (s := S16384x4096) (k0_off2 L 0#32) S2x4096.size (k0_off2_inb L 0)) (fun _ => rfl) = oCh L ⟨0, by decide⟩ :=
  o_slice_eq _ (show k0_off1 L (BitVec.ofNat 32 (2 * 0)) = rowOffs L 0 from off_eq' L 0 (by decide)) _

omit [FloatOps F] in
theorem o_off3_2 (L : grid0.Coords) :
    (oW).slice (Rect.unit (s := S16384x4096) (k0_off3 L 2#32) S2x4096.size (k0_off3_inb L 0)) (fun _ => rfl) = oCh L ⟨1, by decide⟩ :=
  o_slice_eq _ (show k0_off1 L (BitVec.ofNat 32 (2 * 1)) = rowOffs L 1 from off_eq' L 1 (by decide)) _

omit [FloatOps F] in
theorem o_off4_4 (L : grid0.Coords) :
    (oW).slice (Rect.unit (s := S16384x4096) (k0_off4 L 4#32) S2x4096.size (k0_off4_inb L 0)) (fun _ => rfl) = oCh L ⟨2, by decide⟩ :=
  o_slice_eq _ (show k0_off1 L (BitVec.ofNat 32 (2 * 2)) = rowOffs L 2 from off_eq' L 2 (by decide)) _

omit [FloatOps F] in
theorem o_off5_6 (L : grid0.Coords) :
    (oW).slice (Rect.unit (s := S16384x4096) (k0_off5 L 6#32) S2x4096.size (k0_off5_inb L 0)) (fun _ => rfl) = oCh L ⟨3, by decide⟩ :=
  o_slice_eq _ (show k0_off1 L (BitVec.ofNat 32 (2 * 3)) = rowOffs L 3 from off_eq' L 3 (by decide)) _

omit [FloatOps F] in
theorem o_off6_8 (L : grid0.Coords) :
    (oW).slice (Rect.unit (s := S16384x4096) (k0_off6 L 8#32) S2x4096.size (k0_off6_inb L 0)) (fun _ => rfl) = oCh L ⟨4, by decide⟩ :=
  o_slice_eq _ (show k0_off1 L (BitVec.ofNat 32 (2 * 4)) = rowOffs L 4 from off_eq' L 4 (by decide)) _

omit [FloatOps F] in
theorem o_off7_10 (L : grid0.Coords) :
    (oW).slice (Rect.unit (s := S16384x4096) (k0_off7 L 10#32) S2x4096.size (k0_off7_inb L 0)) (fun _ => rfl) = oCh L ⟨5, by decide⟩ :=
  o_slice_eq _ (show k0_off1 L (BitVec.ofNat 32 (2 * 5)) = rowOffs L 5 from off_eq' L 5 (by decide)) _

omit [FloatOps F] in
theorem o_off8_12 (L : grid0.Coords) :
    (oW).slice (Rect.unit (s := S16384x4096) (k0_off8 L 12#32) S2x4096.size (k0_off8_inb L 0)) (fun _ => rfl) = oCh L ⟨6, by decide⟩ :=
  o_slice_eq _ (show k0_off1 L (BitVec.ofNat 32 (2 * 6)) = rowOffs L 6 from off_eq' L 6 (by decide)) _

omit [FloatOps F] in
theorem o_off9_14 (L : grid0.Coords) :
    (oW).slice (Rect.unit (s := S16384x4096) (k0_off9 L 14#32) S2x4096.size (k0_off9_inb L 0)) (fun _ => rfl) = oCh L ⟨7, by decide⟩ :=
  o_slice_eq _ (show k0_off1 L (BitVec.ofNat 32 (2 * 7)) = rowOffs L 7 from off_eq' L 7 (by decide)) _

omit [FloatOps F] in
theorem o_off35_496 (L : grid0.Coords) :
    (oW).slice (Rect.unit (s := S16384x4096) (k0_off35 L 496#32) S2x4096.size (k0_off35_inb L 0)) (fun _ => rfl) = oCh L ⟨248, by decide⟩ :=
  o_slice_eq _ (show k0_off1 L (BitVec.ofNat 32 (2 * 248)) = rowOffs L 248 from off_eq' L 248 (by decide)) _

omit [FloatOps F] in
theorem o_off36_498 (L : grid0.Coords) :
    (oW).slice (Rect.unit (s := S16384x4096) (k0_off36 L 498#32) S2x4096.size (k0_off36_inb L 1)) (fun _ => rfl) = oCh L ⟨249, by decide⟩ :=
  o_slice_eq _ (show k0_off1 L (BitVec.ofNat 32 (2 * 249)) = rowOffs L 249 from off_eq' L 249 (by decide)) _

omit [FloatOps F] in
theorem o_off37_500 (L : grid0.Coords) :
    (oW).slice (Rect.unit (s := S16384x4096) (k0_off37 L 500#32) S2x4096.size (k0_off37_inb L 1)) (fun _ => rfl) = oCh L ⟨250, by decide⟩ :=
  o_slice_eq _ (show k0_off1 L (BitVec.ofNat 32 (2 * 250)) = rowOffs L 250 from off_eq' L 250 (by decide)) _

omit [FloatOps F] in
theorem o_off38_502 (L : grid0.Coords) :
    (oW).slice (Rect.unit (s := S16384x4096) (k0_off38 L 502#32) S2x4096.size (k0_off38_inb L 1)) (fun _ => rfl) = oCh L ⟨251, by decide⟩ :=
  o_slice_eq _ (show k0_off1 L (BitVec.ofNat 32 (2 * 251)) = rowOffs L 251 from off_eq' L 251 (by decide)) _

omit [FloatOps F] in
theorem o_off39_504 (L : grid0.Coords) :
    (oW).slice (Rect.unit (s := S16384x4096) (k0_off39 L 504#32) S2x4096.size (k0_off39_inb L 1)) (fun _ => rfl) = oCh L ⟨252, by decide⟩ :=
  o_slice_eq _ (show k0_off1 L (BitVec.ofNat 32 (2 * 252)) = rowOffs L 252 from off_eq' L 252 (by decide)) _

omit [FloatOps F] in
theorem o_off40_506 (L : grid0.Coords) :
    (oW).slice (Rect.unit (s := S16384x4096) (k0_off40 L 506#32) S2x4096.size (k0_off40_inb L 1)) (fun _ => rfl) = oCh L ⟨253, by decide⟩ :=
  o_slice_eq _ (show k0_off1 L (BitVec.ofNat 32 (2 * 253)) = rowOffs L 253 from off_eq' L 253 (by decide)) _

omit [FloatOps F] in
theorem o_off41_508 (L : grid0.Coords) :
    (oW).slice (Rect.unit (s := S16384x4096) (k0_off41 L 508#32) S2x4096.size (k0_off41_inb L 1)) (fun _ => rfl) = oCh L ⟨254, by decide⟩ :=
  o_slice_eq _ (show k0_off1 L (BitVec.ofNat 32 (2 * 254)) = rowOffs L 254 from off_eq' L 254 (by decide)) _

omit [FloatOps F] in
theorem o_off42_510 (L : grid0.Coords) :
    (oW).slice (Rect.unit (s := S16384x4096) (k0_off42 L 510#32) S2x4096.size (k0_off42_inb L 1)) (fun _ => rfl) = oCh L ⟨255, by decide⟩ :=
  o_slice_eq _ (show k0_off1 L (BitVec.ofNat 32 (2 * 255)) = rowOffs L 255 from off_eq' L 255 (by decide)) _

omit [FloatOps F] in
theorem x_off3_16 (L : grid0.Coords) :
    (xW).slice (Rect.unit (s := S16384x4096) (k0_off3 L 16#32) S2x4096.size (k0_off3_inb L 2)) (fun _ => rfl) = xCh L ⟨8, by decide⟩ :=
  x_slice_eq _ (show k0_off1 L (BitVec.ofNat 32 (2 * 8)) = rowOffs L 8 from off_eq' L 8 (by decide)) _

omit [FloatOps F] in
theorem x_off4_18 (L : grid0.Coords) :
    (xW).slice (Rect.unit (s := S16384x4096) (k0_off4 L 18#32) S2x4096.size (k0_off4_inb L 2)) (fun _ => rfl) = xCh L ⟨9, by decide⟩ :=
  x_slice_eq _ (show k0_off1 L (BitVec.ofNat 32 (2 * 9)) = rowOffs L 9 from off_eq' L 9 (by decide)) _

omit [FloatOps F] in
theorem x_off5_20 (L : grid0.Coords) :
    (xW).slice (Rect.unit (s := S16384x4096) (k0_off5 L 20#32) S2x4096.size (k0_off5_inb L 2)) (fun _ => rfl) = xCh L ⟨10, by decide⟩ :=
  x_slice_eq _ (show k0_off1 L (BitVec.ofNat 32 (2 * 10)) = rowOffs L 10 from off_eq' L 10 (by decide)) _

omit [FloatOps F] in
theorem x_off6_22 (L : grid0.Coords) :
    (xW).slice (Rect.unit (s := S16384x4096) (k0_off6 L 22#32) S2x4096.size (k0_off6_inb L 2)) (fun _ => rfl) = xCh L ⟨11, by decide⟩ :=
  x_slice_eq _ (show k0_off1 L (BitVec.ofNat 32 (2 * 11)) = rowOffs L 11 from off_eq' L 11 (by decide)) _

omit [FloatOps F] in
theorem x_off7_24 (L : grid0.Coords) :
    (xW).slice (Rect.unit (s := S16384x4096) (k0_off7 L 24#32) S2x4096.size (k0_off7_inb L 2)) (fun _ => rfl) = xCh L ⟨12, by decide⟩ :=
  x_slice_eq _ (show k0_off1 L (BitVec.ofNat 32 (2 * 12)) = rowOffs L 12 from off_eq' L 12 (by decide)) _

omit [FloatOps F] in
theorem x_off8_26 (L : grid0.Coords) :
    (xW).slice (Rect.unit (s := S16384x4096) (k0_off8 L 26#32) S2x4096.size (k0_off8_inb L 2)) (fun _ => rfl) = xCh L ⟨13, by decide⟩ :=
  x_slice_eq _ (show k0_off1 L (BitVec.ofNat 32 (2 * 13)) = rowOffs L 13 from off_eq' L 13 (by decide)) _

omit [FloatOps F] in
theorem x_off9_28 (L : grid0.Coords) :
    (xW).slice (Rect.unit (s := S16384x4096) (k0_off9 L 28#32) S2x4096.size (k0_off9_inb L 2)) (fun _ => rfl) = xCh L ⟨14, by decide⟩ :=
  x_slice_eq _ (show k0_off1 L (BitVec.ofNat 32 (2 * 14)) = rowOffs L 14 from off_eq' L 14 (by decide)) _

omit [FloatOps F] in
theorem x_off1_0 (L : grid0.Coords) :
    (xW).slice (Rect.unit (s := S16384x4096) (k0_off1 L 0#32) S2x4096.size (k0_off1_inb L 0)) (fun _ => rfl) = xCh L ⟨0, by decide⟩ :=
  x_slice_eq _ (show k0_off1 L (BitVec.ofNat 32 (2 * 0)) = rowOffs L 0 from off_eq' L 0 (by decide)) _

omit [FloatOps F] in
theorem x_off1_2 (L : grid0.Coords) :
    (xW).slice (Rect.unit (s := S16384x4096) (k0_off1 L 2#32) S2x4096.size (k0_off1_inb L 1)) (fun _ => rfl) = xCh L ⟨1, by decide⟩ :=
  x_slice_eq _ (show k0_off1 L (BitVec.ofNat 32 (2 * 1)) = rowOffs L 1 from off_eq' L 1 (by decide)) _

omit [FloatOps F] in
theorem x_off1_4 (L : grid0.Coords) :
    (xW).slice (Rect.unit (s := S16384x4096) (k0_off1 L 4#32) S2x4096.size (k0_off1_inb L 2)) (fun _ => rfl) = xCh L ⟨2, by decide⟩ :=
  x_slice_eq _ (show k0_off1 L (BitVec.ofNat 32 (2 * 2)) = rowOffs L 2 from off_eq' L 2 (by decide)) _

omit [FloatOps F] in
theorem x_off1_6 (L : grid0.Coords) :
    (xW).slice (Rect.unit (s := S16384x4096) (k0_off1 L 6#32) S2x4096.size (k0_off1_inb L 3)) (fun _ => rfl) = xCh L ⟨3, by decide⟩ :=
  x_slice_eq _ (show k0_off1 L (BitVec.ofNat 32 (2 * 3)) = rowOffs L 3 from off_eq' L 3 (by decide)) _

omit [FloatOps F] in
theorem x_off1_8 (L : grid0.Coords) :
    (xW).slice (Rect.unit (s := S16384x4096) (k0_off1 L 8#32) S2x4096.size (k0_off1_inb L 4)) (fun _ => rfl) = xCh L ⟨4, by decide⟩ :=
  x_slice_eq _ (show k0_off1 L (BitVec.ofNat 32 (2 * 4)) = rowOffs L 4 from off_eq' L 4 (by decide)) _

omit [FloatOps F] in
theorem x_off1_10 (L : grid0.Coords) :
    (xW).slice (Rect.unit (s := S16384x4096) (k0_off1 L 10#32) S2x4096.size (k0_off1_inb L 5)) (fun _ => rfl) = xCh L ⟨5, by decide⟩ :=
  x_slice_eq _ (show k0_off1 L (BitVec.ofNat 32 (2 * 5)) = rowOffs L 5 from off_eq' L 5 (by decide)) _

omit [FloatOps F] in
theorem x_off1_12 (L : grid0.Coords) :
    (xW).slice (Rect.unit (s := S16384x4096) (k0_off1 L 12#32) S2x4096.size (k0_off1_inb L 6)) (fun _ => rfl) = xCh L ⟨6, by decide⟩ :=
  x_slice_eq _ (show k0_off1 L (BitVec.ofNat 32 (2 * 6)) = rowOffs L 6 from off_eq' L 6 (by decide)) _

omit [FloatOps F] in
theorem x_off2_14 (L : grid0.Coords) :
    (xW).slice (Rect.unit (s := S16384x4096) (k0_off2 L 14#32) S2x4096.size (k0_off2_inb L 1)) (fun _ => rfl) = xCh L ⟨7, by decide⟩ :=
  x_slice_eq _ (show k0_off1 L (BitVec.ofNat 32 (2 * 7)) = rowOffs L 7 from off_eq' L 7 (by decide)) _

omit [FloatOps F] in
theorem x_off35_510 (L : grid0.Coords) :
    (xW).slice (Rect.unit (s := S16384x4096) (k0_off35 L 510#32) S2x4096.size (k0_off35_inb L 2)) (fun _ => rfl) = xCh L ⟨255, by decide⟩ :=
  x_slice_eq _ (show k0_off1 L (BitVec.ofNat 32 (2 * 255)) = rowOffs L 255 from off_eq' L 255 (by decide)) _

/-! ## The loop -/

omit [FloatOps F] in
theorem o_off11 (L : grid0.Coords) (k : Fin k0_t1_loop.trips) :
    (oW).slice (Rect.unit (s := S16384x4096) (k0_off11 L k 0#32) S2x4096.size (k0_off11_inb L k 0)) (fun _ => rfl) = oCh L ⟨8 * k.val + 8, lt8 k 8 (by decide)⟩ :=
  o_slice_eq _ ((k0_off11_eq L k ⟨0, by decide⟩).trans (rowOffs_of L _ _ (by dsimp only; omega))) _

omit [FloatOps F] in
theorem o_off14 (L : grid0.Coords) (k : Fin k0_t1_loop.trips) :
    (oW).slice (Rect.unit (s := S16384x4096) (k0_off14 L k 1#32) S2x4096.size (k0_off14_inb L k 0)) (fun _ => rfl) = oCh L ⟨8 * k.val + 9, lt8 k 9 (by decide)⟩ :=
  o_slice_eq _ ((k0_off14_eq L k ⟨0, by decide⟩).trans (rowOffs_of L _ _ (by dsimp only; omega))) _

omit [FloatOps F] in
theorem o_off17 (L : grid0.Coords) (k : Fin k0_t1_loop.trips) :
    (oW).slice (Rect.unit (s := S16384x4096) (k0_off17 L k 2#32) S2x4096.size (k0_off17_inb L k 0)) (fun _ => rfl) = oCh L ⟨8 * k.val + 10, lt8 k 10 (by decide)⟩ :=
  o_slice_eq _ ((k0_off17_eq L k ⟨0, by decide⟩).trans (rowOffs_of L _ _ (by dsimp only; omega))) _

omit [FloatOps F] in
theorem o_off20 (L : grid0.Coords) (k : Fin k0_t1_loop.trips) :
    (oW).slice (Rect.unit (s := S16384x4096) (k0_off20 L k 3#32) S2x4096.size (k0_off20_inb L k 0)) (fun _ => rfl) = oCh L ⟨8 * k.val + 11, lt8 k 11 (by decide)⟩ :=
  o_slice_eq _ ((k0_off20_eq L k ⟨0, by decide⟩).trans (rowOffs_of L _ _ (by dsimp only; omega))) _

omit [FloatOps F] in
theorem o_off23 (L : grid0.Coords) (k : Fin k0_t1_loop.trips) :
    (oW).slice (Rect.unit (s := S16384x4096) (k0_off23 L k 4#32) S2x4096.size (k0_off23_inb L k 0)) (fun _ => rfl) = oCh L ⟨8 * k.val + 12, lt8 k 12 (by decide)⟩ :=
  o_slice_eq _ ((k0_off23_eq L k ⟨0, by decide⟩).trans (rowOffs_of L _ _ (by dsimp only; omega))) _

omit [FloatOps F] in
theorem o_off26 (L : grid0.Coords) (k : Fin k0_t1_loop.trips) :
    (oW).slice (Rect.unit (s := S16384x4096) (k0_off26 L k 5#32) S2x4096.size (k0_off26_inb L k 0)) (fun _ => rfl) = oCh L ⟨8 * k.val + 13, lt8 k 13 (by decide)⟩ :=
  o_slice_eq _ ((k0_off26_eq L k ⟨0, by decide⟩).trans (rowOffs_of L _ _ (by dsimp only; omega))) _

omit [FloatOps F] in
theorem o_off29 (L : grid0.Coords) (k : Fin k0_t1_loop.trips) :
    (oW).slice (Rect.unit (s := S16384x4096) (k0_off29 L k 6#32) S2x4096.size (k0_off29_inb L k 0)) (fun _ => rfl) = oCh L ⟨8 * k.val + 14, lt8 k 14 (by decide)⟩ :=
  o_slice_eq _ ((k0_off29_eq L k ⟨0, by decide⟩).trans (rowOffs_of L _ _ (by dsimp only; omega))) _

omit [FloatOps F] in
theorem o_off32 (L : grid0.Coords) (k : Fin k0_t1_loop.trips) :
    (oW).slice (Rect.unit (s := S16384x4096) (k0_off32 L k) S2x4096.size (k0_off32_inb L k)) (fun _ => rfl) = oCh L ⟨8 * k.val + 15, lt8 k 15 (by decide)⟩ :=
  o_slice_eq _ ((k0_off32_eq L k).trans (rowOffs_of L _ _ (by omega))) _

omit [FloatOps F] in
theorem x_off16 (L : grid0.Coords) (k : Fin k0_t1_loop.trips) :
    (xW).slice (Rect.unit (s := S16384x4096) (k0_off16 L k) S2x4096.size (k0_off16_inb L k)) (fun _ => rfl) = xCh L ⟨8 * k.val + 16, lt8 k 16 (by decide)⟩ :=
  x_slice_eq _ ((k0_off16_eq L k).trans (rowOffs_of L _ _ (by omega))) _

omit [FloatOps F] in
theorem x_off19 (L : grid0.Coords) (k : Fin k0_t1_loop.trips) :
    (xW).slice (Rect.unit (s := S16384x4096) (k0_off19 L k) S2x4096.size (k0_off19_inb L k)) (fun _ => rfl) = xCh L ⟨8 * k.val + 17, lt8 k 17 (by decide)⟩ :=
  x_slice_eq _ ((k0_off19_eq L k).trans (rowOffs_of L _ _ (by omega))) _

omit [FloatOps F] in
theorem x_off22 (L : grid0.Coords) (k : Fin k0_t1_loop.trips) :
    (xW).slice (Rect.unit (s := S16384x4096) (k0_off22 L k) S2x4096.size (k0_off22_inb L k)) (fun _ => rfl) = xCh L ⟨8 * k.val + 18, lt8 k 18 (by decide)⟩ :=
  x_slice_eq _ ((k0_off22_eq L k).trans (rowOffs_of L _ _ (by omega))) _

omit [FloatOps F] in
theorem x_off25 (L : grid0.Coords) (k : Fin k0_t1_loop.trips) :
    (xW).slice (Rect.unit (s := S16384x4096) (k0_off25 L k) S2x4096.size (k0_off25_inb L k)) (fun _ => rfl) = xCh L ⟨8 * k.val + 19, lt8 k 19 (by decide)⟩ :=
  x_slice_eq _ ((k0_off25_eq L k).trans (rowOffs_of L _ _ (by omega))) _

omit [FloatOps F] in
theorem x_off28 (L : grid0.Coords) (k : Fin k0_t1_loop.trips) :
    (xW).slice (Rect.unit (s := S16384x4096) (k0_off28 L k) S2x4096.size (k0_off28_inb L k)) (fun _ => rfl) = xCh L ⟨8 * k.val + 20, lt8 k 20 (by decide)⟩ :=
  x_slice_eq _ ((k0_off28_eq L k).trans (rowOffs_of L _ _ (by omega))) _

omit [FloatOps F] in
theorem x_off31 (L : grid0.Coords) (k : Fin k0_t1_loop.trips) :
    (xW).slice (Rect.unit (s := S16384x4096) (k0_off31 L k) S2x4096.size (k0_off31_inb L k)) (fun _ => rfl) = xCh L ⟨8 * k.val + 21, lt8 k 21 (by decide)⟩ :=
  x_slice_eq _ ((k0_off31_eq L k).trans (rowOffs_of L _ _ (by omega))) _

omit [FloatOps F] in
theorem x_off34 (L : grid0.Coords) (k : Fin k0_t1_loop.trips) :
    (xW).slice (Rect.unit (s := S16384x4096) (k0_off34 L k) S2x4096.size (k0_off34_inb L k)) (fun _ => rfl) = xCh L ⟨8 * k.val + 22, lt8 k 22 (by decide)⟩ :=
  x_slice_eq _ ((k0_off34_eq L k).trans (rowOffs_of L _ _ (by omega))) _

omit [FloatOps F] in
theorem x_off13 (L : grid0.Coords) (k : Fin k0_t1_loop.trips) :
    (xW).slice (Rect.unit (s := S16384x4096) (k0_off13 L k) S2x4096.size (k0_off13_inb L k)) (fun _ => rfl) = xCh L ⟨8 * k.val + 15, lt8 k 15 (by decide)⟩ :=
  x_slice_eq _ ((k0_off13_eq L k).trans (rowOffs_of L _ _ (by omega))) _

/-! ## The offsets themselves

The equations above, one level down: the program's first-entry offsets are the canonical chunks' first entries. -/

omit [FloatOps F] in
theorem e_off1_0 (L : grid0.Coords) : k0_off1 L 0#32 = rowOffs L 0 :=
  show k0_off1 L (BitVec.ofNat 32 (2 * 0)) = rowOffs L 0 from off_eq' L 0 (by decide)

omit [FloatOps F] in
theorem e_off1_2 (L : grid0.Coords) : k0_off1 L 2#32 = rowOffs L 1 :=
  show k0_off1 L (BitVec.ofNat 32 (2 * 1)) = rowOffs L 1 from off_eq' L 1 (by decide)

omit [FloatOps F] in
theorem e_off1_4 (L : grid0.Coords) : k0_off1 L 4#32 = rowOffs L 2 :=
  show k0_off1 L (BitVec.ofNat 32 (2 * 2)) = rowOffs L 2 from off_eq' L 2 (by decide)

omit [FloatOps F] in
theorem e_off1_6 (L : grid0.Coords) : k0_off1 L 6#32 = rowOffs L 3 :=
  show k0_off1 L (BitVec.ofNat 32 (2 * 3)) = rowOffs L 3 from off_eq' L 3 (by decide)

omit [FloatOps F] in
theorem e_off1_8 (L : grid0.Coords) : k0_off1 L 8#32 = rowOffs L 4 :=
  show k0_off1 L (BitVec.ofNat 32 (2 * 4)) = rowOffs L 4 from off_eq' L 4 (by decide)

omit [FloatOps F] in
theorem e_off1_10 (L : grid0.Coords) : k0_off1 L 10#32 = rowOffs L 5 :=
  show k0_off1 L (BitVec.ofNat 32 (2 * 5)) = rowOffs L 5 from off_eq' L 5 (by decide)

omit [FloatOps F] in
theorem e_off1_12 (L : grid0.Coords) : k0_off1 L 12#32 = rowOffs L 6 :=
  show k0_off1 L (BitVec.ofNat 32 (2 * 6)) = rowOffs L 6 from off_eq' L 6 (by decide)

omit [FloatOps F] in
theorem e_off2_0 (L : grid0.Coords) : k0_off2 L 0#32 = rowOffs L 0 :=
  show k0_off1 L (BitVec.ofNat 32 (2 * 0)) = rowOffs L 0 from off_eq' L 0 (by decide)

omit [FloatOps F] in
theorem e_off2_14 (L : grid0.Coords) : k0_off2 L 14#32 = rowOffs L 7 :=
  show k0_off1 L (BitVec.ofNat 32 (2 * 7)) = rowOffs L 7 from off_eq' L 7 (by decide)

omit [FloatOps F] in
theorem e_off3_2 (L : grid0.Coords) : k0_off3 L 2#32 = rowOffs L 1 :=
  show k0_off1 L (BitVec.ofNat 32 (2 * 1)) = rowOffs L 1 from off_eq' L 1 (by decide)

omit [FloatOps F] in
theorem e_off3_16 (L : grid0.Coords) : k0_off3 L 16#32 = rowOffs L 8 :=
  show k0_off1 L (BitVec.ofNat 32 (2 * 8)) = rowOffs L 8 from off_eq' L 8 (by decide)

omit [FloatOps F] in
theorem e_off4_4 (L : grid0.Coords) : k0_off4 L 4#32 = rowOffs L 2 :=
  show k0_off1 L (BitVec.ofNat 32 (2 * 2)) = rowOffs L 2 from off_eq' L 2 (by decide)

omit [FloatOps F] in
theorem e_off4_18 (L : grid0.Coords) : k0_off4 L 18#32 = rowOffs L 9 :=
  show k0_off1 L (BitVec.ofNat 32 (2 * 9)) = rowOffs L 9 from off_eq' L 9 (by decide)

omit [FloatOps F] in
theorem e_off5_6 (L : grid0.Coords) : k0_off5 L 6#32 = rowOffs L 3 :=
  show k0_off1 L (BitVec.ofNat 32 (2 * 3)) = rowOffs L 3 from off_eq' L 3 (by decide)

omit [FloatOps F] in
theorem e_off5_20 (L : grid0.Coords) : k0_off5 L 20#32 = rowOffs L 10 :=
  show k0_off1 L (BitVec.ofNat 32 (2 * 10)) = rowOffs L 10 from off_eq' L 10 (by decide)

omit [FloatOps F] in
theorem e_off6_8 (L : grid0.Coords) : k0_off6 L 8#32 = rowOffs L 4 :=
  show k0_off1 L (BitVec.ofNat 32 (2 * 4)) = rowOffs L 4 from off_eq' L 4 (by decide)

omit [FloatOps F] in
theorem e_off6_22 (L : grid0.Coords) : k0_off6 L 22#32 = rowOffs L 11 :=
  show k0_off1 L (BitVec.ofNat 32 (2 * 11)) = rowOffs L 11 from off_eq' L 11 (by decide)

omit [FloatOps F] in
theorem e_off7_10 (L : grid0.Coords) : k0_off7 L 10#32 = rowOffs L 5 :=
  show k0_off1 L (BitVec.ofNat 32 (2 * 5)) = rowOffs L 5 from off_eq' L 5 (by decide)

omit [FloatOps F] in
theorem e_off7_24 (L : grid0.Coords) : k0_off7 L 24#32 = rowOffs L 12 :=
  show k0_off1 L (BitVec.ofNat 32 (2 * 12)) = rowOffs L 12 from off_eq' L 12 (by decide)

omit [FloatOps F] in
theorem e_off8_12 (L : grid0.Coords) : k0_off8 L 12#32 = rowOffs L 6 :=
  show k0_off1 L (BitVec.ofNat 32 (2 * 6)) = rowOffs L 6 from off_eq' L 6 (by decide)

omit [FloatOps F] in
theorem e_off8_26 (L : grid0.Coords) : k0_off8 L 26#32 = rowOffs L 13 :=
  show k0_off1 L (BitVec.ofNat 32 (2 * 13)) = rowOffs L 13 from off_eq' L 13 (by decide)

omit [FloatOps F] in
theorem e_off9_14 (L : grid0.Coords) : k0_off9 L 14#32 = rowOffs L 7 :=
  show k0_off1 L (BitVec.ofNat 32 (2 * 7)) = rowOffs L 7 from off_eq' L 7 (by decide)

omit [FloatOps F] in
theorem e_off9_28 (L : grid0.Coords) : k0_off9 L 28#32 = rowOffs L 14 :=
  show k0_off1 L (BitVec.ofNat 32 (2 * 14)) = rowOffs L 14 from off_eq' L 14 (by decide)

omit [FloatOps F] in
theorem e_off35_496 (L : grid0.Coords) : k0_off35 L 496#32 = rowOffs L 248 :=
  show k0_off1 L (BitVec.ofNat 32 (2 * 248)) = rowOffs L 248 from off_eq' L 248 (by decide)

omit [FloatOps F] in
theorem e_off35_510 (L : grid0.Coords) : k0_off35 L 510#32 = rowOffs L 255 :=
  show k0_off1 L (BitVec.ofNat 32 (2 * 255)) = rowOffs L 255 from off_eq' L 255 (by decide)

omit [FloatOps F] in
theorem e_off36_498 (L : grid0.Coords) : k0_off36 L 498#32 = rowOffs L 249 :=
  show k0_off1 L (BitVec.ofNat 32 (2 * 249)) = rowOffs L 249 from off_eq' L 249 (by decide)

omit [FloatOps F] in
theorem e_off37_500 (L : grid0.Coords) : k0_off37 L 500#32 = rowOffs L 250 :=
  show k0_off1 L (BitVec.ofNat 32 (2 * 250)) = rowOffs L 250 from off_eq' L 250 (by decide)

omit [FloatOps F] in
theorem e_off38_502 (L : grid0.Coords) : k0_off38 L 502#32 = rowOffs L 251 :=
  show k0_off1 L (BitVec.ofNat 32 (2 * 251)) = rowOffs L 251 from off_eq' L 251 (by decide)

omit [FloatOps F] in
theorem e_off39_504 (L : grid0.Coords) : k0_off39 L 504#32 = rowOffs L 252 :=
  show k0_off1 L (BitVec.ofNat 32 (2 * 252)) = rowOffs L 252 from off_eq' L 252 (by decide)

omit [FloatOps F] in
theorem e_off40_506 (L : grid0.Coords) : k0_off40 L 506#32 = rowOffs L 253 :=
  show k0_off1 L (BitVec.ofNat 32 (2 * 253)) = rowOffs L 253 from off_eq' L 253 (by decide)

omit [FloatOps F] in
theorem e_off41_508 (L : grid0.Coords) : k0_off41 L 508#32 = rowOffs L 254 :=
  show k0_off1 L (BitVec.ofNat 32 (2 * 254)) = rowOffs L 254 from off_eq' L 254 (by decide)

omit [FloatOps F] in
theorem e_off42_510 (L : grid0.Coords) : k0_off42 L 510#32 = rowOffs L 255 :=
  show k0_off1 L (BitVec.ofNat 32 (2 * 255)) = rowOffs L 255 from off_eq' L 255 (by decide)

omit [FloatOps F] in
theorem e_off11 (L : grid0.Coords) (k : Fin k0_t1_loop.trips) : k0_off11 L k 0#32 = rowOffs L (8 * k.val + 8) :=
  (k0_off11_eq L k ⟨0, by decide⟩).trans (rowOffs_of L _ _ (by dsimp only; omega))

omit [FloatOps F] in
theorem e_off14 (L : grid0.Coords) (k : Fin k0_t1_loop.trips) : k0_off14 L k 1#32 = rowOffs L (8 * k.val + 9) :=
  (k0_off14_eq L k ⟨0, by decide⟩).trans (rowOffs_of L _ _ (by dsimp only; omega))

omit [FloatOps F] in
theorem e_off17 (L : grid0.Coords) (k : Fin k0_t1_loop.trips) : k0_off17 L k 2#32 = rowOffs L (8 * k.val + 10) :=
  (k0_off17_eq L k ⟨0, by decide⟩).trans (rowOffs_of L _ _ (by dsimp only; omega))

omit [FloatOps F] in
theorem e_off20 (L : grid0.Coords) (k : Fin k0_t1_loop.trips) : k0_off20 L k 3#32 = rowOffs L (8 * k.val + 11) :=
  (k0_off20_eq L k ⟨0, by decide⟩).trans (rowOffs_of L _ _ (by dsimp only; omega))

omit [FloatOps F] in
theorem e_off23 (L : grid0.Coords) (k : Fin k0_t1_loop.trips) : k0_off23 L k 4#32 = rowOffs L (8 * k.val + 12) :=
  (k0_off23_eq L k ⟨0, by decide⟩).trans (rowOffs_of L _ _ (by dsimp only; omega))

omit [FloatOps F] in
theorem e_off26 (L : grid0.Coords) (k : Fin k0_t1_loop.trips) : k0_off26 L k 5#32 = rowOffs L (8 * k.val + 13) :=
  (k0_off26_eq L k ⟨0, by decide⟩).trans (rowOffs_of L _ _ (by dsimp only; omega))

omit [FloatOps F] in
theorem e_off29 (L : grid0.Coords) (k : Fin k0_t1_loop.trips) : k0_off29 L k 6#32 = rowOffs L (8 * k.val + 14) :=
  (k0_off29_eq L k ⟨0, by decide⟩).trans (rowOffs_of L _ _ (by dsimp only; omega))

omit [FloatOps F] in
theorem e_off32 (L : grid0.Coords) (k : Fin k0_t1_loop.trips) : k0_off32 L k = rowOffs L (8 * k.val + 15) :=
  (k0_off32_eq L k).trans (rowOffs_of L _ _ (by omega))

omit [FloatOps F] in
theorem e_off13 (L : grid0.Coords) (k : Fin k0_t1_loop.trips) : k0_off13 L k = rowOffs L (8 * k.val + 15) :=
  (k0_off13_eq L k).trans (rowOffs_of L _ _ (by omega))

omit [FloatOps F] in
theorem e_off16 (L : grid0.Coords) (k : Fin k0_t1_loop.trips) : k0_off16 L k = rowOffs L (8 * k.val + 16) :=
  (k0_off16_eq L k).trans (rowOffs_of L _ _ (by omega))

omit [FloatOps F] in
theorem e_off19 (L : grid0.Coords) (k : Fin k0_t1_loop.trips) : k0_off19 L k = rowOffs L (8 * k.val + 17) :=
  (k0_off19_eq L k).trans (rowOffs_of L _ _ (by omega))

omit [FloatOps F] in
theorem e_off22 (L : grid0.Coords) (k : Fin k0_t1_loop.trips) : k0_off22 L k = rowOffs L (8 * k.val + 18) :=
  (k0_off22_eq L k).trans (rowOffs_of L _ _ (by omega))

omit [FloatOps F] in
theorem e_off25 (L : grid0.Coords) (k : Fin k0_t1_loop.trips) : k0_off25 L k = rowOffs L (8 * k.val + 19) :=
  (k0_off25_eq L k).trans (rowOffs_of L _ _ (by omega))

omit [FloatOps F] in
theorem e_off28 (L : grid0.Coords) (k : Fin k0_t1_loop.trips) : k0_off28 L k = rowOffs L (8 * k.val + 20) :=
  (k0_off28_eq L k).trans (rowOffs_of L _ _ (by omega))

omit [FloatOps F] in
theorem e_off31 (L : grid0.Coords) (k : Fin k0_t1_loop.trips) : k0_off31 L k = rowOffs L (8 * k.val + 21) :=
  (k0_off31_eq L k).trans (rowOffs_of L _ _ (by omega))

omit [FloatOps F] in
theorem e_off34 (L : grid0.Coords) (k : Fin k0_t1_loop.trips) : k0_off34 L k = rowOffs L (8 * k.val + 22) :=
  (k0_off34_eq L k).trans (rowOffs_of L _ _ (by omega))

end Cert.Proof.KB

end
-- ==== Proof.ValB.lean ====
/-
  Values. A two-row buffer that held chunk `X` of the input and then took the kernel's eight indexed stores of zero
  (row 0 then row 1, each with the four groups of sixteen consecutive entries of the tile's copy of the list) holds `X`
  with the listed columns zeroed. Copied out whole to the chunk's place in the result, that is the function the program
  is to compute, restricted to the chunk: a chunk's entry `y` sits at the chunk's first row plus `y 0`, column `y 1`, and
  zeroing columns does not look at the row.
-/
import proofs.«218967_g49014166782275_cont_8to1_c_257_31_alg».proof.Proof.GeoB
import proofs.«218967_g49014166782275_cont_8to1_c_257_31_alg».proof.Proof.ScatVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

local notation "sK" => (Memref.whole Cert.Kernel.cc0_scratch0 : Memref Cert.Kernel.sig Kind.scVector Space.vmem Cert.Kernel.S64 EltTy.i32)

/-- Sixteen consecutive entries, from entry `o`, of the tile's copy `KC` of the list, as the kernel loads them. -/
abbrev rdK (KC : S64.Idx → BitVec 32) (o : ℕ) (h : ∀ a, (![o] : Fin 1 → ℕ) a + S16.size a ≤ S64.size a) : IVec S16 32 :=
  View.readAt (Elt F) (sK).view (Rect.unit (s := S64) ![o] S16.size h).toLoadRect KC

/-- Entry `x` of the sixteen read from entry `o` is entry `o + x 0` of the copy: the view is the whole buffer and the
    rectangle has unit stride. -/
theorem rdK_apply (KC : S64.Idx → BitVec 32) (o : ℕ) (h : ∀ a, (![o] : Fin 1 → ℕ) a + S16.size a ≤ S64.size a) (x : S16.Idx) :
    rdK (F := F) KC o h x = KC ((Rect.unit (s := S64) ![o] S16.size h).toLoadRect.idx x) := rfl

/-- The sixteen entries read from entry `16 o` are group `o` of the copy. -/
theorem rdK_grp (KC : S64.Idx → BitVec 32) (o : Fin 4) (n : ℕ) (hn : n = 16 * o.val)
    (h : ∀ a, (![n] : Fin 1 → ℕ) a + S16.size a ≤ S64.size a) :
    rdK (F := F) KC n h = ScatVal.grp KC o := by
  subst hn
  funext x
  rw [rdK_apply]
  refine congrArg KC (funext fun a => Fin.ext ?_)
  match a with
  | ⟨0, _⟩ =>
    show 16 * o.val + 1 * (x 0).val = 16 * o.val + (x 0).val
    omega

/-- The side condition of each of the eight stores holds when the copy's entries are below 4096. -/
theorem rdK_inRange (KC : S64.Idx → BitVec 32) (hKC : ∀ j, BitVec.toNat (KC j) < 4096) (r : BitVec 32) (hr : r.toNat < 2) (o : ℕ)
    (h : ∀ a, (![o] : Fin 1 → ℕ) a + S16.size a ≤ S64.size a) :
    ∀ a x, ((![broadcast S16 r, rdK (F := F) KC o h] : Fin 2 → IVec S16 32) a x).toNat < S2x4096.size a :=
  ScatVal.inRange_of hr (fun x => by rw [rdK_apply]; exact hKC _)

open Classical in
/-- The buffer after the eight stores: `X` with the columns the copy names zeroed. -/
theorem content_eq (X : Vec F S2x4096 .f32) (KC : S64.Idx → BitVec 32)
    (h0 : ∀ a x, ((![broadcast S16 0#32, (rdK (F := F) KC 0 inb_S64_S16_0)] : Fin 2 → IVec S16 32) a x).toNat < S2x4096.size a)
    (h1 : ∀ a x, ((![broadcast S16 0#32, (rdK (F := F) KC 16 inb_S64_S16_16)] : Fin 2 → IVec S16 32) a x).toNat < S2x4096.size a)
    (h2 : ∀ a x, ((![broadcast S16 0#32, (rdK (F := F) KC 32 inb_S64_S16_32)] : Fin 2 → IVec S16 32) a x).toNat < S2x4096.size a)
    (h3 : ∀ a x, ((![broadcast S16 0#32, (rdK (F := F) KC 48 inb_S64_S16_48)] : Fin 2 → IVec S16 32) a x).toNat < S2x4096.size a)
    (h4 : ∀ a x, ((![broadcast S16 1#32, (rdK (F := F) KC 0 inb_S64_S16_0)] : Fin 2 → IVec S16 32) a x).toNat < S2x4096.size a)
    (h5 : ∀ a x, ((![broadcast S16 1#32, (rdK (F := F) KC 16 inb_S64_S16_16)] : Fin 2 → IVec S16 32) a x).toNat < S2x4096.size a)
    (h6 : ∀ a x, ((![broadcast S16 1#32, (rdK (F := F) KC 32 inb_S64_S16_32)] : Fin 2 → IVec S16 32) a x).toNat < S2x4096.size a)
    (h7 : ∀ a x, ((![broadcast S16 1#32, (rdK (F := F) KC 48 inb_S64_S16_48)] : Fin 2 → IVec S16 32) a x).toNat < S2x4096.size a) :
    (storeIdx (storeIdx (storeIdx (storeIdx (storeIdx (storeIdx (storeIdx (storeIdx X ![broadcast S16 0#32, (rdK (F := F) KC 0 inb_S64_S16_0)] (k0_pay1 (F := F)) (fun _ => 1#1) false h0) ![broadcast S16 0#32, (rdK (F := F) KC 16 inb_S64_S16_16)] (k0_pay1 (F := F)) (fun _ => 1#1) false h1) ![broadcast S16 0#32, (rdK (F := F) KC 32 inb_S64_S16_32)] (k0_pay1 (F := F)) (fun _ => 1#1) false h2) ![broadcast S16 0#32, (rdK (F := F) KC 48 inb_S64_S16_48)] (k0_pay1 (F := F)) (fun _ => 1#1) false h3) ![broadcast S16 1#32, (rdK (F := F) KC 0 inb_S64_S16_0)] (k0_pay1 (F := F)) (fun _ => 1#1) false h4) ![broadcast S16 1#32, (rdK (F := F) KC 16 inb_S64_S16_16)] (k0_pay1 (F := F)) (fun _ => 1#1) false h5) ![broadcast S16 1#32, (rdK (F := F) KC 32 inb_S64_S16_32)] (k0_pay1 (F := F)) (fun _ => 1#1) false h6) ![broadcast S16 1#32, (rdK (F := F) KC 48 inb_S64_S16_48)] (k0_pay1 (F := F)) (fun _ => 1#1) false h7)
      = fun y => if ∃ i, BitVec.toNat (KC i) = (y 1).val then zeroF else X y :=
  ScatVal.zrow8 (F := F) X KC _ _ _ _ _ _ _ _
    (rdK_grp KC 0 0 rfl _) (rdK_grp KC 1 16 rfl _) (rdK_grp KC 2 32 rfl _) (rdK_grp KC 3 48 rfl _)
    (rdK_grp KC 0 0 rfl _) (rdK_grp KC 1 16 rfl _) (rdK_grp KC 2 32 rfl _) (rdK_grp KC 3 48 rfl _)
    h0 h1 h2 h3 h4 h5 h6 h7

/-- Chunk `g` of the input as the copy-in reads it. -/
abbrev xval (d : Dev nD) (L : grid0.Coords) (g : Fin 256) : Vec F S2x4096 .f32 :=
  ReadAs.same.apply (View.read (Elt F) (xCh L g).view (m (xLoc d)))

open Classical in
/-- A value that is chunk `g` of the input with the listed columns zeroed is the program's function on that chunk. -/
theorem zeroed_is_Zbuf (d : Dev nD) (L : grid0.Coords) (g : Fin 256) (y : S2x4096.Idx) :
    (if ∃ i, BitVec.toNat (m (kLoc d) i) = (y 1).val then zeroF else xval m d L g y) = Zbuf m d ((oCh L g).view.emb y) := by
  unfold Zbuf
  rw [Cert.Proof.Spec.zeroCols_apply, (emb_oCh L g y).2, ← emb_xCh L g y]
  have hx : xval m d L g y = m (xLoc d) ((xCh L g).view.emb y) := (View.read_apply _ _).trans (cast_eq _ _)
  rw [hx]
  exact if_congr Iff.rfl rfl rfl

/-- The chunk of the result after a buffer holding `v` was copied out over it: where `v` is the program's function on
    the chunk, the chunk holds the program's function. -/
theorem out_val (d : Dev nD) (L : grid0.Coords) (g : Fin 256) (f0 : Buf (Elt F) (oLoc d)) (v : Vec F S2x4096 .f32)
    (hv : ∀ y, v y = Zbuf m d ((oCh L g).view.emb y)) :
    ((oCh L g).view.loc (thr d L) ↦[(oCh L g).view.set]{fullShare} (oCh L g).view.writes (Elt F) f0 [⟨Rect.whole _, v⟩] : sProp 𝕄)
      = ((oCh L g).view.loc (thr d L) ↦[(oCh L g).view.set]{fullShare} Zbuf m d) := by
  refine pointsTo_congr fun i hi => ?_
  obtain ⟨y, -, rfl⟩ := Finset.mem_map.mp hi
  have h := View.read_writes_cons_emb (Val := Elt F) (oCh L g).view f0 (Rect.whole _) v [] y
  rw [Rect.emb_whole_apply, View.read_apply] at h
  rw [← hv y, ← h]
  exact (cast_eq _ _).symm

end Cert.Proof.KB

end
-- ==== Proof.SetsB.lean ====
/-
  Book-keeping of a tile's 256 chunks of the result while the kernel works through them in order: the chunks from some
  number on still hold their launch contents, the chunks below some number hold the program's function. Both are
  separating conjunctions over a set of chunk numbers cut off at a bound, so one chunk more or less is one conjunct more
  or less.
-/
import proofs.«218967_g49014166782275_cont_8to1_c_257_31_alg».proof.Proof.GeoB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

/-- Chunk `g` of the tile's part of the result, holding `f`. -/
abbrev oc (d : Dev nD) (L : grid0.Coords) (g : Fin 256) (f : Buf (Elt F) (oLoc d)) : sProp 𝕄 :=
  oLoc d ↦[chunkSet (chunkNo (L 0).val (L 1).val g.val)]{fullShare} f

/-- The chunks numbered `n` and above, at their launch contents. -/
def todo (d : Dev nD) (L : grid0.Coords) (n : ℕ) : sProp 𝕄 :=
  bigSep (Finset.univ.filter fun g : Fin 256 => n ≤ g.val) fun g => oc d L g (m (oLoc d))

/-- The chunks numbered below `n`, at the program's function. -/
def done (d : Dev nD) (L : grid0.Coords) (n : ℕ) : sProp 𝕄 :=
  bigSep (Finset.univ.filter fun g : Fin 256 => g.val < n) fun g => oc d L g (Zbuf m d)

/-- Separating conjunction is commutative and associative, as equations of assertions. -/
theorem sep_comm_eq (X Y : sProp 𝕄) : iprop(X ∗ Y) = iprop(Y ∗ X) :=
  Std.Commutative.comm (op := fun (a b : sProp 𝕄) => BI.sep a b) X Y
theorem sep_assoc_eq (X Y Z : sProp 𝕄) : iprop((X ∗ Y) ∗ Z) = iprop(X ∗ Y ∗ Z) :=
  Std.Associative.assoc (op := fun (a b : sProp 𝕄) => BI.sep a b) X Y Z

/-- The chunk numbers from `n` on are `n` and the chunk numbers from `n + 1` on; `n` is not among the latter. -/
theorem filter_ge_eq (n : ℕ) (h : n < 256) :
    (Finset.univ.filter fun g : Fin 256 => n ≤ g.val) = insert ⟨n, h⟩ (Finset.univ.filter fun g : Fin 256 => n + 1 ≤ g.val) := by
  ext g
  simp only [Finset.mem_filter, Finset.mem_univ, true_and, Finset.mem_insert, Fin.ext_iff]
  omega
theorem not_mem_filter_ge (n : ℕ) (h : n < 256) : (⟨n, h⟩ : Fin 256) ∉ Finset.univ.filter fun g : Fin 256 => n + 1 ≤ g.val := by
  simp only [Finset.mem_filter, Finset.mem_univ, true_and]
  omega

/-- The chunk numbers below `n + 1` are `n` and the chunk numbers below `n`; `n` is not among the latter. -/
theorem filter_lt_eq (n : ℕ) (h : n < 256) :
    (Finset.univ.filter fun g : Fin 256 => g.val < n + 1) = insert ⟨n, h⟩ (Finset.univ.filter fun g : Fin 256 => g.val < n) := by
  ext g
  simp only [Finset.mem_filter, Finset.mem_univ, true_and, Finset.mem_insert, Fin.ext_iff]
  omega
theorem not_mem_filter_lt (n : ℕ) (h : n < 256) : (⟨n, h⟩ : Fin 256) ∉ Finset.univ.filter fun g : Fin 256 => g.val < n := by
  simp only [Finset.mem_filter, Finset.mem_univ, true_and]
  omega

theorem todo_zero (d : Dev nD) (L : grid0.Coords) :
    todo m d L 0 = bigSep (Finset.univ : Finset (Fin 256)) fun g => oc d L g (m (oLoc d)) := by
  unfold todo
  rw [Finset.filter_true_of_mem (fun g _ => Nat.zero_le _)]

theorem done_all (d : Dev nD) (L : grid0.Coords) :
    done m d L 256 = bigSep (Finset.univ : Finset (Fin 256)) fun g => oc d L g (Zbuf m d) := by
  unfold done
  rw [Finset.filter_true_of_mem (fun g _ => g.isLt)]

theorem todo_end (d : Dev nD) (L : grid0.Coords) : todo m d L 256 = (iprop(emp) : sProp 𝕄) := by
  unfold todo
  rw [Finset.filter_false_of_mem (fun g _ => Nat.not_le.mpr g.isLt)]
  rfl

theorem done_zero (d : Dev nD) (L : grid0.Coords) : done m d L 0 = (iprop(emp) : sProp 𝕄) := by
  unfold done
  rw [Finset.filter_false_of_mem (fun g _ => Nat.not_lt_zero _)]
  rfl

theorem todo_succ (d : Dev nD) (L : grid0.Coords) (n : ℕ) (h : n < 256) :
    todo m d L n = iprop(oc d L ⟨n, h⟩ (m (oLoc d)) ∗ todo m d L (n + 1)) := by
  unfold todo
  rw [filter_ge_eq n h, BI.bigSep_insert (not_mem_filter_ge n h)]
  rfl

theorem done_succ (d : Dev nD) (L : grid0.Coords) (n : ℕ) (h : n < 256) :
    done m d L (n + 1) = iprop(done m d L n ∗ oc d L ⟨n, h⟩ (Zbuf m d)) := by
  unfold done
  rw [filter_lt_eq n h, BI.bigSep_insert (not_mem_filter_lt n h)]
  exact sep_comm_eq _ _

/-- Eight chunks at once off the front of the untouched ones. -/
theorem todo8 (d : Dev nD) (L : grid0.Coords) (n : ℕ) (h : n + 7 < 256) :
    todo m d L n = iprop(oc d L ⟨n, by omega⟩ (m (oLoc d)) ∗ oc d L ⟨n + 1, by omega⟩ (m (oLoc d)) ∗ oc d L ⟨n + 2, by omega⟩ (m (oLoc d)) ∗ oc d L ⟨n + 3, by omega⟩ (m (oLoc d)) ∗ oc d L ⟨n + 4, by omega⟩ (m (oLoc d)) ∗ oc d L ⟨n + 5, by omega⟩ (m (oLoc d)) ∗ oc d L ⟨n + 6, by omega⟩ (m (oLoc d)) ∗ oc d L ⟨n + 7, by omega⟩ (m (oLoc d)) ∗ todo m d L (n + 8)) := by
  rw [todo_succ m d L n (by omega), todo_succ m d L (n + 1) (by omega), todo_succ m d L (n + 2) (by omega),
    todo_succ m d L (n + 3) (by omega), todo_succ m d L (n + 4) (by omega), todo_succ m d L (n + 5) (by omega),
    todo_succ m d L (n + 6) (by omega), todo_succ m d L (n + 7) (by omega)]

/-- Eight chunks at once onto the finished ones. -/
theorem done8 (d : Dev nD) (L : grid0.Coords) (n : ℕ) (h : n + 7 < 256) :
    done m d L (n + 8) = iprop(done m d L n ∗ oc d L ⟨n, by omega⟩ (Zbuf m d) ∗ oc d L ⟨n + 1, by omega⟩ (Zbuf m d) ∗ oc d L ⟨n + 2, by omega⟩ (Zbuf m d) ∗ oc d L ⟨n + 3, by omega⟩ (Zbuf m d) ∗ oc d L ⟨n + 4, by omega⟩ (Zbuf m d) ∗ oc d L ⟨n + 5, by omega⟩ (Zbuf m d) ∗ oc d L ⟨n + 6, by omega⟩ (Zbuf m d) ∗ oc d L ⟨n + 7, by omega⟩ (Zbuf m d)) := by
  rw [done_succ m d L (n + 7) (by omega), done_succ m d L (n + 6) (by omega), done_succ m d L (n + 5) (by omega),
    done_succ m d L (n + 4) (by omega), done_succ m d L (n + 3) (by omega), done_succ m d L (n + 2) (by omega),
    done_succ m d L (n + 1) (by omega), done_succ m d L n (by omega)]
  simp only [sep_assoc_eq]

/-- `emp` is a left unit of the separating conjunction, as an equation. -/
theorem emp_sep_eqn (P : sProp 𝕄) : iprop(emp ∗ P) = P := Idealize.SL.BI.equiv_iff.mp Idealize.SL.BI.emp_sep

/-- Seven chunks at once onto the finished ones. -/
theorem done7n (d : Dev nD) (L : grid0.Coords) (n : ℕ) (h : n + 6 < 256) :
    done m d L (n + 7) = iprop(done m d L n ∗ oc d L ⟨n, by omega⟩ (Zbuf m d) ∗ oc d L ⟨n + 1, by omega⟩ (Zbuf m d) ∗ oc d L ⟨n + 2, by omega⟩ (Zbuf m d) ∗ oc d L ⟨n + 3, by omega⟩ (Zbuf m d) ∗ oc d L ⟨n + 4, by omega⟩ (Zbuf m d) ∗ oc d L ⟨n + 5, by omega⟩ (Zbuf m d) ∗ oc d L ⟨n + 6, by omega⟩ (Zbuf m d)) := by
  rw [done_succ m d L (n + 6) (by omega), done_succ m d L (n + 5) (by omega), done_succ m d L (n + 4) (by omega),
    done_succ m d L (n + 3) (by omega), done_succ m d L (n + 2) (by omega), done_succ m d L (n + 1) (by omega),
    done_succ m d L n (by omega)]
  simp only [sep_assoc_eq]

/-- The first seven chunks finished: nothing is finished below chunk 0. -/
theorem done7 (d : Dev nD) (L : grid0.Coords) : done m d L (0 + 7) = iprop(oc d L ⟨0, by decide⟩ (Zbuf m d) ∗ oc d L ⟨1, by decide⟩ (Zbuf m d) ∗ oc d L ⟨2, by decide⟩ (Zbuf m d) ∗ oc d L ⟨3, by decide⟩ (Zbuf m d) ∗ oc d L ⟨4, by decide⟩ (Zbuf m d) ∗ oc d L ⟨5, by decide⟩ (Zbuf m d) ∗ oc d L ⟨6, by decide⟩ (Zbuf m d)) := by
  have h := done7n m d L 0 (by decide)
  rw [done_zero m d L, emp_sep_eqn] at h
  exact h

/-- Nine chunks at once onto the finished ones. -/
theorem done9 (d : Dev nD) (L : grid0.Coords) (n : ℕ) (h : n + 8 < 256) :
    done m d L (n + 9) = iprop(done m d L n ∗ oc d L ⟨n, by omega⟩ (Zbuf m d) ∗ oc d L ⟨n + 1, by omega⟩ (Zbuf m d) ∗ oc d L ⟨n + 2, by omega⟩ (Zbuf m d) ∗ oc d L ⟨n + 3, by omega⟩ (Zbuf m d) ∗ oc d L ⟨n + 4, by omega⟩ (Zbuf m d) ∗ oc d L ⟨n + 5, by omega⟩ (Zbuf m d) ∗ oc d L ⟨n + 6, by omega⟩ (Zbuf m d) ∗ oc d L ⟨n + 7, by omega⟩ (Zbuf m d) ∗ oc d L ⟨n + 8, by omega⟩ (Zbuf m d)) := by
  rw [done_succ m d L (n + 8) (by omega), done_succ m d L (n + 7) (by omega), done_succ m d L (n + 6) (by omega),
    done_succ m d L (n + 5) (by omega), done_succ m d L (n + 4) (by omega), done_succ m d L (n + 3) (by omega),
    done_succ m d L (n + 2) (by omega), done_succ m d L (n + 1) (by omega), done_succ m d L n (by omega)]
  simp only [sep_assoc_eq]

end Cert.Proof.KB

end
-- ==== Proof.RingB.lean ====
/-
  The ring. A tile works through its 256 chunks with eight two-row buffers: chunk `g` is copied into buffer `g mod 8`,
  has its listed columns zeroed there, and is copied out to the result; the copy-in of chunk `g + 7` is started as soon
  as the copy-out of chunk `g - 1`, from the same buffer, is known to have finished. Each buffer has a semaphore of its
  own for copies in and another for copies out, so at most one copy is pending on any semaphore. Between two steps that
  start a round of eight (chunk number `n` a multiple of eight) the state is always the same: the copies-in of chunks
  `n .. n+6` pending into buffers 0..6, the copy-out of chunk `n-1` pending from buffer 7, the chunks below `n-1`
  finished, the chunks from `n` on untouched. That state, as an assertion, is the loop's invariant.
-/
import proofs.«218967_g49014166782275_cont_8to1_c_257_31_alg».proof.Proof.OffsB
import proofs.«218967_g49014166782275_cont_8to1_c_257_31_alg».proof.Proof.ValB
import proofs.«218967_g49014166782275_cont_8to1_c_257_31_alg».proof.Proof.SetsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

local notation "sK" => (Memref.whole Cert.Kernel.cc0_scratch0 : Memref Cert.Kernel.sig Kind.scVector Space.vmem Cert.Kernel.S64 EltTy.i32)
local notation "sB1" => (Memref.whole Cert.Kernel.cc0_scratch1 : Memref Cert.Kernel.sig Kind.scVector Space.vmem Cert.Kernel.S2x4096 EltTy.f32)
local notation "sB2" => (Memref.whole Cert.Kernel.cc0_scratch2 : Memref Cert.Kernel.sig Kind.scVector Space.vmem Cert.Kernel.S2x4096 EltTy.f32)
local notation "sB3" => (Memref.whole Cert.Kernel.cc0_scratch3 : Memref Cert.Kernel.sig Kind.scVector Space.vmem Cert.Kernel.S2x4096 EltTy.f32)
local notation "sB4" => (Memref.whole Cert.Kernel.cc0_scratch4 : Memref Cert.Kernel.sig Kind.scVector Space.vmem Cert.Kernel.S2x4096 EltTy.f32)
local notation "sB5" => (Memref.whole Cert.Kernel.cc0_scratch5 : Memref Cert.Kernel.sig Kind.scVector Space.vmem Cert.Kernel.S2x4096 EltTy.f32)
local notation "sB6" => (Memref.whole Cert.Kernel.cc0_scratch6 : Memref Cert.Kernel.sig Kind.scVector Space.vmem Cert.Kernel.S2x4096 EltTy.f32)
local notation "sB7" => (Memref.whole Cert.Kernel.cc0_scratch7 : Memref Cert.Kernel.sig Kind.scVector Space.vmem Cert.Kernel.S2x4096 EltTy.f32)
local notation "sB8" => (Memref.whole Cert.Kernel.cc0_scratch8 : Memref Cert.Kernel.sig Kind.scVector Space.vmem Cert.Kernel.S2x4096 EltTy.f32)

/-- A chunk of the input as a set of entries of the array. -/
abbrev xSet (L : grid0.Coords) (g : Fin 256) : Finset S16384x4096.Idx := (xCh L g).view.set

/-- Chunk number `n`, read modulo 256 (every number met is below 256). -/
def gi (n : ℕ) : Fin 256 := ⟨n % 256, Nat.mod_lt _ (by decide)⟩

omit [FloatOps F] in
theorem gi_of_lt {n : ℕ} (h : n < 256) : gi n = ⟨n, h⟩ := Fin.ext (Nat.mod_eq_of_lt h)

/-- Chunk `n` of the tile's part of the result, holding `f`. -/
abbrev ocN (d : Dev nD) (L : grid0.Coords) (n : ℕ) (f : Buf (Elt F) (oLoc d)) : sProp 𝕄 :=
  oLoc d ↦[chunkSet (chunkNo (L 0).val (L 1).val n)]{fullShare} f

omit [FloatOps F] in
theorem ocN_congr (d : Dev nD) (L : grid0.Coords) {a b : ℕ} (e : a = b) (f : Buf (Elt F) (oLoc d)) : ocN d L a f = ocN d L b f := by
  subst e; rfl

omit [FloatOps F] in
/-- A chunk held by its number is the chunk held as the program slices it, whatever the spelling of the slice's offsets. -/
theorem ocN_prog (d : Dev nD) (L : grid0.Coords) (n : ℕ) (hn : n < 256) {off : Fin 2 → ℕ}
    {h : ∀ a, off a + S2x4096.size a ≤ S16384x4096.size a} (e : off = rowOffs L n) (f : Buf (Elt F) (oLoc d)) :
    ocN d L n f = (((oW).slice (Rect.unit (s := S16384x4096) off S2x4096.size h) (fun _ => rfl)).view.loc (thr d L)
        ↦[((oW).slice (Rect.unit (s := S16384x4096) off S2x4096.size h) (fun _ => rfl)).view.set]{fullShare} f : sProp 𝕄) := by
  subst e
  exact (pts_oCh d L ⟨n, hn⟩ f).symm

section
variable (d : Dev nD) (L : grid0.Coords) (q : PosShare TreeShare)

/-- The copy-in of chunk `g` into buffer `B` pending on semaphore `sm`, reading the input through its read token `b`:
    the flight (which will deliver the buffer holding the chunk, and the chunk's entries of the input back) and the
    token's other entries. -/
def rdFl (Bp : Vec F S2x4096 .f32 → sProp 𝕄) (sm : SemLoc sig) (b : Fin 8) (g : Fin 256) : sProp 𝕄 :=
  iprop(Transfers.Flight countersEmb (thr d L) sm default 262144
      iprop(Bp (xval m d L g) ∗ (xW).view.loc (thr d L) ↦[xSet L g]{Transfers.shareTok q 8 b} m (xLoc d))
    ∗ ((xW).view.loc (thr d L) ↦[Finset.univ \ xSet L g]{Transfers.shareTok q 8 b} m (xLoc d)))

/-- The copy-out of chunk `n` from buffer 7 pending: it will deliver the chunk holding the program's function and the
    buffer back. -/
def wrFl (n : ℕ) : sProp 𝕄 :=
  iprop(∃ f8, Transfers.Flight countersEmb (thr d L) (SemLoc.dma (SemArray.sem cc0_scratch24)) default 262144
      iprop(ocN d L n (Zbuf m d) ∗ (sB8).view.loc (thr d L) ↦{fullShare} f8))

/-- The state at the head of the round that starts with chunk `8 k + 8` (the loop's trip `k`). -/
def inv (O : CellTallies nD τ sig (HIx 1)) (W : Waits sig (HIx 1)) (KC : S64.Idx → BitVec 32) (k : ℕ) (_ : Unit) : sProp 𝕄 :=
  iprop(Transfers.MayWaits (thr d L) (none : HIx 1) O
    ∗ ((sK).view.loc (thr d L) ↦{fullShare} KC)
    ∗ ((xW).view.loc (thr d L) ↦{Transfers.shareTok q 8 (7 : Fin 8)} m (xLoc d))
    ∗ rdFl m d L q (fun v => (sB1).view.loc (thr d L) ↦{fullShare} v) (SemLoc.dma (SemArray.sem cc0_scratch9)) (0 : Fin 8) (gi (8 * k + 8))
    ∗ rdFl m d L q (fun v => (sB2).view.loc (thr d L) ↦{fullShare} v) (SemLoc.dma (SemArray.sem cc0_scratch10)) (1 : Fin 8) (gi (8 * k + 9))
    ∗ rdFl m d L q (fun v => (sB3).view.loc (thr d L) ↦{fullShare} v) (SemLoc.dma (SemArray.sem cc0_scratch11)) (2 : Fin 8) (gi (8 * k + 10))
    ∗ rdFl m d L q (fun v => (sB4).view.loc (thr d L) ↦{fullShare} v) (SemLoc.dma (SemArray.sem cc0_scratch12)) (3 : Fin 8) (gi (8 * k + 11))
    ∗ rdFl m d L q (fun v => (sB5).view.loc (thr d L) ↦{fullShare} v) (SemLoc.dma (SemArray.sem cc0_scratch13)) (4 : Fin 8) (gi (8 * k + 12))
    ∗ rdFl m d L q (fun v => (sB6).view.loc (thr d L) ↦{fullShare} v) (SemLoc.dma (SemArray.sem cc0_scratch14)) (5 : Fin 8) (gi (8 * k + 13))
    ∗ rdFl m d L q (fun v => (sB7).view.loc (thr d L) ↦{fullShare} v) (SemLoc.dma (SemArray.sem cc0_scratch15)) (6 : Fin 8) (gi (8 * k + 14))
    ∗ wrFl m d L (8 * k + 7)
    ∗ semVal (thr d L, (SemLoc.dma (SemArray.sem cc0_scratch16))) 0
    ∗ semVal (thr d L, (SemLoc.dma (SemArray.sem cc0_scratch17))) 0
    ∗ semVal (thr d L, (SemLoc.dma (SemArray.sem cc0_scratch18))) 0
    ∗ semVal (thr d L, (SemLoc.dma (SemArray.sem cc0_scratch19))) 0
    ∗ semVal (thr d L, (SemLoc.dma (SemArray.sem cc0_scratch20))) 0
    ∗ semVal (thr d L, (SemLoc.dma (SemArray.sem cc0_scratch21))) 0
    ∗ semVal (thr d L, (SemLoc.dma (SemArray.sem cc0_scratch22))) 0
    ∗ semVal (thr d L, (SemLoc.dma (SemArray.sem cc0_scratch23))) 0
    ∗ todo m d L (8 * k + 8) ∗ done m d L (8 * k + 7)
    ∗ ∃ W', ⌜∀ p ∈ W', p ∈ W ∨ p.2 = none⌝ ∗ owes (thr d L) O W')

end

/-! ## From what a run leaves to the invariant's spelling -/

/-- A chunk of the result after its buffer was copied out over it, the buffer holding chunk `n` of the input with the
    kernel's eight stores of zero made: it holds the program's function. The slice's offsets are spelt as the run
    spells them; `e` says which chunk that is. -/
theorem chunk_done (d : Dev nD) (L : grid0.Coords) (n : ℕ) (hn : n < 256) {off : Fin 2 → ℕ}
    {h : ∀ a, off a + S2x4096.size a ≤ S16384x4096.size a} (e : off = rowOffs L n) (f0 : Buf (Elt F) (oLoc d))
    (KC : S64.Idx → BitVec 32) (hKC2 : ∀ j, KC j = m (kLoc d) j) (X : Vec F S2x4096 .f32) (hX : X = xval m d L ⟨n, hn⟩)
    (h0 : ∀ a x, ((![broadcast S16 0#32, (rdK (F := F) KC 0 inb_S64_S16_0)] : Fin 2 → IVec S16 32) a x).toNat < S2x4096.size a)
    (h1 : ∀ a x, ((![broadcast S16 0#32, (rdK (F := F) KC 16 inb_S64_S16_16)] : Fin 2 → IVec S16 32) a x).toNat < S2x4096.size a)
    (h2 : ∀ a x, ((![broadcast S16 0#32, (rdK (F := F) KC 32 inb_S64_S16_32)] : Fin 2 → IVec S16 32) a x).toNat < S2x4096.size a)
    (h3 : ∀ a x, ((![broadcast S16 0#32, (rdK (F := F) KC 48 inb_S64_S16_48)] : Fin 2 → IVec S16 32) a x).toNat < S2x4096.size a)
    (h4 : ∀ a x, ((![broadcast S16 1#32, (rdK (F := F) KC 0 inb_S64_S16_0)] : Fin 2 → IVec S16 32) a x).toNat < S2x4096.size a)
    (h5 : ∀ a x, ((![broadcast S16 1#32, (rdK (F := F) KC 16 inb_S64_S16_16)] : Fin 2 → IVec S16 32) a x).toNat < S2x4096.size a)
    (h6 : ∀ a x, ((![broadcast S16 1#32, (rdK (F := F) KC 32 inb_S64_S16_32)] : Fin 2 → IVec S16 32) a x).toNat < S2x4096.size a)
    (h7 : ∀ a x, ((![broadcast S16 1#32, (rdK (F := F) KC 48 inb_S64_S16_48)] : Fin 2 → IVec S16 32) a x).toNat < S2x4096.size a)
    (rdv : Vec F S2x4096 .f32 → Vec F S2x4096 .f32) (hrd : ∀ C, rdv C = C) :
    (((oW).slice (Rect.unit (s := S16384x4096) off S2x4096.size h) (fun _ => rfl)).view.loc (thr d L) ↦[((oW).slice (Rect.unit (s := S16384x4096) off S2x4096.size h) (fun _ => rfl)).view.set]{fullShare}
        ((oW).slice (Rect.unit (s := S16384x4096) off S2x4096.size h) (fun _ => rfl)).view.writes (Elt F) f0 [⟨Rect.whole _, rdv (storeIdx (storeIdx (storeIdx (storeIdx (storeIdx (storeIdx (storeIdx (storeIdx X ![broadcast S16 0#32, (rdK (F := F) KC 0 inb_S64_S16_0)] (k0_pay1 (F := F)) (fun _ => 1#1) false h0) ![broadcast S16 0#32, (rdK (F := F) KC 16 inb_S64_S16_16)] (k0_pay1 (F := F)) (fun _ => 1#1) false h1) ![broadcast S16 0#32, (rdK (F := F) KC 32 inb_S64_S16_32)] (k0_pay1 (F := F)) (fun _ => 1#1) false h2) ![broadcast S16 0#32, (rdK (F := F) KC 48 inb_S64_S16_48)] (k0_pay1 (F := F)) (fun _ => 1#1) false h3) ![broadcast S16 1#32, (rdK (F := F) KC 0 inb_S64_S16_0)] (k0_pay1 (F := F)) (fun _ => 1#1) false h4) ![broadcast S16 1#32, (rdK (F := F) KC 16 inb_S64_S16_16)] (k0_pay1 (F := F)) (fun _ => 1#1) false h5) ![broadcast S16 1#32, (rdK (F := F) KC 32 inb_S64_S16_32)] (k0_pay1 (F := F)) (fun _ => 1#1) false h6) ![broadcast S16 1#32, (rdK (F := F) KC 48 inb_S64_S16_48)] (k0_pay1 (F := F)) (fun _ => 1#1) false h7)⟩] : sProp 𝕄)
      = ocN d L n (Zbuf m d) := by
  subst e
  have hvv : ∀ y, rdv (storeIdx (storeIdx (storeIdx (storeIdx (storeIdx (storeIdx (storeIdx (storeIdx X ![broadcast S16 0#32, (rdK (F := F) KC 0 inb_S64_S16_0)] (k0_pay1 (F := F)) (fun _ => 1#1) false h0) ![broadcast S16 0#32, (rdK (F := F) KC 16 inb_S64_S16_16)] (k0_pay1 (F := F)) (fun _ => 1#1) false h1) ![broadcast S16 0#32, (rdK (F := F) KC 32 inb_S64_S16_32)] (k0_pay1 (F := F)) (fun _ => 1#1) false h2) ![broadcast S16 0#32, (rdK (F := F) KC 48 inb_S64_S16_48)] (k0_pay1 (F := F)) (fun _ => 1#1) false h3) ![broadcast S16 1#32, (rdK (F := F) KC 0 inb_S64_S16_0)] (k0_pay1 (F := F)) (fun _ => 1#1) false h4) ![broadcast S16 1#32, (rdK (F := F) KC 16 inb_S64_S16_16)] (k0_pay1 (F := F)) (fun _ => 1#1) false h5) ![broadcast S16 1#32, (rdK (F := F) KC 32 inb_S64_S16_32)] (k0_pay1 (F := F)) (fun _ => 1#1) false h6) ![broadcast S16 1#32, (rdK (F := F) KC 48 inb_S64_S16_48)] (k0_pay1 (F := F)) (fun _ => 1#1) false h7) y = Zbuf m d ((oCh L ⟨n, hn⟩).view.emb y) := by
    intro y
    rw [hrd, content_eq, hX]
    have hk' : (fun i => BitVec.toNat (KC i)) = fun i => BitVec.toNat (m (kLoc d) i) := funext fun i => congrArg BitVec.toNat (hKC2 i)
    simp only [hKC2]
    exact zeroed_is_Zbuf m d L ⟨n, hn⟩ y
  exact (out_val m d L ⟨n, hn⟩ f0 _ hvv).trans (pts_oCh d L ⟨n, hn⟩ (Zbuf m d))

/-- What a pending copy-in delivers, as a run spells it (the input's chunk through the program's offsets), is the
    invariant's spelling: the buffer at the chunk's value and the chunk's entries of the input. -/
theorem rd_norm (d : Dev nD) (L : grid0.Coords) (q : PosShare TreeShare) (b : Fin 8) (n : ℕ) (hn : n < 256) {off : Fin 2 → ℕ}
    {h : ∀ a, off a + S2x4096.size a ≤ S16384x4096.size a} (e : off = rowOffs L n) (Bp : Vec F S2x4096 .f32 → sProp 𝕄) :
    (iprop(Bp (ReadAs.same.apply (View.read (Elt F) ((xW).slice (Rect.unit (s := S16384x4096) off S2x4096.size h) (fun _ => rfl)).view (m (xLoc d))))
        ∗ (xW).view.loc (thr d L) ↦[((xW).slice (Rect.unit (s := S16384x4096) off S2x4096.size h) (fun _ => rfl)).view.set]{Transfers.shareTok q 8 b} m (xLoc d)) : sProp 𝕄)
      = iprop(Bp (xval m d L ⟨n, hn⟩) ∗ (xW).view.loc (thr d L) ↦[xSet L ⟨n, hn⟩]{Transfers.shareTok q 8 b} m (xLoc d)) := by
  subst e; rfl

omit [FloatOps F] in
/-- The same for the entries of the input the pending copy-in does not read. -/
theorem rest_norm (d : Dev nD) (L : grid0.Coords) (q : PosShare TreeShare) (b : Fin 8) (n : ℕ) (hn : n < 256) {off : Fin 2 → ℕ}
    {h : ∀ a, off a + S2x4096.size a ≤ S16384x4096.size a} (e : off = rowOffs L n) :
    ((xW).view.loc (thr d L) ↦[Finset.univ \ ((xW).slice (Rect.unit (s := S16384x4096) off S2x4096.size h) (fun _ => rfl)).view.set]{Transfers.shareTok q 8 b} m (xLoc d) : sProp 𝕄)
      = ((xW).view.loc (thr d L) ↦[Finset.univ \ xSet L ⟨n, hn⟩]{Transfers.shareTok q 8 b} m (xLoc d)) := by
  subst e; rfl

/-- The value a copy-in reads, as a run spells it, is the chunk's value. -/
theorem xval_norm (d : Dev nD) (L : grid0.Coords) (n : ℕ) (hn : n < 256) {off : Fin 2 → ℕ}
    {h : ∀ a, off a + S2x4096.size a ≤ S16384x4096.size a} (e : off = rowOffs L n) :
    (ReadAs.same.apply (View.read (Elt F) ((xW).slice (Rect.unit (s := S16384x4096) off S2x4096.size h) (fun _ => rfl)).view (m (xLoc d))) : Vec F S2x4096 .f32) = xval m d L ⟨n, hn⟩ := by
  subst e; rfl

omit [FloatOps F] in
/-- A whole buffer held by its view's own entries is the buffer held whole. -/
theorem pts_set_univ (r : Ref sig .scVector) (d : Dev nD) (cc : Fin τ.nSC) (i : Fin τ.nSub) (qq : PosShare TreeShare)
    (f : Buf (Elt F) ((Memref.whole r).view.loc (V d cc i))) :
    ((Memref.whole r).view.loc (V d cc i) ↦[(Memref.whole r).view.set]{qq} f : sProp 𝕄) = ((Memref.whole r).view.loc (V d cc i) ↦{qq} f) := by
  simp only [Memref.view_whole, View.set_whole]

/-! A buffer just copied into holds the chunk read, whatever it held before (one lemma per buffer of the ring). -/
theorem wrX1 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB1).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX2 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB2).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX3 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB3).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX4 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB4).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX5 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB5).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX6 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB6).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX7 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB7).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

theorem wrX8 (d : Dev nD) (L : grid0.Coords) (fb : Vec F S2x4096 .f32) (n : ℕ) (hn : n < 256) {off : Fin 2 → ℕ}
    {h : ∀ a, off a + S2x4096.size a ≤ S16384x4096.size a} (e : off = rowOffs L n) :
    View.write (Elt F) (sB8).view fb (ReadAs.same.apply (View.read (Elt F) ((xW).slice (Rect.unit (s := S16384x4096) off S2x4096.size h) (fun _ => rfl)).view (m (xLoc d)))) Finset.univ = xval m d L ⟨n, hn⟩ := by
  simp only [Memref.view_whole, View.write_whole_univ]
  exact xval_norm m d L n hn e

omit [FloatOps F] in
/-- The chunk's entries of the input, as a run spells them, are the invariant's spelling. -/
theorem xs_norm (d : Dev nD) (L : grid0.Coords) (q : PosShare TreeShare) (b : Fin 8) (n : ℕ) (hn : n < 256) {off : Fin 2 → ℕ}
    {h : ∀ a, off a + S2x4096.size a ≤ S16384x4096.size a} (e : off = rowOffs L n) :
    ((xW).view.loc (thr d L) ↦[((xW).slice (Rect.unit (s := S16384x4096) off S2x4096.size h) (fun _ => rfl)).view.set]{Transfers.shareTok q 8 b} m (xLoc d) : sProp 𝕄)
      = ((xW).view.loc (thr d L) ↦[xSet L ⟨n, hn⟩]{Transfers.shareTok q 8 b} m (xLoc d)) := by
  subst e; rfl

end Cert.Proof.KB

end
-- ==== Proof.StepB.lean ====
/-
  One indexed store of a tile, as a step of the body's run. The machine's indexed store reads the whole buffer and
  writes it back with the named entries replaced; over a whole buffer both accesses are the buffer's contents
  themselves, so the step takes the contents `f` to `storeIdx f …` and nothing else changes.
-/
import proofs.«218967_g49014166782275_cont_8to1_c_257_31_alg».proof.Proof.ResB
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

omit [FloatOps F] in
theorem pts_whole_eq (r : Ref sig .scVector) (d : Dev nD) (cc : Fin τ.nSC) (i : Fin τ.nSub) (f : Buf (Elt F) ((Memref.whole r).view.loc (V d cc i))) :
    ((((Memref.whole r).access (.whole _)).loc (V d cc i) ↦[((Memref.whole r).access (.whole _)).set]{fullShare} f : sProp 𝕄))
      = ((Memref.whole r).view.loc (V d cc i) ↦{fullShare} f) := by
  rw [show ((Memref.whole r).access (.whole _)).set = Finset.univ from Memref.set_access_whole r]

/-- An indexed store into a whole tile buffer: the buffer's contents `f` become `storeIdx f …`. -/
theorem wp_zscat (i : Fin (sig.nNear .scVector .vmem)) (hn : sig.names .scVector .vmem i = true)
    (d : Dev nD) (cc : Fin τ.nSC) (s : Fin τ.nSub) {dd : Fin 1 → Nat}
    {idxs : Fin (⟨.vmem, i, hn⟩ : Ref sig .scVector).ty.shape.rank → IVec ⟨1, dd⟩ 32} {v : Vec F ⟨1, dd⟩ (⟨.vmem, i, hn⟩ : Ref sig .scVector).ty.elt}
    {mask : IVec ⟨1, dd⟩ 1} {add : Bool} {h : ∀ a x, (idxs a x).toNat < (⟨.vmem, i, hn⟩ : Ref sig .scVector).ty.shape.size a}
    {hs : ((Memref.whole (⟨.vmem, i, hn⟩ : Ref sig .scVector)).access (.whole _)).Stores Finset.univ}
    {α : Type} {k : PUnit → Prog (TpuEff nD τ sig (Elt F) Λ₀ (V d cc s).2) α} {Q : α → sProp 𝕄}
    (f : (⟨.vmem, i, hn⟩ : Ref sig .scVector).ty.Contents (Elt F)) :
    ((Memref.whole (⟨.vmem, i, hn⟩ : Ref sig .scVector)).view.loc (V d cc s) ↦{fullShare} f : sProp 𝕄)
      ⊢ iprop((((Memref.whole (⟨.vmem, i, hn⟩ : Ref sig .scVector)).view.loc (V d cc s) ↦{fullShare} storeIdx f idxs v mask add h)
          -∗ wp frame (wpE (defs₀ (F := F)) 𝒱₀ (V d cc s) none) Set.univ (k ⟨⟩) Q)
        -∗ wp frame (wpE (defs₀ (F := F)) 𝒱₀ (V d cc s) none) Set.univ (SparseCore.vectorStoreIdx (Memref.whole (⟨.vmem, i, hn⟩ : Ref sig .scVector)) idxs v mask add h hs >>= k) Q) := by
  iintro H Hk
  ihave H' := (Entails.of_eq (pts_whole_eq (F := F) (⟨.vmem, i, hn⟩ : Ref sig .scVector) d cc s f).symm) $$ H
  iapply (SparseCore.wp_vectorStoreIdx 𝒱₀ (V d cc s) none Set.univ) $$ H'
  rw [Memref.read_access_whole, Memref.write_access_whole_univ, pts_whole_eq]
  iexact Hk

end Cert.Proof.KB

end
-- ==== Proof.TripB.lean ====
/-
  One trip of the loop: a round of eight chunks. From the ring's state at chunk `8 k + 8` the eight steps wait for a
  chunk's copy-in, zero its listed columns, start its copy-out, wait for the previous copy-out and start the copy-in
  seven chunks ahead; the state they leave is the ring's state at chunk `8 k + 16`.
-/
import proofs.«218967_g49014166782275_cont_8to1_c_257_31_alg».proof.Proof.RingB
import proofs.«218967_g49014166782275_cont_8to1_c_257_31_alg».proof.Proof.StepB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

local notation "sK" => (Memref.whole Cert.Kernel.cc0_scratch0 : Memref Cert.Kernel.sig Kind.scVector Space.vmem Cert.Kernel.S64 EltTy.i32)
local notation "sB1" => (Memref.whole Cert.Kernel.cc0_scratch1 : Memref Cert.Kernel.sig Kind.scVector Space.vmem Cert.Kernel.S2x4096 EltTy.f32)
local notation "sB2" => (Memref.whole Cert.Kernel.cc0_scratch2 : Memref Cert.Kernel.sig Kind.scVector Space.vmem Cert.Kernel.S2x4096 EltTy.f32)
local notation "sB3" => (Memref.whole Cert.Kernel.cc0_scratch3 : Memref Cert.Kernel.sig Kind.scVector Space.vmem Cert.Kernel.S2x4096 EltTy.f32)
local notation "sB4" => (Memref.whole Cert.Kernel.cc0_scratch4 : Memref Cert.Kernel.sig Kind.scVector Space.vmem Cert.Kernel.S2x4096 EltTy.f32)
local notation "sB5" => (Memref.whole Cert.Kernel.cc0_scratch5 : Memref Cert.Kernel.sig Kind.scVector Space.vmem Cert.Kernel.S2x4096 EltTy.f32)
local notation "sB6" => (Memref.whole Cert.Kernel.cc0_scratch6 : Memref Cert.Kernel.sig Kind.scVector Space.vmem Cert.Kernel.S2x4096 EltTy.f32)
local notation "sB7" => (Memref.whole Cert.Kernel.cc0_scratch7 : Memref Cert.Kernel.sig Kind.scVector Space.vmem Cert.Kernel.S2x4096 EltTy.f32)
local notation "sB8" => (Memref.whole Cert.Kernel.cc0_scratch8 : Memref Cert.Kernel.sig Kind.scVector Space.vmem Cert.Kernel.S2x4096 EltTy.f32)

local macro "zs" H:ident b:num dd:ident LL:ident hk:ident : tactic => `(tactic| (
  iapply (wp_zscat $b rfl $dd (cV $LL) (jV $LL)) $$ $H:ident; iintro $H:ident
  sl_exec (disch := exact rdK_inRange (F := F) _ $hk _ (by decide) _ _)))

set_option maxHeartbeats 8000000 in
theorem trip (d : Dev nD) (L : grid0.Coords) (q : PosShare TreeShare) (O : CellTallies nD τ sig (HIx 1)) (W : Waits sig (HIx 1))
    (KC : S64.Idx → BitVec 32) (hKC : ∀ j, BitVec.toNat (KC j) < 4096) (hKC2 : ∀ j, KC j = m (kLoc d) j)
    (k : Fin k0_t1_loop.trips) (v2 : BitVec 32) (v184 : IVec S16 32) :
    inv m d L q O W KC k.val () ⊢ wp frame (wpE (defs₀ (F := F)) 𝒱₀ (thr d L) none) Set.univ
          (k0_t1_body L xW (Memref.isWhole_whole _) kW (Memref.isWhole_whole _) oW (Memref.isWhole_whole _)
            sK (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _)
            cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0 v2 (k0_pay1 (F := F)) v184 k ())
          fun r => inv m d L q O W KC (k.val + 1) r := by
  have hk15 : 8 * k.val + 8 + 7 < 256 := by have := lt8 k 15 (by decide); omega
  unfold inv rdFl wrFl
  beta_reduce
  iintro ⟨#Hmw, HsK, Hx7, ⟨Hf0, Hx0⟩, ⟨Hf1, Hx1⟩, ⟨Hf2, Hx2⟩, ⟨Hf3, Hx3⟩, ⟨Hf4, Hx4⟩, ⟨Hf5, Hx5⟩, ⟨Hf6, Hx6⟩, ⟨%f8, Hfw⟩, Hs8, Hs9, Hs10, Hs11, Hs12, Hs13, Hs14, Hs15, Htodo, Hdone, %W', %hW', HO⟩
  -- the round's eight chunks of the result, off the untouched ones, each spelt as its step slices it
  ihave Ht := (Entails.of_eq (todo8 m d L (8 * k.val + 8) hk15)) $$ Htodo
  icases Ht with ⟨Ho0, Ho1, Ho2, Ho3, Ho4, Ho5, Ho6, Ho7, Htodo⟩
  ihave Ho0 := (Entails.of_eq ((ocN_congr d L (by omega : 8 * k.val + 8 = 8 * k.val + 8) _).trans (ocN_prog d L (8 * k.val + 8) (lt8 k 8 (by decide)) (e_off11 L k) (m (oLoc d))))) $$ Ho0
  ihave Ho1 := (Entails.of_eq ((ocN_congr d L (by omega : 8 * k.val + 8 + 1 = 8 * k.val + 9) _).trans (ocN_prog d L (8 * k.val + 9) (lt8 k 9 (by decide)) (e_off14 L k) (m (oLoc d))))) $$ Ho1
  ihave Ho2 := (Entails.of_eq ((ocN_congr d L (by omega : 8 * k.val + 8 + 2 = 8 * k.val + 10) _).trans (ocN_prog d L (8 * k.val + 10) (lt8 k 10 (by decide)) (e_off17 L k) (m (oLoc d))))) $$ Ho2
  ihave Ho3 := (Entails.of_eq ((ocN_congr d L (by omega : 8 * k.val + 8 + 3 = 8 * k.val + 11) _).trans (ocN_prog d L (8 * k.val + 11) (lt8 k 11 (by decide)) (e_off20 L k) (m (oLoc d))))) $$ Ho3
  ihave Ho4 := (Entails.of_eq ((ocN_congr d L (by omega : 8 * k.val + 8 + 4 = 8 * k.val + 12) _).trans (ocN_prog d L (8 * k.val + 12) (lt8 k 12 (by decide)) (e_off23 L k) (m (oLoc d))))) $$ Ho4
  ihave Ho5 := (Entails.of_eq ((ocN_congr d L (by omega : 8 * k.val + 8 + 5 = 8 * k.val + 13) _).trans (ocN_prog d L (8 * k.val + 13) (lt8 k 13 (by decide)) (e_off26 L k) (m (oLoc d))))) $$ Ho5
  ihave Ho6 := (Entails.of_eq ((ocN_congr d L (by omega : 8 * k.val + 8 + 6 = 8 * k.val + 14) _).trans (ocN_prog d L (8 * k.val + 14) (lt8 k 14 (by decide)) (e_off29 L k) (m (oLoc d))))) $$ Ho6
  ihave Ho7 := (Entails.of_eq ((ocN_congr d L (by omega : 8 * k.val + 8 + 7 = 8 * k.val + 15) _).trans (ocN_prog d L (8 * k.val + 15) (lt8 k 15 (by decide)) (e_off32 L k) (m (oLoc d))))) $$ Ho7
  sl_exec (disch := exact rdK_inRange (F := F) _ hKC _ (by decide) _ _)
  zs Hf0_dst 1 d L hKC
  zs Hf0_dst 1 d L hKC
  zs Hf0_dst 1 d L hKC
  zs Hf0_dst 1 d L hKC
  zs Hf0_dst 1 d L hKC
  zs Hf0_dst 1 d L hKC
  zs Hf0_dst 1 d L hKC
  zs Hf0_dst 1 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hfw_src 8 d L hKC
  zs Hfw_src 8 d L hKC
  zs Hfw_src 8 d L hKC
  zs Hfw_src 8 d L hKC
  zs Hfw_src 8 d L hKC
  zs Hfw_src 8 d L hKC
  zs Hfw_src 8 d L hKC
  zs Hfw_src 8 d L hKC
  sl_step
  unfold trip.sl.dma0 trip.sl.dma0_2 trip.sl.dma0_4 trip.sl.dma0_6 trip.sl.dma0_8 trip.sl.dma0_10 trip.sl.dma0_12 trip.sl.dma0_14 trip.sl.dma0_1 trip.sl.dma0_3 trip.sl.dma0_5 trip.sl.dma0_7 trip.sl.dma0_9 trip.sl.dma0_11 trip.sl.dma0_13 trip.sl.dma0_15 trip.sl.r trip.sl.r_1 trip.sl.v363 trip.sl.v368 trip.sl.v394 trip.sl.v399 trip.sl.v425 trip.sl.v430 trip.sl.v456 trip.sl.v461 trip.sl.v487 trip.sl.v492 trip.sl.v518 trip.sl.v523 trip.sl.v549 trip.sl.v554 trip.sl.v580 trip.sl.v585
  isplitr; · iexact Hmw
  isplitl [HsK]; · iexact HsK
  isplitl [Hx7]; · iexact Hx7
  isplitl [Hf0 Hx0]
  · rw [show gi (8 * (k.val + 1) + 8) = ⟨8 * k.val + 16, lt8 k 16 (by decide)⟩ from (by rw [show 8 * (k.val + 1) + 8 = 8 * k.val + 16 from by omega]; exact gi_of_lt _)]
    isplitl [Hf0]
    · ihave H := (Transfers.Flight_mono _ _ (Entails.of_eq (rd_norm m d L _ (0 : Fin 8) (8 * k.val + 16) (lt8 k 16 (by decide)) (e_off16 L k) ((fun (C v : Vec F S2x4096 .f32) => ((sB1).view.loc (thr d L) ↦{fullShare} View.write (Elt F) (sB1).view C v Finset.univ : sProp 𝕄)) _)))) $$ Hf0
      simp only [Memref.view_whole, View.write_whole_univ]
      iexact H
    · ihave H := (Entails.of_eq (rest_norm m d L _ (0 : Fin 8) (8 * k.val + 16) (lt8 k 16 (by decide)) (e_off16 L k))) $$ Hx0
      iexact H
  isplitl [Hf1 Hx1]
  · rw [show gi (8 * (k.val + 1) + 9) = ⟨8 * k.val + 17, lt8 k 17 (by decide)⟩ from (by rw [show 8 * (k.val + 1) + 9 = 8 * k.val + 17 from by omega]; exact gi_of_lt _)]
    isplitl [Hf1]
    · ihave H := (Transfers.Flight_mono _ _ (Entails.of_eq (rd_norm m d L _ (1 : Fin 8) (8 * k.val + 17) (lt8 k 17 (by decide)) (e_off19 L k) ((fun (C v : Vec F S2x4096 .f32) => ((sB2).view.loc (thr d L) ↦{fullShare} View.write (Elt F) (sB2).view C v Finset.univ : sProp 𝕄)) _)))) $$ Hf1
      simp only [Memref.view_whole, View.write_whole_univ]
      iexact H
    · ihave H := (Entails.of_eq (rest_norm m d L _ (1 : Fin 8) (8 * k.val + 17) (lt8 k 17 (by decide)) (e_off19 L k))) $$ Hx1
      iexact H
  isplitl [Hf2 Hx2]
  · rw [show gi (8 * (k.val + 1) + 10) = ⟨8 * k.val + 18, lt8 k 18 (by decide)⟩ from (by rw [show 8 * (k.val + 1) + 10 = 8 * k.val + 18 from by omega]; exact gi_of_lt _)]
    isplitl [Hf2]
    · ihave H := (Transfers.Flight_mono _ _ (Entails.of_eq (rd_norm m d L _ (2 : Fin 8) (8 * k.val + 18) (lt8 k 18 (by decide)) (e_off22 L k) ((fun (C v : Vec F S2x4096 .f32) => ((sB3).view.loc (thr d L) ↦{fullShare} View.write (Elt F) (sB3).view C v Finset.univ : sProp 𝕄)) _)))) $$ Hf2
      simp only [Memref.view_whole, View.write_whole_univ]
      iexact H
    · ihave H := (Entails.of_eq (rest_norm m d L _ (2 : Fin 8) (8 * k.val + 18) (lt8 k 18 (by decide)) (e_off22 L k))) $$ Hx2
      iexact H
  isplitl [Hf3 Hx3]
  · rw [show gi (8 * (k.val + 1) + 11) = ⟨8 * k.val + 19, lt8 k 19 (by decide)⟩ from (by rw [show 8 * (k.val + 1) + 11 = 8 * k.val + 19 from by omega]; exact gi_of_lt _)]
    isplitl [Hf3]
    · ihave H := (Transfers.Flight_mono _ _ (Entails.of_eq (rd_norm m d L _ (3 : Fin 8) (8 * k.val + 19) (lt8 k 19 (by decide)) (e_off25 L k) ((fun (C v : Vec F S2x4096 .f32) => ((sB4).view.loc (thr d L) ↦{fullShare} View.write (Elt F) (sB4).view C v Finset.univ : sProp 𝕄)) _)))) $$ Hf3
      simp only [Memref.view_whole, View.write_whole_univ]
      iexact H
    · ihave H := (Entails.of_eq (rest_norm m d L _ (3 : Fin 8) (8 * k.val + 19) (lt8 k 19 (by decide)) (e_off25 L k))) $$ Hx3
      iexact H
  isplitl [Hf4 Hx4]
  · rw [show gi (8 * (k.val + 1) + 12) = ⟨8 * k.val + 20, lt8 k 20 (by decide)⟩ from (by rw [show 8 * (k.val + 1) + 12 = 8 * k.val + 20 from by omega]; exact gi_of_lt _)]
    isplitl [Hf4]
    · ihave H := (Transfers.Flight_mono _ _ (Entails.of_eq (rd_norm m d L _ (4 : Fin 8) (8 * k.val + 20) (lt8 k 20 (by decide)) (e_off28 L k) ((fun (C v : Vec F S2x4096 .f32) => ((sB5).view.loc (thr d L) ↦{fullShare} View.write (Elt F) (sB5).view C v Finset.univ : sProp 𝕄)) _)))) $$ Hf4
      simp only [Memref.view_whole, View.write_whole_univ]
      iexact H
    · ihave H := (Entails.of_eq (rest_norm m d L _ (4 : Fin 8) (8 * k.val + 20) (lt8 k 20 (by decide)) (e_off28 L k))) $$ Hx4
      iexact H
  isplitl [Hf5 Hx5]
  · rw [show gi (8 * (k.val + 1) + 13) = ⟨8 * k.val + 21, lt8 k 21 (by decide)⟩ from (by rw [show 8 * (k.val + 1) + 13 = 8 * k.val + 21 from by omega]; exact gi_of_lt _)]
    isplitl [Hf5]
    · ihave H := (Transfers.Flight_mono _ _ (Entails.of_eq (rd_norm m d L _ (5 : Fin 8) (8 * k.val + 21) (lt8 k 21 (by decide)) (e_off31 L k) ((fun (C v : Vec F S2x4096 .f32) => ((sB6).view.loc (thr d L) ↦{fullShare} View.write (Elt F) (sB6).view C v Finset.univ : sProp 𝕄)) _)))) $$ Hf5
      simp only [Memref.view_whole, View.write_whole_univ]
      iexact H
    · ihave H := (Entails.of_eq (rest_norm m d L _ (5 : Fin 8) (8 * k.val + 21) (lt8 k 21 (by decide)) (e_off31 L k))) $$ Hx5
      iexact H
  isplitl [Hf6 Hx6]
  · rw [show gi (8 * (k.val + 1) + 14) = ⟨8 * k.val + 22, lt8 k 22 (by decide)⟩ from (by rw [show 8 * (k.val + 1) + 14 = 8 * k.val + 22 from by omega]; exact gi_of_lt _)]
    isplitl [Hf6]
    · ihave H := (Transfers.Flight_mono _ _ (Entails.of_eq (rd_norm m d L _ (6 : Fin 8) (8 * k.val + 22) (lt8 k 22 (by decide)) (e_off34 L k) ((fun (C v : Vec F S2x4096 .f32) => ((sB7).view.loc (thr d L) ↦{fullShare} View.write (Elt F) (sB7).view C v Finset.univ : sProp 𝕄)) _)))) $$ Hf6
      simp only [Memref.view_whole, View.write_whole_univ]
      iexact H
    · ihave H := (Entails.of_eq (rest_norm m d L _ (6 : Fin 8) (8 * k.val + 22) (lt8 k 22 (by decide)) (e_off34 L k))) $$ Hx6
      iexact H
  -- the copy-out of chunk 8 k + 15 pending from buffer 7
  isplitl [Hfw]
  · iexists _
    iapply (Transfers.Flight_mono _ _ ?_) $$ Hfw
    iintro ⟨Hc, Hb⟩
    isplitl [Hc]
    · ihave Hc := (Entails.of_eq ((chunk_done m d L (8 * k.val + 15) (lt8 k 15 (by decide)) (e_off32 L k) (m (oLoc d)) KC hKC2 _ (wrX8 m d L _ (8 * k.val + 15) (lt8 k 15 (by decide)) (e_off13 L k)) _ _ _ _ _ _ _ _ (fun C => ReadAs.same.apply (View.read (Elt F) (sB8).view C)) (fun _ => rfl)).trans (ocN_congr d L (by omega : 8 * k.val + 15 = 8 * (k.val + 1) + 7) _))) $$ Hc
      iexact Hc
    · ihave Hb := (Entails.of_eq (pts_set_univ (F := F) cc0_scratch8 d (cV L) (jV L) fullShare _)) $$ Hb
      iexact Hb
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  -- the untouched chunks, and the finished ones with this round's eight
  isplitl [Htodo]
  · rw [show 8 * (k.val + 1) + 8 = 8 * k.val + 8 + 8 from by omega]; iexact Htodo
  isplitl [Hdone Hfw_dst Ho0 Ho1 Ho2 Ho3 Ho4 Ho5 Ho6]
  · rw [show 8 * (k.val + 1) + 7 = 8 * k.val + 7 + 8 from by omega, done8 m d L (8 * k.val + 7) (by have := lt8 k 14 (by decide); omega)]
    isplitl [Hdone]; · iexact Hdone
    isplitl [Hfw_dst]; · iexact Hfw_dst
    isplitl [Ho0]
    · ihave H := (Entails.of_eq ((chunk_done m d L (8 * k.val + 8) (lt8 k 8 (by decide)) (e_off11 L k) (m (oLoc d)) KC hKC2 _ (congrArg (xval m d L) (gi_of_lt (lt8 k 8 (by decide)))) _ _ _ _ _ _ _ _ (fun C => ReadAs.same.apply (View.read (Elt F) (sB1).view C)) (fun _ => rfl)).trans (ocN_congr d L (by omega : 8 * k.val + 8 = 8 * k.val + 7 + 1) _))) $$ Ho0
      iexact H
    isplitl [Ho1]
    · ihave H := (Entails.of_eq ((chunk_done m d L (8 * k.val + 9) (lt8 k 9 (by decide)) (e_off14 L k) (m (oLoc d)) KC hKC2 _ (congrArg (xval m d L) (gi_of_lt (lt8 k 9 (by decide)))) _ _ _ _ _ _ _ _ (fun C => ReadAs.same.apply (View.read (Elt F) (sB2).view C)) (fun _ => rfl)).trans (ocN_congr d L (by omega : 8 * k.val + 9 = 8 * k.val + 7 + 2) _))) $$ Ho1
      iexact H
    isplitl [Ho2]
    · ihave H := (Entails.of_eq ((chunk_done m d L (8 * k.val + 10) (lt8 k 10 (by decide)) (e_off17 L k) (m (oLoc d)) KC hKC2 _ (congrArg (xval m d L) (gi_of_lt (lt8 k 10 (by decide)))) _ _ _ _ _ _ _ _ (fun C => ReadAs.same.apply (View.read (Elt F) (sB3).view C)) (fun _ => rfl)).trans (ocN_congr d L (by omega : 8 * k.val + 10 = 8 * k.val + 7 + 3) _))) $$ Ho2
      iexact H
    isplitl [Ho3]
    · ihave H := (Entails.of_eq ((chunk_done m d L (8 * k.val + 11) (lt8 k 11 (by decide)) (e_off20 L k) (m (oLoc d)) KC hKC2 _ (congrArg (xval m d L) (gi_of_lt (lt8 k 11 (by decide)))) _ _ _ _ _ _ _ _ (fun C => ReadAs.same.apply (View.read (Elt F) (sB4).view C)) (fun _ => rfl)).trans (ocN_congr d L (by omega : 8 * k.val + 11 = 8 * k.val + 7 + 4) _))) $$ Ho3
      iexact H
    isplitl [Ho4]
    · ihave H := (Entails.of_eq ((chunk_done m d L (8 * k.val + 12) (lt8 k 12 (by decide)) (e_off23 L k) (m (oLoc d)) KC hKC2 _ (congrArg (xval m d L) (gi_of_lt (lt8 k 12 (by decide)))) _ _ _ _ _ _ _ _ (fun C => ReadAs.same.apply (View.read (Elt F) (sB5).view C)) (fun _ => rfl)).trans (ocN_congr d L (by omega : 8 * k.val + 12 = 8 * k.val + 7 + 5) _))) $$ Ho4
      iexact H
    isplitl [Ho5]
    · ihave H := (Entails.of_eq ((chunk_done m d L (8 * k.val + 13) (lt8 k 13 (by decide)) (e_off26 L k) (m (oLoc d)) KC hKC2 _ (congrArg (xval m d L) (gi_of_lt (lt8 k 13 (by decide)))) _ _ _ _ _ _ _ _ (fun C => ReadAs.same.apply (View.read (Elt F) (sB6).view C)) (fun _ => rfl)).trans (ocN_congr d L (by omega : 8 * k.val + 13 = 8 * k.val + 7 + 6) _))) $$ Ho5
      iexact H
    · ihave H := (Entails.of_eq ((chunk_done m d L (8 * k.val + 14) (lt8 k 14 (by decide)) (e_off29 L k) (m (oLoc d)) KC hKC2 _ (congrArg (xval m d L) (gi_of_lt (lt8 k 14 (by decide)))) _ _ _ _ _ _ _ _ (fun C => ReadAs.same.apply (View.read (Elt F) (sB7).view C)) (fun _ => rfl)).trans (ocN_congr d L (by omega : 8 * k.val + 14 = 8 * k.val + 7 + 7) _))) $$ Ho6
      iexact H
  -- the waits recorded: all at the kernel's own index
  iexists _; isplitr; swap
  · iexact HO
  · ipureintro; intro p hp
    iterate 16 (rcases Finset.mem_insert.mp hp with rfl | hp; · exact .inr rfl)
    exact hW' p hp

end Cert.Proof.KB

end
-- ==== Proof.TileResB.lean ====
/-
  A tile's own resources, named. The launch hands a tile all the buffers and semaphores that are its own as two big
  separating conjunctions over finite sets; the kernel uses nine of the buffers (its copy of the list and the eight
  two-row buffers of its ring) and seventeen of the DMA semaphores. Each is a member of its set, so the conjunction
  splits into that member and the conjunction over the set with the member erased; doing so once per buffer and
  per semaphore names them all and leaves the rest.
-/
import proofs.«218967_g49014166782275_cont_8to1_c_257_31_alg».proof.Proof.ResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

/-- A big separating conjunction over a finite set, with the members of a duplicate-free list of its elements split
    off one after another: the members in the list's order, then the conjunction over the set with them all erased. -/
theorem bigSep_eraseList {M : Type} [URA M] {I : Type} [DecidableEq I] (Φ : I → sProp M) :
    ∀ (l : List I) (t : Finset I), l.Nodup → (∀ x ∈ l, x ∈ t) →
      bigSep t Φ = l.foldr (fun x acc => iprop(Φ x ∗ acc)) (bigSep (l.foldl Finset.erase t) Φ)
  | [], _, _, _ => rfl
  | x :: xs, t, hnd, hmem => by
    have hx : x ∈ t := hmem x List.mem_cons_self
    have hnd' := List.nodup_cons.mp hnd
    have hmem' : ∀ y ∈ xs, y ∈ t.erase x := fun y hy =>
      Finset.mem_erase.mpr ⟨fun e => hnd'.1 (e ▸ hy), hmem y (List.mem_cons_of_mem x hy)⟩
    refine (SparseCore.bigSep_erase' hx).trans ?_
    exact congrArg (fun R => iprop(Φ x ∗ R)) (bigSep_eraseList Φ xs (t.erase x) hnd'.2 hmem')

/-- The seventeen DMA semaphores the kernel uses, in the order it is handed them. -/
def usedSems : List (DmaSem sig) :=
  [cc0_scoped0.sem, cc0_scratch9.sem, cc0_scratch10.sem, cc0_scratch11.sem, cc0_scratch12.sem, cc0_scratch13.sem,
   cc0_scratch14.sem, cc0_scratch15.sem, cc0_scratch16.sem, cc0_scratch17.sem, cc0_scratch18.sem, cc0_scratch19.sem,
   cc0_scratch20.sem, cc0_scratch21.sem, cc0_scratch22.sem, cc0_scratch23.sem, cc0_scratch24.sem]

/-- They are seventeen different semaphores. -/
theorem usedSems_nodup : usedSems.Nodup := by decide

/-- Every DMA semaphore of a vector subcore is a scoped one. -/
theorem dma_scoped : ∀ n : DmaSem sig, (SemLoc.dma n : SemLoc sig).isScoped .scVector = true := by decide

/-- The tile's cell of DMA semaphore `n`. -/
abbrev dmaCell (d : Dev nD) (L : grid0.Coords) (n : DmaSem sig) : GSem nD τ sig := (thr d L, SemLoc.dma n)

/-- Different semaphores have different cells. -/
theorem dmaCell_injective (d : Dev nD) (L : grid0.Coords) : Function.Injective (dmaCell d L) := by
  intro a b e
  have e2 : (SemLoc.dma a : SemLoc sig) = SemLoc.dma b := congrArg Prod.snd e
  exact SemLoc.dma.inj e2

/-- The cell of any DMA semaphore of the tile is one of the tile's own. -/
theorem dmaCell_mem (d : Dev nD) (L : grid0.Coords) (n : DmaSem sig) : dmaCell d L n ∈ ownCells (thr d L) :=
  (mem_ownCells (g := dmaCell d L n)).mpr ⟨rfl, dma_scoped n⟩

/-- The tile's DMA semaphores the kernel does not use: its own cells with the seventeen it uses erased. -/
def restCells (d : Dev nD) (L : grid0.Coords) : Finset (GSem nD τ sig) :=
  (usedSems.map (dmaCell d L)).foldl Finset.erase (ownCells (thr d L))

omit [FloatOps F] in
/-- The tile's own semaphores at zero are the seventeen DMA semaphores of the kernel at zero and the rest at zero. -/
theorem ownSems0_V (d : Dev nD) (L : grid0.Coords) :
    (ownSems0 (thr d L) : sProp 𝕄)
      = iprop(semVal (thr d L, SemLoc.dma cc0_scoped0.sem) 0
          ∗ semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ semVal (thr d L, SemLoc.dma cc0_scratch16.sem) 0
          ∗ semVal (thr d L, SemLoc.dma cc0_scratch17.sem) 0
          ∗ semVal (thr d L, SemLoc.dma cc0_scratch18.sem) 0
          ∗ semVal (thr d L, SemLoc.dma cc0_scratch19.sem) 0
          ∗ semVal (thr d L, SemLoc.dma cc0_scratch20.sem) 0
          ∗ semVal (thr d L, SemLoc.dma cc0_scratch21.sem) 0
          ∗ semVal (thr d L, SemLoc.dma cc0_scratch22.sem) 0
          ∗ semVal (thr d L, SemLoc.dma cc0_scratch23.sem) 0
          ∗ semVal (thr d L, SemLoc.dma cc0_scratch24.sem) 0
          ∗ bigSep (restCells d L) fun g => semVal g 0) := by
  unfold SparseCore.Cfg.ownSems0
  have hmem : ∀ x ∈ usedSems.map (dmaCell d L), x ∈ ownCells (thr d L) := by
    intro x hx
    obtain ⟨n, _, rfl⟩ := List.mem_map.mp hx
    exact dmaCell_mem d L n
  have h := bigSep_eraseList (fun g => (semVal g 0 : sProp 𝕄)) (usedSems.map (dmaCell d L)) (ownCells (thr d L))
    (usedSems_nodup.map (dmaCell_injective d L)) hmem
  rw [show List.foldl Finset.erase (ownCells (thr d L)) (usedSems.map (dmaCell d L)) = restCells d L from rfl] at h
  rw [h]
  simp only [usedSems, List.map_cons, List.map_nil, List.foldr_cons, List.foldr_nil]

/-- The nine buffers the kernel uses, as the tile's references: its copy of the list, then the eight two-row buffers. -/
def usedRefs (L : grid0.Coords) : List (DevRef τ sig) :=
  [(Proc.scVector (cV L) (jV L)).devRef cc0_scratch0, (Proc.scVector (cV L) (jV L)).devRef cc0_scratch1,
   (Proc.scVector (cV L) (jV L)).devRef cc0_scratch2, (Proc.scVector (cV L) (jV L)).devRef cc0_scratch3,
   (Proc.scVector (cV L) (jV L)).devRef cc0_scratch4, (Proc.scVector (cV L) (jV L)).devRef cc0_scratch5,
   (Proc.scVector (cV L) (jV L)).devRef cc0_scratch6, (Proc.scVector (cV L) (jV L)).devRef cc0_scratch7,
   (Proc.scVector (cV L) (jV L)).devRef cc0_scratch8]

/-- They are nine different buffers: the nine references are different, and a processor's references name its
    buffers one to one. -/
theorem usedRefs_nodup (L : grid0.Coords) : (usedRefs L).Nodup := by
  have h : ([cc0_scratch0, cc0_scratch1, cc0_scratch2, cc0_scratch3, cc0_scratch4, cc0_scratch5, cc0_scratch6,
      cc0_scratch7, cc0_scratch8] : List (Ref sig .scVector)).Nodup := by decide
  exact h.map (Proc.devRef_injective (Proc.scVector (cV L) (jV L)))

/-- Each is one of the tile's own buffers. -/
theorem usedRefs_mem (L : grid0.Coords) : ∀ x ∈ usedRefs L, x ∈ ownRefs (τ := τ) (.scVector (cV L) (jV L)) := by
  intro x hx
  simp only [usedRefs, List.mem_cons, List.not_mem_nil, or_false] at hx
  rcases hx with rfl | rfl | rfl | rfl | rfl | rfl | rfl | rfl | rfl <;>
    exact SparseCore.Cfg.mem_ownRefs_of_owner (p := Proc.scVector (cV L) (jV L)) rfl

/-- The tile's buffers the kernel does not use: its own references with the nine it uses erased. -/
def restRefs (L : grid0.Coords) : Finset (DevRef τ sig) :=
  (usedRefs L).foldl Finset.erase (ownRefs (τ := τ) (.scVector (cV L) (jV L)))

omit [FloatOps F] in
/-- The tile's own buffers, each at some contents, are the nine buffers of the kernel and the rest. -/
theorem ownBufs_V (d : Dev nD) (L : grid0.Coords) :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ (∃ f, (thr d L).loc cc0_scratch7 ↦{fullShare} f)
          ∗ (∃ f, (thr d L).loc cc0_scratch8 ↦{fullShare} f)
          ∗ bigSep (restRefs L) fun b => iprop(∃ f, ((d, b) : Loc nD τ sig) ↦{fullShare} f)) := by
  unfold SparseCore.Cfg.ownBufs
  have h := bigSep_eraseList (fun b => (iprop(∃ f, ((d, b) : Loc nD τ sig) ↦{fullShare} f) : sProp 𝕄)) (usedRefs L)
    (ownRefs (τ := τ) (.scVector (cV L) (jV L))) (usedRefs_nodup L) (usedRefs_mem L)
  rw [show List.foldl Finset.erase (ownRefs (τ := τ) (.scVector (cV L) (jV L))) (usedRefs L) = restRefs L from rfl] at h
  refine h.trans ?_
  simp only [usedRefs, List.foldr_cons, List.foldr_nil]

end Cert.Proof.KB

end
-- ==== Proof.TokB.lean ====
/-
  A tile's read share of the input, cut eight ways. The tile keeps up to eight copies-in pending at once, one per
  semaphore, and each borrows the chunk it reads from a share of its own; so the tile's share is cut into eight tokens
  and a remainder, and put together again at the end. The same assertion is spelt two ways: by the array's location as
  the TensorCore names it, and as the tile's thread addresses the whole array.
-/
import proofs.«218967_g49014166782275_cont_8to1_c_257_31_alg».proof.Proof.ResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

local notation "sK" => (Memref.whole Cert.Kernel.cc0_scratch0 : Memref Cert.Kernel.sig Kind.scVector Space.vmem Cert.Kernel.S64 EltTy.i32)
local notation "sB1" => (Memref.whole Cert.Kernel.cc0_scratch1 : Memref Cert.Kernel.sig Kind.scVector Space.vmem Cert.Kernel.S2x4096 EltTy.f32)
local notation "sB2" => (Memref.whole Cert.Kernel.cc0_scratch2 : Memref Cert.Kernel.sig Kind.scVector Space.vmem Cert.Kernel.S2x4096 EltTy.f32)
local notation "sB3" => (Memref.whole Cert.Kernel.cc0_scratch3 : Memref Cert.Kernel.sig Kind.scVector Space.vmem Cert.Kernel.S2x4096 EltTy.f32)
local notation "sB4" => (Memref.whole Cert.Kernel.cc0_scratch4 : Memref Cert.Kernel.sig Kind.scVector Space.vmem Cert.Kernel.S2x4096 EltTy.f32)
local notation "sB5" => (Memref.whole Cert.Kernel.cc0_scratch5 : Memref Cert.Kernel.sig Kind.scVector Space.vmem Cert.Kernel.S2x4096 EltTy.f32)
local notation "sB6" => (Memref.whole Cert.Kernel.cc0_scratch6 : Memref Cert.Kernel.sig Kind.scVector Space.vmem Cert.Kernel.S2x4096 EltTy.f32)
local notation "sB7" => (Memref.whole Cert.Kernel.cc0_scratch7 : Memref Cert.Kernel.sig Kind.scVector Space.vmem Cert.Kernel.S2x4096 EltTy.f32)
local notation "sB8" => (Memref.whole Cert.Kernel.cc0_scratch8 : Memref Cert.Kernel.sig Kind.scVector Space.vmem Cert.Kernel.S2x4096 EltTy.f32)

omit [FloatOps F] in
/-- A separating conjunction over the numbers below eight is its eight conjuncts, lowest number first. -/
theorem bigSep_range8 (Φ : ℕ → sProp 𝕄) :
    BI.bigSep (Finset.range 8) Φ = iprop(Φ 0 ∗ Φ 1 ∗ Φ 2 ∗ Φ 3 ∗ Φ 4 ∗ Φ 5 ∗ Φ 6 ∗ Φ 7) := by
  rw [show Finset.range 8 = {0, 1, 2, 3, 4, 5, 6, 7} from by decide,
    BI.bigSep_insert (by decide), BI.bigSep_insert (by decide), BI.bigSep_insert (by decide), BI.bigSep_insert (by decide),
    BI.bigSep_insert (by decide), BI.bigSep_insert (by decide), BI.bigSep_insert (by decide), BI.bigSep_singleton]
  rfl

omit [FloatOps F] in
/-- The input whole, as the tile addresses it, is the input by its location. -/
theorem pts_x (d : Dev nD) (L : grid0.Coords) (q : PosShare TreeShare) (f : Buf (Elt F) (xLoc d)) :
    ((xW).view.loc (thr d L) ↦{q} f : sProp 𝕄) = (xLoc d ↦{q} f) := by
  simp only [Memref.view_whole, View.set_whole]

omit [FloatOps F] in
/-- The list whole, as the tile addresses it, is the list by its location. -/
theorem pts_k (d : Dev nD) (L : grid0.Coords) (q : PosShare TreeShare) (f : Buf (Elt F) (kLoc d)) :
    ((kW).view.loc (thr d L) ↦{q} f : sProp 𝕄) = (kLoc d ↦{q} f) := by
  simp only [Memref.view_whole, View.set_whole]

omit [FloatOps F] in
/-- The tile's share of the input is a remainder and eight read tokens, each as the tile addresses the array. -/
theorem x_split8 (d : Dev nD) (L : grid0.Coords) (q : PosShare TreeShare) (f : Buf (Elt F) (xLoc d)) :
    (xLoc d ↦{q} f : sProp 𝕄) ⊣⊢ iprop(((xW).view.loc (thr d L) ↦{Transfers.shareDrop q 8} f)
      ∗ ((xW).view.loc (thr d L) ↦{Transfers.shareTok q 8 (0 : Fin 8)} f)
      ∗ ((xW).view.loc (thr d L) ↦{Transfers.shareTok q 8 (1 : Fin 8)} f)
      ∗ ((xW).view.loc (thr d L) ↦{Transfers.shareTok q 8 (2 : Fin 8)} f)
      ∗ ((xW).view.loc (thr d L) ↦{Transfers.shareTok q 8 (3 : Fin 8)} f)
      ∗ ((xW).view.loc (thr d L) ↦{Transfers.shareTok q 8 (4 : Fin 8)} f)
      ∗ ((xW).view.loc (thr d L) ↦{Transfers.shareTok q 8 (5 : Fin 8)} f)
      ∗ ((xW).view.loc (thr d L) ↦{Transfers.shareTok q 8 (6 : Fin 8)} f)
      ∗ ((xW).view.loc (thr d L) ↦{Transfers.shareTok q 8 (7 : Fin 8)} f)) := by
  have h : (xLoc d ↦{q} f : sProp 𝕄) ⊣⊢ iprop((xLoc d ↦{Transfers.shareDrop q 8} f)
      ∗ BI.bigSep (Finset.range 8) (fun i => xLoc d ↦{Transfers.shareTokN q i} f)) := Transfers.pointsTo_toks_range q 8
  rw [bigSep_range8] at h
  rw [pts_x d L, pts_x d L, pts_x d L, pts_x d L, pts_x d L, pts_x d L, pts_x d L, pts_x d L, pts_x d L]
  exact h

end Cert.Proof.KB

end
-- ==== Proof.BodyB.lean ====
/-
  One tile's run of the kernel: the list is copied into the tile, the first seven copies-in are started, the first
  round of eight steps is made, the loop makes thirty more rounds at the ring's invariant, the last round drains the
  ring; at the end every one of the tile's 256 chunks of the result holds the input's chunk with the listed columns
  zeroed, and the read shares, the buffers and the semaphores are as they were handed over.
-/
import proofs.«218967_g49014166782275_cont_8to1_c_257_31_alg».proof.Proof.TripB
import proofs.«218967_g49014166782275_cont_8to1_c_257_31_alg».proof.Proof.TileResB
import proofs.«218967_g49014166782275_cont_8to1_c_257_31_alg».proof.Proof.TokB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

local notation "sK" => (Memref.whole Cert.Kernel.cc0_scratch0 : Memref Cert.Kernel.sig Kind.scVector Space.vmem Cert.Kernel.S64 EltTy.i32)
local notation "sB1" => (Memref.whole Cert.Kernel.cc0_scratch1 : Memref Cert.Kernel.sig Kind.scVector Space.vmem Cert.Kernel.S2x4096 EltTy.f32)
local notation "sB2" => (Memref.whole Cert.Kernel.cc0_scratch2 : Memref Cert.Kernel.sig Kind.scVector Space.vmem Cert.Kernel.S2x4096 EltTy.f32)
local notation "sB3" => (Memref.whole Cert.Kernel.cc0_scratch3 : Memref Cert.Kernel.sig Kind.scVector Space.vmem Cert.Kernel.S2x4096 EltTy.f32)
local notation "sB4" => (Memref.whole Cert.Kernel.cc0_scratch4 : Memref Cert.Kernel.sig Kind.scVector Space.vmem Cert.Kernel.S2x4096 EltTy.f32)
local notation "sB5" => (Memref.whole Cert.Kernel.cc0_scratch5 : Memref Cert.Kernel.sig Kind.scVector Space.vmem Cert.Kernel.S2x4096 EltTy.f32)
local notation "sB6" => (Memref.whole Cert.Kernel.cc0_scratch6 : Memref Cert.Kernel.sig Kind.scVector Space.vmem Cert.Kernel.S2x4096 EltTy.f32)
local notation "sB7" => (Memref.whole Cert.Kernel.cc0_scratch7 : Memref Cert.Kernel.sig Kind.scVector Space.vmem Cert.Kernel.S2x4096 EltTy.f32)
local notation "sB8" => (Memref.whole Cert.Kernel.cc0_scratch8 : Memref Cert.Kernel.sig Kind.scVector Space.vmem Cert.Kernel.S2x4096 EltTy.f32)

/-- The tile's copy of the list, right after it was copied in: a write of the list over the scratch's old contents;
    its entries are the list's. -/
theorem copy_lt (fK kv : S64.Idx → BitVec 32) (hkv : ∀ j, BitVec.toNat (kv j) < 4096) :
    ∀ j, BitVec.toNat (View.write (Elt F) (sK).view fK kv Finset.univ j) < 4096 := by
  intro j
  simp only [Memref.view_whole, View.write_whole_univ]
  exact hkv j

theorem copy_eq (fK kv : S64.Idx → BitVec 32) : ∀ j, View.write (Elt F) (sK).view fK kv Finset.univ j = kv j := by
  intro j
  simp only [Memref.view_whole, View.write_whole_univ]

local macro "zs" H:ident b:num dd:ident LL:ident hk:ident : tactic => `(tactic| (
  iapply (wp_zscat $b rfl $dd (cV $LL) (jV $LL)) $$ $H:ident; iintro $H:ident
  sl_exec (disch := exact rdK_inRange (F := F) _ $hk _ (by decide) _ _)))

omit [FloatOps F] in
/-- A tile's own buffer by its location is the buffer as the tile addresses it whole. -/
theorem pts_b (r : Ref sig .scVector) (d : Dev nD) (L : grid0.Coords) (qq : PosShare TreeShare) (f : Buf (Elt F) ((thr d L).loc r)) :
    ((thr d L).loc r ↦{qq} f : sProp 𝕄) = ((Memref.whole r).view.loc (thr d L) ↦{qq} f) := rfl

omit [FloatOps F] in
/-- The loop makes thirty trips. -/
theorem trips_eq : Scf.trips k0_t1_loop.lb k0_t1_loop.ub k0_t1_loop.st = 30 := by decide

set_option maxHeartbeats 16000000 in
theorem tile_body (hF : (K (F := F)).Facts) (d : Dev nD) (L : grid0.Coords) (hk : MaskOK (m (kLoc d)))
    (O : CellTallies nD τ sig (HIx 1)) (W : Waits sig (HIx 1)) (hO : ∀ g, O g none = 0) :
    (iprop(levAts (K (F := F)).L (K (F := F)).lev ∗ emp ∗ tilePay m d (L 0).val (L 1).val (m (oLoc d))
        ∗ scopedBufs (thr d L) ∗ scopedSems0 (thr d L) ∗ owes (thr d L) O W) : sProp 𝕄)
      ⊢ wp frame (wpE (defs₀ (F := F)) 𝒱₀ (thr d L) none) Set.univ
          (cc0__sc_body L xW (Memref.isWhole_whole _) kW (Memref.isWhole_whole _) oW (Memref.isWhole_whole _)
            sK (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _)
            cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0)
          fun _ => iprop(tilePay m d (L 0).val (L 1).val (Zbuf m d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tilePay
  iintro ⟨#Hlv, -, ⟨Hx, Hk, Hch⟩, ⟨⟨%fK, HsK⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩, ⟨Hs0, Hs1, Hs2, Hs3, Hs4, Hs5, Hs6, Hs7, Hs8, Hs9, Hs10, Hs11, Hs12, Hs13, Hs14, Hs15, Hs16, Hsems⟩, HO⟩
  ihave Hmw := ((K (F := F)).mayWaits_none (thr := thr d L) hO) $$ Hlv
  -- the read share of the input, eight ways; the list; the buffers as the tile addresses them
  ihave Hx := ((x_split8 (F := F) d L _ _).1) $$ Hx
  icases Hx with ⟨Hxr, Hx0, Hx1, Hx2, Hx3, Hx4, Hx5, Hx6, Hx7⟩
  ihave Hk := (Entails.of_eq (pts_k (F := F) d L _ _).symm) $$ Hk
  ihave HsK := (Entails.of_eq (pts_b (F := F) cc0_scratch0 d L _ _)) $$ HsK
  ihave Hb1 := (Entails.of_eq (pts_b (F := F) cc0_scratch1 d L _ _)) $$ Hb1
  ihave Hb2 := (Entails.of_eq (pts_b (F := F) cc0_scratch2 d L _ _)) $$ Hb2
  ihave Hb3 := (Entails.of_eq (pts_b (F := F) cc0_scratch3 d L _ _)) $$ Hb3
  ihave Hb4 := (Entails.of_eq (pts_b (F := F) cc0_scratch4 d L _ _)) $$ Hb4
  ihave Hb5 := (Entails.of_eq (pts_b (F := F) cc0_scratch5 d L _ _)) $$ Hb5
  ihave Hb6 := (Entails.of_eq (pts_b (F := F) cc0_scratch6 d L _ _)) $$ Hb6
  ihave Hb7 := (Entails.of_eq (pts_b (F := F) cc0_scratch7 d L _ _)) $$ Hb7
  ihave Hb8 := (Entails.of_eq (pts_b (F := F) cc0_scratch8 d L _ _)) $$ Hb8
  -- the first round's eight chunks of the result, each spelt as its step slices it
  ihave Ht := (Entails.of_eq (todo_zero m d L).symm) $$ Hch
  ihave Ht := (Entails.of_eq (todo8 m d L 0 (by decide))) $$ Ht
  icases Ht with ⟨Ho0, Ho1, Ho2, Ho3, Ho4, Ho5, Ho6, Ho7, Htodo⟩
  ihave Ho0 := (Entails.of_eq ((ocN_congr d L (by omega : 0 = 0) _).trans (ocN_prog d L 0 (by decide) (e_off2_0 L) (m (oLoc d))))) $$ Ho0
  ihave Ho1 := (Entails.of_eq ((ocN_congr d L (by omega : 0 + 1 = 1) _).trans (ocN_prog d L 1 (by decide) (e_off3_2 L) (m (oLoc d))))) $$ Ho1
  ihave Ho2 := (Entails.of_eq ((ocN_congr d L (by omega : 0 + 2 = 2) _).trans (ocN_prog d L 2 (by decide) (e_off4_4 L) (m (oLoc d))))) $$ Ho2
  ihave Ho3 := (Entails.of_eq ((ocN_congr d L (by omega : 0 + 3 = 3) _).trans (ocN_prog d L 3 (by decide) (e_off5_6 L) (m (oLoc d))))) $$ Ho3
  ihave Ho4 := (Entails.of_eq ((ocN_congr d L (by omega : 0 + 4 = 4) _).trans (ocN_prog d L 4 (by decide) (e_off6_8 L) (m (oLoc d))))) $$ Ho4
  ihave Ho5 := (Entails.of_eq ((ocN_congr d L (by omega : 0 + 5 = 5) _).trans (ocN_prog d L 5 (by decide) (e_off7_10 L) (m (oLoc d))))) $$ Ho5
  ihave Ho6 := (Entails.of_eq ((ocN_congr d L (by omega : 0 + 6 = 6) _).trans (ocN_prog d L 6 (by decide) (e_off8_12 L) (m (oLoc d))))) $$ Ho6
  ihave Ho7 := (Entails.of_eq ((ocN_congr d L (by omega : 0 + 7 = 7) _).trans (ocN_prog d L 7 (by decide) (e_off9_14 L) (m (oLoc d))))) $$ Ho7
  sl_exec (disch := exact rdK_inRange (F := F) _ (copy_lt _ _ (fun j => hk j)) _ (by decide) _ _)
  have hKC := copy_lt (F := F) fK (tile_body.sl.dma0 m d) (fun j => hk j)
  have hKC2 : ∀ j, View.write (Elt F) (sK).view fK (tile_body.sl.dma0 m d) Finset.univ j = m (kLoc d) j := copy_eq (F := F) fK (tile_body.sl.dma0 m d)
  zs Hb1 1 d L hKC
  zs Hb1 1 d L hKC
  zs Hb1 1 d L hKC
  zs Hb1 1 d L hKC
  zs Hb1 1 d L hKC
  zs Hb1 1 d L hKC
  zs Hb1 1 d L hKC
  zs Hb1 1 d L hKC
  zs Hb2 2 d L hKC
  zs Hb2 2 d L hKC
  zs Hb2 2 d L hKC
  zs Hb2 2 d L hKC
  zs Hb2 2 d L hKC
  zs Hb2 2 d L hKC
  zs Hb2 2 d L hKC
  zs Hb2 2 d L hKC
  zs Hb3 3 d L hKC
  zs Hb3 3 d L hKC
  zs Hb3 3 d L hKC
  zs Hb3 3 d L hKC
  zs Hb3 3 d L hKC
  zs Hb3 3 d L hKC
  zs Hb3 3 d L hKC
  zs Hb3 3 d L hKC
  zs Hb4 4 d L hKC
  zs Hb4 4 d L hKC
  zs Hb4 4 d L hKC
  zs Hb4 4 d L hKC
  zs Hb4 4 d L hKC
  zs Hb4 4 d L hKC
  zs Hb4 4 d L hKC
  zs Hb4 4 d L hKC
  zs Hb5 5 d L hKC
  zs Hb5 5 d L hKC
  zs Hb5 5 d L hKC
  zs Hb5 5 d L hKC
  zs Hb5 5 d L hKC
  zs Hb5 5 d L hKC
  zs Hb5 5 d L hKC
  zs Hb5 5 d L hKC
  zs Hb6 6 d L hKC
  zs Hb6 6 d L hKC
  zs Hb6 6 d L hKC
  zs Hb6 6 d L hKC
  zs Hb6 6 d L hKC
  zs Hb6 6 d L hKC
  zs Hb6 6 d L hKC
  zs Hb6 6 d L hKC
  zs Hb7 7 d L hKC
  zs Hb7 7 d L hKC
  zs Hb7 7 d L hKC
  zs Hb7 7 d L hKC
  zs Hb7 7 d L hKC
  zs Hb7 7 d L hKC
  zs Hb7 7 d L hKC
  zs Hb7 7 d L hKC
  zs Hb8 8 d L hKC
  zs Hb8 8 d L hKC
  zs Hb8 8 d L hKC
  zs Hb8 8 d L hKC
  zs Hb8 8 d L hKC
  zs Hb8 8 d L hKC
  zs Hb8 8 d L hKC
  zs Hb8 8 d L hKC
  -- the loop, at the ring's invariant
  sl_for (inv m d L (tileTok (L 0).val (L 1).val) O W (View.write (Elt F) (sK).view fK (tile_body.sl.dma0 m d) Finset.univ)) $$ [Hmw HsK Hx7 Hs1 Hx0 Hs2 Hx1 Hs3 Hx2 Hs4 Hx3 Hs5 Hx4 Hs6 Hx5 Hs7 Hx6 Hs16 Hs8 Hs9 Hs10 Hs11 Hs12 Hs13 Hs14 Hs15 Htodo Ho0 Ho1 Ho2 Ho3 Ho4 Ho5 Ho6 HO]
  case region =>
    intro k _
    exact trip m d L _ O W _ hKC hKC2 k _ _
  · unfold inv rdFl wrFl
    beta_reduce
    unfold tile_body.sl.dma0_8 tile_body.sl.dma0_10 tile_body.sl.dma0_12 tile_body.sl.dma0_14 tile_body.sl.dma0_16 tile_body.sl.dma0_18 tile_body.sl.dma0_20 tile_body.sl.dma0_22 tile_body.sl.dma0_1 tile_body.sl.dma0_2 tile_body.sl.dma0_3 tile_body.sl.dma0_4 tile_body.sl.dma0_5 tile_body.sl.dma0_6 tile_body.sl.dma0_7 tile_body.sl.dma0_9 tile_body.sl.dma0_11 tile_body.sl.dma0_13 tile_body.sl.dma0_15 tile_body.sl.dma0_17 tile_body.sl.dma0_19 tile_body.sl.dma0_21 tile_body.sl.dma0_23 tile_body.sl.v28 tile_body.sl.v33 tile_body.sl.v47 tile_body.sl.v52 tile_body.sl.v69 tile_body.sl.v74 tile_body.sl.v91 tile_body.sl.v96 tile_body.sl.v113 tile_body.sl.v118 tile_body.sl.v135 tile_body.sl.v140 tile_body.sl.v157 tile_body.sl.v162 tile_body.sl.v179 tile_body.sl.v184
    isplitl [Hmw]; · iexact Hmw
    isplitl [HsK]; · iexact HsK
    isplitl [Hx7]; · iexact Hx7
    isplitl [Hs1 Hx0]
    · rw [show gi (8 * 0 + 8) = (⟨8, by decide⟩ : Fin 256) from by decide]
      isplitl [Hs1]
      · ihave H := (Transfers.Flight_mono _ _ (Entails.of_eq (rd_norm m d L (tileTok (L 0).val (L 1).val) (0 : Fin 8) 8 (by decide) (off := k0_off3 L 16#32) (h := k0_off3_inb L 2) (e_off3_16 L) ((fun (C v : Vec F S2x4096 .f32) => ((sB1).view.loc (thr d L) ↦{fullShare} View.write (Elt F) (sB1).view C v Finset.univ : sProp 𝕄)) _)))) $$ Hs1
        simp only [Memref.view_whole, View.write_whole_univ]
        iexact H
      · ihave H := (Entails.of_eq (rest_norm m d L (tileTok (L 0).val (L 1).val) (0 : Fin 8) 8 (by decide) (off := k0_off3 L 16#32) (h := k0_off3_inb L 2) (e_off3_16 L))) $$ Hx0
        iexact H
    isplitl [Hs2 Hx1]
    · rw [show gi (8 * 0 + 9) = (⟨9, by decide⟩ : Fin 256) from by decide]
      isplitl [Hs2]
      · ihave H := (Transfers.Flight_mono _ _ (Entails.of_eq (rd_norm m d L (tileTok (L 0).val (L 1).val) (1 : Fin 8) 9 (by decide) (off := k0_off4 L 18#32) (h := k0_off4_inb L 2) (e_off4_18 L) ((fun (C v : Vec F S2x4096 .f32) => ((sB2).view.loc (thr d L) ↦{fullShare} View.write (Elt F) (sB2).view C v Finset.univ : sProp 𝕄)) _)))) $$ Hs2
        simp only [Memref.view_whole, View.write_whole_univ]
        iexact H
      · ihave H := (Entails.of_eq (rest_norm m d L (tileTok (L 0).val (L 1).val) (1 : Fin 8) 9 (by decide) (off := k0_off4 L 18#32) (h := k0_off4_inb L 2) (e_off4_18 L))) $$ Hx1
        iexact H
    isplitl [Hs3 Hx2]
    · rw [show gi (8 * 0 + 10) = (⟨10, by decide⟩ : Fin 256) from by decide]
      isplitl [Hs3]
      · ihave H := (Transfers.Flight_mono _ _ (Entails.of_eq (rd_norm m d L (tileTok (L 0).val (L 1).val) (2 : Fin 8) 10 (by decide) (off := k0_off5 L 20#32) (h := k0_off5_inb L 2) (e_off5_20 L) ((fun (C v : Vec F S2x4096 .f32) => ((sB3).view.loc (thr d L) ↦{fullShare} View.write (Elt F) (sB3).view C v Finset.univ : sProp 𝕄)) _)))) $$ Hs3
        simp only [Memref.view_whole, View.write_whole_univ]
        iexact H
      · ihave H := (Entails.of_eq (rest_norm m d L (tileTok (L 0).val (L 1).val) (2 : Fin 8) 10 (by decide) (off := k0_off5 L 20#32) (h := k0_off5_inb L 2) (e_off5_20 L))) $$ Hx2
        iexact H
    isplitl [Hs4 Hx3]
    · rw [show gi (8 * 0 + 11) = (⟨11, by decide⟩ : Fin 256) from by decide]
      isplitl [Hs4]
      · ihave H := (Transfers.Flight_mono _ _ (Entails.of_eq (rd_norm m d L (tileTok (L 0).val (L 1).val) (3 : Fin 8) 11 (by decide) (off := k0_off6 L 22#32) (h := k0_off6_inb L 2) (e_off6_22 L) ((fun (C v : Vec F S2x4096 .f32) => ((sB4).view.loc (thr d L) ↦{fullShare} View.write (Elt F) (sB4).view C v Finset.univ : sProp 𝕄)) _)))) $$ Hs4
        simp only [Memref.view_whole, View.write_whole_univ]
        iexact H
      · ihave H := (Entails.of_eq (rest_norm m d L (tileTok (L 0).val (L 1).val) (3 : Fin 8) 11 (by decide) (off := k0_off6 L 22#32) (h := k0_off6_inb L 2) (e_off6_22 L))) $$ Hx3
        iexact H
    isplitl [Hs5 Hx4]
    · rw [show gi (8 * 0 + 12) = (⟨12, by decide⟩ : Fin 256) from by decide]
      isplitl [Hs5]
      · ihave H := (Transfers.Flight_mono _ _ (Entails.of_eq (rd_norm m d L (tileTok (L 0).val (L 1).val) (4 : Fin 8) 12 (by decide) (off := k0_off7 L 24#32) (h := k0_off7_inb L 2) (e_off7_24 L) ((fun (C v : Vec F S2x4096 .f32) => ((sB5).view.loc (thr d L) ↦{fullShare} View.write (Elt F) (sB5).view C v Finset.univ : sProp 𝕄)) _)))) $$ Hs5
        simp only [Memref.view_whole, View.write_whole_univ]
        iexact H
      · ihave H := (Entails.of_eq (rest_norm m d L (tileTok (L 0).val (L 1).val) (4 : Fin 8) 12 (by decide) (off := k0_off7 L 24#32) (h := k0_off7_inb L 2) (e_off7_24 L))) $$ Hx4
        iexact H
    isplitl [Hs6 Hx5]
    · rw [show gi (8 * 0 + 13) = (⟨13, by decide⟩ : Fin 256) from by decide]
      isplitl [Hs6]
      · ihave H := (Transfers.Flight_mono _ _ (Entails.of_eq (rd_norm m d L (tileTok (L 0).val (L 1).val) (5 : Fin 8) 13 (by decide) (off := k0_off8 L 26#32) (h := k0_off8_inb L 2) (e_off8_26 L) ((fun (C v : Vec F S2x4096 .f32) => ((sB6).view.loc (thr d L) ↦{fullShare} View.write (Elt F) (sB6).view C v Finset.univ : sProp 𝕄)) _)))) $$ Hs6
        simp only [Memref.view_whole, View.write_whole_univ]
        iexact H
      · ihave H := (Entails.of_eq (rest_norm m d L (tileTok (L 0).val (L 1).val) (5 : Fin 8) 13 (by decide) (off := k0_off8 L 26#32) (h := k0_off8_inb L 2) (e_off8_26 L))) $$ Hx5
        iexact H
    isplitl [Hs7 Hx6]
    · rw [show gi (8 * 0 + 14) = (⟨14, by decide⟩ : Fin 256) from by decide]
      isplitl [Hs7]
      · ihave H := (Transfers.Flight_mono _ _ (Entails.of_eq (rd_norm m d L (tileTok (L 0).val (L 1).val) (6 : Fin 8) 14 (by decide) (off := k0_off9 L 28#32) (h := k0_off9_inb L 2) (e_off9_28 L) ((fun (C v : Vec F S2x4096 .f32) => ((sB7).view.loc (thr d L) ↦{fullShare} View.write (Elt F) (sB7).view C v Finset.univ : sProp 𝕄)) _)))) $$ Hs7
        simp only [Memref.view_whole, View.write_whole_univ]
        iexact H
      · ihave H := (Entails.of_eq (rest_norm m d L (tileTok (L 0).val (L 1).val) (6 : Fin 8) 14 (by decide) (off := k0_off9 L 28#32) (h := k0_off9_inb L 2) (e_off9_28 L))) $$ Hx6
        iexact H
    isplitl [Hs16]
    · iexists _
      iapply (Transfers.Flight_mono _ _ ?_) $$ Hs16
      iintro ⟨Hc, Hb⟩
      isplitl [Hc]
      · ihave Hc := (Entails.of_eq ((chunk_done m d L 7 (by decide) (off := k0_off9 L 14#32) (h := k0_off9_inb L 0) (e_off9_14 L) _ _ hKC2 _ (wrX8 m d L _ 7 (by decide) (off := k0_off2 L 14#32) (h := k0_off2_inb L 1) (e_off2_14 L)) _ _ _ _ _ _ _ _ (fun C => ReadAs.same.apply (View.read (Elt F) (sB8).view C)) (fun _ => rfl)).trans (ocN_congr d L (by omega : 7 = 8 * 0 + 7) _))) $$ Hc
        iexact Hc
      · ihave Hb := (Entails.of_eq (pts_set_univ (F := F) cc0_scratch8 d (cV L) (jV L) fullShare _)) $$ Hb
        iexact Hb
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Htodo]; · iexact Htodo
    isplitl [Ho0 Ho1 Ho2 Ho3 Ho4 Ho5 Ho6]
    · rw [show (8 * 0 + 7 : ℕ) = 0 + 7 from rfl, done7 m d L]
      isplitl [Ho0]
      · ihave H := (Entails.of_eq (chunk_done m d L 0 (by decide) (off := k0_off2 L 0#32) (h := k0_off2_inb L 0) (e_off2_0 L) _ _ hKC2 _ (wrX1 m d L _ 0 (by decide) (off := k0_off1 L 0#32) (h := k0_off1_inb L 0) (e_off1_0 L)) _ _ _ _ _ _ _ _ (fun C => ReadAs.same.apply (View.read (Elt F) (sB1).view C)) (fun _ => rfl))) $$ Ho0
        iexact H
      isplitl [Ho1]
      · ihave H := (Entails.of_eq (chunk_done m d L 1 (by decide) (off := k0_off3 L 2#32) (h := k0_off3_inb L 0) (e_off3_2 L) _ _ hKC2 _ (wrX2 m d L _ 1 (by decide) (off := k0_off1 L 2#32) (h := k0_off1_inb L 1) (e_off1_2 L)) _ _ _ _ _ _ _ _ (fun C => ReadAs.same.apply (View.read (Elt F) (sB2).view C)) (fun _ => rfl))) $$ Ho1
        iexact H
      isplitl [Ho2]
      · ihave H := (Entails.of_eq (chunk_done m d L 2 (by decide) (off := k0_off4 L 4#32) (h := k0_off4_inb L 0) (e_off4_4 L) _ _ hKC2 _ (wrX3 m d L _ 2 (by decide) (off := k0_off1 L 4#32) (h := k0_off1_inb L 2) (e_off1_4 L)) _ _ _ _ _ _ _ _ (fun C => ReadAs.same.apply (View.read (Elt F) (sB3).view C)) (fun _ => rfl))) $$ Ho2
        iexact H
      isplitl [Ho3]
      · ihave H := (Entails.of_eq (chunk_done m d L 3 (by decide) (off := k0_off5 L 6#32) (h := k0_off5_inb L 0) (e_off5_6 L) _ _ hKC2 _ (wrX4 m d L _ 3 (by decide) (off := k0_off1 L 6#32) (h := k0_off1_inb L 3) (e_off1_6 L)) _ _ _ _ _ _ _ _ (fun C => ReadAs.same.apply (View.read (Elt F) (sB4).view C)) (fun _ => rfl))) $$ Ho3
        iexact H
      isplitl [Ho4]
      · ihave H := (Entails.of_eq (chunk_done m d L 4 (by decide) (off := k0_off6 L 8#32) (h := k0_off6_inb L 0) (e_off6_8 L) _ _ hKC2 _ (wrX5 m d L _ 4 (by decide) (off := k0_off1 L 8#32) (h := k0_off1_inb L 4) (e_off1_8 L)) _ _ _ _ _ _ _ _ (fun C => ReadAs.same.apply (View.read (Elt F) (sB5).view C)) (fun _ => rfl))) $$ Ho4
        iexact H
      isplitl [Ho5]
      · ihave H := (Entails.of_eq (chunk_done m d L 5 (by decide) (off := k0_off7 L 10#32) (h := k0_off7_inb L 0) (e_off7_10 L) _ _ hKC2 _ (wrX6 m d L _ 5 (by decide) (off := k0_off1 L 10#32) (h := k0_off1_inb L 5) (e_off1_10 L)) _ _ _ _ _ _ _ _ (fun C => ReadAs.same.apply (View.read (Elt F) (sB6).view C)) (fun _ => rfl))) $$ Ho5
        iexact H
      · ihave H := (Entails.of_eq (chunk_done m d L 6 (by decide) (off := k0_off8 L 12#32) (h := k0_off8_inb L 0) (e_off8_12 L) _ _ hKC2 _ (wrX7 m d L _ 6 (by decide) (off := k0_off1 L 12#32) (h := k0_off1_inb L 6) (e_off1_12 L)) _ _ _ _ _ _ _ _ (fun C => ReadAs.same.apply (View.read (Elt F) (sB7).view C)) (fun _ => rfl))) $$ Ho6
        iexact H
    iexists _; isplitr; swap
    · iexact HO
    · ipureintro; intro p hp
      iterate 40 (first | (rcases Finset.mem_insert.mp hp with rfl | hp; · exact .inr rfl) | skip)
      exact .inl hp
  -- after the loop: the ring's state at chunk 248
  iintro %_ HI
  unfold inv rdFl wrFl
  beta_reduce
  icases HI with ⟨#Hmw', HsK, Hx7, ⟨Hf0, Hx0⟩, ⟨Hf1, Hx1⟩, ⟨Hf2, Hx2⟩, ⟨Hf3, Hx3⟩, ⟨Hf4, Hx4⟩, ⟨Hf5, Hx5⟩, ⟨Hf6, Hx6⟩, ⟨%f8', Hfw⟩, Hr7, Hw0, Hw1, Hw2, Hw3, Hw4, Hw5, Hw6, Htodo, Hdone, %W', %hW', HO⟩
  rw [trips_eq]
  ihave Ht := (Entails.of_eq (todo8 m d L (8 * 30 + 8) (by decide))) $$ Htodo
  icases Ht with ⟨Ho0, Ho1, Ho2, Ho3, Ho4, Ho5, Ho6, Ho7, Htodo⟩
  ihave Ho0 := (Entails.of_eq ((ocN_congr d L (by omega : 8 * 30 + 8 = 248) _).trans (ocN_prog d L 248 (by decide) (e_off35_496 L) (m (oLoc d))))) $$ Ho0
  ihave Ho1 := (Entails.of_eq ((ocN_congr d L (by omega : 8 * 30 + 8 + 1 = 249) _).trans (ocN_prog d L 249 (by decide) (e_off36_498 L) (m (oLoc d))))) $$ Ho1
  ihave Ho2 := (Entails.of_eq ((ocN_congr d L (by omega : 8 * 30 + 8 + 2 = 250) _).trans (ocN_prog d L 250 (by decide) (e_off37_500 L) (m (oLoc d))))) $$ Ho2
  ihave Ho3 := (Entails.of_eq ((ocN_congr d L (by omega : 8 * 30 + 8 + 3 = 251) _).trans (ocN_prog d L 251 (by decide) (e_off38_502 L) (m (oLoc d))))) $$ Ho3
  ihave Ho4 := (Entails.of_eq ((ocN_congr d L (by omega : 8 * 30 + 8 + 4 = 252) _).trans (ocN_prog d L 252 (by decide) (e_off39_504 L) (m (oLoc d))))) $$ Ho4
  ihave Ho5 := (Entails.of_eq ((ocN_congr d L (by omega : 8 * 30 + 8 + 5 = 253) _).trans (ocN_prog d L 253 (by decide) (e_off40_506 L) (m (oLoc d))))) $$ Ho5
  ihave Ho6 := (Entails.of_eq ((ocN_congr d L (by omega : 8 * 30 + 8 + 6 = 254) _).trans (ocN_prog d L 254 (by decide) (e_off41_508 L) (m (oLoc d))))) $$ Ho6
  ihave Ho7 := (Entails.of_eq ((ocN_congr d L (by omega : 8 * 30 + 8 + 7 = 255) _).trans (ocN_prog d L 255 (by decide) (e_off42_510 L) (m (oLoc d))))) $$ Ho7
  sl_exec (disch := exact rdK_inRange (F := F) _ hKC _ (by decide) _ _)
  zs Hf0_dst 1 d L hKC
  zs Hf0_dst 1 d L hKC
  zs Hf0_dst 1 d L hKC
  zs Hf0_dst 1 d L hKC
  zs Hf0_dst 1 d L hKC
  zs Hf0_dst 1 d L hKC
  zs Hf0_dst 1 d L hKC
  zs Hf0_dst 1 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf1_dst 2 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf2_dst 3 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf3_dst 4 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf4_dst 5 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf5_dst 6 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hf6_dst 7 d L hKC
  zs Hfw_src 8 d L hKC
  zs Hfw_src 8 d L hKC
  zs Hfw_src 8 d L hKC
  zs Hfw_src 8 d L hKC
  zs Hfw_src 8 d L hKC
  zs Hfw_src 8 d L hKC
  zs Hfw_src 8 d L hKC
  zs Hfw_src 8 d L hKC
  sl_step
  unfold tile_body.sl.dma0_24 tile_body.sl.dma0_26 tile_body.sl.dma0_27 tile_body.sl.dma0_28 tile_body.sl.dma0_29 tile_body.sl.dma0_30 tile_body.sl.dma0_31 tile_body.sl.dma0_32 tile_body.sl.dma0_25 tile_body.sl.r tile_body.sl.r_1 tile_body.sl.r_2 tile_body.sl.r_3 tile_body.sl.v202 tile_body.sl.v224 tile_body.sl.v229 tile_body.sl.v243 tile_body.sl.v262 tile_body.sl.v267 tile_body.sl.v281 tile_body.sl.v286 tile_body.sl.v300 tile_body.sl.v305 tile_body.sl.v319 tile_body.sl.v324 tile_body.sl.v338 tile_body.sl.v343
  unfold k0_pay2 k0_pay3
  -- hand everything back: the read shares joined, the 256 chunks finished, the buffers and semaphores as they came
  iclear Hb8
  isplitl [Hxr Hx0 Hx1 Hx2 Hx3 Hx4 Hx5 Hx6 Hx7 Hk Hdone Hfw_dst Ho0 Ho1 Ho2 Ho3 Ho4 Ho5 Ho6 Ho7]
  · isplitl [Hxr Hx0 Hx1 Hx2 Hx3 Hx4 Hx5 Hx6 Hx7]
    · iapply ((x_split8 (F := F) d L _ _).2)
      isplitl [Hxr]; · iexact Hxr
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      iexact Hx7
    isplitl [Hk]
    · iapply (Entails.of_eq (pts_k (F := F) d L _ _)); iexact Hk
    · iapply (Entails.of_eq (done_all m d L))
      rw [show (256 : ℕ) = 247 + 9 from rfl, done9 m d L 247 (by decide)]
      isplitl [Hdone]; · iexact Hdone
      isplitl [Hfw_dst]; · iexact Hfw_dst
      isplitl [Ho0]
      · ihave H := (Entails.of_eq ((chunk_done m d L 248 (by decide) (off := k0_off35 L 496#32) (h := k0_off35_inb L 0) (e_off35_496 L) _ _ hKC2 _ (congrArg (xval m d L) (by decide : gi (8 * 30 + 8) = (⟨248, by decide⟩ : Fin 256))) _ _ _ _ _ _ _ _ (fun C => ReadAs.same.apply (View.read (Elt F) (sB1).view C)) (fun _ => rfl)).trans (ocN_congr d L (by omega : 248 = 247 + 1) _))) $$ Ho0
        iexact H
      isplitl [Ho1]
      · ihave H := (Entails.of_eq ((chunk_done m d L 249 (by decide) (off := k0_off36 L 498#32) (h := k0_off36_inb L 1) (e_off36_498 L) _ _ hKC2 _ (congrArg (xval m d L) (by decide : gi (8 * 30 + 9) = (⟨249, by decide⟩ : Fin 256))) _ _ _ _ _ _ _ _ (fun C => ReadAs.same.apply (View.read (Elt F) (sB2).view C)) (fun _ => rfl)).trans (ocN_congr d L (by omega : 249 = 247 + 2) _))) $$ Ho1
        iexact H
      isplitl [Ho2]
      · ihave H := (Entails.of_eq ((chunk_done m d L 250 (by decide) (off := k0_off37 L 500#32) (h := k0_off37_inb L 1) (e_off37_500 L) _ _ hKC2 _ (congrArg (xval m d L) (by decide : gi (8 * 30 + 10) = (⟨250, by decide⟩ : Fin 256))) _ _ _ _ _ _ _ _ (fun C => ReadAs.same.apply (View.read (Elt F) (sB3).view C)) (fun _ => rfl)).trans (ocN_congr d L (by omega : 250 = 247 + 3) _))) $$ Ho2
        iexact H
      isplitl [Ho3]
      · ihave H := (Entails.of_eq ((chunk_done m d L 251 (by decide) (off := k0_off38 L 502#32) (h := k0_off38_inb L 1) (e_off38_502 L) _ _ hKC2 _ (congrArg (xval m d L) (by decide : gi (8 * 30 + 11) = (⟨251, by decide⟩ : Fin 256))) _ _ _ _ _ _ _ _ (fun C => ReadAs.same.apply (View.read (Elt F) (sB4).view C)) (fun _ => rfl)).trans (ocN_congr d L (by omega : 251 = 247 + 4) _))) $$ Ho3
        iexact H
      isplitl [Ho4]
      · ihave H := (Entails.of_eq ((chunk_done m d L 252 (by decide) (off := k0_off39 L 504#32) (h := k0_off39_inb L 1) (e_off39_504 L) _ _ hKC2 _ (congrArg (xval m d L) (by decide : gi (8 * 30 + 12) = (⟨252, by decide⟩ : Fin 256))) _ _ _ _ _ _ _ _ (fun C => ReadAs.same.apply (View.read (Elt F) (sB5).view C)) (fun _ => rfl)).trans (ocN_congr d L (by omega : 252 = 247 + 5) _))) $$ Ho4
        iexact H
      isplitl [Ho5]
      · ihave H := (Entails.of_eq ((chunk_done m d L 253 (by decide) (off := k0_off40 L 506#32) (h := k0_off40_inb L 1) (e_off40_506 L) _ _ hKC2 _ (congrArg (xval m d L) (by decide : gi (8 * 30 + 13) = (⟨253, by decide⟩ : Fin 256))) _ _ _ _ _ _ _ _ (fun C => ReadAs.same.apply (View.read (Elt F) (sB6).view C)) (fun _ => rfl)).trans (ocN_congr d L (by omega : 253 = 247 + 6) _))) $$ Ho5
        iexact H
      isplitl [Ho6]
      · ihave H := (Entails.of_eq ((chunk_done m d L 254 (by decide) (off := k0_off41 L 508#32) (h := k0_off41_inb L 1) (e_off41_508 L) _ _ hKC2 _ (congrArg (xval m d L) (by decide : gi (8 * 30 + 14) = (⟨254, by decide⟩ : Fin 256))) _ _ _ _ _ _ _ _ (fun C => ReadAs.same.apply (View.read (Elt F) (sB7).view C)) (fun _ => rfl)).trans (ocN_congr d L (by omega : 254 = 247 + 7) _))) $$ Ho6
        iexact H
      · ihave H := (Entails.of_eq ((chunk_done m d L 255 (by decide) (off := k0_off42 L 510#32) (h := k0_off42_inb L 1) (e_off42_510 L) _ _ hKC2 _ (wrX8 m d L _ 255 (by decide) (off := k0_off35 L 510#32) (h := k0_off35_inb L 2) (e_off35_510 L)) _ _ _ _ _ _ _ _ (fun C => ReadAs.same.apply (View.read (Elt F) (sB8).view C)) (fun _ => rfl)).trans (ocN_congr d L (by omega : 255 = 247 + 8) _))) $$ Ho7
        iexact H
  isplitl [HsK Hf0_dst Hf1_dst Hf2_dst Hf3_dst Hf4_dst Hf5_dst Hf6_dst Hfw_src Hbufs]
  · isplitl [HsK]
    · iexists _; iapply (Entails.of_eq (pts_b (F := F) cc0_scratch0 d L _ _).symm); iexact HsK
    isplitl [Hf0_dst]
    · iexists _; iapply (Entails.of_eq (pts_b (F := F) cc0_scratch1 d L _ _).symm); iexact Hf0_dst
    isplitl [Hf1_dst]
    · iexists _; iapply (Entails.of_eq (pts_b (F := F) cc0_scratch2 d L _ _).symm); iexact Hf1_dst
    isplitl [Hf2_dst]
    · iexists _; iapply (Entails.of_eq (pts_b (F := F) cc0_scratch3 d L _ _).symm); iexact Hf2_dst
    isplitl [Hf3_dst]
    · iexists _; iapply (Entails.of_eq (pts_b (F := F) cc0_scratch4 d L _ _).symm); iexact Hf3_dst
    isplitl [Hf4_dst]
    · iexists _; iapply (Entails.of_eq (pts_b (F := F) cc0_scratch5 d L _ _).symm); iexact Hf4_dst
    isplitl [Hf5_dst]
    · iexists _; iapply (Entails.of_eq (pts_b (F := F) cc0_scratch6 d L _ _).symm); iexact Hf5_dst
    isplitl [Hf6_dst]
    · iexists _; iapply (Entails.of_eq (pts_b (F := F) cc0_scratch7 d L _ _).symm); iexact Hf6_dst
    isplitl [Hfw_src]
    · iexists _; iapply (Entails.of_eq (pts_b (F := F) cc0_scratch8 d L _ _).symm); iexact Hfw_src
    iexact Hbufs
  isplitl [Hs0 Hf0 Hf1 Hf2 Hf3 Hf4 Hf5 Hf6 Hr7 Hw0 Hw1 Hw2 Hw3 Hw4 Hw5 Hw6 Hfw Hsems]
  · isplitl [Hs0]; · iexact Hs0
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hr7]; · iexact Hr7
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hfw]; · iexact Hfw
    iexact Hsems
  iexists _; isplitr; swap
  · iexact HO
  · ipureintro; intro p hp
    iterate 40 (first | (rcases Finset.mem_insert.mp hp with rfl | hp; · exact .inr rfl) | skip)
    exact hW' p hp

end Cert.Proof.KB

end
-- ==== Proof.ObligB.lean ====
/-
  The tiles' obligation to the launch: the body table's row for a vector subcore is the kernel at that subcore's
  coordinates, and the tile's go and taskDone payloads are its operands before and after.
-/
import proofs.«218967_g49014166782275_cont_8to1_c_257_31_alg».proof.Proof.BodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Cert.Proof.Spec (MaskOK zeroCols zeroF)

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S16384x4096 EltTy.f32)
local notation "kW" => (Memref.whole Cert.Kernel.main_arg1_scv : Memref Cert.Kernel.sig Kind.scVector Space.hbm Cert.Kernel.S64 EltTy.i32)
local notation "oW" => (Memref.whole Cert.Kernel.main_v0_scv : Memref Cert.Kernel.sig Kind.scVector Space.hbm Cert.Kernel.S16384x4096 EltTy.f32)

variable [FloatOps F]

local notation "sK" => (Memref.whole Cert.Kernel.cc0_scratch0 : Memref Cert.Kernel.sig Kind.scVector Space.vmem Cert.Kernel.S64 EltTy.i32)
local notation "sB1" => (Memref.whole Cert.Kernel.cc0_scratch1 : Memref Cert.Kernel.sig Kind.scVector Space.vmem Cert.Kernel.S2x4096 EltTy.f32)
local notation "sB2" => (Memref.whole Cert.Kernel.cc0_scratch2 : Memref Cert.Kernel.sig Kind.scVector Space.vmem Cert.Kernel.S2x4096 EltTy.f32)
local notation "sB3" => (Memref.whole Cert.Kernel.cc0_scratch3 : Memref Cert.Kernel.sig Kind.scVector Space.vmem Cert.Kernel.S2x4096 EltTy.f32)
local notation "sB4" => (Memref.whole Cert.Kernel.cc0_scratch4 : Memref Cert.Kernel.sig Kind.scVector Space.vmem Cert.Kernel.S2x4096 EltTy.f32)
local notation "sB5" => (Memref.whole Cert.Kernel.cc0_scratch5 : Memref Cert.Kernel.sig Kind.scVector Space.vmem Cert.Kernel.S2x4096 EltTy.f32)
local notation "sB6" => (Memref.whole Cert.Kernel.cc0_scratch6 : Memref Cert.Kernel.sig Kind.scVector Space.vmem Cert.Kernel.S2x4096 EltTy.f32)
local notation "sB7" => (Memref.whole Cert.Kernel.cc0_scratch7 : Memref Cert.Kernel.sig Kind.scVector Space.vmem Cert.Kernel.S2x4096 EltTy.f32)
local notation "sB8" => (Memref.whole Cert.Kernel.cc0_scratch8 : Memref Cert.Kernel.sig Kind.scVector Space.vmem Cert.Kernel.S2x4096 EltTy.f32)

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row for a vector subcore: the kernel at the subcore's grid point, over the whole arrays and
    the tile's own scratch buffers and semaphores, when the grid holds that subcore. -/
theorem defs₀_vector (c : Fin τ.nSC) (s : Fin τ.nSub) :
    defs₀ (F := F) (.scVector c s) 0 ()
      = SparseCore.onTile hcore0 hsub0 (fun c s => cc0__sc_body (coordsV c s) xW (Memref.isWhole_whole _) kW (Memref.isWhole_whole _) oW (Memref.isWhole_whole _)
          sK (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _)
          cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0) ⟨⟩ c s := rfl

omit [FloatOps F] in
/-- The body leaves only waits it was handed or waits of no call; the launch allows, beside those, waits of call `q`. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro
    intro p hp
    rcases hW' p hp with h | h
    · exact Or.inl h
    · exact Or.inr (Or.inl h)
  · iexact HO

/-- What the launch theorem asks of every tile, from the list's entries being column numbers. -/
theorem tileObl (hk : ∀ d : Dev nD, MaskOK (m (kLoc d))) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  -- the tile's payloads, spelt out: its operands before and after
  unfold P; dsimp only
  exact (tile_body m facts d (coordsV ⟨_, hc.1⟩ ⟨_, hc.2⟩) (hk d) O W hO).trans (wp_mono frame _ _ fun _ => obl_post)

end Cert.Proof.KB

end
-- ==== Proof.lean ====
/-
  The claim of this certificate, assembled. Both programs compute one function of an array `x` of 16384 × 4096
  floats and a list `k` of 64 column numbers: `x` with every column that `k` names set to zero (`zeroCols`). The
  precondition says, among other things, that every entry of `k` is at least 0 and below 4096 as a signed word,
  hence the number of a column (`MaskOK`).

  The kernel: each of the 32 tiles copies its 256 two-row chunks of `x` through its own buffers, zeroes the listed
  columns there and copies the chunk to the result; from every tile's run of its body (`tileObl`) the launch
  theorem gives the run of all the device's threads, ending with the result at `zeroCols x k` and the two arguments
  unchanged (`run_main`). The frames are that run with the result dropped. The reference scatters zeros into the
  listed columns, and where every column number is in range its result is `zeroCols x k` too (`ref_run`); on
  memories that agree on the arguments the two results are therefore equal. The idealization rewrote no operation,
  so there is nothing to preserve.
-/
import proofs.«218967_g49014166782275_cont_8to1_c_257_31_alg».proof.Defs
import proofs.«218967_g49014166782275_cont_8to1_c_257_31_alg».proof.Proof.Gen.Kernel
import proofs.«218967_g49014166782275_cont_8to1_c_257_31_alg».proof.Proof.Gen.Kernel.Skeleton
import proofs.«218967_g49014166782275_cont_8to1_c_257_31_alg».proof.Proof.Gen.KernelIdeal
import proofs.«218967_g49014166782275_cont_8to1_c_257_31_alg».proof.Proof.Gen.KernelIdeal.Skeleton
import proofs.«218967_g49014166782275_cont_8to1_c_257_31_alg».proof.Proof.Gen.ReferenceIdeal
import proofs.«218967_g49014166782275_cont_8to1_c_257_31_alg».proof.Proof.Gen.Pre_finite_inputs
import proofs.«218967_g49014166782275_cont_8to1_c_257_31_alg».proof.Proof.PreDecode
import proofs.«218967_g49014166782275_cont_8to1_c_257_31_alg».proof.Proof.RefValue
import proofs.«218967_g49014166782275_cont_8to1_c_257_31_alg».proof.Proof.LaunchI
import proofs.«218967_g49014166782275_cont_8to1_c_257_31_alg».proof.Proof.ObligI
import proofs.«218967_g49014166782275_cont_8to1_c_257_31_alg».proof.Proof.LaunchB
import proofs.«218967_g49014166782275_cont_8to1_c_257_31_alg».proof.Proof.ObligB
import Idealize.ShloMosaic.Adequacy
import Idealize.ShloMosaic.Init

noncomputable section

namespace Cert.Proof

open Idealize.ShloMosaic Idealize.SL.Sem
open Cert.Proof.Spec (MaskOK zeroCols)

/-! ## The precondition, read of each program's list -/

/-- Under the idealized kernel's precondition every entry of its list is a column number, on every device. -/
theorem ok_of_pre_I (m : (ℓ : Loc Cert.KernelIdeal.nD Cert.KernelIdeal.τ Cert.KernelIdeal.sig) → Buf (Elt Ideal) ℓ)
    (h : Cert.Pre_KernelIdeal m) : ∀ d : Dev Cert.KernelIdeal.nD, MaskOK (m (KI.kLoc d)) :=
  fun d => PreDecode.maskOK_of_pre (F := Ideal) _ _ (h d)

/-- The same under the word-level kernel's precondition. -/
theorem ok_of_pre_B (m : (ℓ : Loc Cert.Kernel.nD Cert.Kernel.τ Cert.Kernel.sig) → Buf (Elt Bits) ℓ)
    (h : Cert.Pre_Kernel m) : ∀ d : Dev Cert.Kernel.nD,
      MaskOK (m ((d.tc : Thread Cert.Kernel.nD Cert.Kernel.τ).loc Cert.Kernel.main_arg1)) :=
  fun d => PreDecode.maskOK_of_pre (F := Bits) _ _ (h d)

/-- The same under the reference's precondition. -/
theorem ok_of_pre_R (m : (ℓ : Loc Cert.ReferenceIdeal.nD Cert.ReferenceIdeal.τ Cert.ReferenceIdeal.sig) → Buf (Elt Ideal) ℓ)
    (h : Cert.Pre_ReferenceIdeal m) : ∀ d : Dev Cert.ReferenceIdeal.nD,
      MaskOK (m ((d.tc : Thread Cert.ReferenceIdeal.nD Cert.ReferenceIdeal.τ).loc Cert.ReferenceIdeal.main_arg1)) :=
  fun d => PreDecode.maskOK_of_pre (F := Ideal) _ _ (h d)

/-! ## The conjuncts -/

/-- The word-level kernel runs and leaves its arguments unchanged: its run with the result dropped. -/
theorem frame_B : Cert.frame_Kernel := by
  intro m g hpre
  exact (θ_run Cert.Kernel.defs _ _).mono (fun _ h c => (h c).2)
    (KB.run_main (F := Bits) m g (KB.tileObl m (ok_of_pre_B m hpre)))

/-- The idealized kernel runs and leaves its arguments unchanged: its run with the result dropped. -/
theorem frame_I : Cert.frame_KernelIdeal := by
  intro m g hpre
  exact (θ_run Cert.KernelIdeal.defs _ _).mono (fun _ h c => (h c).2)
    (KI.run_main (F := Ideal) m g (KI.tileObl m (ok_of_pre_I m hpre)))

/-- The reference runs and leaves its arguments unchanged: its run with the result dropped. -/
theorem frame_R : Cert.frame_ReferenceIdeal := by
  intro m g hpre
  exact (θ_run Cert.ReferenceIdeal.defs _ _).mono (fun _ h c => (h c).2) (RefValue.ref_run m g (ok_of_pre_R m hpre))

/-- From memories that agree on the arguments both programs run, leave the arguments unchanged and end with one
    result: the kernel's input with the listed columns zeroed. The reference's list is the kernel's, so its entries
    are column numbers too, and its result is the same function of the same arguments. -/
theorem algebraic_IR : Cert.algebraic_KernelIdeal_ReferenceIdeal := by
  intro m g m' g' hpre hagree
  have hk := ok_of_pre_I m hpre
  have hk' : ∀ c : Dev Cert.ReferenceIdeal.nD,
      MaskOK (m' ((c.tc : Thread Cert.ReferenceIdeal.nD Cert.ReferenceIdeal.τ).loc Cert.ReferenceIdeal.main_arg1)) := by
    intro c
    rw [(hagree c).2]
    exact hk c
  refine ⟨fun c => KI.Zbuf m c,
    (θ_run Cert.KernelIdeal.defs _ _).mono (fun _ h c => h c) (KI.run_main (F := Ideal) m g (KI.tileObl m hk)), ?_⟩
  refine (θ_run Cert.ReferenceIdeal.defs _ _).mono (fun _ h c => ⟨(h c).1.trans ?_, (h c).2⟩) (RefValue.ref_run m' g' hk')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_B, frame_I, frame_R, trivial, algebraic_IR⟩

end Cert.Proof

end
